-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S25088x512 : Shape := ⟨2, ![25088, 512]⟩
abbrev S25088 : Shape := ⟨1, ![25088]⟩
abbrev S8x3136x3136 : Shape := ⟨3, ![8, 3136, 3136]⟩
abbrev S_ : Shape := ⟨0, ![]⟩

class Facts : Prop where
  bcast_S_S25088x512 : S_.BroadcastsInDim S25088x512 (![] : Fin 0 → Fin S25088x512.rank)
  reducesTo_S25088x512_S_d0_1 : S25088x512.ReducesTo [0, 1] S_
  h_S_ : 0 < S_.numel
  bcast_S_S8x3136x3136 : S_.BroadcastsInDim S8x3136x3136 (![] : Fin 0 → Fin S8x3136x3136.rank)
  reducesTo_S8x3136x3136_S_d0_1_2 : S8x3136x3136.ReducesTo [0, 1, 2] S_
  bcast_S_S25088 : S_.BroadcastsInDim S25088 (![] : Fin 0 → Fin S25088.rank)
  reducesTo_S25088_S_d0 : S25088.ReducesTo [0] S_

variable [Facts]

def fn_part1 {F : FTy → Type} [FloatOps F] (main_arg2 : IVec S25088 32) (main_v13 : IVec S_ 1) (main_v15 : IVec S25088 1) (main_c_5 : IVec S_ 1) : IVec S_ 1 :=
  let main_v16 : IVec S_ 1 := (fun x v => Host.reduce IntOp.andi x v reducesTo_S25088_S_d0 h_S_) main_v15 main_c_5
  let main_v17 : IVec S_ 1 := andi main_v13 main_v16
  let main_c_6 : IVec S_ 32 := constantI S_ 32 27#32
  let main_v18 : IVec S25088 32 := broadcastInDim S25088 ![] bcast_S_S25088 main_c_6
  let main_v19 : IVec S25088 1 := cmpi .slt main_arg2 main_v18
  let main_c_7 : IVec S_ 1 := constantI S_ 1 1#1
  let main_v20 : IVec S_ 1 := (fun x v => Host.reduce IntOp.andi x v reducesTo_S25088_S_d0 h_S_) main_v19 main_c_7
  let main_v21 : IVec S_ 1 := andi main_v17 main_v20
  main_v21

def fn {F : FTy → Type} [FloatOps F] (main_arg0 : FVec F S25088x512 .f32) (main_arg1 : FVec F S25088x512 .f32) (main_arg2 : IVec S25088 32) (main_arg3 : FVec F S8x3136x3136 .f32) : IVec S_ 1 :=
  let main_v0 : FVec F S25088x512 .f32 := Host.absf main_arg0
  let main_cst : FVec F S_ .f32 := constant S_ .f32 0x7F800000#32
  let main_v1 : FVec F S25088x512 .f32 := broadcastInDim S25088x512 ![] bcast_S_S25088x512 main_cst
  let main_v2 : IVec S25088x512 1 := cmpf .olt main_v0 main_v1
  let main_c : IVec S_ 1 := constantI S_ 1 1#1
  let main_v3 : IVec S_ 1 := (fun x v => Host.reduce IntOp.andi x v reducesTo_S25088x512_S_d0_1 h_S_) main_v2 main_c
  let main_v4 : FVec F S25088x512 .f32 := Host.absf main_arg1
  let main_cst_0 : FVec F S_ .f32 := constant S_ .f32 0x7F800000#32
  let main_v5 : FVec F S25088x512 .f32 := broadcastInDim S25088x512 ![] bcast_S_S25088x512 main_cst_0
  let main_v6 : IVec S25088x512 1 := cmpf .olt main_v4 main_v5
  let main_c_1 : IVec S_ 1 := constantI S_ 1 1#1
  let main_v7 : IVec S_ 1 := (fun x v => Host.reduce IntOp.andi x v reducesTo_S25088x512_S_d0_1 h_S_) main_v6 main_c_1
  let main_v8 : IVec S_ 1 := andi main_v3 main_v7
  let main_v9 : FVec F S8x3136x3136 .f32 := Host.absf main_arg3
  let main_cst_2 : FVec F S_ .f32 := constant S_ .f32 0x7F800000#32
  let main_v10 : FVec F S8x3136x3136 .f32 := broadcastInDim S8x3136x3136 ![] bcast_S_S8x3136x3136 main_cst_2
  let main_v11 : IVec S8x3136x3136 1 := cmpf .olt main_v9 main_v10
  let main_c_3 : IVec S_ 1 := constantI S_ 1 1#1
  let main_v12 : IVec S_ 1 := (fun x v => Host.reduce IntOp.andi x v reducesTo_S8x3136x3136_S_d0_1_2 h_S_) main_v11 main_c_3
  let main_v13 : IVec S_ 1 := andi main_v8 main_v12
  let main_c_4 : IVec S_ 32 := constantI S_ 32 0#32
  let main_v14 : IVec S25088 32 := broadcastInDim S25088 ![] bcast_S_S25088 main_c_4
  let main_v15 : IVec S25088 1 := cmpi .sge main_arg2 main_v14
  let main_c_5 : IVec S_ 1 := constantI S_ 1 1#1
  fn_part1 (F := F) main_arg2 main_v13 main_v15 main_c_5
-- ==== Kernel.lean ====
abbrev S25088x512 : Shape := ⟨2, ![25088, 512]⟩
abbrev S25088 : Shape := ⟨1, ![25088]⟩
abbrev S8x3136x3136 : Shape := ⟨3, ![8, 3136, 3136]⟩
abbrev S25088x1 : Shape := ⟨2, ![25088, 1]⟩
abbrev S25088x3136 : Shape := ⟨2, ![25088, 3136]⟩
abbrev S1792x3136 : Shape := ⟨2, ![1792, 3136]⟩
abbrev S1792x1 : Shape := ⟨2, ![1792, 1]⟩
abbrev S1792 : Shape := ⟨1, ![1792]⟩
abbrev S2x27x512 : Shape := ⟨3, ![2, 27, 512]⟩
abbrev S2x27x1 : Shape := ⟨3, ![2, 27, 1]⟩
abbrev S1568x512 : Shape := ⟨2, ![1568, 512]⟩
abbrev S1568x1 : Shape := ⟨2, ![1568, 1]⟩
abbrev S1x27x512 : Shape := ⟨3, ![1, 27, 512]⟩
abbrev S1x27x1 : Shape := ⟨3, ![1, 27, 1]⟩
abbrev S27x512 : Shape := ⟨2, ![27, 512]⟩
abbrev S27x1 : Shape := ⟨2, ![27, 1]⟩
abbrev S1568x27 : Shape := ⟨2, ![1568, 27]⟩
abbrev S27 : Shape := ⟨1, ![27]⟩
abbrev S_ : Shape := ⟨0, ![]⟩
abbrev S2x1x1 : Shape := ⟨3, ![2, 1, 1]⟩
abbrev S1792x512 : Shape := ⟨2, ![1792, 512]⟩
abbrev S1x1x1 : Shape := ⟨3, ![1, 1, 1]⟩
abbrev S1x1 : Shape := ⟨2, ![1, 1]⟩
abbrev S1792x27 : Shape := ⟨2, ![1792, 27]⟩
abbrev S1x1792x1 : Shape := ⟨3, ![1, 1792, 1]⟩
abbrev S1 : Shape := ⟨1, ![1]⟩

abbrev nBuf : Space → Nat
  | .hbm => 35
  | .vmem => 29
  | .smem => 0
  | _ => 0

abbrev bufTy : (tb : Table) → Fin (tcTables nBuf tb) → BufTy
  | .hbm, ⟨0, _⟩ => ⟨S25088x512, .f32⟩
  | .hbm, ⟨1, _⟩ => ⟨S25088x512, .f32⟩
  | .hbm, ⟨2, _⟩ => ⟨S25088, .i32⟩
  | .hbm, ⟨3, _⟩ => ⟨S8x3136x3136, .f32⟩
  | .hbm, ⟨4, _⟩ => ⟨S25088x1, .i32⟩
  | .hbm, ⟨5, _⟩ => ⟨S25088x3136, .f32⟩
  | .hbm, ⟨6, _⟩ => ⟨S25088x1, .f32⟩
  | .hbm, ⟨7, _⟩ => ⟨S2x27x512, .f32⟩
  | .hbm, ⟨8, _⟩ => ⟨S2x27x1, .f32⟩
  | .hbm, ⟨9, _⟩ => ⟨S_, .f32⟩
  | .hbm, ⟨10, _⟩ => ⟨S27x512, .f32⟩
  | .hbm, ⟨11, _⟩ => ⟨S_, .f32⟩
  | .hbm, ⟨12, _⟩ => ⟨S27x1, .f32⟩
  | .hbm, ⟨13, _⟩ => ⟨S_, .f32⟩
  | .hbm, ⟨14, _⟩ => ⟨S27x1, .f32⟩
  | .hbm, ⟨15, _⟩ => ⟨S27x1, .f32⟩
  | .hbm, ⟨16, _⟩ => ⟨S27x512, .f32⟩
  | .hbm, ⟨17, _⟩ => ⟨S27x512, .f32⟩
  | .hbm, ⟨18, _⟩ => ⟨S2x1x1, .f32⟩
  | .hbm, ⟨19, _⟩ => ⟨S2x1x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S1792x3136, .f32⟩
  | .local _ .vmem, ⟨1, _⟩ => ⟨S1792x3136, .f32⟩
  | .local _ .vmem, ⟨2, _⟩ => ⟨S1792x1, .f32⟩
  | .local _ .vmem, ⟨3, _⟩ => ⟨S1792x1, .f32⟩
  | .local _ .vmem, ⟨4, _⟩ => ⟨S1568x512, .f32⟩
  | .local _ .vmem, ⟨5, _⟩ => ⟨S1568x512, .f32⟩
  | .local _ .vmem, ⟨6, _⟩ => ⟨S1568x1, .i32⟩
  | .local _ .vmem, ⟨7, _⟩ => ⟨S1568x1, .i32⟩
  | .local _ .vmem, ⟨8, _⟩ => ⟨S1x27x512, .f32⟩
  | .local _ .vmem, ⟨9, _⟩ => ⟨S1x27x512, .f32⟩
  | .local _ .vmem, ⟨10, _⟩ => ⟨S1x27x1, .f32⟩
  | .local _ .vmem, ⟨11, _⟩ => ⟨S1x27x1, .f32⟩
  | .local _ .vmem, ⟨12, _⟩ => ⟨S27x512, .f32⟩
  | .local _ .vmem, ⟨13, _⟩ => ⟨S27x1, .f32⟩
  | .local _ .vmem, ⟨14, _⟩ => ⟨S1792x512, .f32⟩
  | .local _ .vmem, ⟨15, _⟩ => ⟨S1792x512, .f32⟩
  | .local _ .vmem, ⟨16, _⟩ => ⟨S1792x512, .f32⟩
  | .local _ .vmem, ⟨17, _⟩ => ⟨S1792x512, .f32⟩
  | .local _ .vmem, ⟨18, _⟩ => ⟨S27x512, .f32⟩
  | .local _ .vmem, ⟨19, _⟩ => ⟨S1792x1, .i32⟩
  | .local _ .vmem, ⟨20, _⟩ => ⟨S1792x1, .i32⟩
  | .local _ .vmem, ⟨21, _⟩ => ⟨S1792x1, .f32⟩
  | .local _ .vmem, ⟨22, _⟩ => ⟨S1792x1, .f32⟩
  | .local _ .vmem, ⟨23, _⟩ => ⟨S1x1x1, .f32⟩
  | .local _ .vmem, ⟨24, _⟩ => ⟨S1x1x1, .f32⟩
  | .local _ .vmem, ⟨25, _⟩ => ⟨S1x1x1, .f32⟩
  | .local _ .vmem, ⟨26, _⟩ => ⟨S1x1x1, .f32⟩
  | .local _ .vmem, ⟨27, _⟩ => ⟨S1x1, .f32⟩
  | .local _ .vmem, ⟨28, _⟩ => ⟨S1x1, .f32⟩
  | _, _ => ⟨S25088x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_cst_2 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev main_cst_6 : Ref sig .tc := ⟨.hbm, 28, rfl⟩
abbrev main_v15 : Ref sig .tc := ⟨.hbm, 29, rfl⟩
abbrev main_cst_7 : Ref sig .tc := ⟨.hbm, 30, rfl⟩
abbrev main_v16 : Ref sig .tc := ⟨.hbm, 31, rfl⟩
abbrev main_v17 : Ref sig .tc := ⟨.hbm, 32, rfl⟩
abbrev main_cst_8 : Ref sig .tc := ⟨.hbm, 33, rfl⟩
abbrev main_v18 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc1_scratch1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg6_1 : Ref sig .tc := ⟨.vmem, 26, rfl⟩
abbrev cc2_scratch0 : Ref sig .tc := ⟨.vmem, 27, rfl⟩
abbrev cc2_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem5_1 : DmaSem sig := 22
abbrev cc2_sem6_0 : DmaSem sig := 23
abbrev cc2_sem6_1 : DmaSem sig := 24

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1792x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1792x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 8], ![false, false]⟩

def k1_cond2 (i : grid1.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_13 : BitVec 32 := 0#32
  let v28 : BitVec 1 := Scalar.cmpi .ne v27 c0_i32_13
  v28

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1568x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1568x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x27x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x27x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![2, 7], ![false, false]⟩

def k2_cond2 (i : grid2.Coords) : BitVec 1 :=
  let arg1 : BitVec 32 := BitVec.ofNat 32 (i 1).val
  let c6_i32 : BitVec 32 := 6#32
  let v84 : BitVec 1 := Scalar.cmpi .eq arg1 c6_i32
  let v85 : BitVec 32 := Scalar.extui v84
  let c0_i32_31 : BitVec 32 := 0#32
  let v86 : BitVec 1 := Scalar.cmpi .ne v85 c0_i32_31
  v86

def cc2_transform_0 (i : grid2.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![v1.toNat, c0_i32.toNat]

def cc2_transform_4 (i : grid2.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![v1.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1792x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1792x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S27x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1792x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1792x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x1x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x1x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  shapeCasts_S25088_S25088x1 : S25088.ShapeCasts S25088x1
  shapeCasts_S8x3136x3136_S25088x3136 : S8x3136x3136.ShapeCasts S25088x3136
  inb_S1792x3136_S1792x3136_0_0 : ∀ a, (![0, 0] : Fin 2 → Nat) a + S1792x3136.size a ≤ S1792x3136.size a
  h_S1792x3136 : 0 < S1792x3136.numel
  shapeCasts_S1792x3136_S1792x3136 : S1792x3136.ShapeCasts S1792x3136
  reduces_S1792x3136_S1792 : S1792x3136.Reduces [1] S1792
  shapeCasts_S1792_S1792x1 : S1792.ShapeCasts S1792x1
  inb_S1792x1_S1792x1_0_0 : ∀ a, (![0, 0] : Fin 2 → Nat) a + S1792x1.size a ≤ S1792x1.size a
  h_S1792x1 : 0 < S1792x1.numel
  inb_S27x512_S27x512_0_0 : ∀ a, (![0, 0] : Fin 2 → Nat) a + S27x512.size a ≤ S27x512.size a
  h_S27x512 : 0 < S27x512.numel
  shapeCasts_S27x512_S27x512 : S27x512.ShapeCasts S27x512
  inb_S27x1_S27x1_0_0 : ∀ a, (![0, 0] : Fin 2 → Nat) a + S27x1.size a ≤ S27x1.size a
  h_S27x1 : 0 < S27x1.numel
  shapeCasts_S27x1_S27x1 : S27x1.ShapeCasts S27x1
  inb_S1568x1_S1568x1_0_0 : ∀ a, (![0, 0] : Fin 2 → Nat) a + S1568x1.size a ≤ S1568x1.size a
  h_S1568x1 : 0 < S1568x1.numel
  shapeCasts_S1568x1_S1568x1 : S1568x1.ShapeCasts S1568x1
  iota_S1568x27_d1_w32 : S1568x27.Iotas .tc 32 [1]
  broadcasts_S1568x1_S1568x27 : S1568x1.Broadcasts S1568x27
  natLt_1_32 : 1 < 32
  bitsLt_bf16_f32 : FTy.bits .bf16 < FTy.bits .f32
  inb_S1568x512_S1568x512_0_0 : ∀ a, (![0, 0] : Fin 2 → Nat) a + S1568x512.size a ≤ S1568x512.size a
  h_S1568x512 : 0 < S1568x512.numel
  reduces_S1568x27_S27 : S1568x27.Reduces [0] S27
  shapeCasts_S27_S27x1 : S27.ShapeCasts S27x1
  inb_S1x27x512_S1x27x512_0_0_0 : ∀ a, (![0, 0, 0] : Fin 3 → Nat) a + S1x27x512.size a ≤ S1x27x512.size a
  h_S1x27x512 : 0 < S1x27x512.numel
  shapeCasts_S1x27x512_S27x512 : S1x27x512.ShapeCasts S27x512
  shapeCasts_S27x512_S1x27x512 : S27x512.ShapeCasts S1x27x512
  inb_S1x27x1_S1x27x1_0_0_0 : ∀ a, (![0, 0, 0] : Fin 3 → Nat) a + S1x27x1.size a ≤ S1x27x1.size a
  h_S1x27x1 : 0 < S1x27x1.numel
  shapeCasts_S1x27x1_S27x1 : S1x27x1.ShapeCasts S27x1
  shapeCasts_S27x1_S1x27x1 : S27x1.ShapeCasts S1x27x1
  reducesTo_S2x27x512_S27x512_d0 : S2x27x512.ReducesTo [0] S27x512
  h_S_ : 0 < S_.numel
  reducesTo_S2x27x1_S27x1_d0 : S2x27x1.ReducesTo [0] S27x1
  bcast_S_S27x1 : S_.BroadcastsInDim S27x1 (![] : Fin 0 → Fin S27x1.rank)
  bcast_S27x1_S27x512_0_1 : S27x1.BroadcastsInDim S27x512 (![0, 1] : Fin 2 → Fin S27x512.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1792x512_S1792x512_0_0 : ∀ a, (![0, 0] : Fin 2 → Nat) a + S1792x512.size a ≤ S1792x512.size a
  h_S1792x512 : 0 < S1792x512.numel
  shapeCasts_S1792x1_S1792x1 : S1792x1.ShapeCasts S1792x1
  reduces_S1792x27_S1792 : S1792x27.Reduces [1] S1792
  broadcasts_S1792x1_S1792x27 : S1792x1.Broadcasts S1792x27
  iota_S1792x27_d1_w32 : S1792x27.Iotas .tc 32 [1]
  shapeCasts_S1792x1_S1x1792x1 : S1792x1.ShapeCasts S1x1792x1
  reduces_S1x1792x1_S1 : S1x1792x1.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  dot_S1568x27_S1568x512_S27x512_0_0_1_1_n_n_wf : DotDims.WF S1568x27 S1568x512 S27x512 [0] [0] [1] [1] [] []
  dot_S1792x512_S27x512_S1792x27_1_1_0_0_n_n_wf : DotDims.WF S1792x512 S27x512 S1792x27 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1792x3136.size a ≤ S25088x3136.size a
  hwx0_0 : ∀ i : grid0.Coords, EltTy.bits .f32 = 32 ∨ (Rect.block (s := S25088x3136) S1792x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1792x1.size a ≤ S25088x1.size a
  hwx0_1 : ∀ i : grid0.Coords, EltTy.bits .f32 = 32 ∨ (Rect.block (s := S25088x1) S1792x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1568x512.size a ≤ S25088x512.size a
  hwx1_0 : ∀ i : grid1.Coords, EltTy.bits .f32 = 32 ∨ (Rect.block (s := S25088x512) S1568x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1568x1.size a ≤ S25088x1.size a
  hwx1_1 : ∀ i : grid1.Coords, EltTy.bits .i32 = 32 ∨ (Rect.block (s := S25088x1) S1568x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x27x512.size a ≤ S2x27x512.size a
  hwx1_2 : ∀ i : grid1.Coords, EltTy.bits .f32 = 32 ∨ (Rect.block (s := S2x27x512) S1x27x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x27x1.size a ≤ S2x27x1.size a
  hwx1_3 : ∀ i : grid1.Coords, EltTy.bits .f32 = 32 ∨ (Rect.block (s := S2x27x1) S1x27x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1792x512.size a ≤ S25088x512.size a
  hwx2_0 : ∀ i : grid2.Coords, EltTy.bits .f32 = 32 ∨ (Rect.block (s := S25088x512) S1792x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1792x512.size a ≤ S25088x512.size a
  hwx2_1 : ∀ i : grid2.Coords, EltTy.bits .f32 = 32 ∨ (Rect.block (s := S25088x512) S1792x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S27x512.size a ≤ S27x512.size a
  hwx2_2 : ∀ i : grid2.Coords, EltTy.bits .f32 = 32 ∨ (Rect.block (s := S27x512) S27x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1792x1.size a ≤ S25088x1.size a
  hwx2_3 : ∀ i : grid2.Coords, EltTy.bits .i32 = 32 ∨ (Rect.block (s := S25088x1) S1792x1.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1792x1.size a ≤ S25088x1.size a
  hwx2_4 : ∀ i : grid2.Coords, EltTy.bits .f32 = 32 ∨ (Rect.block (s := S25088x1) S1792x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x1.size a ≤ S2x1x1.size a
  hwx2_5 : ∀ i : grid2.Coords, EltTy.bits .f32 = 32 ∨ (Rect.block (s := S2x1x1) S1x1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1x1.size a ≤ S2x1x1.size a
  hwx2_6 : ∀ i : grid2.Coords, EltTy.bits .f32 = 32 ∨ (Rect.block (s := S2x1x1) S1x1x1.size (cc2_transform_6 i) (hinb2_6 i)).WholeWords (EltTy.packing .f32)

variable [Facts₀]

def dot_S1568x27_S1568x512_S27x512_0_0_1_1_n_n : DotDims S1568x27 S1568x512 S27x512 where
  lhsContracting := [0]
  rhsContracting := [0]
  lhsNonContracting := [1]
  rhsNonContracting := [1]
  lhsBatch := []
  rhsBatch := []
  wf := dot_S1568x27_S1568x512_S27x512_0_0_1_1_n_n_wf
def dot_S1792x512_S27x512_S1792x27_1_1_0_0_n_n : DotDims S1792x512 S27x512 S1792x27 where
  lhsContracting := [1]
  rhsContracting := [1]
  lhsNonContracting := [0]
  rhsNonContracting := [0]
  lhsBatch := []
  rhsBatch := []
  wf := dot_S1792x512_S27x512_S1792x27_1_1_0_0_n_n_wf

abbrev win0_0 : Pipeline.Window sig grid0 :=
  Pipeline.Window.ofSpec (Memref.whole main_v1) S1792x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1792x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1568x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1568x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_0) S1x27x512.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_1) S1x27x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg0) S1792x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1792x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S27x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S1792x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1792x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v10_0) S1x1x1.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v10_1) S1x1x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun i => !(k2_cond2 i == 1#1) | 6 => fun i => !(k2_cond2 i == 1#1) | ⟨_ + 7, h⟩ => absurd h (Nat.not_lt.2 (Nat.le_add_left _ _))

class Facts : Prop extends Facts₀ where

variable [Facts]
-- ==== ReferenceIdeal.lean ====
abbrev S25088x512 : Shape := ⟨2, ![25088, 512]⟩
abbrev S25088 : Shape := ⟨1, ![25088]⟩
abbrev S8x3136x3136 : Shape := ⟨3, ![8, 3136, 3136]⟩
abbrev S_ : Shape := ⟨0, ![]⟩
abbrev S27 : Shape := ⟨1, ![27]⟩
abbrev S25088x1 : Shape := ⟨2, ![25088, 1]⟩
abbrev S27x512 : Shape := ⟨2, ![27, 512]⟩
abbrev S27x1 : Shape := ⟨2, ![27, 1]⟩
abbrev S25088x27 : Shape := ⟨2, ![25088, 27]⟩
abbrev S8x3136 : Shape := ⟨2, ![8, 3136]⟩
abbrev S25088x1x1 : Shape := ⟨3, ![25088, 1, 1]⟩
abbrev S1 : Shape := ⟨1, ![1]⟩
abbrev S1x1x1 : Shape := ⟨3, ![1, 1, 1]⟩

abbrev nBuf : Space → Nat
  | .hbm => 131
  | .vmem => 0
  | .smem => 0
  | _ => 0

abbrev hbmTy0_0 (i : Nat) : BufTy := match i % 128 with
  | 0 => ⟨S25088x512, .f32⟩
  | 1 => ⟨S25088x512, .f32⟩
  | 2 => ⟨S25088, .i32⟩
  | 3 => ⟨S8x3136x3136, .f32⟩
  | 4 => ⟨S_, .f32⟩
  | 5 => ⟨S25088, .f32⟩
  | 6 => ⟨S_, .f32⟩
  | 7 => ⟨S27, .f32⟩
  | 8 => ⟨S25088x1, .i32⟩
  | 9 => ⟨S27, .f32⟩
  | 10 => ⟨S_, .f32⟩
  | 11 => ⟨S27x512, .f32⟩
  | 12 => ⟨S25088x1, .i32⟩
  | 13 => ⟨S27x512, .f32⟩
  | 14 => ⟨S_, .f32⟩
  | 15 => ⟨S27, .f32⟩
  | 16 => ⟨S27, .f32⟩
  | 17 => ⟨S27x1, .f32⟩
  | 18 => ⟨S27x512, .f32⟩
  | 19 => ⟨S27x512, .f32⟩
  | 20 => ⟨S25088x27, .f32⟩
  | 21 => ⟨S_, .f32⟩
  | 22 => ⟨S25088x27, .f32⟩
  | 23 => ⟨S25088x27, .f32⟩
  | 24 => ⟨S25088x27, .f32⟩
  | 25 => ⟨S_, .f32⟩
  | 26 => ⟨S25088x27, .f32⟩
  | 27 => ⟨S25088x27, .f32⟩
  | 28 => ⟨S_, .f32⟩
  | 29 => ⟨S8x3136, .f32⟩
  | 30 => ⟨S_, .f32⟩
  | 31 => ⟨S8x3136, .f32⟩
  | 32 => ⟨S8x3136, .f32⟩
  | 33 => ⟨S25088, .f32⟩
  | 34 => ⟨S_, .f32⟩
  | 35 => ⟨S25088, .f32⟩
  | 36 => ⟨S_, .f32⟩
  | 37 => ⟨S25088, .f32⟩
  | 38 => ⟨S25088, .f32⟩
  | 39 => ⟨S25088x1, .f32⟩
  | 40 => ⟨S25088x27, .f32⟩
  | 41 => ⟨S25088x27, .f32⟩
  | 42 => ⟨S25088x27, .f32⟩
  | 43 => ⟨S_, .f32⟩
  | 44 => ⟨S25088, .f32⟩
  | 45 => ⟨S25088x1, .f32⟩
  | 46 => ⟨S25088x1, .f32⟩
  | 47 => ⟨S25088x27, .f32⟩
  | 48 => ⟨S25088x27, .f32⟩
  | 49 => ⟨S25088x1, .i32⟩
  | 50 => ⟨S_, .i32⟩
  | 51 => ⟨S25088x1, .i32⟩
  | 52 => ⟨S25088x1, .i1⟩
  | 53 => ⟨S_, .i32⟩
  | 54 => ⟨S25088x1, .i32⟩
  | 55 => ⟨S25088x1, .i32⟩
  | 56 => ⟨S25088x1, .i32⟩
  | 57 => ⟨S25088x1x1, .i32⟩
  | 58 => ⟨S1, .i32⟩
  | 59 => ⟨S_, .i32⟩
  | 60 => ⟨S25088x1x1, .i32⟩
  | 61 => ⟨S25088x1x1, .i1⟩
  | 62 => ⟨S1x1x1, .i32⟩
  | 63 => ⟨S25088x1x1, .i32⟩
  | 64 => ⟨S25088x1x1, .i1⟩
  | 65 => ⟨S25088x1x1, .i1⟩
  | 66 => ⟨S_, .i1⟩
  | 67 => ⟨S25088x1, .i1⟩
  | 68 => ⟨S25088x1, .f32⟩
  | 69 => ⟨S_, .f32⟩
  | 70 => ⟨S25088x1, .f32⟩
  | 71 => ⟨S25088x1, .f32⟩
  | 72 => ⟨S25088, .f32⟩
  | 73 => ⟨S25088, .f32⟩
  | 74 => ⟨S25088, .f32⟩
  | 75 => ⟨S_, .f32⟩
  | 76 => ⟨S_, .f32⟩
  | 77 => ⟨S_, .f32⟩
  | 78 => ⟨S_, .f32⟩
  | 79 => ⟨S_, .f32⟩
  | 80 => ⟨S25088, .f32⟩
  | 81 => ⟨S_, .f32⟩
  | 82 => ⟨S25088, .f32⟩
  | 83 => ⟨S25088, .f32⟩
  | 84 => ⟨S25088x1, .f32⟩
  | 85 => ⟨S25088x27, .f32⟩
  | 86 => ⟨S25088x27, .f32⟩
  | 87 => ⟨S25088x27, .f32⟩
  | 88 => ⟨S_, .f32⟩
  | 89 => ⟨S25088, .f32⟩
  | 90 => ⟨S25088x1, .f32⟩
  | 91 => ⟨S25088x1, .f32⟩
  | 92 => ⟨S25088x27, .f32⟩
  | 93 => ⟨S25088x27, .f32⟩
  | 94 => ⟨S25088x1, .i32⟩
  | 95 => ⟨S_, .i32⟩
  | 96 => ⟨S25088x1, .i32⟩
  | 97 => ⟨S25088x1, .i1⟩
  | 98 => ⟨S_, .i32⟩
  | 99 => ⟨S25088x1, .i32⟩
  | 100 => ⟨S25088x1, .i32⟩
  | 101 => ⟨S25088x1, .i32⟩
  | 102 => ⟨S25088x1x1, .i32⟩
  | 103 => ⟨S1, .i32⟩
  | 104 => ⟨S_, .i32⟩
  | 105 => ⟨S25088x1x1, .i32⟩
  | 106 => ⟨S25088x1x1, .i1⟩
  | 107 => ⟨S1x1x1, .i32⟩
  | 108 => ⟨S25088x1x1, .i32⟩
  | 109 => ⟨S25088x1x1, .i1⟩
  | 110 => ⟨S25088x1x1, .i1⟩
  | 111 => ⟨S_, .i1⟩
  | 112 => ⟨S25088x1, .i1⟩
  | 113 => ⟨S25088x1, .f32⟩
  | 114 => ⟨S_, .f32⟩
  | 115 => ⟨S25088x1, .f32⟩
  | 116 => ⟨S25088x1, .f32⟩
  | 117 => ⟨S25088, .f32⟩
  | 118 => ⟨S25088, .f32⟩
  | 119 => ⟨S25088, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S25088x512, .f32⟩

abbrev hbmTy0_1 (i : Nat) : BufTy := match i % 128 with
  | 0 => ⟨S_, .f32⟩
  | 1 => ⟨S_, .f32⟩
  | 2 => ⟨S_, .f32⟩
  | _ => ⟨S25088x512, .f32⟩

abbrev hbmTy (i : Nat) : BufTy := match i / 128 with
  | 0 => hbmTy0_0 i
  | 1 => hbmTy0_1 i
  | _ => ⟨S25088x512, .f32⟩

abbrev bufTy : (tb : Table) → Fin (tcTables nBuf tb) → BufTy
  | .hbm, ⟨i, _⟩ => hbmTy i
  | _, _ => ⟨S25088x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_call0_cst_0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_cst_1 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_v22 : Ref sig .tc := ⟨.hbm, 48, rfl⟩
abbrev main_v23 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_cst : Ref sig .tc := ⟨.hbm, 69, rfl⟩
abbrev main_call1_v14 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_cst_7 : Ref sig .tc := ⟨.hbm, 75, rfl⟩
abbrev main_v28 : Ref sig .tc := ⟨.hbm, 76, rfl⟩
abbrev main_cst_8 : Ref sig .tc := ⟨.hbm, 77, rfl⟩
abbrev main_v29 : Ref sig .tc := ⟨.hbm, 78, rfl⟩
abbrev main_call2_cst : Ref sig .tc := ⟨.hbm, 79, rfl⟩
abbrev main_call2_v0 : Ref sig .tc := ⟨.hbm, 80, rfl⟩
abbrev main_call2_cst_0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_v6 : Ref sig .tc := ⟨.hbm, 87, rfl⟩
abbrev main_call2_cst_1 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_v30 : Ref sig .tc := ⟨.hbm, 93, rfl⟩
abbrev main_v31 : Ref sig .tc := ⟨.hbm, 94, rfl⟩
abbrev main_call3_c : Ref sig .tc := ⟨.hbm, 95, rfl⟩
abbrev main_call3_v0 : Ref sig .tc := ⟨.hbm, 96, rfl⟩
abbrev main_call3_v1 : Ref sig .tc := ⟨.hbm, 97, rfl⟩
abbrev main_call3_c_0 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_c_1 : Ref sig .tc := ⟨.hbm, 103, rfl⟩
abbrev main_call3_c_2 : Ref sig .tc := ⟨.hbm, 104, rfl⟩
abbrev main_call3_v6 : Ref sig .tc := ⟨.hbm, 105, rfl⟩
abbrev main_call3_v7 : Ref sig .tc := ⟨.hbm, 106, rfl⟩
abbrev main_call3_v8 : Ref sig .tc := ⟨.hbm, 107, rfl⟩
abbrev main_call3_v9 : Ref sig .tc := ⟨.hbm, 108, rfl⟩
abbrev main_call3_v10 : Ref sig .tc := ⟨.hbm, 109, rfl⟩
abbrev main_call3_v11 : Ref sig .tc := ⟨.hbm, 110, rfl⟩
abbrev main_call3_c_3 : Ref sig .tc := ⟨.hbm, 111, rfl⟩
abbrev main_call3_v12 : Ref sig .tc := ⟨.hbm, 112, rfl⟩
abbrev main_call3_v13 : Ref sig .tc := ⟨.hbm, 113, rfl⟩
abbrev main_call3_cst : Ref sig .tc := ⟨.hbm, 114, rfl⟩
abbrev main_call3_v14 : Ref sig .tc := ⟨.hbm, 115, rfl⟩
abbrev main_v32 : Ref sig .tc := ⟨.hbm, 116, rfl⟩
abbrev main_v33 : Ref sig .tc := ⟨.hbm, 117, rfl⟩
abbrev main_v34 : Ref sig .tc := ⟨.hbm, 118, rfl⟩
abbrev main_v35 : Ref sig .tc := ⟨.hbm, 119, rfl⟩
abbrev main_cst_9 : Ref sig .tc := ⟨.hbm, 120, rfl⟩
abbrev main_v36 : Ref sig .tc := ⟨.hbm, 121, rfl⟩
abbrev main_cst_10 : Ref sig .tc := ⟨.hbm, 122, rfl⟩
abbrev main_v37 : Ref sig .tc := ⟨.hbm, 123, rfl⟩
abbrev main_cst_11 : Ref sig .tc := ⟨.hbm, 124, rfl⟩
abbrev main_v38 : Ref sig .tc := ⟨.hbm, 125, rfl⟩
abbrev main_cst_12 : Ref sig .tc := ⟨.hbm, 126, rfl⟩
abbrev main_v39 : Ref sig .tc := ⟨.hbm, 127, rfl⟩
abbrev main_v40 : Ref sig .tc := ⟨.hbm, 128, rfl⟩
abbrev main_cst_13 : Ref sig .tc := ⟨.hbm, 129, rfl⟩
abbrev main_v41 : Ref sig .tc := ⟨.hbm, 130, rfl⟩

abbrev nD : Nat := 1
abbrev τ : Topo := Topo.v7x

variable {F : FTy → Type} [FloatOps F]

class Facts₀ : Prop where
  bcast_S_S25088 : S_.BroadcastsInDim S25088 (![] : Fin 0 → Fin S25088.rank)
  bcast_S_S27 : S_.BroadcastsInDim S27 (![] : Fin 0 → Fin S27.rank)
  bcast_S25088_S25088x1_0 : S25088.BroadcastsInDim S25088x1 (![0] : Fin 1 → Fin S25088x1.rank)
  bcast_S_S27x512 : S_.BroadcastsInDim S27x512 (![] : Fin 0 → Fin S27x512.rank)
  bcast_S27_S27x1_0 : S27.BroadcastsInDim S27x1 (![0] : Fin 1 → Fin S27x1.rank)
  bcast_S27x1_S27x512_0_1 : S27x1.BroadcastsInDim S27x512 (![0, 1] : Fin 2 → Fin S27x512.rank)
  bcast_S_S25088x27 : S_.BroadcastsInDim S25088x27 (![] : Fin 0 → Fin S25088x27.rank)
  reducesTo_S8x3136x3136_S8x3136_d2 : S8x3136x3136.ReducesTo [2] S8x3136
  h_S_ : 0 < S_.numel
  bcast_S_S8x3136 : S_.BroadcastsInDim S8x3136 (![] : Fin 0 → Fin S8x3136.rank)
  shapeCasts_S8x3136_S25088 : S8x3136.ShapeCasts S25088
  reducesTo_S25088x27_S25088_d1 : S25088x27.ReducesTo [1] S25088
  bcast_S25088x1_S25088x27_0_1 : S25088x1.BroadcastsInDim S25088x27 (![0, 1] : Fin 2 → Fin S25088x27.rank)
  bcast_S_S25088x1 : S_.BroadcastsInDim S25088x1 (![] : Fin 0 → Fin S25088x1.rank)
  shapeCasts_S25088x1_S25088x1x1 : S25088x1.ShapeCasts S25088x1x1
  bcast_S_S25088x1x1 : S_.BroadcastsInDim S25088x1x1 (![] : Fin 0 → Fin S25088x1x1.rank)
  bcast_S1_S1x1x1_2 : S1.BroadcastsInDim S1x1x1 (![2] : Fin 1 → Fin S1x1x1.rank)
  bcast_S1x1x1_S25088x1x1_0_1_2 : S1x1x1.BroadcastsInDim S25088x1x1 (![0, 1, 2] : Fin 3 → Fin S25088x1x1.rank)
  reducesTo_S25088x1x1_S25088x1_d2 : S25088x1x1.ReducesTo [2] S25088x1
  shapeCasts_S25088x1_S25088 : S25088x1.ShapeCasts S25088
  reducesTo_S25088_S_d0 : S25088.ReducesTo [0] S_
  scatter_S27_S25088x1_S25088_n_0_0_1_wf : ScatterDims.WF S27 S25088x1 S25088 [] [0] [0] 1
  scatter_S27x512_S25088x1_S25088x512_1_0_0_1_wf : ScatterDims.WF S27x512 S25088x1 S25088x512 [1] [0] [0] 1
  dot_S25088x512_S27x512_S25088x27_1_1_0_0_n_n_wf : DotDims.WF S25088x512 S27x512 S25088x27 [1] [1] [0] [0] [] []
  gather_S25088x27_S25088x1x1_S25088x1_n_1_0_0_1_2_11_wf : GatherDims.WF S25088x27 S25088x1x1 S25088x1 [] [1] [0] [1] [0] 2 ![1, 1]

variable [Facts₀]

def scatter_S27_S25088x1_S25088_n_0_0_1 : ScatterDims S27 S25088x1 S25088 where
  updateWindowDims := []
  insertedWindowDims := [0]
  scatterDimsToOperandDims := [0]
  indexVectorDim := 1
  wf := scatter_S27_S25088x1_S25088_n_0_0_1_wf
def scatter_S27x512_S25088x1_S25088x512_1_0_0_1 : ScatterDims S27x512 S25088x1 S25088x512 where
  updateWindowDims := [1]
  insertedWindowDims := [0]
  scatterDimsToOperandDims := [0]
  indexVectorDim := 1
  wf := scatter_S27x512_S25088x1_S25088x512_1_0_0_1_wf
def dot_S25088x512_S27x512_S25088x27_1_1_0_0_n_n : DotDims S25088x512 S27x512 S25088x27 where
  lhsContracting := [1]
  rhsContracting := [1]
  lhsNonContracting := [0]
  rhsNonContracting := [0]
  lhsBatch := []
  rhsBatch := []
  wf := dot_S25088x512_S27x512_S25088x27_1_1_0_0_n_n_wf
def gather_S25088x27_S25088x1x1_S25088x1_n_1_0_0_1_2_11 : GatherDims S25088x27 S25088x1x1 S25088x1 where
  offsetDims := []
  collapsedSliceDims := [1]
  operandBatchingDims := [0]
  startIndicesBatchingDims := [0]
  startIndexMap := [1]
  indexVectorDim := 2
  sliceSizes := ![1, 1]
  wf := gather_S25088x27_S25088x1x1_S25088x1_n_1_0_0_1_2_11_wf

class Facts : Prop extends Facts₀ where

variable [Facts]
-- ==== Proof.Kernel.Region0Defs.lean ====
/-
  Region 0 (the row means of the similarity matrix): its proof data, stated at the contents `V` the region is entered from.
  Each of the 14 grid points reads a block of 1792 rows and stores their means; nothing is kept between points.
-/
import proofs.«421000_j23381801959614_3_alg».proof.Proof.Gen.Kernel.Launch
import proofs.«421000_j23381801959614_3_alg».proof.Proof.Gen.Kernel.Skeleton
import proofs.«421000_j23381801959614_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region is stated at
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole staging block of the output window. -/
abbrev r0_0 : Rect S1792x1 := Rect.unit (s := S1792x1) ![0, 0] S1792x1.size inb_S1792x1_S1792x1_0_0
/-- The whole staging block of the input window. -/
abbrev r0_in : Rect S1792x3136 := Rect.unit (s := S1792x3136) ![0, 0] S1792x3136.size inb_S1792x3136_S1792x3136_0_0

/-- What the body leaves in the output window's buffer: its one store, the row means of the loaded block. -/
def out0_1 (x0 : Vec F S1792x3136 .f32) : Vec F S1792x1 .f32 :=
  View.canon [⟨r0_0, k0_pay1 (View.ld x0 r0_in)⟩]

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem q_eq0 (c : Dev nD) (w : Fin cfg0.W) : (dat0 V c).q w = fullShare := rfl
theorem owed_eq0 (c : Dev nD) (t : Fin (cfg0.N + 1)) : (dat0 V c).owed t = 0 := rfl
theorem Phi_eq0 (c : Dev nD) (t : Fin (cfg0.N + 1)) : (dat0 V c).Φ t = Pipeline.ΦA spec0 c := rfl

end Cert.Kernel.Gen

end
-- ==== Proof.Kernel.Region0Frame.lean ====
/-
  Region 0: the body obligation of its proof data (`dat0`), and the invariant's two ends.
-/
import proofs.«421000_j23381801959614_3_alg».proof.Proof.Kernel.Region0Defs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region is stated at
variable (V : (c : Dev nD) → (b : Ref sig .tc) → Buf (Elt F) ((c : Thread nD τ).loc b))

/-! ## The input window's staging buffer before the body -/

/-- The input window's current staging buffer holds its block at every point, fetched there or not, for any proof
    data whose array is `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for this region's proof data. -/
theorem before0_0 (c : Dev nD) (t : Fin cfg0.N) (d) : (dat0 V c).before 0 t d = iblk0 V c 0 t :=
  before0_0_of V (dat0 V c) (A_eq0 V c 0) (after0_0 V c) t d

/-! ## The body's one store covers the output block -/

/-- The store's rectangle is the whole staging block, so every index of the block lies in it. -/
theorem cover0_1 (p0 : Vec F S1792x1 .f32) (y : S1792x1.Idx) :
    ∃ pc ∈ ([⟨r0_0, p0⟩] : List (View.Piece (Elt F) S1792x1 .f32)), y ∈ pc.1.set :=
  View.cover_of_tiled [⟨r0_0, p0⟩] S1792x1.size (by rfl) y

/-! ## The body's triple -/

set_option maxHeartbeats 1000000 in
/-- The kernel function on whole staging memrefs, the input's at contents `x0` and the output's at anything, runs to
    the continuation holding the input's as it was and the output's at `out0_1 x0`: the loaded input block goes
    through the payload into the one store, which overwrites the whole output block (what was read from the
    output before the store is not used). -/
theorem sound_kernel0 (c : Dev nD) (E : Set ℕ) (i : grid0.Coords)
    (arg0 : Memref sig .tc .vmem S1792x3136 .f32) (harg0 : arg0.IsWhole)
    (arg1 : Memref sig .tc .vmem S1792x1 .f32) (harg1 : arg1.IsWhole)
    (x0 : Vec F S1792x3136 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__mean_kernel i arg0 harg0 arg1 harg1) K := by
  simp only [cc0__mean_kernel_eq_skeleton]; unfold cc0__mean_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The body obligation, at a generic point -/

/-- What the body is called with at point `t`: the invariant, the core's owes, and each window's current staging
    memref at its contents before the body, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the kernel's triple applies; the invariant and
    the core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [Phi_eq0]

/-- After the last point the invariant gives it back. -/
theorem hout0 (c : Dev nD) : (dat0 V c).Φ (Fin.last cfg0.N) ⊢ (Pipeline.ΦA spec0 c : sProp 𝕄) := by
  rw [Phi_eq0]

end Cert.Kernel.Gen

end
-- ==== Proof.Kernel.Region1Defs.lean ====
/-
  Region 1 (class sums and class counts): its proof data, stated at the contents `V` the region is entered from.
  The grid is 2 × 8: point `t` is tile `t % 8` of half `t / 8` of the rows. The two scratch buffers hold the running class
  sums and counts of the half: reset at the half's first tile, added to at every tile, copied to the half's output slot
  at its last tile. `acc1` is what the scratch buffers hold after each point.
-/
import proofs.«421000_j23381801959614_3_alg».proof.Proof.Gen.Kernel.Launch
import proofs.«421000_j23381801959614_3_alg».proof.Proof.Gen.Kernel.Skeleton
import proofs.«421000_j23381801959614_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region is stated at
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch operands: whole scoped buffers of the kernel's own. -/
abbrev scM1_0 : Memref sig .tc .vmem S27x512 .f32 := Memref.whole cc1_scratch0
abbrev scM1_1 : Memref sig .tc .vmem S27x1 .f32 := Memref.whole cc1_scratch1

/-- THE RUNNING SUMS: what the two scratch buffers (class sums, class counts) hold after the body at position `n`:
    at a half's first tile the tile's own sums added to zero, at a later tile added to what the tile before left. -/
def acc1 (c : Dev nD) : (n : ℕ) → n < cfg1.N → Vec F S27x512 .f32 × Vec F S27x1 .f32
  | 0, hn => (k1_pay4 (iblk1 V c 1 ⟨0, hn⟩) (iblk1 V c 0 ⟨0, hn⟩) k1_pay1, k1_pay5 (iblk1 V c 1 ⟨0, hn⟩) k1_pay2)
  | n + 1, hn =>
    if (n + 1) % 8 = 0 then
      (k1_pay4 (iblk1 V c 1 ⟨n + 1, hn⟩) (iblk1 V c 0 ⟨n + 1, hn⟩) k1_pay1, k1_pay5 (iblk1 V c 1 ⟨n + 1, hn⟩) k1_pay2)
    else
      (k1_pay4 (iblk1 V c 1 ⟨n + 1, hn⟩) (iblk1 V c 0 ⟨n + 1, hn⟩) (acc1 c n (Nat.lt_of_succ_lt hn)).1,
       k1_pay5 (iblk1 V c 1 ⟨n + 1, hn⟩) (acc1 c n (Nat.lt_of_succ_lt hn)).2)

theorem acc1_first (c : Dev nD) (t : Fin cfg1.N) (h : t.val % 8 = 0) :
    acc1 V c t.val t.isLt = (k1_pay4 (iblk1 V c 1 t) (iblk1 V c 0 t) k1_pay1, k1_pay5 (iblk1 V c 1 t) k1_pay2) := by
  obtain ⟨n, hn⟩ := t
  cases n with
  | zero => rfl
  | succ n => exact if_pos h

theorem acc1_later (c : Dev nD) (t : Fin cfg1.N) (h : ¬ t.val % 8 = 0) :
    acc1 V c t.val t.isLt = (k1_pay4 (iblk1 V c 1 t) (iblk1 V c 0 t) (acc1 V c (t.val - 1) (Nat.lt_of_le_of_lt (Nat.sub_le _ _) t.isLt)).1,
      k1_pay5 (iblk1 V c 1 t) (acc1 V c (t.val - 1) (Nat.lt_of_le_of_lt (Nat.sub_le _ _) t.isLt)).2) := by
  obtain ⟨n, hn⟩ := t
  cases n with
  | zero => exact absurd (Nat.zero_mod _) h
  | succ n => exact if_neg h

/-- The region invariant before position `n`: before the first point the class's (every scoped buffer that is no staging
    buffer of this call at anything, and the generator register); afterwards the same with the two scratch buffers at
    what the point before left in them. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
      ∗ (((c : Thread nD τ).loc cc1_scratch0) ↦{fullShare} (acc1 V c n hn).1) ∗ (((c : Thread nD τ).loc cc1_scratch1) ↦{fullShare} (acc1 V c n hn).2)
      ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg6_1), ((c : Thread nD τ).loc cc2_stg6_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ (∃ r, prngReg c r))

/-- The proof data of pipeline 1 on core `c`: the inputs' buffers at their blocks; the outputs' at the running sums recast
    (read only where they are written back: at a half's last tile). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay6 (acc1 V c t.val t.isLt).1
    | ⟨3, _⟩ => k1_pay7 (acc1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay6 (acc1 V c t.val t.isLt).1 := by dsimp only [dat1]
theorem after1_3 (c : Dev nD) (t : Fin cfg1.N) : (dat1 V c).after 3 t = k1_pay7 (acc1 V c t.val t.isLt).2 := by dsimp only [dat1]
theorem q_eq1 (c : Dev nD) (w : Fin cfg1.W) : (dat1 V c).q w = fullShare := rfl
theorem owed_eq1 (c : Dev nD) (t : Fin (cfg1.N + 1)) : (dat1 V c).owed t = 0 := rfl
theorem Phi_eq1 (c : Dev nD) (t : Fin (cfg1.N + 1)) : (dat1 V c).Φ t = PhiS1 V c t.val (Nat.le_of_lt_succ t.isLt) := rfl

end Cert.Kernel.Gen

end
-- ==== Proof.Kernel.Region1.Runs.lean ====
/-
  Region 1: what its three control cases share. The two branch conditions of the body in closed form over the
  grid (the first holds at a half's first tile, the second at its last); where the two output windows are idle;
  each window's current staging memref at a point; and what each input window's buffer holds there (its block).
-/
import proofs.«421000_j23381801959614_3_alg».proof.Proof.Kernel.Region1Defs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region is stated at
variable (V : (c : Dev nD) → (b : Ref sig .tc) → Buf (Elt F) ((c : Thread nD τ).loc b))

/-! ## The body's two branch conditions -/

/-- The condition of the body's first conditional (the scalar chain of grid coordinate 1 substituted): the tile is
    the first of its half. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's last conditional: the tile is the last of its half. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Off a half's last tile the output windows are idle and not written back; at it they are live. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The staging memrefs at a point -/

/-- Each window's current staging memref at point `t`, as the pipeline passes it to the body, and its wholeness. -/
abbrev ms1_0 (t : Fin cfg1.N) : Memref sig .tc .vmem S1568x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1568x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x27x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x27x1 .f32 := win1_3.stage (cfg1.slots t 3)
abbrev hs1_3 (t : Fin cfg1.N) : (ms1_3 t).IsWhole := hstage1_3 ((cfg1.slots t 3).cast nbuf1_3)

/-! ## The inputs' buffers hold their blocks -/

/-- Input window 0's current staging buffer holds its block at every point, fetched there or not: the window is an
    input, never idle, uncut, and the body leaves its block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The same for input window 1. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

end Cert.Kernel.Gen

end
-- ==== Proof.Kernel.Region1.RunB.lean ====
/-
  Region 1, the body's run at a tile that is neither the first nor the last of its half: the scratch buffers go from
  the running class sums and counts to those with this tile's added; nothing else changes.
-/
import proofs.«421000_j23381801959614_3_alg».proof.Proof.Kernel.Region1.Runs
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region is stated at
variable (V : (c : Dev nD) → (b : Ref sig .tc) → Buf (Elt F) ((c : Thread nD τ).loc b))

/-- The zero offsets of a whole-block access, rank 2 and rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A buffer whose LAST store was of its whole block reads back that store's payload, whatever was stored before. -/
theorem read_writes_whole_last {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

set_option maxHeartbeats 1000000 in
/-- CASE B (a tile that is neither the first nor the last of its half): on whole memrefs — the inputs' at their blocks,
    the two outputs' at anything (handed back untouched), the two scratch buffers at the running sums `xs0`, `xs1` —
    the body runs to the inputs and outputs as they were and the scratch buffers at the running sums with this
    tile's class sums and class counts added. -/
theorem kernelRun1_B (c : Dev nD) (i : grid1.Coords)
    (arg2 : Memref sig .tc .vmem S1568x512 .f32) (harg2 : arg2.IsWhole)
    (arg3 : Memref sig .tc .vmem S1568x1 .i32) (harg3 : arg3.IsWhole)
    (arg4 : Memref sig .tc .vmem S1x27x512 .f32) (harg4 : arg4.IsWhole)
    (arg5 : Memref sig .tc .vmem S1x27x1 .f32) (harg5 : arg5.IsWhole)
    (arg6 : Memref sig .tc .vmem S27x512 .f32) (harg6 : arg6.IsWhole)
    (arg7 : Memref sig .tc .vmem S27x1 .f32) (harg7 : arg7.IsWhole)
    (hc0 : ¬cond1_0 i) (hc1 : ¬cond1_1 i)
    (x0 : Vec F S1568x512 .f32) (x1 : Vec F S1568x1 .i32) (xi2 : Vec F S1x27x512 .f32) (xi3 : Vec F S1x27x1 .f32)
    (xs0 : Vec F S27x512 .f32) (xs1 : Vec F S27x1 .f32) (E : Set ℕ) (K : PUnit → sProp 𝕄) :
    iprop(owns (c : Thread nD τ) arg2 fullShare x0
        ∗ owns (c : Thread nD τ) arg3 fullShare x1
        ∗ owns (c : Thread nD τ) arg4 fullShare xi2
        ∗ owns (c : Thread nD τ) arg5 fullShare xi3
        ∗ owns (c : Thread nD τ) arg6 fullShare xs0
        ∗ owns (c : Thread nD τ) arg7 fullShare xs1
        ∗ (iprop(owns (c : Thread nD τ) arg2 fullShare x0
            ∗ owns (c : Thread nD τ) arg3 fullShare x1
            ∗ owns (c : Thread nD τ) arg4 fullShare xi2
            ∗ owns (c : Thread nD τ) arg5 fullShare xi3
            ∗ owns (c : Thread nD τ) arg6 fullShare (k1_pay4 x1 x0 xs0)
            ∗ owns (c : Thread nD τ) arg7 fullShare (k1_pay5 x1 xs1)) -∗ K ⟨⟩))
      ⊢ wp frame (wpE (defs₀ (F := F)) Variants.none c none) E (cc1__centroid_kernel i arg2 harg2 arg3 harg3 arg4 harg4 arg5 harg5 arg6 harg6 arg7 harg7) K := by
  simp only [cc1__centroid_kernel_eq_skeleton]; unfold cc1__centroid_kernel_skel
  iintro ⟨H0, H1, H2, H3, HS0, HS1, Hk⟩
  unfold owns
  icases H0 with ⟨%f0, %hf0, H0⟩
  icases H1 with ⟨%f1, %hf1, H1⟩
  icases HS0 with ⟨%fs0, %hfs0, HS0⟩
  icases HS1 with ⟨%fs1, %hfs1, HS1⟩
  obtain rfl := harg2.eq_unread hf0; obtain rfl := harg3.eq_unread hf1; obtain rfl := harg6.eq_unread hfs0; obtain rfl := harg7.eq_unread hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]; · iexact H2
  isplitl [H3]; · iexact H3
  isplitl [HS0]
  · iexists _; isplitr
    swap; · iexact HS0
    ipureintro
    refine (read_writes_whole_last _ _ hz2 _ _ _).trans ?_
    simp only [View.readAt_eq_ld, hf0, hf1, hfs0, View.ld_unit_zero (S := S1568x1) hz2, View.ld_unit_zero (S := S1568x512) hz2, View.ld_unit_zero (S := S27x512) hz2]
  iexists _; isplitr
  swap; · iexact HS1
  ipureintro
  refine (read_writes_whole_last _ _ hz2 _ _ _).trans ?_
  simp only [View.readAt_eq_ld, hf1, hfs1, View.ld_unit_zero (S := S1568x1) hz2, View.ld_unit_zero (S := S27x1) hz2]

end Cert.Kernel.Gen

end
-- ==== Proof.Kernel.Region1.RunA.lean ====
/-
  Region 1, the body's run at the first tile of a half: the scratch buffers are reset to zero and then hold this tile's
  class sums and class counts; nothing else changes.
-/
import proofs.«421000_j23381801959614_3_alg».proof.Proof.Kernel.Region1.RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region is stated at
variable (V : (c : Dev nD) → (b : Ref sig .tc) → Buf (Elt F) ((c : Thread nD τ).loc b))

set_option maxHeartbeats 1000000 in
/-- CASE A (the first tile of a half): on whole memrefs — the inputs' at their blocks, the two outputs' at anything
    (handed back untouched), the two scratch buffers at anything — the body resets the scratch buffers and runs to the
    inputs and outputs as they were and the scratch buffers at this tile's class sums and class counts added to zero. -/
theorem kernelRun1_A (c : Dev nD) (i : grid1.Coords)
    (arg2 : Memref sig .tc .vmem S1568x512 .f32) (harg2 : arg2.IsWhole)
    (arg3 : Memref sig .tc .vmem S1568x1 .i32) (harg3 : arg3.IsWhole)
    (arg4 : Memref sig .tc .vmem S1x27x512 .f32) (harg4 : arg4.IsWhole)
    (arg5 : Memref sig .tc .vmem S1x27x1 .f32) (harg5 : arg5.IsWhole)
    (arg6 : Memref sig .tc .vmem S27x512 .f32) (harg6 : arg6.IsWhole)
    (arg7 : Memref sig .tc .vmem S27x1 .f32) (harg7 : arg7.IsWhole)
    (hc0 : cond1_0 i) (hc1 : ¬cond1_1 i)
    (x0 : Vec F S1568x512 .f32) (x1 : Vec F S1568x1 .i32) (xi2 : Vec F S1x27x512 .f32) (xi3 : Vec F S1x27x1 .f32) (E : Set ℕ) (K : PUnit → sProp 𝕄) :
    iprop(owns (c : Thread nD τ) arg2 fullShare x0
        ∗ owns (c : Thread nD τ) arg3 fullShare x1
        ∗ owns (c : Thread nD τ) arg4 fullShare xi2
        ∗ owns (c : Thread nD τ) arg5 fullShare xi3
        ∗ (∃ d, owns (c : Thread nD τ) arg6 fullShare d)
        ∗ (∃ d, owns (c : Thread nD τ) arg7 fullShare d)
        ∗ (iprop(owns (c : Thread nD τ) arg2 fullShare x0
            ∗ owns (c : Thread nD τ) arg3 fullShare x1
            ∗ owns (c : Thread nD τ) arg4 fullShare xi2
            ∗ owns (c : Thread nD τ) arg5 fullShare xi3
            ∗ owns (c : Thread nD τ) arg6 fullShare (k1_pay4 x1 x0 k1_pay1)
            ∗ owns (c : Thread nD τ) arg7 fullShare (k1_pay5 x1 k1_pay2)) -∗ K ⟨⟩))
      ⊢ wp frame (wpE (defs₀ (F := F)) Variants.none c none) E (cc1__centroid_kernel i arg2 harg2 arg3 harg3 arg4 harg4 arg5 harg5 arg6 harg6 arg7 harg7) K := by
  simp only [cc1__centroid_kernel_eq_skeleton]; unfold cc1__centroid_kernel_skel
  iintro ⟨H0, H1, H2, H3, HS0, HS1, Hk⟩
  unfold owns
  icases H0 with ⟨%f0, %hf0, H0⟩
  icases H1 with ⟨%f1, %hf1, H1⟩
  icases HS0 with ⟨%ds0, %fs0, -, HS0⟩
  icases HS1 with ⟨%ds1, %fs1, -, HS1⟩
  obtain rfl := harg2.eq_unread hf0; obtain rfl := harg3.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]; · iexact H2
  isplitl [H3]; · iexact H3
  isplitl [HS0]
  · iexists _; isplitr
    swap; · iexact HS0
    ipureintro
    refine (read_writes_whole_last _ _ hz2 _ _ _).trans ?_
    sl_unfold_words
    simp only [View.readAt_eq_ld, hf0, hf1, View.ld_unit_zero (S := S1568x1) hz2, View.ld_unit_zero (S := S1568x512) hz2, View.readCov_unit_zero (S := S27x512) _ hz2]
  iexists _; isplitr
  swap; · iexact HS1
  ipureintro
  refine (read_writes_whole_last _ _ hz2 _ _ _).trans ?_
  sl_unfold_words
  simp only [View.readAt_eq_ld, hf1, View.ld_unit_zero (S := S1568x1) hz2, View.readCov_unit_zero (S := S27x1) _ hz2]

end Cert.Kernel.Gen

end
-- ==== Proof.Kernel.Region1.RunC.lean ====
/-
  Region 1, the body's run at the last tile of a half: the scratch buffers go from the running class sums and counts to
  those with this tile's added, and the two output blocks receive them, recast to the outputs' shapes.
-/
import proofs.«421000_j23381801959614_3_alg».proof.Proof.Kernel.Region1.RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region is stated at
variable (V : (c : Dev nD) → (b : Ref sig .tc) → Buf (Elt F) ((c : Thread nD τ).loc b))

set_option maxHeartbeats 1000000 in
/-- CASE C (the last tile of a half): on whole memrefs — the inputs' at their blocks, the two outputs' at anything, the
    two scratch buffers at the running sums `xs0`, `xs1` — the body runs to the inputs as they were, the scratch buffers
    at the running sums with this tile's class sums and class counts added, and the two outputs at those recast to
    the outputs' shapes. -/
theorem kernelRun1_C (c : Dev nD) (i : grid1.Coords)
    (arg2 : Memref sig .tc .vmem S1568x512 .f32) (harg2 : arg2.IsWhole)
    (arg3 : Memref sig .tc .vmem S1568x1 .i32) (harg3 : arg3.IsWhole)
    (arg4 : Memref sig .tc .vmem S1x27x512 .f32) (harg4 : arg4.IsWhole)
    (arg5 : Memref sig .tc .vmem S1x27x1 .f32) (harg5 : arg5.IsWhole)
    (arg6 : Memref sig .tc .vmem S27x512 .f32) (harg6 : arg6.IsWhole)
    (arg7 : Memref sig .tc .vmem S27x1 .f32) (harg7 : arg7.IsWhole)
    (hc0 : ¬cond1_0 i) (hc1 : cond1_1 i)
    (x0 : Vec F S1568x512 .f32) (x1 : Vec F S1568x1 .i32) (xs0 : Vec F S27x512 .f32) (xs1 : Vec F S27x1 .f32) (E : Set ℕ) (K : PUnit → sProp 𝕄) :
    iprop(owns (c : Thread nD τ) arg2 fullShare x0
        ∗ owns (c : Thread nD τ) arg3 fullShare x1
        ∗ (∃ d, owns (c : Thread nD τ) arg4 fullShare d)
        ∗ (∃ d, owns (c : Thread nD τ) arg5 fullShare d)
        ∗ owns (c : Thread nD τ) arg6 fullShare xs0
        ∗ owns (c : Thread nD τ) arg7 fullShare xs1
        ∗ (iprop(owns (c : Thread nD τ) arg2 fullShare x0
            ∗ owns (c : Thread nD τ) arg3 fullShare x1
            ∗ owns (c : Thread nD τ) arg4 fullShare (k1_pay6 (k1_pay4 x1 x0 xs0))
            ∗ owns (c : Thread nD τ) arg5 fullShare (k1_pay7 (k1_pay5 x1 xs1))
            ∗ owns (c : Thread nD τ) arg6 fullShare (k1_pay4 x1 x0 xs0)
            ∗ owns (c : Thread nD τ) arg7 fullShare (k1_pay5 x1 xs1)) -∗ K ⟨⟩))
      ⊢ wp frame (wpE (defs₀ (F := F)) Variants.none c none) E (cc1__centroid_kernel i arg2 harg2 arg3 harg3 arg4 harg4 arg5 harg5 arg6 harg6 arg7 harg7) K := by
  simp only [cc1__centroid_kernel_eq_skeleton]; unfold cc1__centroid_kernel_skel
  iintro ⟨H0, H1, H2, H3, HS0, HS1, Hk⟩
  unfold owns
  icases H0 with ⟨%f0, %hf0, H0⟩
  icases H1 with ⟨%f1, %hf1, H1⟩
  icases H2 with ⟨%d2, %f2, -, H2⟩
  icases H3 with ⟨%d3, %f3, -, H3⟩
  icases HS0 with ⟨%fs0, %hfs0, HS0⟩
  icases HS1 with ⟨%fs1, %hfs1, HS1⟩
  obtain rfl := harg2.eq_unread hf0; obtain rfl := harg3.eq_unread hf1; obtain rfl := harg6.eq_unread hfs0; obtain rfl := harg7.eq_unread hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    refine (read_writes_whole_last _ _ hz3 _ _ _).trans ?_
    sl_unfold_words
    simp only [View.readAt_eq_ld, hf0, hf1, hfs0, View.ld_unit_zero (S := S1568x1) hz2, View.ld_unit_zero (S := S1568x512) hz2, View.ld_unit_zero (S := S27x512) hz2, View.readCov_unit_zero (S := S27x512) _ hz2]
  isplitl [H3]
  · iexists _; isplitr
    swap; · iexact H3
    ipureintro
    refine (read_writes_whole_last _ _ hz3 _ _ _).trans ?_
    sl_unfold_words
    simp only [View.readAt_eq_ld, hf1, hfs1, View.ld_unit_zero (S := S1568x1) hz2, View.ld_unit_zero (S := S27x1) hz2, View.readCov_unit_zero (S := S27x1) _ hz2]
  isplitl [HS0]
  · iexists _; isplitr
    swap; · iexact HS0
    ipureintro
    refine (read_writes_whole_last _ _ hz2 _ _ _).trans ?_
    simp only [View.readAt_eq_ld, hf0, hf1, hfs0, View.ld_unit_zero (S := S1568x1) hz2, View.ld_unit_zero (S := S1568x512) hz2, View.ld_unit_zero (S := S27x512) hz2]
  iexists _; isplitr
  swap; · iexact HS1
  ipureintro
  refine (read_writes_whole_last _ _ hz2 _ _ _).trans ?_
  simp only [View.readAt_eq_ld, hf1, hfs1, View.ld_unit_zero (S := S1568x1) hz2, View.ld_unit_zero (S := S27x1) hz2]

end Cert.Kernel.Gen

end
-- ==== Proof.Kernel.Region1Frame.lean ====
/-
  Region 1: the body obligation of its proof data (`dat1`), and the invariant's two ends. The body is run case by
  case (a half's first tile, a tile inside a half, a half's last tile); between points the invariant carries the two
  scratch buffers at the running class sums and class counts.
-/
import proofs.«421000_j23381801959614_3_alg».proof.Proof.Kernel.Region1.RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region is stated at
variable (V : (c : Dev nD) → (b : Ref sig .tc) → Buf (Elt F) ((c : Thread nD τ).loc b))

/-! ## The invariant, with the two scratch buffers set apart -/

/-- The core's scoped buffers that are no staging buffer of this call, the two scratch buffers at contents `a` (class
    sums) and `b` (class counts), every other one at some contents; and the generator register. What the invariant is
    after a point, as a function of what the scratch buffers hold. -/
def rest1 (c : Dev nD) (a : Vec F S27x512 .f32) (b : Vec F S27x1 .f32) : sProp 𝕄 :=
  iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (((c : Thread nD τ).loc cc1_scratch0) ↦{fullShare} a)
      ∗ (((c : Thread nD τ).loc cc1_scratch1) ↦{fullShare} b)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg3_1), ((c : Thread nD τ).loc cc2_stg3_1) ↦{fullShare} f)
      ∗ (∃ f : Buf (Elt F) ((c : Thread nD τ).loc cc2_stg4_0), ((c : Thread nD τ).loc cc2_stg4_0) ↦{fullShare} f)
      ∗ (∃ f : Buf (Elt F) ((c : Thread nD τ).loc cc2_stg4_1), ((c : Thread nD τ).loc cc2_stg4_1) ↦{fullShare} f)
      ∗ (∃ f : Buf (Elt F) ((c : Thread nD τ).loc cc2_stg5_0), ((c : Thread nD τ).loc cc2_stg5_0) ↦{fullShare} f)
      ∗ (∃ f : Buf (Elt F) ((c : Thread nD τ).loc cc2_stg5_1), ((c : Thread nD τ).loc cc2_stg5_1) ↦{fullShare} f)
      ∗ (∃ f : Buf (Elt F) ((c : Thread nD τ).loc cc2_stg6_0), ((c : Thread nD τ).loc cc2_stg6_0) ↦{fullShare} f)
      ∗ (∃ f : Buf (Elt F) ((c : Thread nD τ).loc cc2_stg6_1), ((c : Thread nD τ).loc cc2_stg6_1) ↦{fullShare} f)
      ∗ (∃ f : Buf (Elt F) ((c : Thread nD τ).loc cc2_scratch0), ((c : Thread nD τ).loc cc2_scratch0) ↦{fullShare} f)
      ∗ (∃ f : Buf (Elt F) ((c : Thread nD τ).loc cc2_scratch1), ((c : Thread nD τ).loc cc2_scratch1) ↦{fullShare} f)) ∗ (∃ r, prngReg c r))

/-- The same without the two scratch buffers. -/
def others1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg3_1), ((c : Thread nD τ).loc cc2_stg3_1) ↦{fullShare} f)
      ∗ (∃ f : Buf (Elt F) ((c : Thread nD τ).loc cc2_stg4_0), ((c : Thread nD τ).loc cc2_stg4_0) ↦{fullShare} f)
      ∗ (∃ f : Buf (Elt F) ((c : Thread nD τ).loc cc2_stg4_1), ((c : Thread nD τ).loc cc2_stg4_1) ↦{fullShare} f)
      ∗ (∃ f : Buf (Elt F) ((c : Thread nD τ).loc cc2_stg5_0), ((c : Thread nD τ).loc cc2_stg5_0) ↦{fullShare} f)
      ∗ (∃ f : Buf (Elt F) ((c : Thread nD τ).loc cc2_stg5_1), ((c : Thread nD τ).loc cc2_stg5_1) ↦{fullShare} f)
      ∗ (∃ f : Buf (Elt F) ((c : Thread nD τ).loc cc2_stg6_0), ((c : Thread nD τ).loc cc2_stg6_0) ↦{fullShare} f)
      ∗ (∃ f : Buf (Elt F) ((c : Thread nD τ).loc cc2_stg6_1), ((c : Thread nD τ).loc cc2_stg6_1) ↦{fullShare} f)
      ∗ (∃ f : Buf (Elt F) ((c : Thread nD τ).loc cc2_scratch0), ((c : Thread nD τ).loc cc2_scratch0) ↦{fullShare} f)
      ∗ (∃ f : Buf (Elt F) ((c : Thread nD τ).loc cc2_scratch1), ((c : Thread nD τ).loc cc2_scratch1) ↦{fullShare} f)
      ∗ (∃ r, prngReg c r))

/-- After point `n` the invariant has the scratch buffers at that point's running sums. -/
theorem PhiS1_succ (c : Dev nD) (n : ℕ) (hn : n < cfg1.N) :
    PhiS1 V c (n + 1) hn = rest1 c (acc1 V c n hn).1 (acc1 V c n hn).2 := rfl

theorem PhiS1_zero (c : Dev nD) (n : ℕ) (h : n ≤ cfg1.N) (hz : n = 0) : PhiS1 V c n h = Pipeline.ΦA spec1 c := by
  subst hz; rfl

/-- Before a point that is not the first: the scratch buffers at what the point before left. -/
theorem PhiS1_pos (c : Dev nD) (n : ℕ) (h : n ≤ cfg1.N) (hz : n ≠ 0) :
    PhiS1 V c n h = rest1 c (acc1 V c (n - 1) (by omega)).1 (acc1 V c (n - 1) (by omega)).2 := by
  cases n with
  | zero => exact absurd rfl hz
  | succ n => rfl

/-- The invariant at a point's start, restated at the point's number. -/
theorem PhiS1_castSucc (c : Dev nD) (t : Fin cfg1.N) :
    (dat1 V c).Φ t.castSucc = PhiS1 V c t.val (Nat.le_of_lt t.isLt) := rfl

/-- Setting the scratch buffers apart, as whole memrefs; -/
theorem rest1_open (c : Dev nD) (a : Vec F S27x512 .f32) (b : Vec F S27x1 .f32) :
    (rest1 c a b : sProp 𝕄) ⊢ iprop(owns (c : Thread nD τ) scM1_0 fullShare a ∗ owns (c : Thread nD τ) scM1_1 fullShare b ∗ others1 c) := by
  unfold rest1 others1
  simp only [scM1_0, scM1_1, owns_whole]
  iintro ⟨⟨B0, B1, B2, B3, S0, S1, B6, B7, B8, B9, B10, B11, B12, B13, B14, B15, B16, B17, B18, B19, B20⟩, Hg⟩
  isplitl [S0]; · iexact S0
  isplitl [S1]; · iexact S1
  isplitl [B0]; · iexact B0
  isplitl [B1]; · iexact B1
  isplitl [B2]; · iexact B2
  isplitl [B3]; · iexact B3
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  isplitl [B17]; · iexact B17
  isplitl [B18]; · iexact B18
  isplitl [B19]; · iexact B19
  isplitl [B20]; · iexact B20
  iexact Hg

/-- and putting them back. -/
theorem rest1_close (c : Dev nD) (a : Vec F S27x512 .f32) (b : Vec F S27x1 .f32) :
    iprop(owns (c : Thread nD τ) scM1_0 fullShare a ∗ owns (c : Thread nD τ) scM1_1 fullShare b ∗ others1 c) ⊢ (rest1 c a b : sProp 𝕄) := by
  unfold rest1 others1
  simp only [scM1_0, scM1_1, owns_whole]
  iintro ⟨S0, S1, B0, B1, B2, B3, B6, B7, B8, B9, B10, B11, B12, B13, B14, B15, B16, B17, B18, B19, B20, Hg⟩
  isplitr [Hg]
  swap; · iexact Hg
  isplitl [B0]; · iexact B0
  isplitl [B1]; · iexact B1
  isplitl [B2]; · iexact B2
  isplitl [B3]; · iexact B3
  isplitl [S0]; · iexact S0
  isplitl [S1]; · iexact S1
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  isplitl [B17]; · iexact B17
  isplitl [B18]; · iexact B18
  isplitl [B19]; · iexact B19
  iexact B20

/-- What the launch hands the region, the scratch buffers set apart at some contents. -/
theorem PhiA1_open (c : Dev nD) :
    (Pipeline.ΦA spec1 c : sProp 𝕄) ⊢ iprop((∃ d, owns (c : Thread nD τ) scM1_0 fullShare d) ∗ (∃ d, owns (c : Thread nD τ) scM1_1 fullShare d) ∗ others1 c) := by
  unfold Pipeline.ΦA; rw [scopedRest1_eq]; unfold others1
  simp only [scM1_0, scM1_1, owns_whole]
  iintro ⟨⟨B0, B1, B2, B3, S0, S1, B6, B7, B8, B9, B10, B11, B12, B13, B14, B15, B16, B17, B18, B19, B20⟩, Hg⟩
  isplitl [S0]; · iexact S0
  isplitl [S1]; · iexact S1
  isplitl [B0]; · iexact B0
  isplitl [B1]; · iexact B1
  isplitl [B2]; · iexact B2
  isplitl [B3]; · iexact B3
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  isplitl [B17]; · iexact B17
  isplitl [B18]; · iexact B18
  isplitl [B19]; · iexact B19
  isplitl [B20]; · iexact B20
  iexact Hg

/-- Forgetting what the scratch buffers hold gives back what the launch handed over. -/
theorem rest1_forget (c : Dev nD) (a : Vec F S27x512 .f32) (b : Vec F S27x1 .f32) :
    (rest1 c a b : sProp 𝕄) ⊢ Pipeline.ΦA spec1 c := by
  unfold Pipeline.ΦA; rw [scopedRest1_eq]; unfold rest1
  iintro ⟨⟨B0, B1, B2, B3, S0, S1, B6, B7, B8, B9, B10, B11, B12, B13, B14, B15, B16, B17, B18, B19, B20⟩, Hg⟩
  isplitr [Hg]
  swap; · iexact Hg
  isplitl [B0]; · iexact B0
  isplitl [B1]; · iexact B1
  isplitl [B2]; · iexact B2
  isplitl [B3]; · iexact B3
  isplitl [S0]; · iexists _; iexact S0
  isplitl [S1]; · iexists _; iexact S1
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  isplitl [B17]; · iexact B17
  isplitl [B18]; · iexact B18
  isplitl [B19]; · iexact B19
  iexact B20

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the point's number modulo 8 says which of the three
    cases it is in. The invariant hands the body the two scratch buffers — at anything before the first point, else at the
    running sums the point before left — and takes them back at this point's running sums: a half's first tile starts
    them from zero, a later tile adds to what came before. Off a half's last tile the outputs' buffers go back as they
    came; at it they hold the running sums recast. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 8 = 0
  · -- a half's first tile
    have h1 : ¬t.val % 8 = 7 := by omega
    have hc0 : cond1_0 (grid1.coords t) := (hcond1_0 t).mpr h0
    have hc1 : ¬cond1_1 (grid1.coords t) := fun h => h1 ((hcond1_1 t).mp h)
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [Dat.leavesExact_idle (dat1 V c) 2 t (idleAt1_2 t hc1) (noFlush1_2 t hc1)]
    rw [Dat.leavesExact_idle (dat1 V c) 3 t (idleAt1_3 t hc1) (noFlush1_3 t hc1)]
    rw [acc1_first V c t h0]; dsimp only
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩⟩
      ihave HΦ' := (PhiA1_open c) $$ HΦ
      icases HΦ' with ⟨HS0, HS1, HR⟩
      iapply (kernelRun1_A c (grid1.coords t) _ _ _ _ _ _ _ _ _ _ _ _ hc0 hc1 (iblk1 V c 0 t) (iblk1 V c 1 t) _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HR]
      · iapply (rest1_close c _ _)
        isplitl [HS0]; · iexact HS0
        isplitl [HS1]; · iexact HS1
        iexact HR
      isplitl [Ho]; · iexact Ho
      isplitl [H0]; · iexact H0
      isplitl [H1]; · iexact H1
      isplitl [H2]; · iexists _; iexact H2
      iexists _; iexact H3
    · rw [PhiS1_castSucc V c t, PhiS1_pos V c _ _ hz]
      iintro ⟨HΦ, Ho, ⟨%d0, H0⟩, ⟨%d1, H1⟩, ⟨%d2, H2⟩, ⟨%d3, H3⟩⟩
      ihave HΦ' := (rest1_open c _ _) $$ HΦ
      icases HΦ' with ⟨HS0, HS1, HR⟩
      iapply (kernelRun1_A c (grid1.coords t) _ _ _ _ _ _ _ _ _ _ _ _ hc0 hc1 (iblk1 V c 0 t) (iblk1 V c 1 t) _ _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, HS0, HS1⟩
      isplitl [HS0 HS1 HR]
      · iapply (rest1_close c _ _)
        isplitl [HS0]; · iexact HS0
        isplitl [HS1]; · iexact HS1
        iexact HR
      isplitl [Ho]; · iexact Ho
      isplitl [H0]; · iexact H0
      isplitl [H1]; · iexact H1
      isplitl [H2]; · iexists _; iexact H2
      iexists _; iexact H3
  · have hz : t.val ≠ 0 := by omega
    have hc0 : ¬cond1_0 (grid1.coords t) := fun h => h0 ((hcond1_0 t).mp h)
    by_cases h1 : t.val % 8 = 7
    · -- a half's last tile
      have hc1 : cond1_1 (grid1.coords t) := (hcond1_1 t).mpr h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t hc1], after1_2]
      rw [show (dat1 V c).leavesExact 3 t = owns (c : Thread nD τ) (ms1_3 t) fullShare ((dat1 V c).after 3 t) from by
        unfold Dat.leavesExact; rw [liveAt1_3 t hc1], after1_3]
      rw [acc1_later V c t h0]; dsimp only
      rw [PhiS1_castSucc V c t, PhiS1_pos V c _ _ hz]
      iintro ⟨HΦ, Ho, ⟨%d0, H0⟩, ⟨%d1, H1⟩, ⟨%d2, H2⟩, ⟨%d3, H3⟩⟩
      ihave HΦ' := (rest1_open c _ _) $$ HΦ
      icases HΦ' with ⟨HS0, HS1, HR⟩
      iapply (kernelRun1_C c (grid1.coords t) _ _ _ _ _ _ _ _ _ _ _ _ hc0 hc1 (iblk1 V c 0 t) (iblk1 V c 1 t) _ _ Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HS0 HS1 HR]
      · iapply (rest1_close c _ _)
        isplitl [HS0]; · iexact HS0
        isplitl [HS1]; · iexact HS1
        iexact HR
      isplitl [Ho]; · iexact Ho
      isplitl [H0]; · iexact H0
      isplitl [H1]; · iexact H1
      isplitl [H2]; · iexact H2
      iexact H3
    · -- a tile inside a half
      have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t hc1) (noFlush1_2 t hc1)]
      rw [Dat.leavesExact_idle (dat1 V c) 3 t (idleAt1_3 t hc1) (noFlush1_3 t hc1)]
      rw [acc1_later V c t h0]; dsimp only
      rw [PhiS1_castSucc V c t, PhiS1_pos V c _ _ hz]
      iintro ⟨HΦ, Ho, ⟨%d0, H0⟩, ⟨%d1, H1⟩, ⟨%d2, H2⟩, ⟨%d3, H3⟩⟩
      ihave HΦ' := (rest1_open c _ _) $$ HΦ
      icases HΦ' with ⟨HS0, HS1, HR⟩
      iapply (kernelRun1_B c (grid1.coords t) _ _ _ _ _ _ _ _ _ _ _ _ hc0 hc1 (iblk1 V c 0 t) (iblk1 V c 1 t) _ _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HR]
      · iapply (rest1_close c _ _)
        isplitl [HS0]; · iexact HS0
        isplitl [HS1]; · iexact HS1
        iexact HR
      isplitl [Ho]; · iexact Ho
      isplitl [H0]; · iexact H0
      isplitl [H1]; · iexact H1
      isplitl [H2]; · iexists _; iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: what the scratch buffers hold is forgotten. -/
theorem hout1 (c : Dev nD) : (dat1 V c).Φ (Fin.last cfg1.N) ⊢ (Pipeline.ΦA spec1 c : sProp 𝕄) := by
  have hne : (Fin.last cfg1.N).val ≠ 0 := by rw [Fin.val_last]; have : cfg1.N = 16 := N_1; omega
  rw [Phi_eq1, PhiS1_pos V c _ _ hne]
  exact rest1_forget c _ _

end Cert.Kernel.Gen

end
-- ==== Proof.Kernel.Region2Defs.lean ====
/-
  Region 2 (logits, log-softmax and the weighted loss): its proof data, stated at the contents `V` the region is entered
  from. The grid is 2 × 7: point `t` is tile `t % 7` of half `t / 7` of the rows. The two one-element scratch buffers hold
  the half's running weighted loss against the first and the second feature array: reset at the half's first tile, added
  to at every tile, copied to the half's output slot at its last tile. `acc2` is what they hold after each point.
-/
import proofs.«421000_j23381801959614_3_alg».proof.Proof.Gen.Kernel.Launch
import proofs.«421000_j23381801959614_3_alg».proof.Proof.Gen.Kernel.Skeleton
import proofs.«421000_j23381801959614_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region is stated at
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scratch operands: whole scoped buffers of the kernel's own. -/
abbrev scM2_0 : Memref sig .tc .vmem S1x1 .f32 := Memref.whole cc2_scratch0
abbrev scM2_1 : Memref sig .tc .vmem S1x1 .f32 := Memref.whole cc2_scratch1

/-- One tile's step of the first running loss (the rows' losses against the first feature array, weighted, summed, added to `s`). -/
def step2_0 (c : Dev nD) (t : Fin cfg2.N) (s : Vec F S1x1 .f32) : Vec F S1x1 .f32 :=
  k2_pay11 (k2_pay8 (iblk2 V c 4 t)) (k2_pay10 (iblk2 V c 0 t) (iblk2 V c 2 t) (iblk2 V c 3 t)) s
/-- One tile's step of the second running loss (against the second feature array). -/
def step2_1 (c : Dev nD) (t : Fin cfg2.N) (s : Vec F S1x1 .f32) : Vec F S1x1 .f32 :=
  k2_pay1 (k2_pay12 (k2_pay7 (iblk2 V c 3 t)) (k2_pay8 (iblk2 V c 4 t)) (k2_pay9 (iblk2 V c 1 t) (iblk2 V c 2 t)) s)

/-- THE RUNNING LOSSES: what the two scratch buffers hold after the body at position `n`: at a half's first tile the
    tile's step from zero, at a later tile from what the tile before left. -/
def acc2 (c : Dev nD) : (n : ℕ) → n < cfg2.N → Vec F S1x1 .f32 × Vec F S1x1 .f32
  | 0, hn => (step2_0 V c ⟨0, hn⟩ k2_pay4, step2_1 V c ⟨0, hn⟩ k2_pay5)
  | n + 1, hn =>
    if (n + 1) % 7 = 0 then (step2_0 V c ⟨n + 1, hn⟩ k2_pay4, step2_1 V c ⟨n + 1, hn⟩ k2_pay5)
    else (step2_0 V c ⟨n + 1, hn⟩ (acc2 c n (Nat.lt_of_succ_lt hn)).1, step2_1 V c ⟨n + 1, hn⟩ (acc2 c n (Nat.lt_of_succ_lt hn)).2)

theorem acc2_first (c : Dev nD) (t : Fin cfg2.N) (h : t.val % 7 = 0) :
    acc2 V c t.val t.isLt = (step2_0 V c t k2_pay4, step2_1 V c t k2_pay5) := by
  obtain ⟨n, hn⟩ := t
  cases n with
  | zero => rfl
  | succ n => exact if_pos h

theorem acc2_later (c : Dev nD) (t : Fin cfg2.N) (h : ¬ t.val % 7 = 0) :
    acc2 V c t.val t.isLt = (step2_0 V c t (acc2 V c (t.val - 1) (Nat.lt_of_le_of_lt (Nat.sub_le _ _) t.isLt)).1,
      step2_1 V c t (acc2 V c (t.val - 1) (Nat.lt_of_le_of_lt (Nat.sub_le _ _) t.isLt)).2) := by
  obtain ⟨n, hn⟩ := t
  cases n with
  | zero => exact absurd (Nat.zero_mod _) h
  | succ n => exact if_neg h

/-- The region invariant before position `n`: before the first point the class's; afterwards the same with the two
    scratch buffers at what the point before left in them. -/
def PhiS2 (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)
      ∗ (((c : Thread nD τ).loc cc2_scratch0) ↦{fullShare} (acc2 V c n hn).1) ∗ (((c : Thread nD τ).loc cc2_scratch1) ↦{fullShare} (acc2 V c n hn).2)) ∗ (∃ r, prngReg c r))

/-- The proof data of pipeline 2 on core `c`: the inputs' buffers at their blocks; the outputs' at the running losses
    recast (read only where they are written back: at a half's last tile). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay2 (acc2 V c t.val t.isLt).1
    | ⟨6, _⟩ => k2_pay3 (acc2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = k2_pay2 (acc2 V c t.val t.isLt).1 := by dsimp only [dat2]
theorem after2_6 (c : Dev nD) (t : Fin cfg2.N) : (dat2 V c).after 6 t = k2_pay3 (acc2 V c t.val t.isLt).2 := by dsimp only [dat2]
theorem q_eq2 (c : Dev nD) (w : Fin cfg2.W) : (dat2 V c).q w = fullShare := rfl
theorem owed_eq2 (c : Dev nD) (t : Fin (cfg2.N + 1)) : (dat2 V c).owed t = 0 := rfl
theorem Phi_eq2 (c : Dev nD) (t : Fin (cfg2.N + 1)) : (dat2 V c).Φ t = PhiS2 V c t.val (Nat.le_of_lt_succ t.isLt) := rfl

end Cert.Kernel.Gen

end
-- ==== Proof.Kernel.Region2.Runs.lean ====
/-
  Region 2, the kernel function on any whole memrefs. The function has two conditionals on grid coordinate 1 (a
  half's tile number): at tile 0 it resets the two one-element running losses, at tile 6 it copies them, recast, into
  the two outputs. So a point is in one of three cases, and in each the function's weakest precondition is stated
  with what every buffer holds afterwards written out: the inputs as they were, the running losses `s0`, `s1`
  replaced by `k2_pay11 … s0` and `k2_pay1 (k2_pay12 … s1)` over the point's five input blocks.
-/
import proofs.«421000_j23381801959614_3_alg».proof.Proof.Kernel.Region2Defs
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals, from the grid coordinates -/

/-- The first conditional (reset of the two running losses): grid coordinate 1 is 0. -/
abbrev cond2_0 (i : grid2.Coords) : Prop := (Scalar.cmpi .ne (Scalar.extui (Scalar.cmpi .eq (BitVec.ofNat 32 (i 1).val) 0#32)) 0#32) = 1#1
/-- The last conditional (copy of the running losses to the outputs): grid coordinate 1 is 6. -/
abbrev cond2_1 (i : grid2.Coords) : Prop := k2_cond2 i = 1#1

/-- The reset happens at a half's first tile. -/
theorem hcond2_0 : ∀ t : Fin cfg2.N, cond2_0 (grid2.coords t) ↔ t.val % 7 = 0 :=
  (by decide +kernel : ∀ t : Fin grid2.N, cond2_0 (grid2.coords t) ↔ t.val % 7 = 0)
/-- The copy happens at a half's last tile. -/
theorem hcond2_1 : ∀ t : Fin cfg2.N, cond2_1 (grid2.coords t) ↔ t.val % 7 = 6 :=
  (by decide +kernel : ∀ t : Fin grid2.N, cond2_1 (grid2.coords t) ↔ t.val % 7 = 6)

theorem hzero2 : (![0, 0] : Fin 2 → Nat) = fun _ => 0 := funext fun a => by fin_cases a <;> rfl
theorem hzero3 : (![0, 0, 0] : Fin 3 → Nat) = fun _ => 0 := funext fun a => by fin_cases a <;> rfl

/-! ## The body on any whole memrefs, case by case

In every case the five inputs are read and handed back as they were. With `s0`, `s1` the two running losses the
point finds, the body leaves `k2_pay11 … s0` and `k2_pay1 (k2_pay12 … s1)` in the two scratch buffers. -/

set_option maxHeartbeats 1000000 in
/-- A tile that is neither first nor last of its half: the running losses are read and updated; the outputs' buffers
    are not touched. -/
theorem run2_B (c : Dev nD) (i : grid2.Coords)
    (arg2 : Memref sig .tc .vmem S1792x512 .f32) (harg2 : arg2.IsWhole) (arg3 : Memref sig .tc .vmem S1792x512 .f32) (harg3 : arg3.IsWhole)
    (arg4 : Memref sig .tc .vmem S27x512 .f32) (harg4 : arg4.IsWhole) (arg5 : Memref sig .tc .vmem S1792x1 .i32) (harg5 : arg5.IsWhole)
    (arg6 : Memref sig .tc .vmem S1792x1 .f32) (harg6 : arg6.IsWhole) (arg7 : Memref sig .tc .vmem S1x1x1 .f32) (harg7 : arg7.IsWhole)
    (arg8 : Memref sig .tc .vmem S1x1x1 .f32) (harg8 : arg8.IsWhole) (arg9 : Memref sig .tc .vmem S1x1 .f32) (harg9 : arg9.IsWhole)
    (arg10 : Memref sig .tc .vmem S1x1 .f32) (harg10 : arg10.IsWhole)
    (hc0 : ¬cond2_0 i) (hc1 : ¬cond2_1 i)
    (x0 x1 : Vec F S1792x512 .f32) (x2 : Vec F S27x512 .f32) (x3 : Vec F S1792x1 .i32) (x4 : Vec F S1792x1 .f32)
    (xi5 xi6 : Vec F S1x1x1 .f32) (s0 s1 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare xi5 ∗ owns (c : Thread nD τ) arg8 fullShare xi6
        ∗ owns (c : Thread nD τ) arg9 fullShare s0 ∗ owns (c : Thread nD τ) arg10 fullShare s1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare xi5 ∗ owns (c : Thread nD τ) arg8 fullShare xi6
            ∗ owns (c : Thread nD τ) arg9 fullShare (k2_pay11 (k2_pay8 x4) (k2_pay10 x0 x2 x3) s0)
            ∗ owns (c : Thread nD τ) arg10 fullShare (k2_pay1 (k2_pay12 (k2_pay7 x3) (k2_pay8 x4) (k2_pay9 x1 x2) s1))) -∗ K ⟨⟩))
      ⊢ wp frame (wpE (defs₀ (F := F)) Variants.none c none) E
          (cc2__logits_ce_kernel i arg2 harg2 arg3 harg3 arg4 harg4 arg5 harg5 arg6 harg6 arg7 harg7 arg8 harg8 arg9 harg9 arg10 harg10) K := by
  simp only [cc2__logits_ce_kernel_eq_skeleton]; unfold cc2__logits_ce_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg9.eq_unread hfs0; obtain rfl := harg10.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact hf5
    iexact H5
  isplitl [H6]
  · iexists _; isplitr; · ipureintro; exact hf6
    iexact H6
  isplitl [HS0]
  · iexists _; isplitr
    swap; · iexact HS0
    ipureintro
    refine (View.read_writes_eq_canon _ _ _ (fun y => ⟨_, List.mem_singleton_self _, View.mem_set_unit_zero (S := S1x1) hzero2 inb_S1x1_S1x1_0_0 y⟩)).trans
      ((View.canon_unit_zero (S := S1x1) hzero2 inb_S1x1_S1x1_0_0 _).trans ?_)
    sl_unfold_run_names
    simp only [View.readAt_eq_ld, harg2.read_unread, harg3.read_unread, harg4.read_unread, harg5.read_unread, harg6.read_unread, harg9.read_unread, harg10.read_unread,
      View.ld_unit_zero (S := S1792x512) hzero2, View.ld_unit_zero (S := S27x512) hzero2, View.ld_unit_zero (S := S1792x1) hzero2, View.ld_unit_zero (S := S1x1) hzero2,
      View.readCov_unit_zero (S := S1x1) _ hzero2]
  · iexists _; isplitr
    swap; · iexact HS1
    ipureintro
    refine (View.read_writes_eq_canon _ _ _ (fun y => ⟨_, List.mem_singleton_self _, View.mem_set_unit_zero (S := S1x1) hzero2 inb_S1x1_S1x1_0_0 y⟩)).trans
      ((View.canon_unit_zero (S := S1x1) hzero2 inb_S1x1_S1x1_0_0 _).trans ?_)
    sl_unfold_run_names
    simp only [View.readAt_eq_ld, harg2.read_unread, harg3.read_unread, harg4.read_unread, harg5.read_unread, harg6.read_unread, harg9.read_unread, harg10.read_unread,
      View.ld_unit_zero (S := S1792x512) hzero2, View.ld_unit_zero (S := S27x512) hzero2, View.ld_unit_zero (S := S1792x1) hzero2, View.ld_unit_zero (S := S1x1) hzero2,
      View.readCov_unit_zero (S := S1x1) _ hzero2]

set_option maxHeartbeats 1000000 in
/-- A half's first tile: the running losses are reset (to `k2_pay4`, `k2_pay5`), whatever the scratch buffers held, and
    then updated; the outputs' buffers are not touched. -/
theorem run2_A (c : Dev nD) (i : grid2.Coords)
    (arg2 : Memref sig .tc .vmem S1792x512 .f32) (harg2 : arg2.IsWhole) (arg3 : Memref sig .tc .vmem S1792x512 .f32) (harg3 : arg3.IsWhole)
    (arg4 : Memref sig .tc .vmem S27x512 .f32) (harg4 : arg4.IsWhole) (arg5 : Memref sig .tc .vmem S1792x1 .i32) (harg5 : arg5.IsWhole)
    (arg6 : Memref sig .tc .vmem S1792x1 .f32) (harg6 : arg6.IsWhole) (arg7 : Memref sig .tc .vmem S1x1x1 .f32) (harg7 : arg7.IsWhole)
    (arg8 : Memref sig .tc .vmem S1x1x1 .f32) (harg8 : arg8.IsWhole) (arg9 : Memref sig .tc .vmem S1x1 .f32) (harg9 : arg9.IsWhole)
    (arg10 : Memref sig .tc .vmem S1x1 .f32) (harg10 : arg10.IsWhole)
    (hc0 : cond2_0 i) (hc1 : ¬cond2_1 i)
    (x0 x1 : Vec F S1792x512 .f32) (x2 : Vec F S27x512 .f32) (x3 : Vec F S1792x1 .i32) (x4 : Vec F S1792x1 .f32)
    (xi5 xi6 : Vec F S1x1x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare xi5 ∗ owns (c : Thread nD τ) arg8 fullShare xi6
        ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare xi5 ∗ owns (c : Thread nD τ) arg8 fullShare xi6
            ∗ owns (c : Thread nD τ) arg9 fullShare (k2_pay11 (k2_pay8 x4) (k2_pay10 x0 x2 x3) k2_pay4)
            ∗ owns (c : Thread nD τ) arg10 fullShare (k2_pay1 (k2_pay12 (k2_pay7 x3) (k2_pay8 x4) (k2_pay9 x1 x2) k2_pay5))) -∗ K ⟨⟩))
      ⊢ wp frame (wpE (defs₀ (F := F)) Variants.none c none) E
          (cc2__logits_ce_kernel i arg2 harg2 arg3 harg3 arg4 harg4 arg5 harg5 arg6 harg6 arg7 harg7 arg8 harg8 arg9 harg9 arg10 harg10) K := by
  simp only [cc2__logits_ce_kernel_eq_skeleton]; unfold cc2__logits_ce_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact hf5
    iexact H5
  isplitl [H6]
  · iexists _; isplitr; · ipureintro; exact hf6
    iexact H6
  isplitl [HS0]
  · iexists _; isplitr
    swap; · iexact HS0
    ipureintro
    refine (View.read_writes_eq_canon _ _ _ (fun y => ⟨_, List.mem_cons_self, View.mem_set_unit_zero (S := S1x1) hzero2 inb_S1x1_S1x1_0_0 y⟩)).trans
      ((View.canon_cons_unit_zero (S := S1x1) hzero2 inb_S1x1_S1x1_0_0 _ _).trans ?_)
    sl_unfold_run_names
    simp only [View.readAt_eq_ld, harg2.read_unread, harg3.read_unread, harg4.read_unread, harg5.read_unread, harg6.read_unread, harg9.read_unread, harg10.read_unread,
      View.ld_unit_zero (S := S1792x512) hzero2, View.ld_unit_zero (S := S27x512) hzero2, View.ld_unit_zero (S := S1792x1) hzero2, View.ld_unit_zero (S := S1x1) hzero2,
      View.readCov_unit_zero (S := S1x1) _ hzero2]
  · iexists _; isplitr
    swap; · iexact HS1
    ipureintro
    refine (View.read_writes_eq_canon _ _ _ (fun y => ⟨_, List.mem_cons_self, View.mem_set_unit_zero (S := S1x1) hzero2 inb_S1x1_S1x1_0_0 y⟩)).trans
      ((View.canon_cons_unit_zero (S := S1x1) hzero2 inb_S1x1_S1x1_0_0 _ _).trans ?_)
    sl_unfold_run_names
    simp only [View.readAt_eq_ld, harg2.read_unread, harg3.read_unread, harg4.read_unread, harg5.read_unread, harg6.read_unread, harg9.read_unread, harg10.read_unread,
      View.ld_unit_zero (S := S1792x512) hzero2, View.ld_unit_zero (S := S27x512) hzero2, View.ld_unit_zero (S := S1792x1) hzero2, View.ld_unit_zero (S := S1x1) hzero2,
      View.readCov_unit_zero (S := S1x1) _ hzero2]

set_option maxHeartbeats 1000000 in
/-- A half's last tile: the running losses are read and updated, and then copied, recast, into the two outputs'
    buffers, whatever those held. -/
theorem run2_C (c : Dev nD) (i : grid2.Coords)
    (arg2 : Memref sig .tc .vmem S1792x512 .f32) (harg2 : arg2.IsWhole) (arg3 : Memref sig .tc .vmem S1792x512 .f32) (harg3 : arg3.IsWhole)
    (arg4 : Memref sig .tc .vmem S27x512 .f32) (harg4 : arg4.IsWhole) (arg5 : Memref sig .tc .vmem S1792x1 .i32) (harg5 : arg5.IsWhole)
    (arg6 : Memref sig .tc .vmem S1792x1 .f32) (harg6 : arg6.IsWhole) (arg7 : Memref sig .tc .vmem S1x1x1 .f32) (harg7 : arg7.IsWhole)
    (arg8 : Memref sig .tc .vmem S1x1x1 .f32) (harg8 : arg8.IsWhole) (arg9 : Memref sig .tc .vmem S1x1 .f32) (harg9 : arg9.IsWhole)
    (arg10 : Memref sig .tc .vmem S1x1 .f32) (harg10 : arg10.IsWhole)
    (hc0 : ¬cond2_0 i) (hc1 : cond2_1 i)
    (x0 x1 : Vec F S1792x512 .f32) (x2 : Vec F S27x512 .f32) (x3 : Vec F S1792x1 .i32) (x4 : Vec F S1792x1 .f32)
    (s0 s1 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ owns (c : Thread nD τ) arg9 fullShare s0 ∗ owns (c : Thread nD τ) arg10 fullShare s1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare (k2_pay2 (k2_pay11 (k2_pay8 x4) (k2_pay10 x0 x2 x3) s0)) ∗ owns (c : Thread nD τ) arg8 fullShare (k2_pay3 (k2_pay1 (k2_pay12 (k2_pay7 x3) (k2_pay8 x4) (k2_pay9 x1 x2) s1)))
            ∗ owns (c : Thread nD τ) arg9 fullShare (k2_pay11 (k2_pay8 x4) (k2_pay10 x0 x2 x3) s0)
            ∗ owns (c : Thread nD τ) arg10 fullShare (k2_pay1 (k2_pay12 (k2_pay7 x3) (k2_pay8 x4) (k2_pay9 x1 x2) s1))) -∗ K ⟨⟩))
      ⊢ wp frame (wpE (defs₀ (F := F)) Variants.none c none) E
          (cc2__logits_ce_kernel i arg2 harg2 arg3 harg3 arg4 harg4 arg5 harg5 arg6 harg6 arg7 harg7 arg8 harg8 arg9 harg9 arg10 harg10) K := by
  simp only [cc2__logits_ce_kernel_eq_skeleton]; unfold cc2__logits_ce_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg9.eq_unread hfs0; obtain rfl := harg10.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (View.read_writes_eq_canon _ _ _ (fun y => ⟨_, List.mem_singleton_self _, View.mem_set_unit_zero (S := S1x1x1) hzero3 inb_S1x1x1_S1x1x1_0_0_0 y⟩)).trans
      ((View.canon_unit_zero (S := S1x1x1) hzero3 inb_S1x1x1_S1x1x1_0_0_0 _).trans ?_)
    sl_unfold_run_names
    simp only [View.readAt_eq_ld, harg2.read_unread, harg3.read_unread, harg4.read_unread, harg5.read_unread, harg6.read_unread, harg9.read_unread, harg10.read_unread,
      View.ld_unit_zero (S := S1792x512) hzero2, View.ld_unit_zero (S := S27x512) hzero2, View.ld_unit_zero (S := S1792x1) hzero2, View.ld_unit_zero (S := S1x1) hzero2,
      View.readCov_unit_zero (S := S1x1) _ hzero2]
  isplitl [H6]
  · iexists _; isplitr
    swap; · iexact H6
    ipureintro
    refine (View.read_writes_eq_canon _ _ _ (fun y => ⟨_, List.mem_singleton_self _, View.mem_set_unit_zero (S := S1x1x1) hzero3 inb_S1x1x1_S1x1x1_0_0_0 y⟩)).trans
      ((View.canon_unit_zero (S := S1x1x1) hzero3 inb_S1x1x1_S1x1x1_0_0_0 _).trans ?_)
    sl_unfold_run_names
    simp only [View.readAt_eq_ld, harg2.read_unread, harg3.read_unread, harg4.read_unread, harg5.read_unread, harg6.read_unread, harg9.read_unread, harg10.read_unread,
      View.ld_unit_zero (S := S1792x512) hzero2, View.ld_unit_zero (S := S27x512) hzero2, View.ld_unit_zero (S := S1792x1) hzero2, View.ld_unit_zero (S := S1x1) hzero2,
      View.readCov_unit_zero (S := S1x1) _ hzero2]
  isplitl [HS0]
  · iexists _; isplitr
    swap; · iexact HS0
    ipureintro
    refine (View.read_writes_eq_canon _ _ _ (fun y => ⟨_, List.mem_singleton_self _, View.mem_set_unit_zero (S := S1x1) hzero2 inb_S1x1_S1x1_0_0 y⟩)).trans
      ((View.canon_unit_zero (S := S1x1) hzero2 inb_S1x1_S1x1_0_0 _).trans ?_)
    sl_unfold_run_names
    simp only [View.readAt_eq_ld, harg2.read_unread, harg3.read_unread, harg4.read_unread, harg5.read_unread, harg6.read_unread, harg9.read_unread, harg10.read_unread,
      View.ld_unit_zero (S := S1792x512) hzero2, View.ld_unit_zero (S := S27x512) hzero2, View.ld_unit_zero (S := S1792x1) hzero2, View.ld_unit_zero (S := S1x1) hzero2,
      View.readCov_unit_zero (S := S1x1) _ hzero2]
  · iexists _; isplitr
    swap; · iexact HS1
    ipureintro
    refine (View.read_writes_eq_canon _ _ _ (fun y => ⟨_, List.mem_singleton_self _, View.mem_set_unit_zero (S := S1x1) hzero2 inb_S1x1_S1x1_0_0 y⟩)).trans
      ((View.canon_unit_zero (S := S1x1) hzero2 inb_S1x1_S1x1_0_0 _).trans ?_)
    sl_unfold_run_names
    simp only [View.readAt_eq_ld, harg2.read_unread, harg3.read_unread, harg4.read_unread, harg5.read_unread, harg6.read_unread, harg9.read_unread, harg10.read_unread,
      View.ld_unit_zero (S := S1792x512) hzero2, View.ld_unit_zero (S := S27x512) hzero2, View.ld_unit_zero (S := S1792x1) hzero2, View.ld_unit_zero (S := S1x1) hzero2,
      View.readCov_unit_zero (S := S1x1) _ hzero2]

end Cert.Kernel.Gen

end
-- ==== Proof.Kernel.Region2Frame.lean ====
/-
  Region 2: the body obligation of its proof data (`dat2`), and the invariant's two ends.

  The invariant between points is the class's with the two one-element scratch buffers named: after point `n` they hold
  the running losses `acc2 n`. A point's tile number within its half selects one of the kernel function's three
  cases; in each, what the function leaves in the scratch buffers is one step of `acc2`'s recursion (from the reset
  values at a half's first tile, from the point before otherwise), and at a half's last tile the outputs' buffers end at
  the running losses recast.
-/
import proofs.«421000_j23381801959614_3_alg».proof.Proof.Kernel.Region2.Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region is stated at
variable (V : (c : Dev nD) → (b : Ref sig .tc) → Buf (Elt F) ((c : Thread nD τ).loc b))

/-! ## The invariant, taken apart

Region 2 touches two of the core's sixteen scoped buffers that are no staging buffer of its own: its two one-element
scratch buffers. The other fourteen (the staging and scratch buffers of the two earlier calls) are carried through
every point at some contents. -/

/-- The fourteen scoped buffers of the two earlier calls, each whole at some contents. -/
def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The class's invariant: the fourteen, the two scratch buffers at anything, the generator register at some state. -/
theorem PhiA2_elim (c : Dev nD) :
    (Pipeline.ΦA spec2 c : sProp 𝕄) ⊢ iprop(rest2 (F := F) c ∗ (∃ d, owns (c : Thread nD τ) scM2_0 fullShare d) ∗ (∃ d, owns (c : Thread nD τ) scM2_1 fullShare d) ∗ (∃ r, prngReg c r)) := by
  unfold Pipeline.ΦA; rw [scopedRest2_eq]; unfold rest2; simp only [scM2_0, scM2_1, owns_whole]
  iintro ⟨⟨R1, R2, R3, R4, R5, R6, R7, R8, R9, R10, R11, R12, R13, R14, HS0, HS1⟩, Hg⟩
  isplitl [R1 R2 R3 R4 R5 R6 R7 R8 R9 R10 R11 R12 R13 R14]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    iexact R14
  isplitl [HS0]; · iexact HS0
  isplitl [HS1]; · iexact HS1
  iexact Hg

theorem PhiA2_intro (c : Dev nD) :
    iprop(rest2 (F := F) c ∗ (∃ d, owns (c : Thread nD τ) scM2_0 fullShare d) ∗ (∃ d, owns (c : Thread nD τ) scM2_1 fullShare d) ∗ (∃ r, prngReg c r)) ⊢ (Pipeline.ΦA spec2 c : sProp 𝕄) := by
  unfold Pipeline.ΦA; rw [scopedRest2_eq]; unfold rest2; simp only [scM2_0, scM2_1, owns_whole]
  iintro ⟨⟨R1, R2, R3, R4, R5, R6, R7, R8, R9, R10, R11, R12, R13, R14⟩, HS0, HS1, Hg⟩
  isplitl [R1 R2 R3 R4 R5 R6 R7 R8 R9 R10 R11 R12 R13 R14 HS0 HS1]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [HS0]; · iexact HS0
    iexact HS1
  iexact Hg

/-- After point `n`: the fourteen, the two scratch buffers at the running losses, the generator register. -/
theorem PhiS2_elim (c : Dev nD) (n : ℕ) (hn : n < cfg2.N) :
    PhiS2 V c (n + 1) hn ⊢ iprop(rest2 (F := F) c ∗ owns (c : Thread nD τ) scM2_0 fullShare (acc2 V c n hn).1 ∗ owns (c : Thread nD τ) scM2_1 fullShare (acc2 V c n hn).2 ∗ (∃ r, prngReg c r)) := by
  unfold PhiS2 rest2; simp only [scM2_0, scM2_1, owns_whole]
  iintro ⟨⟨R1, R2, R3, R4, R5, R6, R7, R8, R9, R10, R11, R12, R13, R14, HS0, HS1⟩, Hg⟩
  isplitl [R1 R2 R3 R4 R5 R6 R7 R8 R9 R10 R11 R12 R13 R14]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    iexact R14
  isplitl [HS0]; · iexact HS0
  isplitl [HS1]; · iexact HS1
  iexact Hg

theorem PhiS2_intro (c : Dev nD) (n : ℕ) (hn : n < cfg2.N) :
    iprop(rest2 (F := F) c ∗ owns (c : Thread nD τ) scM2_0 fullShare (acc2 V c n hn).1 ∗ owns (c : Thread nD τ) scM2_1 fullShare (acc2 V c n hn).2 ∗ (∃ r, prngReg c r)) ⊢ PhiS2 V c (n + 1) hn := by
  unfold PhiS2 rest2; simp only [scM2_0, scM2_1, owns_whole]
  iintro ⟨⟨R1, R2, R3, R4, R5, R6, R7, R8, R9, R10, R11, R12, R13, R14⟩, HS0, HS1, Hg⟩
  isplitl [R1 R2 R3 R4 R5 R6 R7 R8 R9 R10 R11 R12 R13 R14 HS0 HS1]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [HS0]; · iexact HS0
    iexact HS1
  iexact Hg

/-- Before a point that is not the first: the scratch buffers at what the point before left. -/
theorem PhiS2_pos_elim (c : Dev nD) (n : ℕ) (h : n ≤ cfg2.N) (hz : n ≠ 0) :
    PhiS2 V c n h ⊢ iprop(rest2 (F := F) c ∗ owns (c : Thread nD τ) scM2_0 fullShare (acc2 V c (n - 1) (by omega)).1 ∗ owns (c : Thread nD τ) scM2_1 fullShare (acc2 V c (n - 1) (by omega)).2 ∗ (∃ r, prngReg c r)) := by
  cases n with
  | zero => exact absurd rfl hz
  | succ n => exact PhiS2_elim V c n h

/-- At any position the invariant gives the class's back: the running losses' names are forgotten. -/
theorem PhiS2_out (c : Dev nD) (n : ℕ) (h : n ≤ cfg2.N) : PhiS2 V c n h ⊢ (Pipeline.ΦA spec2 c : sProp 𝕄) := by
  cases n with
  | zero => exact Idealize.SL.BI.Entails.refl _
  | succ n =>
    refine (PhiS2_elim V c n h).trans ?_
    iintro ⟨HR, HS0, HS1, Hg⟩
    iapply PhiA2_intro
    isplitl [HR]; · iexact HR
    isplitl [HS0]; · iexists _; iexact HS0
    isplitl [HS1]; · iexists _; iexact HS1
    iexact Hg

/-- So at any position the scratch buffers are there at some contents. -/
theorem PhiS2_any (c : Dev nD) (n : ℕ) (h : n ≤ cfg2.N) :
    PhiS2 V c n h ⊢ iprop(rest2 (F := F) c ∗ (∃ d, owns (c : Thread nD τ) scM2_0 fullShare d) ∗ (∃ d, owns (c : Thread nD τ) scM2_1 fullShare d) ∗ (∃ r, prngReg c r)) :=
  (PhiS2_out V c n h).trans (PhiA2_elim c)

theorem PhiS2_castSucc (c : Dev nD) (t : Fin cfg2.N) :
    (dat2 V c).Φ t.castSucc = PhiS2 V c t.val (Nat.le_of_lt t.isLt) := by
  dsimp only [dat2]; simp only [Fin.coe_castSucc]

/-! ## The windows at a point -/

abbrev ms2_0 (t : Fin cfg2.N) : Memref sig .tc .vmem S1792x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1792x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S27x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1792x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1792x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1x1 .f32 := win2_6.stage (cfg2.slots t 6)
abbrev hs2_6 (t : Fin cfg2.N) : (ms2_6 t).IsWhole := hstage2_6 ((cfg2.slots t 6).cast nbuf2_6)

/-- Each input's current staging buffer holds its block at every point, fetched there or not (the centroids are fetched
    at the first point only; their block index never moves). -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

/-- The inputs are never idle. -/
theorem liveAt2_0 (t : Fin cfg2.N) : cfg2.idle 0 (grid2.coords t) = false := rfl
theorem liveAt2_1 (t : Fin cfg2.N) : cfg2.idle 1 (grid2.coords t) = false := rfl
theorem liveAt2_2 (t : Fin cfg2.N) : cfg2.idle 2 (grid2.coords t) = false := rfl
theorem liveAt2_3 (t : Fin cfg2.N) : cfg2.idle 3 (grid2.coords t) = false := rfl
theorem liveAt2_4 (t : Fin cfg2.N) : cfg2.idle 4 (grid2.coords t) = false := rfl
/-- The two outputs are idle, and not written back, except at a half's last tile, where they are live. -/
theorem idleAt2_5 : ∀ t : Fin cfg2.N, ¬t.val % 7 = 6 → cfg2.idle 5 (grid2.coords t) = true := by decide +kernel
theorem idleAt2_6 : ∀ t : Fin cfg2.N, ¬t.val % 7 = 6 → cfg2.idle 6 (grid2.coords t) = true := by decide +kernel
theorem noFlush2_5 : ∀ t : Fin cfg2.N, ¬t.val % 7 = 6 → (cfg2.win 5).flush t = false := by decide +kernel
theorem noFlush2_6 : ∀ t : Fin cfg2.N, ¬t.val % 7 = 6 → (cfg2.win 6).flush t = false := by decide +kernel
theorem liveAt2_5 : ∀ t : Fin cfg2.N, t.val % 7 = 6 → cfg2.idle 5 (grid2.coords t) = false := by decide +kernel
theorem liveAt2_6 : ∀ t : Fin cfg2.N, t.val % 7 = 6 → cfg2.idle 6 (grid2.coords t) = false := by decide +kernel

/-! ## The accumulators' recursion, as the invariant after a point -/

theorem PhiS2_intro_first (c : Dev nD) (t : Fin cfg2.N) (h0 : t.val % 7 = 0) :
    iprop(rest2 (F := F) c ∗ owns (c : Thread nD τ) scM2_0 fullShare (step2_0 V c t k2_pay4)
        ∗ owns (c : Thread nD τ) scM2_1 fullShare (step2_1 V c t k2_pay5) ∗ (∃ r, prngReg c r))
      ⊢ PhiS2 V c (t.val + 1) t.isLt := by
  have e := PhiS2_intro V c t.val t.isLt
  rw [acc2_first V c t h0] at e
  exact e

theorem PhiS2_intro_later (c : Dev nD) (t : Fin cfg2.N) (h0 : ¬t.val % 7 = 0) :
    iprop(rest2 (F := F) c
        ∗ owns (c : Thread nD τ) scM2_0 fullShare (step2_0 V c t (acc2 V c (t.val - 1) (Nat.lt_of_le_of_lt (Nat.sub_le _ _) t.isLt)).1)
        ∗ owns (c : Thread nD τ) scM2_1 fullShare (step2_1 V c t (acc2 V c (t.val - 1) (Nat.lt_of_le_of_lt (Nat.sub_le _ _) t.isLt)).2)
        ∗ (∃ r, prngReg c r))
      ⊢ PhiS2 V c (t.val + 1) t.isLt := by
  have e := PhiS2_intro V c t.val t.isLt
  rw [acc2_later V c t h0] at e
  exact e

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point. The inputs' buffers hold their blocks; the point's tile number says which case it is in.
    At a half's first tile the scratch buffers may hold anything and end at the tile's step from the reset values; at a
    later tile they hold what the tile before left and end at the tile's step from that: the recursion of `acc2`. The
    outputs' buffers are handed back untouched except at a half's last tile, where they end at the running losses
    recast. The fourteen other scoped buffers, the generator register and the core's owes pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_castSucc]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  have hN : t.val < 14 := lt_of_lt_of_eq t.isLt (show cfg2.N = 14 from N_2)
  by_cases h0 : t.val % 7 = 0
  · have h1 : ¬t.val % 7 = 6 := by omega
    rw [Dat.leavesExact_idle (dat2 V c) 5 t (idleAt2_5 t h1) (noFlush2_5 t h1),
      Dat.leavesExact_idle (dat2 V c) 6 t (idleAt2_6 t h1) (noFlush2_6 t h1)]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (PhiS2_any V c t.val (Nat.le_of_lt t.isLt)) $$ HΦ
    icases HΦ' with ⟨HR, HS0, HS1, Hg⟩
    iapply (run2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HR HS0 HS1 Hg]
    · iapply PhiS2_intro_first V c t h0
      unfold step2_0 step2_1
      isplitl [HR]; · iexact HR
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hz : t.val ≠ 0 := fun e => h0 (by rw [e])
    by_cases h1 : t.val % 7 = 6
    · rw [show (dat2 V c).leavesExact 5 t = owns (c : Thread nD τ) (ms2_5 t) fullShare ((dat2 V c).after 5 t) from by
        unfold Dat.leavesExact; rw [liveAt2_5 t h1], after2_5]
      rw [show (dat2 V c).leavesExact 6 t = owns (c : Thread nD τ) (ms2_6 t) fullShare ((dat2 V c).after 6 t) from by
        unfold Dat.leavesExact; rw [liveAt2_6 t h1], after2_6]
      rw [acc2_later V c t h0]; dsimp only
      unfold step2_0 step2_1
      iintro ⟨HΦ, Ho, ⟨%d0, H0⟩, ⟨%d1, H1⟩, ⟨%d2, H2⟩, ⟨%d3, H3⟩, ⟨%d4, H4⟩, ⟨%d5, H5⟩, ⟨%d6, H6⟩⟩
      ihave HΦ' := (PhiS2_pos_elim V c t.val (Nat.le_of_lt t.isLt) hz) $$ HΦ
      icases HΦ' with ⟨HR, HS0, HS1, Hg⟩
      iapply (run2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HR HS0 HS1 Hg]
      · iapply PhiS2_intro_later V c t h0
        unfold step2_0 step2_1
        isplitl [HR]; · iexact HR
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat2 V c) 5 t (idleAt2_5 t h1) (noFlush2_5 t h1),
        Dat.leavesExact_idle (dat2 V c) 6 t (idleAt2_6 t h1) (noFlush2_6 t h1)]
      iintro ⟨HΦ, Ho, ⟨%d0, H0⟩, ⟨%d1, H1⟩, ⟨%d2, H2⟩, ⟨%d3, H3⟩, ⟨%d4, H4⟩, ⟨%d5, H5⟩, ⟨%d6, H6⟩⟩
      ihave HΦ' := (PhiS2_pos_elim V c t.val (Nat.le_of_lt t.isLt) hz) $$ HΦ
      icases HΦ' with ⟨HR, HS0, HS1, Hg⟩
      iapply (run2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HR HS0 HS1 Hg]
      · iapply PhiS2_intro_later V c t h0
        unfold step2_0 step2_1
        isplitl [HR]; · iexact HR
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [Phi_eq2]
  exact Idealize.SL.BI.Entails.refl _

/-- After the last point the invariant gives it back. -/
theorem hout2 (c : Dev nD) : (dat2 V c).Φ (Fin.last cfg2.N) ⊢ (Pipeline.ΦA spec2 c : sProp 𝕄) := by
  rw [Phi_eq2]
  exact PhiS2_out V c _ _

end Cert.Kernel.Gen

end
-- ==== Proof.Kernel.Run.lean ====
/-
  THE RUN of the kernel program: @main is three stretches of host operations around three kernel regions. The buffer
  contents at each boundary are a fold from the launch memory (`Wv0` … `Wv6`): a host stretch applies its operations, a
  region leaves its input arrays as entered and each output array with its grid points' write-backs folded in. Over the
  thread state "every unscoped buffer at the boundary's contents, the generator register at some state, nothing owed"
  each region is a segment whose body obligation and invariant ends are the region modules'; the launch theorem for a
  list of segments then gives: every weakly fair execution terminates with every unscoped buffer at `Wv6`.
-/
import proofs.«421000_j23381801959614_3_alg».proof.Proof.Kernel.Region0Frame
import proofs.«421000_j23381801959614_3_alg».proof.Proof.Kernel.Region1Frame
import proofs.«421000_j23381801959614_3_alg».proof.Proof.Kernel.Region2Frame

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev Wv0 : Dev nD → Valuation τ sig (Elt F) := fun c b => (s₀ m ρ).mem ((c : Dev nD), b)
/-- After the first host stretch (region 0's entry). -/
abbrev Wv1 : Dev nD → Valuation τ sig (Elt F) := fun c => StableHlo.after hostOps0 (Wv0 m ρ c)
/-- The same read at the TensorCore's references (what region 0's proof data take). -/
abbrev En0 : (c : Dev nD) → (b : Ref sig .tc) → Buf (Elt F) ((c : Thread nD τ).loc b) := fun c b => Wv1 m ρ c b

/-- At region 0's exit: its arrays at what the pipeline leaves (an input as entered, an output with its write-backs
    folded in), every other buffer as entered. -/
def Wv2 (c : Dev nD) : Valuation τ sig (Elt F) :=
  Pipeline.withArrays spec0 c (Wv1 m ρ c) fun w => (dat0 (En0 m ρ) c).arrAt w cfg0.N
theorem Wv2_arr (c : Dev nD) (w : Fin cfg0.W) :
    Wv2 m ρ c (Proc.devRef .tc (Pipeline.arrRef spec0 w)) = (dat0 (En0 m ρ) c).arrAt w cfg0.N := by
  unfold Wv2; exact Pipeline.withArrays_arr spec0 launch0.win.arr_inj c _ _ w
theorem Wv2_of_ne (c : Dev nD) (b : Ref sig .tc) (hb : ∀ w, Pipeline.arrRef spec0 w ≠ b) :
    Wv2 m ρ c (Proc.devRef .tc b) = Wv1 m ρ c (Proc.devRef .tc b) := by
  unfold Wv2; exact Pipeline.withArrays_of_ne spec0 c _ _ b hb
/-- The same read at the TensorCore's references. -/
abbrev En1 : (c : Dev nD) → (b : Ref sig .tc) → Buf (Elt F) ((c : Thread nD τ).loc b) := fun c b => Wv2 m ρ c b
theorem hF0 (c : Dev nD) (w : Fin cfg0.W) : (dat0 (En0 m ρ) c).arrAt w cfg0.N = En1 m ρ c (Pipeline.arrRef spec0 w) :=
  (Wv2_arr m ρ c w).symm
theorem hrest0 (c : Dev nD) : ∀ b, b ∉ Finset.univ.image (Pipeline.arrRef spec0) → En1 m ρ c b = En0 m ρ c b :=
  fun b hb => Wv2_of_ne m ρ c b fun w e => hb (Finset.mem_image.mpr ⟨w, Finset.mem_univ _, e⟩)

/-- At region 1's exit: its arrays at what the pipeline leaves (an input as entered, an output with its write-backs
    folded in), every other buffer as entered. -/
def Wv3 (c : Dev nD) : Valuation τ sig (Elt F) :=
  Pipeline.withArrays spec1 c (Wv2 m ρ c) fun w => (dat1 (En1 m ρ) c).arrAt w cfg1.N
theorem Wv3_arr (c : Dev nD) (w : Fin cfg1.W) :
    Wv3 m ρ c (Proc.devRef .tc (Pipeline.arrRef spec1 w)) = (dat1 (En1 m ρ) c).arrAt w cfg1.N := by
  unfold Wv3; exact Pipeline.withArrays_arr spec1 launch1.win.arr_inj c _ _ w
theorem Wv3_of_ne (c : Dev nD) (b : Ref sig .tc) (hb : ∀ w, Pipeline.arrRef spec1 w ≠ b) :
    Wv3 m ρ c (Proc.devRef .tc b) = Wv2 m ρ c (Proc.devRef .tc b) := by
  unfold Wv3; exact Pipeline.withArrays_of_ne spec1 c _ _ b hb
/-- The same read at the TensorCore's references. -/
abbrev Ex1 : (c : Dev nD) → (b : Ref sig .tc) → Buf (Elt F) ((c : Thread nD τ).loc b) := fun c b => Wv3 m ρ c b
theorem hF1 (c : Dev nD) (w : Fin cfg1.W) : (dat1 (En1 m ρ) c).arrAt w cfg1.N = Ex1 m ρ c (Pipeline.arrRef spec1 w) :=
  (Wv3_arr m ρ c w).symm
theorem hrest1 (c : Dev nD) : ∀ b, b ∉ Finset.univ.image (Pipeline.arrRef spec1) → Ex1 m ρ c b = En1 m ρ c b :=
  fun b hb => Wv3_of_ne m ρ c b fun w e => hb (Finset.mem_image.mpr ⟨w, Finset.mem_univ _, e⟩)

/-- After the second host stretch (region 2's entry). -/
abbrev Wv4 : Dev nD → Valuation τ sig (Elt F) := fun c => StableHlo.after hostOps2 (Wv3 m ρ c)
/-- The same read at the TensorCore's references (what region 2's proof data take). -/
abbrev En2 : (c : Dev nD) → (b : Ref sig .tc) → Buf (Elt F) ((c : Thread nD τ).loc b) := fun c b => Wv4 m ρ c b

/-- At region 2's exit: its arrays at what the pipeline leaves (an input as entered, an output with its write-backs
    folded in), every other buffer as entered. -/
def Wv5 (c : Dev nD) : Valuation τ sig (Elt F) :=
  Pipeline.withArrays spec2 c (Wv4 m ρ c) fun w => (dat2 (En2 m ρ) c).arrAt w cfg2.N
theorem Wv5_arr (c : Dev nD) (w : Fin cfg2.W) :
    Wv5 m ρ c (Proc.devRef .tc (Pipeline.arrRef spec2 w)) = (dat2 (En2 m ρ) c).arrAt w cfg2.N := by
  unfold Wv5; exact Pipeline.withArrays_arr spec2 launch2.win.arr_inj c _ _ w
theorem Wv5_of_ne (c : Dev nD) (b : Ref sig .tc) (hb : ∀ w, Pipeline.arrRef spec2 w ≠ b) :
    Wv5 m ρ c (Proc.devRef .tc b) = Wv4 m ρ c (Proc.devRef .tc b) := by
  unfold Wv5; exact Pipeline.withArrays_of_ne spec2 c _ _ b hb
/-- The same read at the TensorCore's references. -/
abbrev Ex2 : (c : Dev nD) → (b : Ref sig .tc) → Buf (Elt F) ((c : Thread nD τ).loc b) := fun c b => Wv5 m ρ c b
theorem hF2 (c : Dev nD) (w : Fin cfg2.W) : (dat2 (En2 m ρ) c).arrAt w cfg2.N = Ex2 m ρ c (Pipeline.arrRef spec2 w) :=
  (Wv5_arr m ρ c w).symm
theorem hrest2 (c : Dev nD) : ∀ b, b ∉ Finset.univ.image (Pipeline.arrRef spec2) → Ex2 m ρ c b = En2 m ρ c b :=
  fun b hb => Wv5_of_ne m ρ c b fun w e => hb (Finset.mem_image.mpr ⟨w, Finset.mem_univ _, e⟩)

/-- After the last host stretch: the contents at the return. -/
abbrev Wv6 : Dev nD → Valuation τ sig (Elt F) := fun c => StableHlo.after hostOps3 (Wv5 m ρ c)

/-! ## The arguments end as launched -/

/-- `main_arg0` reaches the end as launched: no host operation writes it, and a region reads it through an input window or not at all. -/
theorem Wv6_main_arg0 (c : Dev nD) : Wv6 m ρ c (Proc.devRef .tc main_arg0) = m ((c : Thread nD τ).loc main_arg0) :=
  calc Wv6 m ρ c (Proc.devRef .tc main_arg0)
    _ = Wv5 m ρ c (Proc.devRef .tc main_arg0) := StableHlo.after_of_forall_not_mem (b := Proc.devRef .tc main_arg0) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wv4 m ρ c (Proc.devRef .tc main_arg0) := (Wv5_arr m ρ c 0).trans (((dat2 (En2 m ρ) c).arrAt_in 0 rfl _).trans (A_eq2 (En2 m ρ) c 0))
    _ = Wv3 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wv2 m ρ c (Proc.devRef .tc main_arg0) := (Wv3_arr m ρ c 0).trans (((dat1 (En1 m ρ) c).arrAt_in 0 rfl _).trans (A_eq1 (En1 m ρ) c 0))
    _ = Wv1 m ρ c (Proc.devRef .tc main_arg0) := Wv2_of_ne m ρ c main_arg0 (by decide)
    _ = Wv0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` reaches the end as launched: no host operation writes it, and a region reads it through an input window or not at all. -/
theorem Wv6_main_arg1 (c : Dev nD) : Wv6 m ρ c (Proc.devRef .tc main_arg1) = m ((c : Thread nD τ).loc main_arg1) :=
  calc Wv6 m ρ c (Proc.devRef .tc main_arg1)
    _ = Wv5 m ρ c (Proc.devRef .tc main_arg1) := StableHlo.after_of_forall_not_mem (b := Proc.devRef .tc main_arg1) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wv4 m ρ c (Proc.devRef .tc main_arg1) := (Wv5_arr m ρ c 1).trans (((dat2 (En2 m ρ) c).arrAt_in 1 rfl _).trans (A_eq2 (En2 m ρ) c 1))
    _ = Wv3 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wv2 m ρ c (Proc.devRef .tc main_arg1) := Wv3_of_ne m ρ c main_arg1 (by decide)
    _ = Wv1 m ρ c (Proc.devRef .tc main_arg1) := Wv2_of_ne m ρ c main_arg1 (by decide)
    _ = Wv0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` reaches the end as launched: no host operation writes it, and a region reads it through an input window or not at all. -/
theorem Wv6_main_arg2 (c : Dev nD) : Wv6 m ρ c (Proc.devRef .tc main_arg2) = m ((c : Thread nD τ).loc main_arg2) :=
  calc Wv6 m ρ c (Proc.devRef .tc main_arg2)
    _ = Wv5 m ρ c (Proc.devRef .tc main_arg2) := StableHlo.after_of_forall_not_mem (b := Proc.devRef .tc main_arg2) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wv4 m ρ c (Proc.devRef .tc main_arg2) := Wv5_of_ne m ρ c main_arg2 (by decide)
    _ = Wv3 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wv2 m ρ c (Proc.devRef .tc main_arg2) := Wv3_of_ne m ρ c main_arg2 (by decide)
    _ = Wv1 m ρ c (Proc.devRef .tc main_arg2) := Wv2_of_ne m ρ c main_arg2 (by decide)
    _ = Wv0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` reaches the end as launched: no host operation writes it, and a region reads it through an input window or not at all. -/
theorem Wv6_main_arg3 (c : Dev nD) : Wv6 m ρ c (Proc.devRef .tc main_arg3) = m ((c : Thread nD τ).loc main_arg3) :=
  calc Wv6 m ρ c (Proc.devRef .tc main_arg3)
    _ = Wv5 m ρ c (Proc.devRef .tc main_arg3) := StableHlo.after_of_forall_not_mem (b := Proc.devRef .tc main_arg3) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wv4 m ρ c (Proc.devRef .tc main_arg3) := Wv5_of_ne m ρ c main_arg3 (by decide)
    _ = Wv3 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wv2 m ρ c (Proc.devRef .tc main_arg3) := Wv3_of_ne m ρ c main_arg3 (by decide)
    _ = Wv1 m ρ c (Proc.devRef .tc main_arg3) := Wv2_of_ne m ρ c main_arg3 (by decide)
    _ = Wv0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

/-- No pipeline has a prefetched table. -/
abbrev admK : (p : Fin 3) → (pcfgs (F := F) p).Adm := fun p => (cfgs p).toPCfg_adm
/-- Every pipeline's proof data, each at its region's entry contents. -/
def pdatsK : (p : Fin 3) → (c : Dev nD) → Dat τ (Elt F) Unit ℕ (UR sig nD τ) ℕ (Pipeline.pin (pcfgs (F := F)) admK p) c
  | ⟨0, _⟩ => fun c => dat0 (En0 m ρ) c
  | ⟨1, _⟩ => fun c => dat1 (En1 m ρ) c
  | ⟨2, _⟩ => fun c => dat2 (En2 m ρ) c
abbrev 𝒱K : Variants := Variants.none
/-- No core owes another anything: no level is assigned. -/
abbrev LK : GSem nD τ sig → Finset Unit := fun _ => ∅
abbrev lvK : GSem nD τ sig → Unit → ℕ := fun _ _ => 0
/-- What rides beside the buffers through every segment: the generator register at some state and the core's owes, at nothing. -/
abbrev Rc (c : Dev nD) : sProp 𝕄 := iprop((∃ r, prngReg c r) ∗ ∃ W, owes (c : Thread nD τ) (0 : CellTallies nD τ sig Unit) W)
/-- A host stretch as a segment over the unscoped references from the contents `W`. -/
abbrev hsegK (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱K LK lvK :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rc

theorem fresh0 : (hostOps0 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
theorem fresh3 : (hostOps3 : List (HloOp τ sig (Elt F))).Forall fun op => op.fresh = ∅ := by
  simp only [List.Forall]; repeat' constructor
/-- An unscoped TensorCore reference is among those the thread state holds. -/
theorem mem_ucK (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tend (c : Dev nD) : sProp 𝕄 := iprop(StableHlo.held (c : Thread nD τ) (Pipeline.ucRefs τ sig) (Wv6 m ρ c) ∗ ∃ r, prngReg c r)

/-! ## The regions as segments -/

set_option backward.isDefEq.respectTransparency.types false in
/-- Region 0 over the thread state: entered from every unscoped buffer at `Wv1`, left at `Wv2`. Its arrays are split out
    of the unscoped buffers and put back at the exit contents; the generator register goes into the invariant and comes
    back; nothing is owed; the kernel has no semaphore of its own. -/
def reg0 : Pipeline.RegionSeg (pcfgs (F := F)) admK (pdatsK m ρ) () defs₀ 𝒱K LK lvK 0 where
  win := launch0.win.to₀
  block_pos := launch0.block_pos
  stage_whole := launch0.stage_whole
  K := PEmpty
  osem k := k.elim
  ho := Pipeline.OwnSemFacts.none _
  hbody c := (body_obligation0 (En0 m ρ) c).loose
  hwaits := Pipeline.hwaits_of_owed_zero _ _ _ _ LK lvK 0 fun _ _ => rfl
  pre c := iprop(StableHlo.held (c : Thread nD τ) (Pipeline.ucRefs τ sig) (Wv1 m ρ c) ∗ Rc c)
  post c := iprop(StableHlo.held (c : Thread nD τ) (Pipeline.ucRefs τ sig) (Wv2 m ρ c) ∗ Rc c)
  X c := iprop(∃ r, prngReg c r)
  Y c := iprop(∃ r, prngReg c r)
  Z c := Pipeline.unscopedRest (Ix := Unit) (Name := ℕ) (U := UR sig nD τ) (Lvl := ℕ) spec0 c (En0 m ρ c)
  hentry c := by
    rw [Pipeline.ownSems0_none]
    have hsplit := Pipeline.arrays_of_unscopedBufs (p := 0) (pcfgs (F := F)) admK (pdatsK m ρ) launch0.win launch0.arr_whole c
      ((pdatsK m ρ 0 c).share_full fun _ => rfl) (En0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec0 c : sProp 𝕄)).trans (hin0 (En0 m ρ) c)
    unfold Pipeline.ΦA
    iintro ⟨Hp, -, Hr⟩
    isplitl [Hr]; · iexact Hr
    iexact Hp
  hout c := by
    rw [Pipeline.ownSems0_none]
    refine (hout0 (En0 m ρ) c).trans (?_ : (Pipeline.ΦA spec0 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdatsK m ρ) ((pdatsK m ρ 0 c).share_full fun _ => rfl)
      (En0 m ρ c) (En1 m ρ c) ((pdatsK m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `Wv2`, left at `Wv3`. Its arrays are split out
    of the unscoped buffers and put back at the exit contents; the generator register goes into the invariant and comes
    back; nothing is owed; the kernel has no semaphore of its own. -/
def reg1 : Pipeline.RegionSeg (pcfgs (F := F)) admK (pdatsK m ρ) () defs₀ 𝒱K LK lvK 1 where
  win := launch1.win.to₀
  block_pos := launch1.block_pos
  stage_whole := launch1.stage_whole
  K := PEmpty
  osem k := k.elim
  ho := Pipeline.OwnSemFacts.none _
  hbody c := (body_obligation1 (En1 m ρ) c).loose
  hwaits := Pipeline.hwaits_of_owed_zero _ _ _ _ LK lvK 1 fun _ _ => rfl
  pre c := iprop(StableHlo.held (c : Thread nD τ) (Pipeline.ucRefs τ sig) (Wv2 m ρ c) ∗ Rc c)
  post c := iprop(StableHlo.held (c : Thread nD τ) (Pipeline.ucRefs τ sig) (Wv3 m ρ c) ∗ Rc c)
  X c := iprop(∃ r, prngReg c r)
  Y c := iprop(∃ r, prngReg c r)
  Z c := Pipeline.unscopedRest (Ix := Unit) (Name := ℕ) (U := UR sig nD τ) (Lvl := ℕ) spec1 c (En1 m ρ c)
  hentry c := by
    rw [Pipeline.ownSems0_none]
    have hsplit := Pipeline.arrays_of_unscopedBufs (p := 1) (pcfgs (F := F)) admK (pdatsK m ρ) launch1.win launch1.arr_whole c
      ((pdatsK m ρ 1 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (En1 m ρ) c)
    unfold Pipeline.ΦA
    iintro ⟨Hp, -, Hr⟩
    isplitl [Hr]; · iexact Hr
    iexact Hp
  hout c := by
    rw [Pipeline.ownSems0_none]
    refine (hout1 (En1 m ρ) c).trans (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdatsK m ρ) ((pdatsK m ρ 1 c).share_full fun _ => rfl)
      (En1 m ρ c) (Ex1 m ρ c) ((pdatsK m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `Wv4`, left at `Wv5`. Its arrays are split out
    of the unscoped buffers and put back at the exit contents; the generator register goes into the invariant and comes
    back; nothing is owed; the kernel has no semaphore of its own. -/
def reg2 : Pipeline.RegionSeg (pcfgs (F := F)) admK (pdatsK m ρ) () defs₀ 𝒱K LK lvK 2 where
  win := launch2.win.to₀
  block_pos := launch2.block_pos
  stage_whole := launch2.stage_whole
  K := PEmpty
  osem k := k.elim
  ho := Pipeline.OwnSemFacts.none _
  hbody c := (body_obligation2 (En2 m ρ) c).loose
  hwaits := Pipeline.hwaits_of_owed_zero _ _ _ _ LK lvK 2 fun _ _ => rfl
  pre c := iprop(StableHlo.held (c : Thread nD τ) (Pipeline.ucRefs τ sig) (Wv4 m ρ c) ∗ Rc c)
  post c := iprop(StableHlo.held (c : Thread nD τ) (Pipeline.ucRefs τ sig) (Wv5 m ρ c) ∗ Rc c)
  X c := iprop(∃ r, prngReg c r)
  Y c := iprop(∃ r, prngReg c r)
  Z c := Pipeline.unscopedRest (Ix := Unit) (Name := ℕ) (U := UR sig nD τ) (Lvl := ℕ) spec2 c (En2 m ρ c)
  hentry c := by
    rw [Pipeline.ownSems0_none]
    have hsplit := Pipeline.arrays_of_unscopedBufs (p := 2) (pcfgs (F := F)) admK (pdatsK m ρ) launch2.win launch2.arr_whole c
      ((pdatsK m ρ 2 c).share_full fun _ => rfl) (En2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec2 c : sProp 𝕄)).trans (hin2 (En2 m ρ) c)
    unfold Pipeline.ΦA
    iintro ⟨Hp, -, Hr⟩
    isplitl [Hr]; · iexact Hr
    iexact Hp
  hout c := by
    rw [Pipeline.ownSems0_none]
    refine (hout2 (En2 m ρ) c).trans (?_ : (Pipeline.ΦA spec2 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admK (Ix := Unit) (Name := ℕ) (U := UR sig nD τ) (Lvl := ℕ)
      launch2.win launch2.arr_whole c (pdatsK m ρ) ((pdatsK m ρ 2 c).share_full fun _ => rfl)
      (En2 m ρ c) (Ex2 m ρ c) ((pdatsK m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six segments in order. -/
abbrev segsK : List (Pipeline.Seg (pcfgs (F := F)) admK (pdatsK m ρ) () defs₀ 𝒱K LK lvK) :=
  [ .host (hsegK hostOps0 hostOps0_sub fresh0 (Wv0 m ρ)),
    .region (reg0 m ρ),
    .region (reg1 m ρ),
    .host (hsegK hostOps2 hostOps2_sub fresh2 (Wv3 m ρ)),
    .region (reg2 m ρ),
    .host (hsegK hostOps3 hostOps3_sub fresh3 (Wv5 m ρ)) ]
/-- @main is the run of the segments. -/
theorem main_runK (c : Dev nD) : main (F := F) c = Pipeline.Seg.run (segsK m ρ) := (main_chain c).trans (by chain_rfl)

set_option backward.isDefEq.respectTransparency.types false in
/-- THE RUN: from any memory with zero counters every weakly fair execution of @main terminates, nothing faulting, and
    every final state holds every unscoped buffer of every core at `Wv6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wv6 m ρ c b) :=
  Pipeline.θ_run_regions_kit (pcfgs (F := F)) admK (pdatsK m ρ) () cellOf_inj emb₁ defs₀ 𝒱K LK lvK m ρ main (segsK m ρ)
    (fun c Q => by rw [main_runK m ρ c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wv0 m ρ c) ∗ Rc c)) (Tₙ := Tend m ρ)
    (hch := ⟨fun _ => .rfl, fun _ => .rfl, fun _ => .rfl, fun _ => .rfl, fun _ => .rfl, fun _ => .rfl, fun c => by
      show iprop(StableHlo.held (c : Thread nD τ) (Pipeline.ucRefs τ sig) (Wv6 m ρ c) ∗ Rc c) ⊢ _
      iintro ⟨Hh, Hp, HO⟩
      isplitl [Hh Hp]
      · isplitl [Hh]; · iexact Hh
        iexact Hp
      iexact HO⟩)
    (hinit := by
      refine Pipeline.initEach LK lvK fun c => ?_
      rw [show unscopedBufs c (fun b => m ((c : Thread nD τ).loc b)) = StableHlo.held (c : Thread nD τ) (Pipeline.ucRefs τ sig) (Wv0 m ρ c)
        from Pipeline.unscopedBufs_held c (Wv0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wv6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wv6 m ρ c) s')
      isplitl [Hh] <;> iassumption)
    (hQ := fun s h => h)

/-- THE FRAME: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_ucK main_arg0 (by decide))).trans (Wv6_main_arg0 m ρ c),
     (h c _ (mem_ucK main_arg1 (by decide))).trans (Wv6_main_arg1 m ρ c),
     (h c _ (mem_ucK main_arg2 (by decide))).trans (Wv6_main_arg2 m ρ c),
     (h c _ (mem_ucK main_arg3 (by decide))).trans (Wv6_main_arg3 m ρ c)⟩) (run_all m ρ)

end Cert.Kernel.Gen

end
-- ==== Proof.KernelIdeal.Region0Defs.lean ====
/-
  Region 0 (the row means of the similarity matrix): its proof data, stated at the contents `V` the region is entered from.
  Each of the 14 grid points reads a block of 1792 rows and stores their means; nothing is kept between points.
-/
import proofs.«421000_j23381801959614_3_alg».proof.Proof.Gen.KernelIdeal.Launch
import proofs.«421000_j23381801959614_3_alg».proof.Proof.Gen.KernelIdeal.Skeleton
import proofs.«421000_j23381801959614_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region is stated at
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole staging block of the output window. -/
abbrev r0_0 : Rect S1792x1 := Rect.unit (s := S1792x1) ![0, 0] S1792x1.size inb_S1792x1_S1792x1_0_0
/-- The whole staging block of the input window. -/
abbrev r0_in : Rect S1792x3136 := Rect.unit (s := S1792x3136) ![0, 0] S1792x3136.size inb_S1792x3136_S1792x3136_0_0

/-- What the body leaves in the output window's buffer: its one store, the row means of the loaded block. -/
def out0_1 (x0 : Vec F S1792x3136 .f32) : Vec F S1792x1 .f32 :=
  View.canon [⟨r0_0, k0_pay1 (View.ld x0 r0_in)⟩]

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem q_eq0 (c : Dev nD) (w : Fin cfg0.W) : (dat0 V c).q w = fullShare := rfl
theorem owed_eq0 (c : Dev nD) (t : Fin (cfg0.N + 1)) : (dat0 V c).owed t = 0 := rfl
theorem Phi_eq0 (c : Dev nD) (t : Fin (cfg0.N + 1)) : (dat0 V c).Φ t = Pipeline.ΦA spec0 c := rfl

end Cert.KernelIdeal.Gen

end
-- ==== Proof.KernelIdeal.Region0Frame.lean ====
/-
  Region 0: the body obligation of its proof data (`dat0`), and the invariant's two ends.
-/
import proofs.«421000_j23381801959614_3_alg».proof.Proof.KernelIdeal.Region0Defs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region is stated at
variable (V : (c : Dev nD) → (b : Ref sig .tc) → Buf (Elt F) ((c : Thread nD τ).loc b))

/-! ## The input window's staging buffer before the body -/

/-- The input window's current staging buffer holds its block at every point, fetched there or not, for any proof
    data whose array is `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for this region's proof data. -/
theorem before0_0 (c : Dev nD) (t : Fin cfg0.N) (d) : (dat0 V c).before 0 t d = iblk0 V c 0 t :=
  before0_0_of V (dat0 V c) (A_eq0 V c 0) (after0_0 V c) t d

/-! ## The body's one store covers the output block -/

/-- The store's rectangle is the whole staging block, so every index of the block lies in it. -/
theorem cover0_1 (p0 : Vec F S1792x1 .f32) (y : S1792x1.Idx) :
    ∃ pc ∈ ([⟨r0_0, p0⟩] : List (View.Piece (Elt F) S1792x1 .f32)), y ∈ pc.1.set :=
  View.cover_of_tiled [⟨r0_0, p0⟩] S1792x1.size (by rfl) y

/-! ## The body's triple -/

set_option maxHeartbeats 1000000 in
/-- The kernel function on whole staging memrefs, the input's at contents `x0` and the output's at anything, runs to
    the continuation holding the input's as it was and the output's at `out0_1 x0`: the loaded input block goes
    through the payload into the one store, which overwrites the whole output block (what was read from the
    output before the store is not used). -/
theorem sound_kernel0 (c : Dev nD) (E : Set ℕ) (i : grid0.Coords)
    (arg0 : Memref sig .tc .vmem S1792x3136 .f32) (harg0 : arg0.IsWhole)
    (arg1 : Memref sig .tc .vmem S1792x1 .f32) (harg1 : arg1.IsWhole)
    (x0 : Vec F S1792x3136 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__mean_kernel i arg0 harg0 arg1 harg1) K := by
  simp only [cc0__mean_kernel_eq_skeleton]; unfold cc0__mean_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The body obligation, at a generic point -/

/-- What the body is called with at point `t`: the invariant, the core's owes, and each window's current staging
    memref at its contents before the body, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the kernel's triple applies; the invariant and
    the core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [Phi_eq0]

/-- After the last point the invariant gives it back. -/
theorem hout0 (c : Dev nD) : (dat0 V c).Φ (Fin.last cfg0.N) ⊢ (Pipeline.ΦA spec0 c : sProp 𝕄) := by
  rw [Phi_eq0]

end Cert.KernelIdeal.Gen

end
-- ==== Proof.KernelIdeal.Region1Defs.lean ====
/-
  Region 1 (class sums and class counts): its proof data, stated at the contents `V` the region is entered from.
  The grid is 2 × 8: point `t` is tile `t % 8` of half `t / 8` of the rows. The two scratch buffers hold the running class
  sums and counts of the half: reset at the half's first tile, added to at every tile, copied to the half's output slot
  at its last tile. `acc1` is what the scratch buffers hold after each point.
-/
import proofs.«421000_j23381801959614_3_alg».proof.Proof.Gen.KernelIdeal.Launch
import proofs.«421000_j23381801959614_3_alg».proof.Proof.Gen.KernelIdeal.Skeleton
import proofs.«421000_j23381801959614_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region is stated at
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch operands: whole scoped buffers of the kernel's own. -/
abbrev scM1_0 : Memref sig .tc .vmem S27x512 .f32 := Memref.whole cc1_scratch0
abbrev scM1_1 : Memref sig .tc .vmem S27x1 .f32 := Memref.whole cc1_scratch1

/-- THE RUNNING SUMS: what the two scratch buffers (class sums, class counts) hold after the body at position `n`:
    at a half's first tile the tile's own sums added to zero, at a later tile added to what the tile before left. -/
def acc1 (c : Dev nD) : (n : ℕ) → n < cfg1.N → Vec F S27x512 .f32 × Vec F S27x1 .f32
  | 0, hn => (k1_pay4 (iblk1 V c 1 ⟨0, hn⟩) (iblk1 V c 0 ⟨0, hn⟩) k1_pay1, k1_pay5 (iblk1 V c 1 ⟨0, hn⟩) k1_pay2)
  | n + 1, hn =>
    if (n + 1) % 8 = 0 then
      (k1_pay4 (iblk1 V c 1 ⟨n + 1, hn⟩) (iblk1 V c 0 ⟨n + 1, hn⟩) k1_pay1, k1_pay5 (iblk1 V c 1 ⟨n + 1, hn⟩) k1_pay2)
    else
      (k1_pay4 (iblk1 V c 1 ⟨n + 1, hn⟩) (iblk1 V c 0 ⟨n + 1, hn⟩) (acc1 c n (Nat.lt_of_succ_lt hn)).1,
       k1_pay5 (iblk1 V c 1 ⟨n + 1, hn⟩) (acc1 c n (Nat.lt_of_succ_lt hn)).2)

theorem acc1_first (c : Dev nD) (t : Fin cfg1.N) (h : t.val % 8 = 0) :
    acc1 V c t.val t.isLt = (k1_pay4 (iblk1 V c 1 t) (iblk1 V c 0 t) k1_pay1, k1_pay5 (iblk1 V c 1 t) k1_pay2) := by
  obtain ⟨n, hn⟩ := t
  cases n with
  | zero => rfl
  | succ n => exact if_pos h

theorem acc1_later (c : Dev nD) (t : Fin cfg1.N) (h : ¬ t.val % 8 = 0) :
    acc1 V c t.val t.isLt = (k1_pay4 (iblk1 V c 1 t) (iblk1 V c 0 t) (acc1 V c (t.val - 1) (Nat.lt_of_le_of_lt (Nat.sub_le _ _) t.isLt)).1,
      k1_pay5 (iblk1 V c 1 t) (acc1 V c (t.val - 1) (Nat.lt_of_le_of_lt (Nat.sub_le _ _) t.isLt)).2) := by
  obtain ⟨n, hn⟩ := t
  cases n with
  | zero => exact absurd (Nat.zero_mod _) h
  | succ n => exact if_neg h

/-- The region invariant before position `n`: before the first point the class's (every scoped buffer that is no staging
    buffer of this call at anything, and the generator register); afterwards the same with the two scratch buffers at
    what the point before left in them. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
      ∗ (((c : Thread nD τ).loc cc1_scratch0) ↦{fullShare} (acc1 V c n hn).1) ∗ (((c : Thread nD τ).loc cc1_scratch1) ↦{fullShare} (acc1 V c n hn).2)
      ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg6_1), ((c : Thread nD τ).loc cc2_stg6_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ (∃ r, prngReg c r))

/-- The proof data of pipeline 1 on core `c`: the inputs' buffers at their blocks; the outputs' at the running sums recast
    (read only where they are written back: at a half's last tile). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay6 (acc1 V c t.val t.isLt).1
    | ⟨3, _⟩ => k1_pay7 (acc1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay6 (acc1 V c t.val t.isLt).1 := by dsimp only [dat1]
theorem after1_3 (c : Dev nD) (t : Fin cfg1.N) : (dat1 V c).after 3 t = k1_pay7 (acc1 V c t.val t.isLt).2 := by dsimp only [dat1]
theorem q_eq1 (c : Dev nD) (w : Fin cfg1.W) : (dat1 V c).q w = fullShare := rfl
theorem owed_eq1 (c : Dev nD) (t : Fin (cfg1.N + 1)) : (dat1 V c).owed t = 0 := rfl
theorem Phi_eq1 (c : Dev nD) (t : Fin (cfg1.N + 1)) : (dat1 V c).Φ t = PhiS1 V c t.val (Nat.le_of_lt_succ t.isLt) := rfl

end Cert.KernelIdeal.Gen

end
-- ==== Proof.KernelIdeal.Region1.Runs.lean ====
/-
  Region 1: what its three control cases share. The two branch conditions of the body in closed form over the
  grid (the first holds at a half's first tile, the second at its last); where the two output windows are idle;
  each window's current staging memref at a point; and what each input window's buffer holds there (its block).
-/
import proofs.«421000_j23381801959614_3_alg».proof.Proof.KernelIdeal.Region1Defs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region is stated at
variable (V : (c : Dev nD) → (b : Ref sig .tc) → Buf (Elt F) ((c : Thread nD τ).loc b))

/-! ## The body's two branch conditions -/

/-- The condition of the body's first conditional (the scalar chain of grid coordinate 1 substituted): the tile is
    the first of its half. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's last conditional: the tile is the last of its half. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Off a half's last tile the output windows are idle and not written back; at it they are live. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The staging memrefs at a point -/

/-- Each window's current staging memref at point `t`, as the pipeline passes it to the body, and its wholeness. -/
abbrev ms1_0 (t : Fin cfg1.N) : Memref sig .tc .vmem S1568x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1568x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x27x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x27x1 .f32 := win1_3.stage (cfg1.slots t 3)
abbrev hs1_3 (t : Fin cfg1.N) : (ms1_3 t).IsWhole := hstage1_3 ((cfg1.slots t 3).cast nbuf1_3)

/-! ## The inputs' buffers hold their blocks -/

/-- Input window 0's current staging buffer holds its block at every point, fetched there or not: the window is an
    input, never idle, uncut, and the body leaves its block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The same for input window 1. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

end Cert.KernelIdeal.Gen

end
-- ==== Proof.KernelIdeal.Region1.RunB.lean ====
/-
  Region 1, the body's run at a tile that is neither the first nor the last of its half: the scratch buffers go from
  the running class sums and counts to those with this tile's added; nothing else changes.
-/
import proofs.«421000_j23381801959614_3_alg».proof.Proof.KernelIdeal.Region1.Runs
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region is stated at
variable (V : (c : Dev nD) → (b : Ref sig .tc) → Buf (Elt F) ((c : Thread nD τ).loc b))

/-- The zero offsets of a whole-block access, rank 2 and rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A buffer whose LAST store was of its whole block reads back that store's payload, whatever was stored before. -/
theorem read_writes_whole_last {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

set_option maxHeartbeats 1000000 in
/-- CASE B (a tile that is neither the first nor the last of its half): on whole memrefs — the inputs' at their blocks,
    the two outputs' at anything (handed back untouched), the two scratch buffers at the running sums `xs0`, `xs1` —
    the body runs to the inputs and outputs as they were and the scratch buffers at the running sums with this
    tile's class sums and class counts added. -/
theorem kernelRun1_B (c : Dev nD) (i : grid1.Coords)
    (arg2 : Memref sig .tc .vmem S1568x512 .f32) (harg2 : arg2.IsWhole)
    (arg3 : Memref sig .tc .vmem S1568x1 .i32) (harg3 : arg3.IsWhole)
    (arg4 : Memref sig .tc .vmem S1x27x512 .f32) (harg4 : arg4.IsWhole)
    (arg5 : Memref sig .tc .vmem S1x27x1 .f32) (harg5 : arg5.IsWhole)
    (arg6 : Memref sig .tc .vmem S27x512 .f32) (harg6 : arg6.IsWhole)
    (arg7 : Memref sig .tc .vmem S27x1 .f32) (harg7 : arg7.IsWhole)
    (hc0 : ¬cond1_0 i) (hc1 : ¬cond1_1 i)
    (x0 : Vec F S1568x512 .f32) (x1 : Vec F S1568x1 .i32) (xi2 : Vec F S1x27x512 .f32) (xi3 : Vec F S1x27x1 .f32)
    (xs0 : Vec F S27x512 .f32) (xs1 : Vec F S27x1 .f32) (E : Set ℕ) (K : PUnit → sProp 𝕄) :
    iprop(owns (c : Thread nD τ) arg2 fullShare x0
        ∗ owns (c : Thread nD τ) arg3 fullShare x1
        ∗ owns (c : Thread nD τ) arg4 fullShare xi2
        ∗ owns (c : Thread nD τ) arg5 fullShare xi3
        ∗ owns (c : Thread nD τ) arg6 fullShare xs0
        ∗ owns (c : Thread nD τ) arg7 fullShare xs1
        ∗ (iprop(owns (c : Thread nD τ) arg2 fullShare x0
            ∗ owns (c : Thread nD τ) arg3 fullShare x1
            ∗ owns (c : Thread nD τ) arg4 fullShare xi2
            ∗ owns (c : Thread nD τ) arg5 fullShare xi3
            ∗ owns (c : Thread nD τ) arg6 fullShare (k1_pay4 x1 x0 xs0)
            ∗ owns (c : Thread nD τ) arg7 fullShare (k1_pay5 x1 xs1)) -∗ K ⟨⟩))
      ⊢ wp frame (wpE (defs₀ (F := F)) Variants.none c none) E (cc1__centroid_kernel i arg2 harg2 arg3 harg3 arg4 harg4 arg5 harg5 arg6 harg6 arg7 harg7) K := by
  simp only [cc1__centroid_kernel_eq_skeleton]; unfold cc1__centroid_kernel_skel
  iintro ⟨H0, H1, H2, H3, HS0, HS1, Hk⟩
  unfold owns
  icases H0 with ⟨%f0, %hf0, H0⟩
  icases H1 with ⟨%f1, %hf1, H1⟩
  icases HS0 with ⟨%fs0, %hfs0, HS0⟩
  icases HS1 with ⟨%fs1, %hfs1, HS1⟩
  obtain rfl := harg2.eq_unread hf0; obtain rfl := harg3.eq_unread hf1; obtain rfl := harg6.eq_unread hfs0; obtain rfl := harg7.eq_unread hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]; · iexact H2
  isplitl [H3]; · iexact H3
  isplitl [HS0]
  · iexists _; isplitr
    swap; · iexact HS0
    ipureintro
    refine (read_writes_whole_last _ _ hz2 _ _ _).trans ?_
    simp only [View.readAt_eq_ld, hf0, hf1, hfs0, View.ld_unit_zero (S := S1568x1) hz2, View.ld_unit_zero (S := S1568x512) hz2, View.ld_unit_zero (S := S27x512) hz2]
  iexists _; isplitr
  swap; · iexact HS1
  ipureintro
  refine (read_writes_whole_last _ _ hz2 _ _ _).trans ?_
  simp only [View.readAt_eq_ld, hf1, hfs1, View.ld_unit_zero (S := S1568x1) hz2, View.ld_unit_zero (S := S27x1) hz2]

end Cert.KernelIdeal.Gen

end
-- ==== Proof.KernelIdeal.Region1.RunA.lean ====
/-
  Region 1, the body's run at the first tile of a half: the scratch buffers are reset to zero and then hold this tile's
  class sums and class counts; nothing else changes.
-/
import proofs.«421000_j23381801959614_3_alg».proof.Proof.KernelIdeal.Region1.RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region is stated at
variable (V : (c : Dev nD) → (b : Ref sig .tc) → Buf (Elt F) ((c : Thread nD τ).loc b))

set_option maxHeartbeats 1000000 in
/-- CASE A (the first tile of a half): on whole memrefs — the inputs' at their blocks, the two outputs' at anything
    (handed back untouched), the two scratch buffers at anything — the body resets the scratch buffers and runs to the
    inputs and outputs as they were and the scratch buffers at this tile's class sums and class counts added to zero. -/
theorem kernelRun1_A (c : Dev nD) (i : grid1.Coords)
    (arg2 : Memref sig .tc .vmem S1568x512 .f32) (harg2 : arg2.IsWhole)
    (arg3 : Memref sig .tc .vmem S1568x1 .i32) (harg3 : arg3.IsWhole)
    (arg4 : Memref sig .tc .vmem S1x27x512 .f32) (harg4 : arg4.IsWhole)
    (arg5 : Memref sig .tc .vmem S1x27x1 .f32) (harg5 : arg5.IsWhole)
    (arg6 : Memref sig .tc .vmem S27x512 .f32) (harg6 : arg6.IsWhole)
    (arg7 : Memref sig .tc .vmem S27x1 .f32) (harg7 : arg7.IsWhole)
    (hc0 : cond1_0 i) (hc1 : ¬cond1_1 i)
    (x0 : Vec F S1568x512 .f32) (x1 : Vec F S1568x1 .i32) (xi2 : Vec F S1x27x512 .f32) (xi3 : Vec F S1x27x1 .f32) (E : Set ℕ) (K : PUnit → sProp 𝕄) :
    iprop(owns (c : Thread nD τ) arg2 fullShare x0
        ∗ owns (c : Thread nD τ) arg3 fullShare x1
        ∗ owns (c : Thread nD τ) arg4 fullShare xi2
        ∗ owns (c : Thread nD τ) arg5 fullShare xi3
        ∗ (∃ d, owns (c : Thread nD τ) arg6 fullShare d)
        ∗ (∃ d, owns (c : Thread nD τ) arg7 fullShare d)
        ∗ (iprop(owns (c : Thread nD τ) arg2 fullShare x0
            ∗ owns (c : Thread nD τ) arg3 fullShare x1
            ∗ owns (c : Thread nD τ) arg4 fullShare xi2
            ∗ owns (c : Thread nD τ) arg5 fullShare xi3
            ∗ owns (c : Thread nD τ) arg6 fullShare (k1_pay4 x1 x0 k1_pay1)
            ∗ owns (c : Thread nD τ) arg7 fullShare (k1_pay5 x1 k1_pay2)) -∗ K ⟨⟩))
      ⊢ wp frame (wpE (defs₀ (F := F)) Variants.none c none) E (cc1__centroid_kernel i arg2 harg2 arg3 harg3 arg4 harg4 arg5 harg5 arg6 harg6 arg7 harg7) K := by
  simp only [cc1__centroid_kernel_eq_skeleton]; unfold cc1__centroid_kernel_skel
  iintro ⟨H0, H1, H2, H3, HS0, HS1, Hk⟩
  unfold owns
  icases H0 with ⟨%f0, %hf0, H0⟩
  icases H1 with ⟨%f1, %hf1, H1⟩
  icases HS0 with ⟨%ds0, %fs0, -, HS0⟩
  icases HS1 with ⟨%ds1, %fs1, -, HS1⟩
  obtain rfl := harg2.eq_unread hf0; obtain rfl := harg3.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]; · iexact H2
  isplitl [H3]; · iexact H3
  isplitl [HS0]
  · iexists _; isplitr
    swap; · iexact HS0
    ipureintro
    refine (read_writes_whole_last _ _ hz2 _ _ _).trans ?_
    sl_unfold_words
    simp only [View.readAt_eq_ld, hf0, hf1, View.ld_unit_zero (S := S1568x1) hz2, View.ld_unit_zero (S := S1568x512) hz2, View.readCov_unit_zero (S := S27x512) _ hz2]
  iexists _; isplitr
  swap; · iexact HS1
  ipureintro
  refine (read_writes_whole_last _ _ hz2 _ _ _).trans ?_
  sl_unfold_words
  simp only [View.readAt_eq_ld, hf1, View.ld_unit_zero (S := S1568x1) hz2, View.readCov_unit_zero (S := S27x1) _ hz2]

end Cert.KernelIdeal.Gen

end
-- ==== Proof.KernelIdeal.Region1.RunC.lean ====
/-
  Region 1, the body's run at the last tile of a half: the scratch buffers go from the running class sums and counts to
  those with this tile's added, and the two output blocks receive them, recast to the outputs' shapes.
-/
import proofs.«421000_j23381801959614_3_alg».proof.Proof.KernelIdeal.Region1.RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region is stated at
variable (V : (c : Dev nD) → (b : Ref sig .tc) → Buf (Elt F) ((c : Thread nD τ).loc b))

set_option maxHeartbeats 1000000 in
/-- CASE C (the last tile of a half): on whole memrefs — the inputs' at their blocks, the two outputs' at anything, the
    two scratch buffers at the running sums `xs0`, `xs1` — the body runs to the inputs as they were, the scratch buffers
    at the running sums with this tile's class sums and class counts added, and the two outputs at those recast to
    the outputs' shapes. -/
theorem kernelRun1_C (c : Dev nD) (i : grid1.Coords)
    (arg2 : Memref sig .tc .vmem S1568x512 .f32) (harg2 : arg2.IsWhole)
    (arg3 : Memref sig .tc .vmem S1568x1 .i32) (harg3 : arg3.IsWhole)
    (arg4 : Memref sig .tc .vmem S1x27x512 .f32) (harg4 : arg4.IsWhole)
    (arg5 : Memref sig .tc .vmem S1x27x1 .f32) (harg5 : arg5.IsWhole)
    (arg6 : Memref sig .tc .vmem S27x512 .f32) (harg6 : arg6.IsWhole)
    (arg7 : Memref sig .tc .vmem S27x1 .f32) (harg7 : arg7.IsWhole)
    (hc0 : ¬cond1_0 i) (hc1 : cond1_1 i)
    (x0 : Vec F S1568x512 .f32) (x1 : Vec F S1568x1 .i32) (xs0 : Vec F S27x512 .f32) (xs1 : Vec F S27x1 .f32) (E : Set ℕ) (K : PUnit → sProp 𝕄) :
    iprop(owns (c : Thread nD τ) arg2 fullShare x0
        ∗ owns (c : Thread nD τ) arg3 fullShare x1
        ∗ (∃ d, owns (c : Thread nD τ) arg4 fullShare d)
        ∗ (∃ d, owns (c : Thread nD τ) arg5 fullShare d)
        ∗ owns (c : Thread nD τ) arg6 fullShare xs0
        ∗ owns (c : Thread nD τ) arg7 fullShare xs1
        ∗ (iprop(owns (c : Thread nD τ) arg2 fullShare x0
            ∗ owns (c : Thread nD τ) arg3 fullShare x1
            ∗ owns (c : Thread nD τ) arg4 fullShare (k1_pay6 (k1_pay4 x1 x0 xs0))
            ∗ owns (c : Thread nD τ) arg5 fullShare (k1_pay7 (k1_pay5 x1 xs1))
            ∗ owns (c : Thread nD τ) arg6 fullShare (k1_pay4 x1 x0 xs0)
            ∗ owns (c : Thread nD τ) arg7 fullShare (k1_pay5 x1 xs1)) -∗ K ⟨⟩))
      ⊢ wp frame (wpE (defs₀ (F := F)) Variants.none c none) E (cc1__centroid_kernel i arg2 harg2 arg3 harg3 arg4 harg4 arg5 harg5 arg6 harg6 arg7 harg7) K := by
  simp only [cc1__centroid_kernel_eq_skeleton]; unfold cc1__centroid_kernel_skel
  iintro ⟨H0, H1, H2, H3, HS0, HS1, Hk⟩
  unfold owns
  icases H0 with ⟨%f0, %hf0, H0⟩
  icases H1 with ⟨%f1, %hf1, H1⟩
  icases H2 with ⟨%d2, %f2, -, H2⟩
  icases H3 with ⟨%d3, %f3, -, H3⟩
  icases HS0 with ⟨%fs0, %hfs0, HS0⟩
  icases HS1 with ⟨%fs1, %hfs1, HS1⟩
  obtain rfl := harg2.eq_unread hf0; obtain rfl := harg3.eq_unread hf1; obtain rfl := harg6.eq_unread hfs0; obtain rfl := harg7.eq_unread hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    refine (read_writes_whole_last _ _ hz3 _ _ _).trans ?_
    sl_unfold_words
    simp only [View.readAt_eq_ld, hf0, hf1, hfs0, View.ld_unit_zero (S := S1568x1) hz2, View.ld_unit_zero (S := S1568x512) hz2, View.ld_unit_zero (S := S27x512) hz2, View.readCov_unit_zero (S := S27x512) _ hz2]
  isplitl [H3]
  · iexists _; isplitr
    swap; · iexact H3
    ipureintro
    refine (read_writes_whole_last _ _ hz3 _ _ _).trans ?_
    sl_unfold_words
    simp only [View.readAt_eq_ld, hf1, hfs1, View.ld_unit_zero (S := S1568x1) hz2, View.ld_unit_zero (S := S27x1) hz2, View.readCov_unit_zero (S := S27x1) _ hz2]
  isplitl [HS0]
  · iexists _; isplitr
    swap; · iexact HS0
    ipureintro
    refine (read_writes_whole_last _ _ hz2 _ _ _).trans ?_
    simp only [View.readAt_eq_ld, hf0, hf1, hfs0, View.ld_unit_zero (S := S1568x1) hz2, View.ld_unit_zero (S := S1568x512) hz2, View.ld_unit_zero (S := S27x512) hz2]
  iexists _; isplitr
  swap; · iexact HS1
  ipureintro
  refine (read_writes_whole_last _ _ hz2 _ _ _).trans ?_
  simp only [View.readAt_eq_ld, hf1, hfs1, View.ld_unit_zero (S := S1568x1) hz2, View.ld_unit_zero (S := S27x1) hz2]

end Cert.KernelIdeal.Gen

end
-- ==== Proof.KernelIdeal.Region1Frame.lean ====
/-
  Region 1: the body obligation of its proof data (`dat1`), and the invariant's two ends. The body is run case by
  case (a half's first tile, a tile inside a half, a half's last tile); between points the invariant carries the two
  scratch buffers at the running class sums and class counts.
-/
import proofs.«421000_j23381801959614_3_alg».proof.Proof.KernelIdeal.Region1.RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region is stated at
variable (V : (c : Dev nD) → (b : Ref sig .tc) → Buf (Elt F) ((c : Thread nD τ).loc b))

/-! ## The invariant, with the two scratch buffers set apart -/

/-- The core's scoped buffers that are no staging buffer of this call, the two scratch buffers at contents `a` (class
    sums) and `b` (class counts), every other one at some contents; and the generator register. What the invariant is
    after a point, as a function of what the scratch buffers hold. -/
def rest1 (c : Dev nD) (a : Vec F S27x512 .f32) (b : Vec F S27x1 .f32) : sProp 𝕄 :=
  iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (((c : Thread nD τ).loc cc1_scratch0) ↦{fullShare} a)
      ∗ (((c : Thread nD τ).loc cc1_scratch1) ↦{fullShare} b)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg3_1), ((c : Thread nD τ).loc cc2_stg3_1) ↦{fullShare} f)
      ∗ (∃ f : Buf (Elt F) ((c : Thread nD τ).loc cc2_stg4_0), ((c : Thread nD τ).loc cc2_stg4_0) ↦{fullShare} f)
      ∗ (∃ f : Buf (Elt F) ((c : Thread nD τ).loc cc2_stg4_1), ((c : Thread nD τ).loc cc2_stg4_1) ↦{fullShare} f)
      ∗ (∃ f : Buf (Elt F) ((c : Thread nD τ).loc cc2_stg5_0), ((c : Thread nD τ).loc cc2_stg5_0) ↦{fullShare} f)
      ∗ (∃ f : Buf (Elt F) ((c : Thread nD τ).loc cc2_stg5_1), ((c : Thread nD τ).loc cc2_stg5_1) ↦{fullShare} f)
      ∗ (∃ f : Buf (Elt F) ((c : Thread nD τ).loc cc2_stg6_0), ((c : Thread nD τ).loc cc2_stg6_0) ↦{fullShare} f)
      ∗ (∃ f : Buf (Elt F) ((c : Thread nD τ).loc cc2_stg6_1), ((c : Thread nD τ).loc cc2_stg6_1) ↦{fullShare} f)
      ∗ (∃ f : Buf (Elt F) ((c : Thread nD τ).loc cc2_scratch0), ((c : Thread nD τ).loc cc2_scratch0) ↦{fullShare} f)
      ∗ (∃ f : Buf (Elt F) ((c : Thread nD τ).loc cc2_scratch1), ((c : Thread nD τ).loc cc2_scratch1) ↦{fullShare} f)) ∗ (∃ r, prngReg c r))

/-- The same without the two scratch buffers. -/
def others1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg3_1), ((c : Thread nD τ).loc cc2_stg3_1) ↦{fullShare} f)
      ∗ (∃ f : Buf (Elt F) ((c : Thread nD τ).loc cc2_stg4_0), ((c : Thread nD τ).loc cc2_stg4_0) ↦{fullShare} f)
      ∗ (∃ f : Buf (Elt F) ((c : Thread nD τ).loc cc2_stg4_1), ((c : Thread nD τ).loc cc2_stg4_1) ↦{fullShare} f)
      ∗ (∃ f : Buf (Elt F) ((c : Thread nD τ).loc cc2_stg5_0), ((c : Thread nD τ).loc cc2_stg5_0) ↦{fullShare} f)
      ∗ (∃ f : Buf (Elt F) ((c : Thread nD τ).loc cc2_stg5_1), ((c : Thread nD τ).loc cc2_stg5_1) ↦{fullShare} f)
      ∗ (∃ f : Buf (Elt F) ((c : Thread nD τ).loc cc2_stg6_0), ((c : Thread nD τ).loc cc2_stg6_0) ↦{fullShare} f)
      ∗ (∃ f : Buf (Elt F) ((c : Thread nD τ).loc cc2_stg6_1), ((c : Thread nD τ).loc cc2_stg6_1) ↦{fullShare} f)
      ∗ (∃ f : Buf (Elt F) ((c : Thread nD τ).loc cc2_scratch0), ((c : Thread nD τ).loc cc2_scratch0) ↦{fullShare} f)
      ∗ (∃ f : Buf (Elt F) ((c : Thread nD τ).loc cc2_scratch1), ((c : Thread nD τ).loc cc2_scratch1) ↦{fullShare} f)
      ∗ (∃ r, prngReg c r))

/-- After point `n` the invariant has the scratch buffers at that point's running sums. -/
theorem PhiS1_succ (c : Dev nD) (n : ℕ) (hn : n < cfg1.N) :
    PhiS1 V c (n + 1) hn = rest1 c (acc1 V c n hn).1 (acc1 V c n hn).2 := rfl

theorem PhiS1_zero (c : Dev nD) (n : ℕ) (h : n ≤ cfg1.N) (hz : n = 0) : PhiS1 V c n h = Pipeline.ΦA spec1 c := by
  subst hz; rfl

/-- Before a point that is not the first: the scratch buffers at what the point before left. -/
theorem PhiS1_pos (c : Dev nD) (n : ℕ) (h : n ≤ cfg1.N) (hz : n ≠ 0) :
    PhiS1 V c n h = rest1 c (acc1 V c (n - 1) (by omega)).1 (acc1 V c (n - 1) (by omega)).2 := by
  cases n with
  | zero => exact absurd rfl hz
  | succ n => rfl

/-- The invariant at a point's start, restated at the point's number. -/
theorem PhiS1_castSucc (c : Dev nD) (t : Fin cfg1.N) :
    (dat1 V c).Φ t.castSucc = PhiS1 V c t.val (Nat.le_of_lt t.isLt) := rfl

/-- Setting the scratch buffers apart, as whole memrefs; -/
theorem rest1_open (c : Dev nD) (a : Vec F S27x512 .f32) (b : Vec F S27x1 .f32) :
    (rest1 c a b : sProp 𝕄) ⊢ iprop(owns (c : Thread nD τ) scM1_0 fullShare a ∗ owns (c : Thread nD τ) scM1_1 fullShare b ∗ others1 c) := by
  unfold rest1 others1
  simp only [scM1_0, scM1_1, owns_whole]
  iintro ⟨⟨B0, B1, B2, B3, S0, S1, B6, B7, B8, B9, B10, B11, B12, B13, B14, B15, B16, B17, B18, B19, B20⟩, Hg⟩
  isplitl [S0]; · iexact S0
  isplitl [S1]; · iexact S1
  isplitl [B0]; · iexact B0
  isplitl [B1]; · iexact B1
  isplitl [B2]; · iexact B2
  isplitl [B3]; · iexact B3
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  isplitl [B17]; · iexact B17
  isplitl [B18]; · iexact B18
  isplitl [B19]; · iexact B19
  isplitl [B20]; · iexact B20
  iexact Hg

/-- and putting them back. -/
theorem rest1_close (c : Dev nD) (a : Vec F S27x512 .f32) (b : Vec F S27x1 .f32) :
    iprop(owns (c : Thread nD τ) scM1_0 fullShare a ∗ owns (c : Thread nD τ) scM1_1 fullShare b ∗ others1 c) ⊢ (rest1 c a b : sProp 𝕄) := by
  unfold rest1 others1
  simp only [scM1_0, scM1_1, owns_whole]
  iintro ⟨S0, S1, B0, B1, B2, B3, B6, B7, B8, B9, B10, B11, B12, B13, B14, B15, B16, B17, B18, B19, B20, Hg⟩
  isplitr [Hg]
  swap; · iexact Hg
  isplitl [B0]; · iexact B0
  isplitl [B1]; · iexact B1
  isplitl [B2]; · iexact B2
  isplitl [B3]; · iexact B3
  isplitl [S0]; · iexact S0
  isplitl [S1]; · iexact S1
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  isplitl [B17]; · iexact B17
  isplitl [B18]; · iexact B18
  isplitl [B19]; · iexact B19
  iexact B20

/-- What the launch hands the region, the scratch buffers set apart at some contents. -/
theorem PhiA1_open (c : Dev nD) :
    (Pipeline.ΦA spec1 c : sProp 𝕄) ⊢ iprop((∃ d, owns (c : Thread nD τ) scM1_0 fullShare d) ∗ (∃ d, owns (c : Thread nD τ) scM1_1 fullShare d) ∗ others1 c) := by
  unfold Pipeline.ΦA; rw [scopedRest1_eq]; unfold others1
  simp only [scM1_0, scM1_1, owns_whole]
  iintro ⟨⟨B0, B1, B2, B3, S0, S1, B6, B7, B8, B9, B10, B11, B12, B13, B14, B15, B16, B17, B18, B19, B20⟩, Hg⟩
  isplitl [S0]; · iexact S0
  isplitl [S1]; · iexact S1
  isplitl [B0]; · iexact B0
  isplitl [B1]; · iexact B1
  isplitl [B2]; · iexact B2
  isplitl [B3]; · iexact B3
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  isplitl [B17]; · iexact B17
  isplitl [B18]; · iexact B18
  isplitl [B19]; · iexact B19
  isplitl [B20]; · iexact B20
  iexact Hg

/-- Forgetting what the scratch buffers hold gives back what the launch handed over. -/
theorem rest1_forget (c : Dev nD) (a : Vec F S27x512 .f32) (b : Vec F S27x1 .f32) :
    (rest1 c a b : sProp 𝕄) ⊢ Pipeline.ΦA spec1 c := by
  unfold Pipeline.ΦA; rw [scopedRest1_eq]; unfold rest1
  iintro ⟨⟨B0, B1, B2, B3, S0, S1, B6, B7, B8, B9, B10, B11, B12, B13, B14, B15, B16, B17, B18, B19, B20⟩, Hg⟩
  isplitr [Hg]
  swap; · iexact Hg
  isplitl [B0]; · iexact B0
  isplitl [B1]; · iexact B1
  isplitl [B2]; · iexact B2
  isplitl [B3]; · iexact B3
  isplitl [S0]; · iexists _; iexact S0
  isplitl [S1]; · iexists _; iexact S1
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  isplitl [B17]; · iexact B17
  isplitl [B18]; · iexact B18
  isplitl [B19]; · iexact B19
  iexact B20

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the point's number modulo 8 says which of the three
    cases it is in. The invariant hands the body the two scratch buffers — at anything before the first point, else at the
    running sums the point before left — and takes them back at this point's running sums: a half's first tile starts
    them from zero, a later tile adds to what came before. Off a half's last tile the outputs' buffers go back as they
    came; at it they hold the running sums recast. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 8 = 0
  · -- a half's first tile
    have h1 : ¬t.val % 8 = 7 := by omega
    have hc0 : cond1_0 (grid1.coords t) := (hcond1_0 t).mpr h0
    have hc1 : ¬cond1_1 (grid1.coords t) := fun h => h1 ((hcond1_1 t).mp h)
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [Dat.leavesExact_idle (dat1 V c) 2 t (idleAt1_2 t hc1) (noFlush1_2 t hc1)]
    rw [Dat.leavesExact_idle (dat1 V c) 3 t (idleAt1_3 t hc1) (noFlush1_3 t hc1)]
    rw [acc1_first V c t h0]; dsimp only
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩⟩
      ihave HΦ' := (PhiA1_open c) $$ HΦ
      icases HΦ' with ⟨HS0, HS1, HR⟩
      iapply (kernelRun1_A c (grid1.coords t) _ _ _ _ _ _ _ _ _ _ _ _ hc0 hc1 (iblk1 V c 0 t) (iblk1 V c 1 t) _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HR]
      · iapply (rest1_close c _ _)
        isplitl [HS0]; · iexact HS0
        isplitl [HS1]; · iexact HS1
        iexact HR
      isplitl [Ho]; · iexact Ho
      isplitl [H0]; · iexact H0
      isplitl [H1]; · iexact H1
      isplitl [H2]; · iexists _; iexact H2
      iexists _; iexact H3
    · rw [PhiS1_castSucc V c t, PhiS1_pos V c _ _ hz]
      iintro ⟨HΦ, Ho, ⟨%d0, H0⟩, ⟨%d1, H1⟩, ⟨%d2, H2⟩, ⟨%d3, H3⟩⟩
      ihave HΦ' := (rest1_open c _ _) $$ HΦ
      icases HΦ' with ⟨HS0, HS1, HR⟩
      iapply (kernelRun1_A c (grid1.coords t) _ _ _ _ _ _ _ _ _ _ _ _ hc0 hc1 (iblk1 V c 0 t) (iblk1 V c 1 t) _ _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, HS0, HS1⟩
      isplitl [HS0 HS1 HR]
      · iapply (rest1_close c _ _)
        isplitl [HS0]; · iexact HS0
        isplitl [HS1]; · iexact HS1
        iexact HR
      isplitl [Ho]; · iexact Ho
      isplitl [H0]; · iexact H0
      isplitl [H1]; · iexact H1
      isplitl [H2]; · iexists _; iexact H2
      iexists _; iexact H3
  · have hz : t.val ≠ 0 := by omega
    have hc0 : ¬cond1_0 (grid1.coords t) := fun h => h0 ((hcond1_0 t).mp h)
    by_cases h1 : t.val % 8 = 7
    · -- a half's last tile
      have hc1 : cond1_1 (grid1.coords t) := (hcond1_1 t).mpr h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t hc1], after1_2]
      rw [show (dat1 V c).leavesExact 3 t = owns (c : Thread nD τ) (ms1_3 t) fullShare ((dat1 V c).after 3 t) from by
        unfold Dat.leavesExact; rw [liveAt1_3 t hc1], after1_3]
      rw [acc1_later V c t h0]; dsimp only
      rw [PhiS1_castSucc V c t, PhiS1_pos V c _ _ hz]
      iintro ⟨HΦ, Ho, ⟨%d0, H0⟩, ⟨%d1, H1⟩, ⟨%d2, H2⟩, ⟨%d3, H3⟩⟩
      ihave HΦ' := (rest1_open c _ _) $$ HΦ
      icases HΦ' with ⟨HS0, HS1, HR⟩
      iapply (kernelRun1_C c (grid1.coords t) _ _ _ _ _ _ _ _ _ _ _ _ hc0 hc1 (iblk1 V c 0 t) (iblk1 V c 1 t) _ _ Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HS0 HS1 HR]
      · iapply (rest1_close c _ _)
        isplitl [HS0]; · iexact HS0
        isplitl [HS1]; · iexact HS1
        iexact HR
      isplitl [Ho]; · iexact Ho
      isplitl [H0]; · iexact H0
      isplitl [H1]; · iexact H1
      isplitl [H2]; · iexact H2
      iexact H3
    · -- a tile inside a half
      have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t hc1) (noFlush1_2 t hc1)]
      rw [Dat.leavesExact_idle (dat1 V c) 3 t (idleAt1_3 t hc1) (noFlush1_3 t hc1)]
      rw [acc1_later V c t h0]; dsimp only
      rw [PhiS1_castSucc V c t, PhiS1_pos V c _ _ hz]
      iintro ⟨HΦ, Ho, ⟨%d0, H0⟩, ⟨%d1, H1⟩, ⟨%d2, H2⟩, ⟨%d3, H3⟩⟩
      ihave HΦ' := (rest1_open c _ _) $$ HΦ
      icases HΦ' with ⟨HS0, HS1, HR⟩
      iapply (kernelRun1_B c (grid1.coords t) _ _ _ _ _ _ _ _ _ _ _ _ hc0 hc1 (iblk1 V c 0 t) (iblk1 V c 1 t) _ _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HR]
      · iapply (rest1_close c _ _)
        isplitl [HS0]; · iexact HS0
        isplitl [HS1]; · iexact HS1
        iexact HR
      isplitl [Ho]; · iexact Ho
      isplitl [H0]; · iexact H0
      isplitl [H1]; · iexact H1
      isplitl [H2]; · iexists _; iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: what the scratch buffers hold is forgotten. -/
theorem hout1 (c : Dev nD) : (dat1 V c).Φ (Fin.last cfg1.N) ⊢ (Pipeline.ΦA spec1 c : sProp 𝕄) := by
  have hne : (Fin.last cfg1.N).val ≠ 0 := by rw [Fin.val_last]; have : cfg1.N = 16 := N_1; omega
  rw [Phi_eq1, PhiS1_pos V c _ _ hne]
  exact rest1_forget c _ _

end Cert.KernelIdeal.Gen

end
-- ==== Proof.KernelIdeal.Region2Defs.lean ====
/-
  Region 2 (logits, log-softmax and the weighted loss): its proof data, stated at the contents `V` the region is entered
  from. The grid is 2 × 7: point `t` is tile `t % 7` of half `t / 7` of the rows. The two one-element scratch buffers hold
  the half's running weighted loss against the first and the second feature array: reset at the half's first tile, added
  to at every tile, copied to the half's output slot at its last tile. `acc2` is what they hold after each point.
-/
import proofs.«421000_j23381801959614_3_alg».proof.Proof.Gen.KernelIdeal.Launch
import proofs.«421000_j23381801959614_3_alg».proof.Proof.Gen.KernelIdeal.Skeleton
import proofs.«421000_j23381801959614_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region is stated at
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scratch operands: whole scoped buffers of the kernel's own. -/
abbrev scM2_0 : Memref sig .tc .vmem S1x1 .f32 := Memref.whole cc2_scratch0
abbrev scM2_1 : Memref sig .tc .vmem S1x1 .f32 := Memref.whole cc2_scratch1

/-- One tile's step of the first running loss (the rows' losses against the first feature array, weighted, summed, added to `s`). -/
def step2_0 (c : Dev nD) (t : Fin cfg2.N) (s : Vec F S1x1 .f32) : Vec F S1x1 .f32 :=
  k2_pay11 (k2_pay8 (iblk2 V c 4 t)) (k2_pay10 (iblk2 V c 0 t) (iblk2 V c 2 t) (iblk2 V c 3 t)) s
/-- One tile's step of the second running loss (against the second feature array). -/
def step2_1 (c : Dev nD) (t : Fin cfg2.N) (s : Vec F S1x1 .f32) : Vec F S1x1 .f32 :=
  k2_pay1 (k2_pay12 (k2_pay7 (iblk2 V c 3 t)) (k2_pay8 (iblk2 V c 4 t)) (k2_pay9 (iblk2 V c 1 t) (iblk2 V c 2 t)) s)

/-- THE RUNNING LOSSES: what the two scratch buffers hold after the body at position `n`: at a half's first tile the
    tile's step from zero, at a later tile from what the tile before left. -/
def acc2 (c : Dev nD) : (n : ℕ) → n < cfg2.N → Vec F S1x1 .f32 × Vec F S1x1 .f32
  | 0, hn => (step2_0 V c ⟨0, hn⟩ k2_pay4, step2_1 V c ⟨0, hn⟩ k2_pay5)
  | n + 1, hn =>
    if (n + 1) % 7 = 0 then (step2_0 V c ⟨n + 1, hn⟩ k2_pay4, step2_1 V c ⟨n + 1, hn⟩ k2_pay5)
    else (step2_0 V c ⟨n + 1, hn⟩ (acc2 c n (Nat.lt_of_succ_lt hn)).1, step2_1 V c ⟨n + 1, hn⟩ (acc2 c n (Nat.lt_of_succ_lt hn)).2)

theorem acc2_first (c : Dev nD) (t : Fin cfg2.N) (h : t.val % 7 = 0) :
    acc2 V c t.val t.isLt = (step2_0 V c t k2_pay4, step2_1 V c t k2_pay5) := by
  obtain ⟨n, hn⟩ := t
  cases n with
  | zero => rfl
  | succ n => exact if_pos h

theorem acc2_later (c : Dev nD) (t : Fin cfg2.N) (h : ¬ t.val % 7 = 0) :
    acc2 V c t.val t.isLt = (step2_0 V c t (acc2 V c (t.val - 1) (Nat.lt_of_le_of_lt (Nat.sub_le _ _) t.isLt)).1,
      step2_1 V c t (acc2 V c (t.val - 1) (Nat.lt_of_le_of_lt (Nat.sub_le _ _) t.isLt)).2) := by
  obtain ⟨n, hn⟩ := t
  cases n with
  | zero => exact absurd (Nat.zero_mod _) h
  | succ n => exact if_neg h

/-- The region invariant before position `n`: before the first point the class's; afterwards the same with the two
    scratch buffers at what the point before left in them. -/
def PhiS2 (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)
      ∗ (((c : Thread nD τ).loc cc2_scratch0) ↦{fullShare} (acc2 V c n hn).1) ∗ (((c : Thread nD τ).loc cc2_scratch1) ↦{fullShare} (acc2 V c n hn).2)) ∗ (∃ r, prngReg c r))

/-- The proof data of pipeline 2 on core `c`: the inputs' buffers at their blocks; the outputs' at the running losses
    recast (read only where they are written back: at a half's last tile). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay2 (acc2 V c t.val t.isLt).1
    | ⟨6, _⟩ => k2_pay3 (acc2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = k2_pay2 (acc2 V c t.val t.isLt).1 := by dsimp only [dat2]
theorem after2_6 (c : Dev nD) (t : Fin cfg2.N) : (dat2 V c).after 6 t = k2_pay3 (acc2 V c t.val t.isLt).2 := by dsimp only [dat2]
theorem q_eq2 (c : Dev nD) (w : Fin cfg2.W) : (dat2 V c).q w = fullShare := rfl
theorem owed_eq2 (c : Dev nD) (t : Fin (cfg2.N + 1)) : (dat2 V c).owed t = 0 := rfl
theorem Phi_eq2 (c : Dev nD) (t : Fin (cfg2.N + 1)) : (dat2 V c).Φ t = PhiS2 V c t.val (Nat.le_of_lt_succ t.isLt) := rfl

end Cert.KernelIdeal.Gen

end
-- ==== Proof.KernelIdeal.Region2.Runs.lean ====
/-
  Region 2, the kernel function on any whole memrefs. The function has two conditionals on grid coordinate 1 (a
  half's tile number): at tile 0 it resets the two one-element running losses, at tile 6 it copies them, recast, into
  the two outputs. So a point is in one of three cases, and in each the function's weakest precondition is stated
  with what every buffer holds afterwards written out: the inputs as they were, the running losses `s0`, `s1`
  replaced by `k2_pay11 … s0` and `k2_pay1 (k2_pay12 … s1)` over the point's five input blocks.
-/
import proofs.«421000_j23381801959614_3_alg».proof.Proof.KernelIdeal.Region2Defs
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals, from the grid coordinates -/

/-- The first conditional (reset of the two running losses): grid coordinate 1 is 0. -/
abbrev cond2_0 (i : grid2.Coords) : Prop := (Scalar.cmpi .ne (Scalar.extui (Scalar.cmpi .eq (BitVec.ofNat 32 (i 1).val) 0#32)) 0#32) = 1#1
/-- The last conditional (copy of the running losses to the outputs): grid coordinate 1 is 6. -/
abbrev cond2_1 (i : grid2.Coords) : Prop := k2_cond2 i = 1#1

/-- The reset happens at a half's first tile. -/
theorem hcond2_0 : ∀ t : Fin cfg2.N, cond2_0 (grid2.coords t) ↔ t.val % 7 = 0 :=
  (by decide +kernel : ∀ t : Fin grid2.N, cond2_0 (grid2.coords t) ↔ t.val % 7 = 0)
/-- The copy happens at a half's last tile. -/
theorem hcond2_1 : ∀ t : Fin cfg2.N, cond2_1 (grid2.coords t) ↔ t.val % 7 = 6 :=
  (by decide +kernel : ∀ t : Fin grid2.N, cond2_1 (grid2.coords t) ↔ t.val % 7 = 6)

theorem hzero2 : (![0, 0] : Fin 2 → Nat) = fun _ => 0 := funext fun a => by fin_cases a <;> rfl
theorem hzero3 : (![0, 0, 0] : Fin 3 → Nat) = fun _ => 0 := funext fun a => by fin_cases a <;> rfl

/-! ## The body on any whole memrefs, case by case

In every case the five inputs are read and handed back as they were. With `s0`, `s1` the two running losses the
point finds, the body leaves `k2_pay11 … s0` and `k2_pay1 (k2_pay12 … s1)` in the two scratch buffers. -/

set_option maxHeartbeats 1000000 in
/-- A tile that is neither first nor last of its half: the running losses are read and updated; the outputs' buffers
    are not touched. -/
theorem run2_B (c : Dev nD) (i : grid2.Coords)
    (arg2 : Memref sig .tc .vmem S1792x512 .f32) (harg2 : arg2.IsWhole) (arg3 : Memref sig .tc .vmem S1792x512 .f32) (harg3 : arg3.IsWhole)
    (arg4 : Memref sig .tc .vmem S27x512 .f32) (harg4 : arg4.IsWhole) (arg5 : Memref sig .tc .vmem S1792x1 .i32) (harg5 : arg5.IsWhole)
    (arg6 : Memref sig .tc .vmem S1792x1 .f32) (harg6 : arg6.IsWhole) (arg7 : Memref sig .tc .vmem S1x1x1 .f32) (harg7 : arg7.IsWhole)
    (arg8 : Memref sig .tc .vmem S1x1x1 .f32) (harg8 : arg8.IsWhole) (arg9 : Memref sig .tc .vmem S1x1 .f32) (harg9 : arg9.IsWhole)
    (arg10 : Memref sig .tc .vmem S1x1 .f32) (harg10 : arg10.IsWhole)
    (hc0 : ¬cond2_0 i) (hc1 : ¬cond2_1 i)
    (x0 x1 : Vec F S1792x512 .f32) (x2 : Vec F S27x512 .f32) (x3 : Vec F S1792x1 .i32) (x4 : Vec F S1792x1 .f32)
    (xi5 xi6 : Vec F S1x1x1 .f32) (s0 s1 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare xi5 ∗ owns (c : Thread nD τ) arg8 fullShare xi6
        ∗ owns (c : Thread nD τ) arg9 fullShare s0 ∗ owns (c : Thread nD τ) arg10 fullShare s1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare xi5 ∗ owns (c : Thread nD τ) arg8 fullShare xi6
            ∗ owns (c : Thread nD τ) arg9 fullShare (k2_pay11 (k2_pay8 x4) (k2_pay10 x0 x2 x3) s0)
            ∗ owns (c : Thread nD τ) arg10 fullShare (k2_pay1 (k2_pay12 (k2_pay7 x3) (k2_pay8 x4) (k2_pay9 x1 x2) s1))) -∗ K ⟨⟩))
      ⊢ wp frame (wpE (defs₀ (F := F)) Variants.none c none) E
          (cc2__logits_ce_kernel i arg2 harg2 arg3 harg3 arg4 harg4 arg5 harg5 arg6 harg6 arg7 harg7 arg8 harg8 arg9 harg9 arg10 harg10) K := by
  simp only [cc2__logits_ce_kernel_eq_skeleton]; unfold cc2__logits_ce_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg9.eq_unread hfs0; obtain rfl := harg10.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact hf5
    iexact H5
  isplitl [H6]
  · iexists _; isplitr; · ipureintro; exact hf6
    iexact H6
  isplitl [HS0]
  · iexists _; isplitr
    swap; · iexact HS0
    ipureintro
    refine (View.read_writes_eq_canon _ _ _ (fun y => ⟨_, List.mem_singleton_self _, View.mem_set_unit_zero (S := S1x1) hzero2 inb_S1x1_S1x1_0_0 y⟩)).trans
      ((View.canon_unit_zero (S := S1x1) hzero2 inb_S1x1_S1x1_0_0 _).trans ?_)
    sl_unfold_run_names
    simp only [View.readAt_eq_ld, harg2.read_unread, harg3.read_unread, harg4.read_unread, harg5.read_unread, harg6.read_unread, harg9.read_unread, harg10.read_unread,
      View.ld_unit_zero (S := S1792x512) hzero2, View.ld_unit_zero (S := S27x512) hzero2, View.ld_unit_zero (S := S1792x1) hzero2, View.ld_unit_zero (S := S1x1) hzero2,
      View.readCov_unit_zero (S := S1x1) _ hzero2]
  · iexists _; isplitr
    swap; · iexact HS1
    ipureintro
    refine (View.read_writes_eq_canon _ _ _ (fun y => ⟨_, List.mem_singleton_self _, View.mem_set_unit_zero (S := S1x1) hzero2 inb_S1x1_S1x1_0_0 y⟩)).trans
      ((View.canon_unit_zero (S := S1x1) hzero2 inb_S1x1_S1x1_0_0 _).trans ?_)
    sl_unfold_run_names
    simp only [View.readAt_eq_ld, harg2.read_unread, harg3.read_unread, harg4.read_unread, harg5.read_unread, harg6.read_unread, harg9.read_unread, harg10.read_unread,
      View.ld_unit_zero (S := S1792x512) hzero2, View.ld_unit_zero (S := S27x512) hzero2, View.ld_unit_zero (S := S1792x1) hzero2, View.ld_unit_zero (S := S1x1) hzero2,
      View.readCov_unit_zero (S := S1x1) _ hzero2]

set_option maxHeartbeats 1000000 in
/-- A half's first tile: the running losses are reset (to `k2_pay4`, `k2_pay5`), whatever the scratch buffers held, and
    then updated; the outputs' buffers are not touched. -/
theorem run2_A (c : Dev nD) (i : grid2.Coords)
    (arg2 : Memref sig .tc .vmem S1792x512 .f32) (harg2 : arg2.IsWhole) (arg3 : Memref sig .tc .vmem S1792x512 .f32) (harg3 : arg3.IsWhole)
    (arg4 : Memref sig .tc .vmem S27x512 .f32) (harg4 : arg4.IsWhole) (arg5 : Memref sig .tc .vmem S1792x1 .i32) (harg5 : arg5.IsWhole)
    (arg6 : Memref sig .tc .vmem S1792x1 .f32) (harg6 : arg6.IsWhole) (arg7 : Memref sig .tc .vmem S1x1x1 .f32) (harg7 : arg7.IsWhole)
    (arg8 : Memref sig .tc .vmem S1x1x1 .f32) (harg8 : arg8.IsWhole) (arg9 : Memref sig .tc .vmem S1x1 .f32) (harg9 : arg9.IsWhole)
    (arg10 : Memref sig .tc .vmem S1x1 .f32) (harg10 : arg10.IsWhole)
    (hc0 : cond2_0 i) (hc1 : ¬cond2_1 i)
    (x0 x1 : Vec F S1792x512 .f32) (x2 : Vec F S27x512 .f32) (x3 : Vec F S1792x1 .i32) (x4 : Vec F S1792x1 .f32)
    (xi5 xi6 : Vec F S1x1x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare xi5 ∗ owns (c : Thread nD τ) arg8 fullShare xi6
        ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare xi5 ∗ owns (c : Thread nD τ) arg8 fullShare xi6
            ∗ owns (c : Thread nD τ) arg9 fullShare (k2_pay11 (k2_pay8 x4) (k2_pay10 x0 x2 x3) k2_pay4)
            ∗ owns (c : Thread nD τ) arg10 fullShare (k2_pay1 (k2_pay12 (k2_pay7 x3) (k2_pay8 x4) (k2_pay9 x1 x2) k2_pay5))) -∗ K ⟨⟩))
      ⊢ wp frame (wpE (defs₀ (F := F)) Variants.none c none) E
          (cc2__logits_ce_kernel i arg2 harg2 arg3 harg3 arg4 harg4 arg5 harg5 arg6 harg6 arg7 harg7 arg8 harg8 arg9 harg9 arg10 harg10) K := by
  simp only [cc2__logits_ce_kernel_eq_skeleton]; unfold cc2__logits_ce_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact hf5
    iexact H5
  isplitl [H6]
  · iexists _; isplitr; · ipureintro; exact hf6
    iexact H6
  isplitl [HS0]
  · iexists _; isplitr
    swap; · iexact HS0
    ipureintro
    refine (View.read_writes_eq_canon _ _ _ (fun y => ⟨_, List.mem_cons_self, View.mem_set_unit_zero (S := S1x1) hzero2 inb_S1x1_S1x1_0_0 y⟩)).trans
      ((View.canon_cons_unit_zero (S := S1x1) hzero2 inb_S1x1_S1x1_0_0 _ _).trans ?_)
    sl_unfold_run_names
    simp only [View.readAt_eq_ld, harg2.read_unread, harg3.read_unread, harg4.read_unread, harg5.read_unread, harg6.read_unread, harg9.read_unread, harg10.read_unread,
      View.ld_unit_zero (S := S1792x512) hzero2, View.ld_unit_zero (S := S27x512) hzero2, View.ld_unit_zero (S := S1792x1) hzero2, View.ld_unit_zero (S := S1x1) hzero2,
      View.readCov_unit_zero (S := S1x1) _ hzero2]
  · iexists _; isplitr
    swap; · iexact HS1
    ipureintro
    refine (View.read_writes_eq_canon _ _ _ (fun y => ⟨_, List.mem_cons_self, View.mem_set_unit_zero (S := S1x1) hzero2 inb_S1x1_S1x1_0_0 y⟩)).trans
      ((View.canon_cons_unit_zero (S := S1x1) hzero2 inb_S1x1_S1x1_0_0 _ _).trans ?_)
    sl_unfold_run_names
    simp only [View.readAt_eq_ld, harg2.read_unread, harg3.read_unread, harg4.read_unread, harg5.read_unread, harg6.read_unread, harg9.read_unread, harg10.read_unread,
      View.ld_unit_zero (S := S1792x512) hzero2, View.ld_unit_zero (S := S27x512) hzero2, View.ld_unit_zero (S := S1792x1) hzero2, View.ld_unit_zero (S := S1x1) hzero2,
      View.readCov_unit_zero (S := S1x1) _ hzero2]

set_option maxHeartbeats 1000000 in
/-- A half's last tile: the running losses are read and updated, and then copied, recast, into the two outputs'
    buffers, whatever those held. -/
theorem run2_C (c : Dev nD) (i : grid2.Coords)
    (arg2 : Memref sig .tc .vmem S1792x512 .f32) (harg2 : arg2.IsWhole) (arg3 : Memref sig .tc .vmem S1792x512 .f32) (harg3 : arg3.IsWhole)
    (arg4 : Memref sig .tc .vmem S27x512 .f32) (harg4 : arg4.IsWhole) (arg5 : Memref sig .tc .vmem S1792x1 .i32) (harg5 : arg5.IsWhole)
    (arg6 : Memref sig .tc .vmem S1792x1 .f32) (harg6 : arg6.IsWhole) (arg7 : Memref sig .tc .vmem S1x1x1 .f32) (harg7 : arg7.IsWhole)
    (arg8 : Memref sig .tc .vmem S1x1x1 .f32) (harg8 : arg8.IsWhole) (arg9 : Memref sig .tc .vmem S1x1 .f32) (harg9 : arg9.IsWhole)
    (arg10 : Memref sig .tc .vmem S1x1 .f32) (harg10 : arg10.IsWhole)
    (hc0 : ¬cond2_0 i) (hc1 : cond2_1 i)
    (x0 x1 : Vec F S1792x512 .f32) (x2 : Vec F S27x512 .f32) (x3 : Vec F S1792x1 .i32) (x4 : Vec F S1792x1 .f32)
    (s0 s1 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ owns (c : Thread nD τ) arg9 fullShare s0 ∗ owns (c : Thread nD τ) arg10 fullShare s1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare (k2_pay2 (k2_pay11 (k2_pay8 x4) (k2_pay10 x0 x2 x3) s0)) ∗ owns (c : Thread nD τ) arg8 fullShare (k2_pay3 (k2_pay1 (k2_pay12 (k2_pay7 x3) (k2_pay8 x4) (k2_pay9 x1 x2) s1)))
            ∗ owns (c : Thread nD τ) arg9 fullShare (k2_pay11 (k2_pay8 x4) (k2_pay10 x0 x2 x3) s0)
            ∗ owns (c : Thread nD τ) arg10 fullShare (k2_pay1 (k2_pay12 (k2_pay7 x3) (k2_pay8 x4) (k2_pay9 x1 x2) s1))) -∗ K ⟨⟩))
      ⊢ wp frame (wpE (defs₀ (F := F)) Variants.none c none) E
          (cc2__logits_ce_kernel i arg2 harg2 arg3 harg3 arg4 harg4 arg5 harg5 arg6 harg6 arg7 harg7 arg8 harg8 arg9 harg9 arg10 harg10) K := by
  simp only [cc2__logits_ce_kernel_eq_skeleton]; unfold cc2__logits_ce_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg9.eq_unread hfs0; obtain rfl := harg10.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (View.read_writes_eq_canon _ _ _ (fun y => ⟨_, List.mem_singleton_self _, View.mem_set_unit_zero (S := S1x1x1) hzero3 inb_S1x1x1_S1x1x1_0_0_0 y⟩)).trans
      ((View.canon_unit_zero (S := S1x1x1) hzero3 inb_S1x1x1_S1x1x1_0_0_0 _).trans ?_)
    sl_unfold_run_names
    simp only [View.readAt_eq_ld, harg2.read_unread, harg3.read_unread, harg4.read_unread, harg5.read_unread, harg6.read_unread, harg9.read_unread, harg10.read_unread,
      View.ld_unit_zero (S := S1792x512) hzero2, View.ld_unit_zero (S := S27x512) hzero2, View.ld_unit_zero (S := S1792x1) hzero2, View.ld_unit_zero (S := S1x1) hzero2,
      View.readCov_unit_zero (S := S1x1) _ hzero2]
  isplitl [H6]
  · iexists _; isplitr
    swap; · iexact H6
    ipureintro
    refine (View.read_writes_eq_canon _ _ _ (fun y => ⟨_, List.mem_singleton_self _, View.mem_set_unit_zero (S := S1x1x1) hzero3 inb_S1x1x1_S1x1x1_0_0_0 y⟩)).trans
      ((View.canon_unit_zero (S := S1x1x1) hzero3 inb_S1x1x1_S1x1x1_0_0_0 _).trans ?_)
    sl_unfold_run_names
    simp only [View.readAt_eq_ld, harg2.read_unread, harg3.read_unread, harg4.read_unread, harg5.read_unread, harg6.read_unread, harg9.read_unread, harg10.read_unread,
      View.ld_unit_zero (S := S1792x512) hzero2, View.ld_unit_zero (S := S27x512) hzero2, View.ld_unit_zero (S := S1792x1) hzero2, View.ld_unit_zero (S := S1x1) hzero2,
      View.readCov_unit_zero (S := S1x1) _ hzero2]
  isplitl [HS0]
  · iexists _; isplitr
    swap; · iexact HS0
    ipureintro
    refine (View.read_writes_eq_canon _ _ _ (fun y => ⟨_, List.mem_singleton_self _, View.mem_set_unit_zero (S := S1x1) hzero2 inb_S1x1_S1x1_0_0 y⟩)).trans
      ((View.canon_unit_zero (S := S1x1) hzero2 inb_S1x1_S1x1_0_0 _).trans ?_)
    sl_unfold_run_names
    simp only [View.readAt_eq_ld, harg2.read_unread, harg3.read_unread, harg4.read_unread, harg5.read_unread, harg6.read_unread, harg9.read_unread, harg10.read_unread,
      View.ld_unit_zero (S := S1792x512) hzero2, View.ld_unit_zero (S := S27x512) hzero2, View.ld_unit_zero (S := S1792x1) hzero2, View.ld_unit_zero (S := S1x1) hzero2,
      View.readCov_unit_zero (S := S1x1) _ hzero2]
  · iexists _; isplitr
    swap; · iexact HS1
    ipureintro
    refine (View.read_writes_eq_canon _ _ _ (fun y => ⟨_, List.mem_singleton_self _, View.mem_set_unit_zero (S := S1x1) hzero2 inb_S1x1_S1x1_0_0 y⟩)).trans
      ((View.canon_unit_zero (S := S1x1) hzero2 inb_S1x1_S1x1_0_0 _).trans ?_)
    sl_unfold_run_names
    simp only [View.readAt_eq_ld, harg2.read_unread, harg3.read_unread, harg4.read_unread, harg5.read_unread, harg6.read_unread, harg9.read_unread, harg10.read_unread,
      View.ld_unit_zero (S := S1792x512) hzero2, View.ld_unit_zero (S := S27x512) hzero2, View.ld_unit_zero (S := S1792x1) hzero2, View.ld_unit_zero (S := S1x1) hzero2,
      View.readCov_unit_zero (S := S1x1) _ hzero2]

end Cert.KernelIdeal.Gen

end
-- ==== Proof.KernelIdeal.Region2Frame.lean ====
/-
  Region 2: the body obligation of its proof data (`dat2`), and the invariant's two ends.

  The invariant between points is the class's with the two one-element scratch buffers named: after point `n` they hold
  the running losses `acc2 n`. A point's tile number within its half selects one of the kernel function's three
  cases; in each, what the function leaves in the scratch buffers is one step of `acc2`'s recursion (from the reset
  values at a half's first tile, from the point before otherwise), and at a half's last tile the outputs' buffers end at
  the running losses recast.
-/
import proofs.«421000_j23381801959614_3_alg».proof.Proof.KernelIdeal.Region2.Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region is stated at
variable (V : (c : Dev nD) → (b : Ref sig .tc) → Buf (Elt F) ((c : Thread nD τ).loc b))

/-! ## The invariant, taken apart

Region 2 touches two of the core's sixteen scoped buffers that are no staging buffer of its own: its two one-element
scratch buffers. The other fourteen (the staging and scratch buffers of the two earlier calls) are carried through
every point at some contents. -/

/-- The fourteen scoped buffers of the two earlier calls, each whole at some contents. -/
def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The class's invariant: the fourteen, the two scratch buffers at anything, the generator register at some state. -/
theorem PhiA2_elim (c : Dev nD) :
    (Pipeline.ΦA spec2 c : sProp 𝕄) ⊢ iprop(rest2 (F := F) c ∗ (∃ d, owns (c : Thread nD τ) scM2_0 fullShare d) ∗ (∃ d, owns (c : Thread nD τ) scM2_1 fullShare d) ∗ (∃ r, prngReg c r)) := by
  unfold Pipeline.ΦA; rw [scopedRest2_eq]; unfold rest2; simp only [scM2_0, scM2_1, owns_whole]
  iintro ⟨⟨R1, R2, R3, R4, R5, R6, R7, R8, R9, R10, R11, R12, R13, R14, HS0, HS1⟩, Hg⟩
  isplitl [R1 R2 R3 R4 R5 R6 R7 R8 R9 R10 R11 R12 R13 R14]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    iexact R14
  isplitl [HS0]; · iexact HS0
  isplitl [HS1]; · iexact HS1
  iexact Hg

theorem PhiA2_intro (c : Dev nD) :
    iprop(rest2 (F := F) c ∗ (∃ d, owns (c : Thread nD τ) scM2_0 fullShare d) ∗ (∃ d, owns (c : Thread nD τ) scM2_1 fullShare d) ∗ (∃ r, prngReg c r)) ⊢ (Pipeline.ΦA spec2 c : sProp 𝕄) := by
  unfold Pipeline.ΦA; rw [scopedRest2_eq]; unfold rest2; simp only [scM2_0, scM2_1, owns_whole]
  iintro ⟨⟨R1, R2, R3, R4, R5, R6, R7, R8, R9, R10, R11, R12, R13, R14⟩, HS0, HS1, Hg⟩
  isplitl [R1 R2 R3 R4 R5 R6 R7 R8 R9 R10 R11 R12 R13 R14 HS0 HS1]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [HS0]; · iexact HS0
    iexact HS1
  iexact Hg

/-- After point `n`: the fourteen, the two scratch buffers at the running losses, the generator register. -/
theorem PhiS2_elim (c : Dev nD) (n : ℕ) (hn : n < cfg2.N) :
    PhiS2 V c (n + 1) hn ⊢ iprop(rest2 (F := F) c ∗ owns (c : Thread nD τ) scM2_0 fullShare (acc2 V c n hn).1 ∗ owns (c : Thread nD τ) scM2_1 fullShare (acc2 V c n hn).2 ∗ (∃ r, prngReg c r)) := by
  unfold PhiS2 rest2; simp only [scM2_0, scM2_1, owns_whole]
  iintro ⟨⟨R1, R2, R3, R4, R5, R6, R7, R8, R9, R10, R11, R12, R13, R14, HS0, HS1⟩, Hg⟩
  isplitl [R1 R2 R3 R4 R5 R6 R7 R8 R9 R10 R11 R12 R13 R14]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    iexact R14
  isplitl [HS0]; · iexact HS0
  isplitl [HS1]; · iexact HS1
  iexact Hg

theorem PhiS2_intro (c : Dev nD) (n : ℕ) (hn : n < cfg2.N) :
    iprop(rest2 (F := F) c ∗ owns (c : Thread nD τ) scM2_0 fullShare (acc2 V c n hn).1 ∗ owns (c : Thread nD τ) scM2_1 fullShare (acc2 V c n hn).2 ∗ (∃ r, prngReg c r)) ⊢ PhiS2 V c (n + 1) hn := by
  unfold PhiS2 rest2; simp only [scM2_0, scM2_1, owns_whole]
  iintro ⟨⟨R1, R2, R3, R4, R5, R6, R7, R8, R9, R10, R11, R12, R13, R14⟩, HS0, HS1, Hg⟩
  isplitl [R1 R2 R3 R4 R5 R6 R7 R8 R9 R10 R11 R12 R13 R14 HS0 HS1]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [HS0]; · iexact HS0
    iexact HS1
  iexact Hg

/-- Before a point that is not the first: the scratch buffers at what the point before left. -/
theorem PhiS2_pos_elim (c : Dev nD) (n : ℕ) (h : n ≤ cfg2.N) (hz : n ≠ 0) :
    PhiS2 V c n h ⊢ iprop(rest2 (F := F) c ∗ owns (c : Thread nD τ) scM2_0 fullShare (acc2 V c (n - 1) (by omega)).1 ∗ owns (c : Thread nD τ) scM2_1 fullShare (acc2 V c (n - 1) (by omega)).2 ∗ (∃ r, prngReg c r)) := by
  cases n with
  | zero => exact absurd rfl hz
  | succ n => exact PhiS2_elim V c n h

/-- At any position the invariant gives the class's back: the running losses' names are forgotten. -/
theorem PhiS2_out (c : Dev nD) (n : ℕ) (h : n ≤ cfg2.N) : PhiS2 V c n h ⊢ (Pipeline.ΦA spec2 c : sProp 𝕄) := by
  cases n with
  | zero => exact Idealize.SL.BI.Entails.refl _
  | succ n =>
    refine (PhiS2_elim V c n h).trans ?_
    iintro ⟨HR, HS0, HS1, Hg⟩
    iapply PhiA2_intro
    isplitl [HR]; · iexact HR
    isplitl [HS0]; · iexists _; iexact HS0
    isplitl [HS1]; · iexists _; iexact HS1
    iexact Hg

/-- So at any position the scratch buffers are there at some contents. -/
theorem PhiS2_any (c : Dev nD) (n : ℕ) (h : n ≤ cfg2.N) :
    PhiS2 V c n h ⊢ iprop(rest2 (F := F) c ∗ (∃ d, owns (c : Thread nD τ) scM2_0 fullShare d) ∗ (∃ d, owns (c : Thread nD τ) scM2_1 fullShare d) ∗ (∃ r, prngReg c r)) :=
  (PhiS2_out V c n h).trans (PhiA2_elim c)

theorem PhiS2_castSucc (c : Dev nD) (t : Fin cfg2.N) :
    (dat2 V c).Φ t.castSucc = PhiS2 V c t.val (Nat.le_of_lt t.isLt) := by
  dsimp only [dat2]; simp only [Fin.coe_castSucc]

/-! ## The windows at a point -/

abbrev ms2_0 (t : Fin cfg2.N) : Memref sig .tc .vmem S1792x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1792x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S27x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1792x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1792x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1x1 .f32 := win2_6.stage (cfg2.slots t 6)
abbrev hs2_6 (t : Fin cfg2.N) : (ms2_6 t).IsWhole := hstage2_6 ((cfg2.slots t 6).cast nbuf2_6)

/-- Each input's current staging buffer holds its block at every point, fetched there or not (the centroids are fetched
    at the first point only; their block index never moves). -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

/-- The inputs are never idle. -/
theorem liveAt2_0 (t : Fin cfg2.N) : cfg2.idle 0 (grid2.coords t) = false := rfl
theorem liveAt2_1 (t : Fin cfg2.N) : cfg2.idle 1 (grid2.coords t) = false := rfl
theorem liveAt2_2 (t : Fin cfg2.N) : cfg2.idle 2 (grid2.coords t) = false := rfl
theorem liveAt2_3 (t : Fin cfg2.N) : cfg2.idle 3 (grid2.coords t) = false := rfl
theorem liveAt2_4 (t : Fin cfg2.N) : cfg2.idle 4 (grid2.coords t) = false := rfl
/-- The two outputs are idle, and not written back, except at a half's last tile, where they are live. -/
theorem idleAt2_5 : ∀ t : Fin cfg2.N, ¬t.val % 7 = 6 → cfg2.idle 5 (grid2.coords t) = true := by decide +kernel
theorem idleAt2_6 : ∀ t : Fin cfg2.N, ¬t.val % 7 = 6 → cfg2.idle 6 (grid2.coords t) = true := by decide +kernel
theorem noFlush2_5 : ∀ t : Fin cfg2.N, ¬t.val % 7 = 6 → (cfg2.win 5).flush t = false := by decide +kernel
theorem noFlush2_6 : ∀ t : Fin cfg2.N, ¬t.val % 7 = 6 → (cfg2.win 6).flush t = false := by decide +kernel
theorem liveAt2_5 : ∀ t : Fin cfg2.N, t.val % 7 = 6 → cfg2.idle 5 (grid2.coords t) = false := by decide +kernel
theorem liveAt2_6 : ∀ t : Fin cfg2.N, t.val % 7 = 6 → cfg2.idle 6 (grid2.coords t) = false := by decide +kernel

/-! ## The accumulators' recursion, as the invariant after a point -/

theorem PhiS2_intro_first (c : Dev nD) (t : Fin cfg2.N) (h0 : t.val % 7 = 0) :
    iprop(rest2 (F := F) c ∗ owns (c : Thread nD τ) scM2_0 fullShare (step2_0 V c t k2_pay4)
        ∗ owns (c : Thread nD τ) scM2_1 fullShare (step2_1 V c t k2_pay5) ∗ (∃ r, prngReg c r))
      ⊢ PhiS2 V c (t.val + 1) t.isLt := by
  have e := PhiS2_intro V c t.val t.isLt
  rw [acc2_first V c t h0] at e
  exact e

theorem PhiS2_intro_later (c : Dev nD) (t : Fin cfg2.N) (h0 : ¬t.val % 7 = 0) :
    iprop(rest2 (F := F) c
        ∗ owns (c : Thread nD τ) scM2_0 fullShare (step2_0 V c t (acc2 V c (t.val - 1) (Nat.lt_of_le_of_lt (Nat.sub_le _ _) t.isLt)).1)
        ∗ owns (c : Thread nD τ) scM2_1 fullShare (step2_1 V c t (acc2 V c (t.val - 1) (Nat.lt_of_le_of_lt (Nat.sub_le _ _) t.isLt)).2)
        ∗ (∃ r, prngReg c r))
      ⊢ PhiS2 V c (t.val + 1) t.isLt := by
  have e := PhiS2_intro V c t.val t.isLt
  rw [acc2_later V c t h0] at e
  exact e

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point. The inputs' buffers hold their blocks; the point's tile number says which case it is in.
    At a half's first tile the scratch buffers may hold anything and end at the tile's step from the reset values; at a
    later tile they hold what the tile before left and end at the tile's step from that: the recursion of `acc2`. The
    outputs' buffers are handed back untouched except at a half's last tile, where they end at the running losses
    recast. The fourteen other scoped buffers, the generator register and the core's owes pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_castSucc]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  have hN : t.val < 14 := lt_of_lt_of_eq t.isLt (show cfg2.N = 14 from N_2)
  by_cases h0 : t.val % 7 = 0
  · have h1 : ¬t.val % 7 = 6 := by omega
    rw [Dat.leavesExact_idle (dat2 V c) 5 t (idleAt2_5 t h1) (noFlush2_5 t h1),
      Dat.leavesExact_idle (dat2 V c) 6 t (idleAt2_6 t h1) (noFlush2_6 t h1)]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (PhiS2_any V c t.val (Nat.le_of_lt t.isLt)) $$ HΦ
    icases HΦ' with ⟨HR, HS0, HS1, Hg⟩
    iapply (run2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HR HS0 HS1 Hg]
    · iapply PhiS2_intro_first V c t h0
      unfold step2_0 step2_1
      isplitl [HR]; · iexact HR
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hz : t.val ≠ 0 := fun e => h0 (by rw [e])
    by_cases h1 : t.val % 7 = 6
    · rw [show (dat2 V c).leavesExact 5 t = owns (c : Thread nD τ) (ms2_5 t) fullShare ((dat2 V c).after 5 t) from by
        unfold Dat.leavesExact; rw [liveAt2_5 t h1], after2_5]
      rw [show (dat2 V c).leavesExact 6 t = owns (c : Thread nD τ) (ms2_6 t) fullShare ((dat2 V c).after 6 t) from by
        unfold Dat.leavesExact; rw [liveAt2_6 t h1], after2_6]
      rw [acc2_later V c t h0]; dsimp only
      unfold step2_0 step2_1
      iintro ⟨HΦ, Ho, ⟨%d0, H0⟩, ⟨%d1, H1⟩, ⟨%d2, H2⟩, ⟨%d3, H3⟩, ⟨%d4, H4⟩, ⟨%d5, H5⟩, ⟨%d6, H6⟩⟩
      ihave HΦ' := (PhiS2_pos_elim V c t.val (Nat.le_of_lt t.isLt) hz) $$ HΦ
      icases HΦ' with ⟨HR, HS0, HS1, Hg⟩
      iapply (run2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HR HS0 HS1 Hg]
      · iapply PhiS2_intro_later V c t h0
        unfold step2_0 step2_1
        isplitl [HR]; · iexact HR
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat2 V c) 5 t (idleAt2_5 t h1) (noFlush2_5 t h1),
        Dat.leavesExact_idle (dat2 V c) 6 t (idleAt2_6 t h1) (noFlush2_6 t h1)]
      iintro ⟨HΦ, Ho, ⟨%d0, H0⟩, ⟨%d1, H1⟩, ⟨%d2, H2⟩, ⟨%d3, H3⟩, ⟨%d4, H4⟩, ⟨%d5, H5⟩, ⟨%d6, H6⟩⟩
      ihave HΦ' := (PhiS2_pos_elim V c t.val (Nat.le_of_lt t.isLt) hz) $$ HΦ
      icases HΦ' with ⟨HR, HS0, HS1, Hg⟩
      iapply (run2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HR HS0 HS1 Hg]
      · iapply PhiS2_intro_later V c t h0
        unfold step2_0 step2_1
        isplitl [HR]; · iexact HR
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [Phi_eq2]
  exact Idealize.SL.BI.Entails.refl _

/-- After the last point the invariant gives it back. -/
theorem hout2 (c : Dev nD) : (dat2 V c).Φ (Fin.last cfg2.N) ⊢ (Pipeline.ΦA spec2 c : sProp 𝕄) := by
  rw [Phi_eq2]
  exact PhiS2_out V c _ _

end Cert.KernelIdeal.Gen

end
-- ==== Proof.KernelIdeal.Run.lean ====
/-
  THE RUN of the kernel program: @main is three stretches of host operations around three kernel regions. The buffer
  contents at each boundary are a fold from the launch memory (`Wv0` … `Wv6`): a host stretch applies its operations, a
  region leaves its input arrays as entered and each output array with its grid points' write-backs folded in. Over the
  thread state "every unscoped buffer at the boundary's contents, the generator register at some state, nothing owed"
  each region is a segment whose body obligation and invariant ends are the region modules'; the launch theorem for a
  list of segments then gives: every weakly fair execution terminates with every unscoped buffer at `Wv6`.
-/
import proofs.«421000_j23381801959614_3_alg».proof.Proof.KernelIdeal.Region0Frame
import proofs.«421000_j23381801959614_3_alg».proof.Proof.KernelIdeal.Region1Frame
import proofs.«421000_j23381801959614_3_alg».proof.Proof.KernelIdeal.Region2Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev Wv0 : Dev nD → Valuation τ sig (Elt F) := fun c b => (s₀ m ρ).mem ((c : Dev nD), b)
/-- After the first host stretch (region 0's entry). -/
abbrev Wv1 : Dev nD → Valuation τ sig (Elt F) := fun c => StableHlo.after hostOps0 (Wv0 m ρ c)
/-- The same read at the TensorCore's references (what region 0's proof data take). -/
abbrev En0 : (c : Dev nD) → (b : Ref sig .tc) → Buf (Elt F) ((c : Thread nD τ).loc b) := fun c b => Wv1 m ρ c b

/-- At region 0's exit: its arrays at what the pipeline leaves (an input as entered, an output with its write-backs
    folded in), every other buffer as entered. -/
def Wv2 (c : Dev nD) : Valuation τ sig (Elt F) :=
  Pipeline.withArrays spec0 c (Wv1 m ρ c) fun w => (dat0 (En0 m ρ) c).arrAt w cfg0.N
theorem Wv2_arr (c : Dev nD) (w : Fin cfg0.W) :
    Wv2 m ρ c (Proc.devRef .tc (Pipeline.arrRef spec0 w)) = (dat0 (En0 m ρ) c).arrAt w cfg0.N := by
  unfold Wv2; exact Pipeline.withArrays_arr spec0 launch0.win.arr_inj c _ _ w
theorem Wv2_of_ne (c : Dev nD) (b : Ref sig .tc) (hb : ∀ w, Pipeline.arrRef spec0 w ≠ b) :
    Wv2 m ρ c (Proc.devRef .tc b) = Wv1 m ρ c (Proc.devRef .tc b) := by
  unfold Wv2; exact Pipeline.withArrays_of_ne spec0 c _ _ b hb
/-- The same read at the TensorCore's references. -/
abbrev En1 : (c : Dev nD) → (b : Ref sig .tc) → Buf (Elt F) ((c : Thread nD τ).loc b) := fun c b => Wv2 m ρ c b
theorem hF0 (c : Dev nD) (w : Fin cfg0.W) : (dat0 (En0 m ρ) c).arrAt w cfg0.N = En1 m ρ c (Pipeline.arrRef spec0 w) :=
  (Wv2_arr m ρ c w).symm
theorem hrest0 (c : Dev nD) : ∀ b, b ∉ Finset.univ.image (Pipeline.arrRef spec0) → En1 m ρ c b = En0 m ρ c b :=
  fun b hb => Wv2_of_ne m ρ c b fun w e => hb (Finset.mem_image.mpr ⟨w, Finset.mem_univ _, e⟩)

/-- At region 1's exit: its arrays at what the pipeline leaves (an input as entered, an output with its write-backs
    folded in), every other buffer as entered. -/
def Wv3 (c : Dev nD) : Valuation τ sig (Elt F) :=
  Pipeline.withArrays spec1 c (Wv2 m ρ c) fun w => (dat1 (En1 m ρ) c).arrAt w cfg1.N
theorem Wv3_arr (c : Dev nD) (w : Fin cfg1.W) :
    Wv3 m ρ c (Proc.devRef .tc (Pipeline.arrRef spec1 w)) = (dat1 (En1 m ρ) c).arrAt w cfg1.N := by
  unfold Wv3; exact Pipeline.withArrays_arr spec1 launch1.win.arr_inj c _ _ w
theorem Wv3_of_ne (c : Dev nD) (b : Ref sig .tc) (hb : ∀ w, Pipeline.arrRef spec1 w ≠ b) :
    Wv3 m ρ c (Proc.devRef .tc b) = Wv2 m ρ c (Proc.devRef .tc b) := by
  unfold Wv3; exact Pipeline.withArrays_of_ne spec1 c _ _ b hb
/-- The same read at the TensorCore's references. -/
abbrev Ex1 : (c : Dev nD) → (b : Ref sig .tc) → Buf (Elt F) ((c : Thread nD τ).loc b) := fun c b => Wv3 m ρ c b
theorem hF1 (c : Dev nD) (w : Fin cfg1.W) : (dat1 (En1 m ρ) c).arrAt w cfg1.N = Ex1 m ρ c (Pipeline.arrRef spec1 w) :=
  (Wv3_arr m ρ c w).symm
theorem hrest1 (c : Dev nD) : ∀ b, b ∉ Finset.univ.image (Pipeline.arrRef spec1) → Ex1 m ρ c b = En1 m ρ c b :=
  fun b hb => Wv3_of_ne m ρ c b fun w e => hb (Finset.mem_image.mpr ⟨w, Finset.mem_univ _, e⟩)

/-- After the second host stretch (region 2's entry). -/
abbrev Wv4 : Dev nD → Valuation τ sig (Elt F) := fun c => StableHlo.after hostOps2 (Wv3 m ρ c)
/-- The same read at the TensorCore's references (what region 2's proof data take). -/
abbrev En2 : (c : Dev nD) → (b : Ref sig .tc) → Buf (Elt F) ((c : Thread nD τ).loc b) := fun c b => Wv4 m ρ c b

/-- At region 2's exit: its arrays at what the pipeline leaves (an input as entered, an output with its write-backs
    folded in), every other buffer as entered. -/
def Wv5 (c : Dev nD) : Valuation τ sig (Elt F) :=
  Pipeline.withArrays spec2 c (Wv4 m ρ c) fun w => (dat2 (En2 m ρ) c).arrAt w cfg2.N
theorem Wv5_arr (c : Dev nD) (w : Fin cfg2.W) :
    Wv5 m ρ c (Proc.devRef .tc (Pipeline.arrRef spec2 w)) = (dat2 (En2 m ρ) c).arrAt w cfg2.N := by
  unfold Wv5; exact Pipeline.withArrays_arr spec2 launch2.win.arr_inj c _ _ w
theorem Wv5_of_ne (c : Dev nD) (b : Ref sig .tc) (hb : ∀ w, Pipeline.arrRef spec2 w ≠ b) :
    Wv5 m ρ c (Proc.devRef .tc b) = Wv4 m ρ c (Proc.devRef .tc b) := by
  unfold Wv5; exact Pipeline.withArrays_of_ne spec2 c _ _ b hb
/-- The same read at the TensorCore's references. -/
abbrev Ex2 : (c : Dev nD) → (b : Ref sig .tc) → Buf (Elt F) ((c : Thread nD τ).loc b) := fun c b => Wv5 m ρ c b
theorem hF2 (c : Dev nD) (w : Fin cfg2.W) : (dat2 (En2 m ρ) c).arrAt w cfg2.N = Ex2 m ρ c (Pipeline.arrRef spec2 w) :=
  (Wv5_arr m ρ c w).symm
theorem hrest2 (c : Dev nD) : ∀ b, b ∉ Finset.univ.image (Pipeline.arrRef spec2) → Ex2 m ρ c b = En2 m ρ c b :=
  fun b hb => Wv5_of_ne m ρ c b fun w e => hb (Finset.mem_image.mpr ⟨w, Finset.mem_univ _, e⟩)

/-- After the last host stretch: the contents at the return. -/
abbrev Wv6 : Dev nD → Valuation τ sig (Elt F) := fun c => StableHlo.after hostOps3 (Wv5 m ρ c)

/-! ## The arguments end as launched -/

/-- `main_arg0` reaches the end as launched: no host operation writes it, and a region reads it through an input window or not at all. -/
theorem Wv6_main_arg0 (c : Dev nD) : Wv6 m ρ c (Proc.devRef .tc main_arg0) = m ((c : Thread nD τ).loc main_arg0) :=
  calc Wv6 m ρ c (Proc.devRef .tc main_arg0)
    _ = Wv5 m ρ c (Proc.devRef .tc main_arg0) := StableHlo.after_of_forall_not_mem (b := Proc.devRef .tc main_arg0) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wv4 m ρ c (Proc.devRef .tc main_arg0) := (Wv5_arr m ρ c 0).trans (((dat2 (En2 m ρ) c).arrAt_in 0 rfl _).trans (A_eq2 (En2 m ρ) c 0))
    _ = Wv3 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wv2 m ρ c (Proc.devRef .tc main_arg0) := (Wv3_arr m ρ c 0).trans (((dat1 (En1 m ρ) c).arrAt_in 0 rfl _).trans (A_eq1 (En1 m ρ) c 0))
    _ = Wv1 m ρ c (Proc.devRef .tc main_arg0) := Wv2_of_ne m ρ c main_arg0 (by decide)
    _ = Wv0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` reaches the end as launched: no host operation writes it, and a region reads it through an input window or not at all. -/
theorem Wv6_main_arg1 (c : Dev nD) : Wv6 m ρ c (Proc.devRef .tc main_arg1) = m ((c : Thread nD τ).loc main_arg1) :=
  calc Wv6 m ρ c (Proc.devRef .tc main_arg1)
    _ = Wv5 m ρ c (Proc.devRef .tc main_arg1) := StableHlo.after_of_forall_not_mem (b := Proc.devRef .tc main_arg1) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wv4 m ρ c (Proc.devRef .tc main_arg1) := (Wv5_arr m ρ c 1).trans (((dat2 (En2 m ρ) c).arrAt_in 1 rfl _).trans (A_eq2 (En2 m ρ) c 1))
    _ = Wv3 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wv2 m ρ c (Proc.devRef .tc main_arg1) := Wv3_of_ne m ρ c main_arg1 (by decide)
    _ = Wv1 m ρ c (Proc.devRef .tc main_arg1) := Wv2_of_ne m ρ c main_arg1 (by decide)
    _ = Wv0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` reaches the end as launched: no host operation writes it, and a region reads it through an input window or not at all. -/
theorem Wv6_main_arg2 (c : Dev nD) : Wv6 m ρ c (Proc.devRef .tc main_arg2) = m ((c : Thread nD τ).loc main_arg2) :=
  calc Wv6 m ρ c (Proc.devRef .tc main_arg2)
    _ = Wv5 m ρ c (Proc.devRef .tc main_arg2) := StableHlo.after_of_forall_not_mem (b := Proc.devRef .tc main_arg2) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wv4 m ρ c (Proc.devRef .tc main_arg2) := Wv5_of_ne m ρ c main_arg2 (by decide)
    _ = Wv3 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wv2 m ρ c (Proc.devRef .tc main_arg2) := Wv3_of_ne m ρ c main_arg2 (by decide)
    _ = Wv1 m ρ c (Proc.devRef .tc main_arg2) := Wv2_of_ne m ρ c main_arg2 (by decide)
    _ = Wv0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` reaches the end as launched: no host operation writes it, and a region reads it through an input window or not at all. -/
theorem Wv6_main_arg3 (c : Dev nD) : Wv6 m ρ c (Proc.devRef .tc main_arg3) = m ((c : Thread nD τ).loc main_arg3) :=
  calc Wv6 m ρ c (Proc.devRef .tc main_arg3)
    _ = Wv5 m ρ c (Proc.devRef .tc main_arg3) := StableHlo.after_of_forall_not_mem (b := Proc.devRef .tc main_arg3) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wv4 m ρ c (Proc.devRef .tc main_arg3) := Wv5_of_ne m ρ c main_arg3 (by decide)
    _ = Wv3 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wv2 m ρ c (Proc.devRef .tc main_arg3) := Wv3_of_ne m ρ c main_arg3 (by decide)
    _ = Wv1 m ρ c (Proc.devRef .tc main_arg3) := Wv2_of_ne m ρ c main_arg3 (by decide)
    _ = Wv0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

/-- No pipeline has a prefetched table. -/
abbrev admK : (p : Fin 3) → (pcfgs (F := F) p).Adm := fun p => (cfgs p).toPCfg_adm
/-- Every pipeline's proof data, each at its region's entry contents. -/
def pdatsK : (p : Fin 3) → (c : Dev nD) → Dat τ (Elt F) Unit ℕ (UR sig nD τ) ℕ (Pipeline.pin (pcfgs (F := F)) admK p) c
  | ⟨0, _⟩ => fun c => dat0 (En0 m ρ) c
  | ⟨1, _⟩ => fun c => dat1 (En1 m ρ) c
  | ⟨2, _⟩ => fun c => dat2 (En2 m ρ) c
abbrev 𝒱K : Variants := Variants.none
/-- No core owes another anything: no level is assigned. -/
abbrev LK : GSem nD τ sig → Finset Unit := fun _ => ∅
abbrev lvK : GSem nD τ sig → Unit → ℕ := fun _ _ => 0
/-- What rides beside the buffers through every segment: the generator register at some state and the core's owes, at nothing. -/
abbrev Rc (c : Dev nD) : sProp 𝕄 := iprop((∃ r, prngReg c r) ∗ ∃ W, owes (c : Thread nD τ) (0 : CellTallies nD τ sig Unit) W)
/-- A host stretch as a segment over the unscoped references from the contents `W`. -/
abbrev hsegK (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱K LK lvK :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rc

theorem fresh0 : (hostOps0 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
theorem fresh3 : (hostOps3 : List (HloOp τ sig (Elt F))).Forall fun op => op.fresh = ∅ := by
  simp only [List.Forall]; repeat' constructor
/-- An unscoped TensorCore reference is among those the thread state holds. -/
theorem mem_ucK (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tend (c : Dev nD) : sProp 𝕄 := iprop(StableHlo.held (c : Thread nD τ) (Pipeline.ucRefs τ sig) (Wv6 m ρ c) ∗ ∃ r, prngReg c r)

/-! ## The regions as segments -/

set_option backward.isDefEq.respectTransparency.types false in
/-- Region 0 over the thread state: entered from every unscoped buffer at `Wv1`, left at `Wv2`. Its arrays are split out
    of the unscoped buffers and put back at the exit contents; the generator register goes into the invariant and comes
    back; nothing is owed; the kernel has no semaphore of its own. -/
def reg0 : Pipeline.RegionSeg (pcfgs (F := F)) admK (pdatsK m ρ) () defs₀ 𝒱K LK lvK 0 where
  win := launch0.win.to₀
  block_pos := launch0.block_pos
  stage_whole := launch0.stage_whole
  K := PEmpty
  osem k := k.elim
  ho := Pipeline.OwnSemFacts.none _
  hbody c := (body_obligation0 (En0 m ρ) c).loose
  hwaits := Pipeline.hwaits_of_owed_zero _ _ _ _ LK lvK 0 fun _ _ => rfl
  pre c := iprop(StableHlo.held (c : Thread nD τ) (Pipeline.ucRefs τ sig) (Wv1 m ρ c) ∗ Rc c)
  post c := iprop(StableHlo.held (c : Thread nD τ) (Pipeline.ucRefs τ sig) (Wv2 m ρ c) ∗ Rc c)
  X c := iprop(∃ r, prngReg c r)
  Y c := iprop(∃ r, prngReg c r)
  Z c := Pipeline.unscopedRest (Ix := Unit) (Name := ℕ) (U := UR sig nD τ) (Lvl := ℕ) spec0 c (En0 m ρ c)
  hentry c := by
    rw [Pipeline.ownSems0_none]
    have hsplit := Pipeline.arrays_of_unscopedBufs (p := 0) (pcfgs (F := F)) admK (pdatsK m ρ) launch0.win launch0.arr_whole c
      ((pdatsK m ρ 0 c).share_full fun _ => rfl) (En0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec0 c : sProp 𝕄)).trans (hin0 (En0 m ρ) c)
    unfold Pipeline.ΦA
    iintro ⟨Hp, -, Hr⟩
    isplitl [Hr]; · iexact Hr
    iexact Hp
  hout c := by
    rw [Pipeline.ownSems0_none]
    refine (hout0 (En0 m ρ) c).trans (?_ : (Pipeline.ΦA spec0 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdatsK m ρ) ((pdatsK m ρ 0 c).share_full fun _ => rfl)
      (En0 m ρ c) (En1 m ρ c) ((pdatsK m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `Wv2`, left at `Wv3`. Its arrays are split out
    of the unscoped buffers and put back at the exit contents; the generator register goes into the invariant and comes
    back; nothing is owed; the kernel has no semaphore of its own. -/
def reg1 : Pipeline.RegionSeg (pcfgs (F := F)) admK (pdatsK m ρ) () defs₀ 𝒱K LK lvK 1 where
  win := launch1.win.to₀
  block_pos := launch1.block_pos
  stage_whole := launch1.stage_whole
  K := PEmpty
  osem k := k.elim
  ho := Pipeline.OwnSemFacts.none _
  hbody c := (body_obligation1 (En1 m ρ) c).loose
  hwaits := Pipeline.hwaits_of_owed_zero _ _ _ _ LK lvK 1 fun _ _ => rfl
  pre c := iprop(StableHlo.held (c : Thread nD τ) (Pipeline.ucRefs τ sig) (Wv2 m ρ c) ∗ Rc c)
  post c := iprop(StableHlo.held (c : Thread nD τ) (Pipeline.ucRefs τ sig) (Wv3 m ρ c) ∗ Rc c)
  X c := iprop(∃ r, prngReg c r)
  Y c := iprop(∃ r, prngReg c r)
  Z c := Pipeline.unscopedRest (Ix := Unit) (Name := ℕ) (U := UR sig nD τ) (Lvl := ℕ) spec1 c (En1 m ρ c)
  hentry c := by
    rw [Pipeline.ownSems0_none]
    have hsplit := Pipeline.arrays_of_unscopedBufs (p := 1) (pcfgs (F := F)) admK (pdatsK m ρ) launch1.win launch1.arr_whole c
      ((pdatsK m ρ 1 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (En1 m ρ) c)
    unfold Pipeline.ΦA
    iintro ⟨Hp, -, Hr⟩
    isplitl [Hr]; · iexact Hr
    iexact Hp
  hout c := by
    rw [Pipeline.ownSems0_none]
    refine (hout1 (En1 m ρ) c).trans (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdatsK m ρ) ((pdatsK m ρ 1 c).share_full fun _ => rfl)
      (En1 m ρ c) (Ex1 m ρ c) ((pdatsK m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `Wv4`, left at `Wv5`. Its arrays are split out
    of the unscoped buffers and put back at the exit contents; the generator register goes into the invariant and comes
    back; nothing is owed; the kernel has no semaphore of its own. -/
def reg2 : Pipeline.RegionSeg (pcfgs (F := F)) admK (pdatsK m ρ) () defs₀ 𝒱K LK lvK 2 where
  win := launch2.win.to₀
  block_pos := launch2.block_pos
  stage_whole := launch2.stage_whole
  K := PEmpty
  osem k := k.elim
  ho := Pipeline.OwnSemFacts.none _
  hbody c := (body_obligation2 (En2 m ρ) c).loose
  hwaits := Pipeline.hwaits_of_owed_zero _ _ _ _ LK lvK 2 fun _ _ => rfl
  pre c := iprop(StableHlo.held (c : Thread nD τ) (Pipeline.ucRefs τ sig) (Wv4 m ρ c) ∗ Rc c)
  post c := iprop(StableHlo.held (c : Thread nD τ) (Pipeline.ucRefs τ sig) (Wv5 m ρ c) ∗ Rc c)
  X c := iprop(∃ r, prngReg c r)
  Y c := iprop(∃ r, prngReg c r)
  Z c := Pipeline.unscopedRest (Ix := Unit) (Name := ℕ) (U := UR sig nD τ) (Lvl := ℕ) spec2 c (En2 m ρ c)
  hentry c := by
    rw [Pipeline.ownSems0_none]
    have hsplit := Pipeline.arrays_of_unscopedBufs (p := 2) (pcfgs (F := F)) admK (pdatsK m ρ) launch2.win launch2.arr_whole c
      ((pdatsK m ρ 2 c).share_full fun _ => rfl) (En2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec2 c : sProp 𝕄)).trans (hin2 (En2 m ρ) c)
    unfold Pipeline.ΦA
    iintro ⟨Hp, -, Hr⟩
    isplitl [Hr]; · iexact Hr
    iexact Hp
  hout c := by
    rw [Pipeline.ownSems0_none]
    refine (hout2 (En2 m ρ) c).trans (?_ : (Pipeline.ΦA spec2 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admK (Ix := Unit) (Name := ℕ) (U := UR sig nD τ) (Lvl := ℕ)
      launch2.win launch2.arr_whole c (pdatsK m ρ) ((pdatsK m ρ 2 c).share_full fun _ => rfl)
      (En2 m ρ c) (Ex2 m ρ c) ((pdatsK m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six segments in order. -/
abbrev segsK : List (Pipeline.Seg (pcfgs (F := F)) admK (pdatsK m ρ) () defs₀ 𝒱K LK lvK) :=
  [ .host (hsegK hostOps0 hostOps0_sub fresh0 (Wv0 m ρ)),
    .region (reg0 m ρ),
    .region (reg1 m ρ),
    .host (hsegK hostOps2 hostOps2_sub fresh2 (Wv3 m ρ)),
    .region (reg2 m ρ),
    .host (hsegK hostOps3 hostOps3_sub fresh3 (Wv5 m ρ)) ]
/-- @main is the run of the segments. -/
theorem main_runK (c : Dev nD) : main (F := F) c = Pipeline.Seg.run (segsK m ρ) := (main_chain c).trans (by chain_rfl)

set_option backward.isDefEq.respectTransparency.types false in
/-- THE RUN: from any memory with zero counters every weakly fair execution of @main terminates, nothing faulting, and
    every final state holds every unscoped buffer of every core at `Wv6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wv6 m ρ c b) :=
  Pipeline.θ_run_regions_kit (pcfgs (F := F)) admK (pdatsK m ρ) () cellOf_inj emb₁ defs₀ 𝒱K LK lvK m ρ main (segsK m ρ)
    (fun c Q => by rw [main_runK m ρ c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wv0 m ρ c) ∗ Rc c)) (Tₙ := Tend m ρ)
    (hch := ⟨fun _ => .rfl, fun _ => .rfl, fun _ => .rfl, fun _ => .rfl, fun _ => .rfl, fun _ => .rfl, fun c => by
      show iprop(StableHlo.held (c : Thread nD τ) (Pipeline.ucRefs τ sig) (Wv6 m ρ c) ∗ Rc c) ⊢ _
      iintro ⟨Hh, Hp, HO⟩
      isplitl [Hh Hp]
      · isplitl [Hh]; · iexact Hh
        iexact Hp
      iexact HO⟩)
    (hinit := by
      refine Pipeline.initEach LK lvK fun c => ?_
      rw [show unscopedBufs c (fun b => m ((c : Thread nD τ).loc b)) = StableHlo.held (c : Thread nD τ) (Pipeline.ucRefs τ sig) (Wv0 m ρ c)
        from Pipeline.unscopedBufs_held c (Wv0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wv6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wv6 m ρ c) s')
      isplitl [Hh] <;> iassumption)
    (hQ := fun s h => h)

/-- THE FRAME: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_ucK main_arg0 (by decide))).trans (Wv6_main_arg0 m ρ c),
     (h c _ (mem_ucK main_arg1 (by decide))).trans (Wv6_main_arg1 m ρ c),
     (h c _ (mem_ucK main_arg2 (by decide))).trans (Wv6_main_arg2 m ρ c),
     (h c _ (mem_ucK main_arg3 (by decide))).trans (Wv6_main_arg3 m ρ c)⟩) (run_all m ρ)

end Cert.KernelIdeal.Gen

end
-- ==== Proof.Spec.lean ====
/-
  The mathematics of the loss, as functions of rows (`n`), classes (`k`) and features (`d`) over the extended reals.
  A row's class is read off its label word; a class's centroid is the sum of its rows over the larger of its count and one;
  a row's logits are its products with the centroids over the temperature; its loss is minus the log-softmax at its own
  class, weighted by the mean of its row of the similarity matrix. The kernel accumulates the class sums and the loss
  over the two halves of the rows, each in tiles, shifts the log-softmax as `x − (max + log Σ exp)` and picks the label's
  entry by a one-hot product; the reference scatters, shifts as `(x − max) − log Σ exp` and gathers.
  `totalK` and `totalR` are the two arrangements; they agree on finite features and labels inside the class range.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The constant words both programs carry, read at the extended reals: the temperature 0.07, −∞, 1, the row length 3136,
    the number of rows 25088, ½ and 2. -/
abbrev cTemp : EReal := Ideal.ofBits .f32 0x3D8F5C29#32
abbrev cNegInf : EReal := Ideal.ofBits .f32 0xFF800000#32
abbrev cOne : EReal := Ideal.ofBits .f32 0x3F800000#32
abbrev cCols : EReal := Ideal.ofBits .f32 0x45440000#32
abbrev cRows : EReal := Ideal.ofBits .f32 0x46C40000#32
abbrev cHalf : EReal := Ideal.ofBits .f32 0x3F000000#32
abbrev cTwo : EReal := Ideal.ofBits .f32 0x40000000#32

/-- The one-hot entry of a label word at class `k`: 1 when the word is `k`, else 0. -/
def hot (s : BitVec 32) (k : Fin 27) : EReal := if BitVec.ofNat 32 k.val = s then 1 else 0

/-- Row `n` of the second half `q = 1` (first half `q = 0`) of the 25088 rows. -/
def half (q : Fin 2) (n : Fin 12544) : Fin 25088 := ⟨q.val * 12544 + n.val, by have := q.isLt; have := n.isLt; omega⟩

section Row

variable {N : ℕ} (x : Fin N → Fin 512 → EReal) (cent : Fin 27 → Fin 512 → EReal)

/-- A row's logit at a class: its product with the class's centroid, over the temperature. -/
def logit (n : Fin N) (k : Fin 27) : EReal := Ideal.div (∑ d : Fin 512, x n d * cent k d) cTemp
/-- The row's largest logit, folded from −∞. -/
def rmax (n : Fin N) : EReal := (Finset.univ : Finset (Fin 27)).fold max cNegInf (fun k => logit x cent n k)
/-- The row's sum of exponentials of the shifted logits. -/
def lsum (n : Fin N) : EReal := ∑ k : Fin 27, Ideal.exp (logit x cent n k - rmax x cent n)
/-- The log-softmax in the kernel's arrangement, `x − (max + log Σ exp)`. -/
def lpK (n : Fin N) (k : Fin 27) : EReal := logit x cent n k - (rmax x cent n + Ideal.log (lsum x cent n))
/-- The log-softmax in the reference's arrangement, `(x − max) − log Σ exp`. -/
def lpR (n : Fin N) (k : Fin 27) : EReal := (logit x cent n k - rmax x cent n) - Ideal.log (lsum x cent n)
/-- A row's loss as the kernel takes it: zero minus the one-hot product with the log-softmax. -/
def ceK (s : Fin N → BitVec 32) (n : Fin N) : EReal := 0 - ∑ k : Fin 27, lpK x cent n k * hot (s n) k
/-- A row's loss as the reference takes it: minus the log-softmax at the row's class. -/
def ceR (lab : Fin N → Fin 27) (n : Fin N) : EReal := - lpR x cent n (lab n)

end Row

/-- A row's weight: the mean of its row of the similarity matrix. -/
def wgt {N : ℕ} (sim : Fin N → Fin 3136 → EReal) (n : Fin N) : EReal := Ideal.div (∑ j : Fin 3136, sim n j) cCols

/-- Row `n` of the similarity matrix [8, 3136, 3136] read as 25088 rows of 3136: row `n` is (n / 3136, n % 3136). -/
def simRow (a : (⟨3, ![8, 3136, 3136]⟩ : Shape).Idx → EReal) (n : Fin 25088) (j : Fin 3136) : EReal :=
  a (ix3 (⟨n.val / 3136, by have := n.isLt; omega⟩ : Fin 8) (⟨n.val % 3136, Nat.mod_lt _ (by decide)⟩ : Fin 3136) j)

/-- Class counts and class sums over all rows. -/
def cnt {N : ℕ} (s : Fin N → BitVec 32) (k : Fin 27) : EReal := ∑ n : Fin N, hot (s n) k
def csum {N : ℕ} (x : Fin N → Fin 512 → EReal) (s : Fin N → BitVec 32) (k : Fin 27) (d : Fin 512) : EReal :=
  ∑ n : Fin N, hot (s n) k * x n d

section Total

variable (x1 x2 : Fin 25088 → Fin 512 → EReal) (s : Fin 25088 → BitVec 32) (sim : Fin 25088 → Fin 3136 → EReal)

/-- The centroids as the kernel forms them: the two halves' sums added, over the larger of the added counts and one. -/
def centK (k : Fin 27) (d : Fin 512) : EReal :=
  Ideal.div (∑ q : Fin 2, ∑ n : Fin 12544, hot (s (half q n)) k * x1 (half q n) d)
    (max (∑ q : Fin 2, ∑ n : Fin 12544, hot (s (half q n)) k) cOne)
/-- The mean weighted loss of one feature array as the kernel forms it, over the two halves. -/
def lossK (cent : Fin 27 → Fin 512 → EReal) (x : Fin 25088 → Fin 512 → EReal) : EReal :=
  Ideal.div (∑ q : Fin 2, ∑ n : Fin 12544, ceK x cent s (half q n) * wgt sim (half q n)) cRows
/-- The kernel's result. -/
def totalK : EReal :=
  Ideal.div (cHalf * lossK s sim (centK x1 s) x1 + cHalf * lossK s sim (centK x1 s) x2) cTwo

/-- The centroids as the reference forms them. -/
def centR (k : Fin 27) (d : Fin 512) : EReal := Ideal.div (csum x1 s k d) (max (cnt s k) cOne)
/-- The mean weighted loss of one feature array as the reference forms it. -/
def lossR (lab : Fin 25088 → Fin 27) (cent : Fin 27 → Fin 512 → EReal) (x : Fin 25088 → Fin 512 → EReal) : EReal :=
  Ideal.div (∑ n : Fin 25088, ceR x cent lab n * wgt sim n) cRows
/-- The reference's result. -/
def totalR (lab : Fin 25088 → Fin 27) : EReal :=
  Ideal.div (cHalf * lossR sim lab (centR x1 s) x1 + cHalf * lossR sim lab (centR x1 s) x2) cTwo

end Total

end Cert.Spec

end
-- ==== Proof.KernelIdeal.Region0Val.lean ====
/-
  Region 0 read as values: after the run the output array holds, at row `n`, the mean of row `n` of the reshaped similarity matrix.
-/
import proofs.«421000_j23381801959614_3_alg».proof.Proof.KernelIdeal.Region0Defs
import proofs.«421000_j23381801959614_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

-- the TensorCore's buffer contents when the region is entered, at the extended reals
variable (V : (c : Dev nD) → (b : Ref sig .tc) → Buf (Elt Ideal) ((c : Thread nD τ).loc b))

theorem hz0 : (![0, 0] : Fin 2 → Nat) = fun _ => 0 := funext fun a => by fin_cases a <;> rfl

/-! ## The payload at an index -/

/-- The index the row sum inserts: row `r`, column `k`. -/
theorem lift0 (r : Fin 1792) (k : Fin 3136) :
    reduces_S1792x3136_S1792.lift (ix1 r) k = ix2 r k := by
  funext a
  match a with
  | ⟨0, _⟩ => exact Fin.ext rfl
  | ⟨1, _⟩ => exact Fin.ext rfl

/-- The stored block at row `r`: the sum of row `r` of the loaded block, over the row length. -/
theorem mean_pay_apply (x0 : Vec Ideal S1792x3136 .f32) (r : Fin 1792) (z : Fin 1) :
    k0_pay1 x0 (ix2 r z) = Ideal.div (∑ j : Fin 3136, x0 (ix2 r j)) Cert.Spec.cCols := by
  unfold k0_pay1
  show Ideal.div (shapeCast S1792x1 (multiReduction (F := Ideal) .add [1] S1792 (shapeCast S1792x3136 x0 shapeCasts_S1792x3136_S1792x3136) 0x00000000#32 reduces_S1792x3136_S1792 (.inl rfl) rfl) shapeCasts_S1792_S1792x1 (ix2 r z)) Cert.Spec.cCols = _
  refine congrArg (fun s => Ideal.div s Cert.Spec.cCols) ?_
  refine (shapeCast_apply _ shapeCasts_S1792_S1792x1 (ix2 r z) (ix1 r) ?_).trans ?_
  · rw [Shape.rowMajor_val_one, Shape.rowMajor_val_two]
    show r.val = r.val * 1 + z.val
    have := z.isLt; omega
  refine (Ideal.multiReduction_add_single _ _ reduces_S1792x3136_S1792 _ _ (ix1 r)).trans ?_
  show ∑ k : Fin 3136, shapeCast S1792x3136 x0 shapeCasts_S1792x3136_S1792x3136 (reduces_S1792x3136_S1792.lift (ix1 r) k) = _
  refine Finset.sum_congr rfl fun k _ => ?_
  rw [shapeCast_self, lift0]

/-- The same at any index of the stored block. -/
theorem mean_pay_idx (x0 : Vec Ideal S1792x3136 .f32) (j : S1792x1.Idx) :
    k0_pay1 x0 j = Ideal.div (∑ k : Fin 3136, x0 (ix2 (⟨(j 0).val, idx2_lt0 j⟩ : Fin 1792) k)) Cert.Spec.cCols := by
  obtain ⟨r, z, rfl⟩ : ∃ (r : Fin 1792) (z : Fin 1), j = ix2 r z := ⟨j 0, j 1, eq_ix2 j⟩
  exact mean_pay_apply x0 r z

/-! ## The whole output array as a function of the input array -/

/-- Row `i 0` of the output array: the mean of that row of the input array. -/
def G0 (a : S25088x3136.Idx → EReal) : S25088x1.Idx → EReal :=
  fun i => Ideal.div (∑ k : Fin 3136, a (ix2 (⟨(i 0).val, idx2_lt0 i⟩ : Fin 25088) k)) Cert.Spec.cCols

/-- The index maps, decided over the grid: both windows' blocks sit at the point's number on the row axis and at 0 on
    the other. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of `G0` of the input array as the region finds it. -/
theorem flushed0_eq (c : Dev nD) (t : Fin cfg0.N) :
    (dat0 V c).flushed 1 t = ((cfg0.win 1).blk t).view.read (Elt Ideal) (G0 (V c main_v1)) := by
  show (cfg0.win 1).cut (grid0.coords t) ((dat0 V c).after 1 t) = _
  rw [after0_1]
  unfold out0_1
  rw [View.canon_unit_zero hz0]
  simp only [View.ld_unit_zero (S := S1792x3136) hz0]
  obtain ⟨e0, e1, e2, e3⟩ := idx_facts0 t
  funext j
  refine (mean_pay_idx (iblk0 V c 0 t) j).trans ?_
  have hj0 : (j 0).val < 1792 := idx2_lt0 (n0 := 1792) (n1 := 1) j
  show Ideal.div (∑ k : Fin 3136, V c main_v1 (((cfg0.win 0).blk t).view.emb (ix2 (⟨(j 0).val, hj0⟩ : Fin 1792) k))) Cert.Spec.cCols
    = Ideal.div (∑ k : Fin 3136, V c main_v1 (ix2 (⟨((((cfg0.win 1).blk t).view.emb j) 0).val, idx2_lt0 (n0 := 25088) (n1 := 1) _⟩ : Fin 25088) k)) Cert.Spec.cCols
  refine congrArg (fun s => Ideal.div s Cert.Spec.cCols) (Finset.sum_congr rfl fun k _ => congrArg (V c main_v1) ?_)
  funext a; apply Fin.ext
  match a with
  | ⟨0, _⟩ =>
    show win0_0.index t (0 : Fin 2) * 1792 + 1 * (j 0).val = win0_1.index t (0 : Fin 2) * 1792 + 1 * (j 0).val
    omega
  | ⟨1, _⟩ =>
    show win0_0.index t (1 : Fin 2) * 3136 + 1 * k.val = k.val
    omega

/-! ## The output's blocks cover its array -/

/-- An index of the array is in point `t`'s block iff each coordinate is in the block's range on its axis. -/
theorem mem_blk0 (t : Fin cfg0.N) (i : S25088x1.Idx) :
    i ∈ ((cfg0.win 1).blk t).view.set ↔ ∀ a : Fin 2, win0_1.index t a * S1792x1.size a ≤ (i a).val ∧ (i a).val < win0_1.index t a * S1792x1.size a + S1792x1.size a := by
  show i ∈ ((View.whole main_v2).slice (win0_1.rect t)).set ↔ _
  rw [View.set_slice_whole, Rect.mem_set_unit]
  exact Iff.rfl

/-- Row `r` is written by point `r / 1792`, and every point writes back. -/
theorem cover0 (i : S25088x1.Idx) :
    ∃ t : Fin cfg0.N, (cfg0.win 1).flush t = true ∧ i ∈ ((cfg0.win 1).blk t).view.set := by
  have hi0 : (i 0).val < 25088 := idx2_lt0 i
  have hi1 : (i 1).val < 1 := idx2_lt1 i
  have hN : cfg0.N = 14 := N_0
  let t : Fin cfg0.N := ⟨(i 0).val / 1792, by rw [hN]; omega⟩
  obtain ⟨e0, e1, e2, e3⟩ := idx_facts0 t
  have ht : t.val = (i 0).val / 1792 := rfl
  refine ⟨t, flush0_1 t, ?_⟩
  rw [mem_blk0]
  intro a
  match a with
  | ⟨0, _⟩ =>
    show win0_1.index t (0 : Fin 2) * 1792 ≤ (i 0).val ∧ (i 0).val < win0_1.index t (0 : Fin 2) * 1792 + 1792
    omega
  | ⟨1, _⟩ =>
    show win0_1.index t (1 : Fin 2) * 1 ≤ (i 1).val ∧ (i 1).val < win0_1.index t (1 : Fin 2) * 1 + 1
    omega

/-- The output array after the run is `G0` of the input array. -/
theorem final0 (c : Dev nD) : (dat0 V c).arrAt 1 cfg0.N = G0 (V c main_v1) :=
  (dat0 V c).arrAt_eq_of_cover 1 (G0 (V c main_v1)) (fun t _ => flushed0_eq V c t) cover0

/-- THE WEIGHTS: row `n` of the output array is the mean of row `n` of the input array. -/
theorem weights0 (c : Dev nD) (n : Fin 25088) :
    (dat0 V c).arrAt 1 cfg0.N (ix2 n (0 : Fin 1)) = Cert.Spec.wgt (fun n j => V c main_v1 (ix2 n j)) n := by
  rw [final0]
  rfl

end Cert.KernelIdeal.Gen

end
-- ==== Proof.KernelIdeal.Region1V.Pay.lean ====
/-
  Region 1's payloads read at an index, over the extended reals: the one-hot of a tile's labels, the tile's class sums
  added to a running array (a product contracting the tile's rows), the tile's class counts added likewise (a sum over the
  rows), the zero arrays a half starts from, and the casts to the output blocks.
-/
import proofs.«421000_j23381801959614_3_alg».proof.Proof.Gen.KernelIdeal.Skeleton
import proofs.«421000_j23381801959614_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.ValueIdx

/-- THE ONE-HOT of a tile's labels: entry (r, k) is 1 when row r's label word is k, else 0. -/
theorem pay3_apply (v3 : Vec Ideal S1568x1 .i32) (r : Fin 1568) (k : Fin 27) :
    k1_pay3 (F := Ideal) v3 (ix2 r k) = Cert.Spec.hot (v3 (ix2 r (0 : Fin 1))) k := by
  unfold k1_pay3
  rw [shapeCast_self]
  show FloatOps.sitofp .f32 ((IntOp.cmpi .eq (iota .tc S1568x27 32 [1] iota_S1568x27_d1_w32 (ix2 r k)) (broadcastTo S1568x27 v3 broadcasts_S1568x1_S1568x27 (ix2 r k))).setWidth 32) = _
  rw [iota_single_apply, broadcastTo_apply v3 _ (ix2 r k) (ix2 r (0 : Fin 1)) (fun a => by
    match a with
    | ⟨0, _⟩ => rfl
    | ⟨1, _⟩ => rfl)]
  show ((((IntOp.cmpi .eq (BitVec.ofNat 32 k.val) (v3 (ix2 r (0 : Fin 1)))).setWidth 32).toInt : ℝ) : EReal) = _
  unfold Cert.Spec.hot IntOp.cmpi
  by_cases h : BitVec.ofNat 32 k.val = v3 (ix2 r (0 : Fin 1))
  · rw [if_pos h]
    have e : (BitVec.ofNat 32 k.val == v3 (ix2 r (0 : Fin 1))) = true := by rw [h]; exact beq_self_eq_true _
    simp only [e]
    rw [show (BitVec.setWidth 32 (BitVec.ofBool true)).toInt = 1 from by decide, Int.cast_one, EReal.coe_one]
  · rw [if_neg h]
    have e : (BitVec.ofNat 32 k.val == v3 (ix2 r (0 : Fin 1))) = false := by simpa using h
    simp only [e]
    rw [show (BitVec.setWidth 32 (BitVec.ofBool false)).toInt = 0 from by decide, Int.cast_zero, EReal.coe_zero]

/-! ## The product's operand indices: the left operand (rows × classes) and the right (rows × features) are both
contracted on their row axis; the result is classes × features. -/

theorem lhs_k1_0 (i : S27x512.Idx) (q : dot_S1568x27_S1568x512_S27x512_0_0_1_1_n_n.contr.Idx) :
    (dot_S1568x27_S1568x512_S27x512_0_0_1_1_n_n.lhsIdx i q 0).val = (q ⟨0, by decide⟩).val :=
  dot_S1568x27_S1568x512_S27x512_0_0_1_1_n_n.lhsIdx_val_of_single rfl i q
theorem lhs_k1_1 (i : S27x512.Idx) (q : dot_S1568x27_S1568x512_S27x512_0_0_1_1_n_n.contr.Idx) :
    (dot_S1568x27_S1568x512_S27x512_0_0_1_1_n_n.lhsIdx i q 1).val = (i 0).val := by
  unfold DotDims.lhsIdx
  rw [dif_neg (show ¬(1 : Fin S1568x27.rank) ∈ dot_S1568x27_S1568x512_S27x512_0_0_1_1_n_n.lhsBatch by decide), dif_pos (show (1 : Fin S1568x27.rank) ∈ dot_S1568x27_S1568x512_S27x512_0_0_1_1_n_n.lhsNonContracting by decide)]
  rfl
theorem rhs_k1_0 (i : S27x512.Idx) (q : dot_S1568x27_S1568x512_S27x512_0_0_1_1_n_n.contr.Idx) :
    (dot_S1568x27_S1568x512_S27x512_0_0_1_1_n_n.rhsIdx i q 0).val = (q ⟨0, by decide⟩).val :=
  dot_S1568x27_S1568x512_S27x512_0_0_1_1_n_n.rhsIdx_val_of_single rfl i q
theorem rhs_k1_1 (i : S27x512.Idx) (q : dot_S1568x27_S1568x512_S27x512_0_0_1_1_n_n.contr.Idx) :
    (dot_S1568x27_S1568x512_S27x512_0_0_1_1_n_n.rhsIdx i q 1).val = (i 1).val := by
  unfold DotDims.rhsIdx
  rw [dif_neg (show ¬(1 : Fin S1568x512.rank) ∈ dot_S1568x27_S1568x512_S27x512_0_0_1_1_n_n.rhsBatch by decide), dif_pos (show (1 : Fin S1568x512.rank) ∈ dot_S1568x27_S1568x512_S27x512_0_0_1_1_n_n.rhsNonContracting by decide)]
  rfl

/-- THE TILE'S CLASS SUMS added to a running array: entry (k, d) gains the sum over the tile's rows of the row's one-hot at
    class k times the row's feature d. -/
theorem pay4_apply (v3 : Vec Ideal S1568x1 .i32) (v11 : Vec Ideal S1568x512 .f32) (v16 : Vec Ideal S27x512 .f32) (k : Fin 27) (d : Fin 512) :
    k1_pay4 (F := Ideal) v3 v11 v16 (ix2 k d)
      = v16 (ix2 k d) + ∑ r : Fin 1568, Cert.Spec.hot (v3 (ix2 r (0 : Fin 1))) k * v11 (ix2 r d) := by
  unfold k1_pay4
  rw [shapeCast_self]
  refine (addf_apply _ _ _).trans ?_
  refine congrArg (v16 (ix2 k d) + ·) ?_
  simp only [matmul]
  rw [Ideal.matmul_constant_zero_apply, ← Equiv.sum_comp (contrEquiv1 dot_S1568x27_S1568x512_S27x512_0_0_1_1_n_n 1568 rfl rfl).symm]
  refine Finset.sum_congr rfl fun r _ => ?_
  have hr := contrEquiv1_symm_val dot_S1568x27_S1568x512_S27x512_0_0_1_1_n_n 1568 rfl rfl r
  have el : dot_S1568x27_S1568x512_S27x512_0_0_1_1_n_n.lhsIdx (ix2 k d) ((contrEquiv1 dot_S1568x27_S1568x512_S27x512_0_0_1_1_n_n 1568 rfl rfl).symm r) = ix2 r k := funext fun a => Fin.ext (by
    match a with
    | ⟨0, _⟩ => exact (lhs_k1_0 _ _).trans hr
    | ⟨1, _⟩ => exact lhs_k1_1 _ _)
  have er : dot_S1568x27_S1568x512_S27x512_0_0_1_1_n_n.rhsIdx (ix2 k d) ((contrEquiv1 dot_S1568x27_S1568x512_S27x512_0_0_1_1_n_n 1568 rfl rfl).symm r) = ix2 r d := funext fun a => Fin.ext (by
    match a with
    | ⟨0, _⟩ => exact (rhs_k1_0 _ _).trans hr
    | ⟨1, _⟩ => exact rhs_k1_1 _ _)
  rw [el, er]
  exact congrArg (· * v11 (ix2 r d)) (pay3_apply v3 r k)

/-- The source index of the sum over the rows: row r inserted before class k. -/
theorem lift_k1 (k : Fin 27) (r : Fin 1568) : reduces_S1568x27_S27.lift (ix1 k) r = ix2 r k :=
  funext fun a => Fin.ext (by
    match a with
    | ⟨0, h0⟩ =>
      show reduces_S1568x27_S27.liftVal (ix1 k) r.val ⟨0, h0⟩ = r.val
      unfold Shape.Reduces.liftVal
      exact dif_pos rfl
    | ⟨1, h1⟩ =>
      show reduces_S1568x27_S27.liftVal (ix1 k) r.val ⟨1, h1⟩ = k.val
      unfold Shape.Reduces.liftVal
      exact (dif_neg (show ¬ (1 : ℕ) = 0 from by decide)).trans (dif_neg (show ¬ (1 : ℕ) < 0 from by decide)))

/-- THE TILE'S CLASS COUNTS added to a running column: entry (k, 0) gains the number of the tile's rows of class k. -/
theorem pay5_apply (v3 : Vec Ideal S1568x1 .i32) (v21 : Vec Ideal S27x1 .f32) (k : Fin 27) :
    k1_pay5 (F := Ideal) v3 v21 (ix2 k (0 : Fin 1))
      = v21 (ix2 k (0 : Fin 1)) + ∑ r : Fin 1568, Cert.Spec.hot (v3 (ix2 r (0 : Fin 1))) k := by
  unfold k1_pay5
  rw [shapeCast_self]
  refine (addf_apply _ _ _).trans ?_
  refine congrArg (v21 (ix2 k (0 : Fin 1)) + ·) ?_
  rw [shapeCast_apply _ shapeCasts_S27_S27x1 (ix2 k (0 : Fin 1)) (ix1 k) (by
    rw [Shape.rowMajor_val_two, Shape.rowMajor_val_one]
    show k.val = k.val * 1 + 0
    omega)]
  refine (Ideal.multiReduction_add_single _ _ _ _ _ (ix1 k)).trans ?_
  refine Finset.sum_congr rfl fun r _ => ?_
  exact (congrArg (k1_pay3 (F := Ideal) v3) (lift_k1 k r)).trans (pay3_apply v3 r k)

/-- A half starts from zero sums and zero counts. -/
theorem pay1_apply (i : S27x512.Idx) : k1_pay1 (F := Ideal) i = 0 := by
  unfold k1_pay1
  rw [shapeCast_self]
  exact Ideal.ofBits_zero_f32
theorem pay2_apply (i : S27x1.Idx) : k1_pay2 (F := Ideal) i = 0 := by
  unfold k1_pay2
  rw [shapeCast_self]
  exact Ideal.ofBits_zero_f32

/-- The output blocks are the running arrays under a leading unit axis. -/
theorem pay6_apply (v : Vec Ideal S27x512 .f32) (u : Fin 1) (k : Fin 27) (d : Fin 512) :
    k1_pay6 (F := Ideal) v (ix3 u k d) = v (ix2 k d) := by
  unfold k1_pay6
  exact shapeCast_ab_1ab_apply v _ u k d
theorem pay7_apply (v : Vec Ideal S27x1 .f32) (u : Fin 1) (k : Fin 27) (z : Fin 1) :
    k1_pay7 (F := Ideal) v (ix3 u k z) = v (ix2 k z) := by
  unfold k1_pay7
  exact shapeCast_ab_1ab_apply v _ u k z

end Cert.KernelIdeal.Gen

end
-- ==== Proof.KernelIdeal.Region1V.Acc.lean ====
/-
  Region 1's running sums, point by point: after tile `j` of half `q` the two scratch arrays hold the class sums and the class
  counts of tiles 0 … j of the half; and the eight tiles of a half, row by row, are the half's rows.
-/
import proofs.«421000_j23381801959614_3_alg».proof.Proof.KernelIdeal.Region1Defs
import proofs.«421000_j23381801959614_3_alg».proof.Proof.KernelIdeal.Region1V.Pay
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.ShloMosaic.ValueIdx

open Idealize.SL Idealize.SL.Sem
open Idealize.ShloMosaic.Pipeline (Dat Cfg Window)

-- the TensorCore's buffer contents when the region is entered, at the extended reals
variable (V : (c : Dev nD) → (b : Ref sig .tc) → Buf (Elt Ideal) ((c : Thread nD τ).loc b))

/-- Row `r` of tile `t` of the 25088 rows (tiles of 1568 rows; `t` below 16). -/
def trow (t : ℕ) (r : Fin 1568) : Fin 25088 := ⟨(t * 1568 + r.val) % 25088, Nat.mod_lt _ (by decide)⟩

/-- The index maps of the four windows, decided over the grid: the inputs' block is tile `t`, the outputs' is half `t / 8`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 3) = t.val / 8 ∧ win1_2.index t (1 : Fin 3) = 0 ∧ win1_2.index t (2 : Fin 3) = 0
    ∧ win1_3.index t (0 : Fin 3) = t.val / 8 ∧ win1_3.index t (1 : Fin 3) = 0 ∧ win1_3.index t (2 : Fin 3) = 0 :=
  (by decide +kernel : ∀ t : Fin grid1.N, _)

/-- The features' block at point `t` read at (r, d): row `trow t r` of the array. -/
theorem iblk1_0_apply (c : Dev nD) (t : Fin cfg1.N) (r : Fin 1568) (d : Fin 512) :
    iblk1 V c 0 t (ix2 r d) = V c main_arg0 (ix2 (trow t.val r) d) := by
  obtain ⟨e0, e1, -⟩ := idx_facts1 t
  have ht : t.val < 16 := lt_of_lt_of_eq t.isLt N_1
  show V c main_arg0 (((cfg1.win 0).blk t).view.emb (ix2 r d)) = _
  refine congrArg (V c main_arg0) (funext fun a => Fin.ext ?_)
  match a with
  | ⟨0, _⟩ =>
    show win1_0.index t (0 : Fin 2) * 1568 + 1 * r.val = (t.val * 1568 + r.val) % 25088
    rw [e0, Nat.mod_eq_of_lt (by have := r.isLt; omega)]; omega
  | ⟨1, _⟩ =>
    show win1_0.index t (1 : Fin 2) * 512 + 1 * d.val = d.val
    rw [e1]; omega

/-- The labels' block at point `t` read at (r, 0): row `trow t r` of the label column. -/
theorem iblk1_1_apply (c : Dev nD) (t : Fin cfg1.N) (r : Fin 1568) :
    iblk1 V c 1 t (ix2 r (0 : Fin 1)) = V c main_v0 (ix2 (trow t.val r) (0 : Fin 1)) := by
  obtain ⟨-, -, e0, e1, -⟩ := idx_facts1 t
  have ht : t.val < 16 := lt_of_lt_of_eq t.isLt N_1
  show V c main_v0 (((cfg1.win 1).blk t).view.emb (ix2 r (0 : Fin 1))) = _
  refine congrArg (V c main_v0) (funext fun a => Fin.ext ?_)
  match a with
  | ⟨0, _⟩ =>
    show win1_1.index t (0 : Fin 2) * 1568 + 1 * r.val = (t.val * 1568 + r.val) % 25088
    rw [e0, Nat.mod_eq_of_lt (by have := r.isLt; omega)]; omega
  | ⟨1, _⟩ =>
    show win1_1.index t (1 : Fin 2) * 1 + 1 * 0 = 0
    rw [e1]

/-- Tile `t`'s class sums and class counts. -/
def tileSum (c : Dev nD) (t : ℕ) (k : Fin 27) (d : Fin 512) : EReal :=
  ∑ r : Fin 1568, Cert.Spec.hot (V c main_v0 (ix2 (trow t r) (0 : Fin 1))) k * V c main_arg0 (ix2 (trow t r) d)
def tileCnt (c : Dev nD) (t : ℕ) (k : Fin 27) : EReal :=
  ∑ r : Fin 1568, Cert.Spec.hot (V c main_v0 (ix2 (trow t r) (0 : Fin 1))) k

/-- One point's step on the running sums: the tile's class sums are added. -/
theorem step_sum (c : Dev nD) (t : Fin cfg1.N) (v16 : Vec Ideal S27x512 .f32) (k : Fin 27) (d : Fin 512) :
    k1_pay4 (F := Ideal) (iblk1 V c 1 t) (iblk1 V c 0 t) v16 (ix2 k d) = v16 (ix2 k d) + tileSum V c t.val k d := by
  refine (pay4_apply _ _ v16 k d).trans ?_
  refine congrArg (v16 (ix2 k d) + ·) (Finset.sum_congr rfl fun r _ => ?_)
  exact congrArg₂ (fun s x => Cert.Spec.hot s k * x) (iblk1_1_apply V c t r) (iblk1_0_apply V c t r d)

/-- One point's step on the running counts: the tile's class counts are added. -/
theorem step_cnt (c : Dev nD) (t : Fin cfg1.N) (v21 : Vec Ideal S27x1 .f32) (k : Fin 27) :
    k1_pay5 (F := Ideal) (iblk1 V c 1 t) v21 (ix2 k (0 : Fin 1)) = v21 (ix2 k (0 : Fin 1)) + tileCnt V c t.val k := by
  refine (pay5_apply _ v21 k).trans ?_
  refine congrArg (v21 (ix2 k (0 : Fin 1)) + ·) (Finset.sum_congr rfl fun r _ => ?_)
  exact congrArg (fun s => Cert.Spec.hot s k) (iblk1_1_apply V c t r)

theorem acc1_congr (c : Dev nD) {u n : ℕ} (hu : u < cfg1.N) (hn : n < cfg1.N) (e : u = n) : acc1 V c u hu = acc1 V c n hn := by
  subst e; rfl

/-- THE RUNNING SUMS after tile `j` of half `q`: the class sums of tiles 0 … j of the half. -/
theorem acc1_sum (c : Dev nD) (k : Fin 27) (d : Fin 512) (q : ℕ) : ∀ (j : ℕ), j < 8 → ∀ (h : 8 * q + j < cfg1.N),
    (acc1 V c (8 * q + j) h).1 (ix2 k d) = ∑ s ∈ Finset.range (j + 1), tileSum V c (8 * q + s) k d
  | 0, _, h => by
    have e := acc1_first V c ⟨8 * q + 0, h⟩ (by show (8 * q + 0) % 8 = 0; omega)
    rw [Finset.sum_range_one]
    refine (congrArg (fun p => p.1 (ix2 k d)) e).trans ?_
    show k1_pay4 (F := Ideal) (iblk1 V c 1 ⟨8 * q + 0, h⟩) (iblk1 V c 0 ⟨8 * q + 0, h⟩) (k1_pay1 (F := Ideal)) (ix2 k d) = _
    refine (step_sum V c ⟨8 * q + 0, h⟩ _ k d).trans ?_
    rw [pay1_apply, zero_add]
  | j + 1, hj, h => by
    have hne : ¬ (8 * q + (j + 1)) % 8 = 0 := by omega
    have e := acc1_later V c ⟨8 * q + (j + 1), h⟩ hne
    have ih := acc1_sum c k d q j (by omega) (by omega)
    rw [Finset.sum_range_succ, ← ih]
    refine (congrArg (fun p => p.1 (ix2 k d)) e).trans ?_
    show k1_pay4 (F := Ideal) (iblk1 V c 1 ⟨8 * q + (j + 1), h⟩) (iblk1 V c 0 ⟨8 * q + (j + 1), h⟩) _ (ix2 k d) = _
    refine (step_sum V c ⟨8 * q + (j + 1), h⟩ _ k d).trans ?_
    exact congrArg (fun p => p.1 (ix2 k d) + tileSum V c (8 * q + (j + 1)) k d) (acc1_congr V c _ _ (by show 8 * q + (j + 1) - 1 = 8 * q + j; omega))

/-- THE RUNNING COUNTS after tile `j` of half `q`: the class counts of tiles 0 … j of the half. -/
theorem acc1_cnt (c : Dev nD) (k : Fin 27) (q : ℕ) : ∀ (j : ℕ), j < 8 → ∀ (h : 8 * q + j < cfg1.N),
    (acc1 V c (8 * q + j) h).2 (ix2 k (0 : Fin 1)) = ∑ s ∈ Finset.range (j + 1), tileCnt V c (8 * q + s) k
  | 0, _, h => by
    have e := acc1_first V c ⟨8 * q + 0, h⟩ (by show (8 * q + 0) % 8 = 0; omega)
    rw [Finset.sum_range_one]
    refine (congrArg (fun p => p.2 (ix2 k (0 : Fin 1))) e).trans ?_
    show k1_pay5 (F := Ideal) (iblk1 V c 1 ⟨8 * q + 0, h⟩) (k1_pay2 (F := Ideal)) (ix2 k (0 : Fin 1)) = _
    refine (step_cnt V c ⟨8 * q + 0, h⟩ _ k).trans ?_
    rw [pay2_apply, zero_add]
  | j + 1, hj, h => by
    have hne : ¬ (8 * q + (j + 1)) % 8 = 0 := by omega
    have e := acc1_later V c ⟨8 * q + (j + 1), h⟩ hne
    have ih := acc1_cnt c k q j (by omega) (by omega)
    rw [Finset.sum_range_succ, ← ih]
    refine (congrArg (fun p => p.2 (ix2 k (0 : Fin 1))) e).trans ?_
    show k1_pay5 (F := Ideal) (iblk1 V c 1 ⟨8 * q + (j + 1), h⟩) _ (ix2 k (0 : Fin 1)) = _
    refine (step_cnt V c ⟨8 * q + (j + 1), h⟩ _ k).trans ?_
    exact congrArg (fun p => p.2 (ix2 k (0 : Fin 1)) + tileCnt V c (8 * q + (j + 1)) k) (acc1_congr V c _ _ (by show 8 * q + (j + 1) - 1 = 8 * q + j; omega))

/-- THE REGROUPING: the eight tiles of half `q`, row by row, are the rows of the half. -/
theorem sum_tiles (q : Fin 2) (f : Fin 25088 → EReal) :
    ∑ s ∈ Finset.range 8, ∑ r : Fin 1568, f (trow (8 * q.val + s) r) = ∑ n : Fin 12544, f (Cert.Spec.half q n) := by
  rw [Finset.sum_range, ← Fintype.sum_prod_type (f := fun p : Fin 8 × Fin 1568 => f (trow (8 * q.val + p.1.val) p.2)),
    ← Equiv.sum_comp (finProdFinEquiv : Fin 8 × Fin 1568 ≃ Fin (8 * 1568)) (fun n => f (Cert.Spec.half q n))]
  refine Finset.sum_congr rfl fun p _ => congrArg f (Fin.ext ?_)
  have hq := q.isLt
  have h1 := p.1.isLt
  have h2 := p.2.isLt
  show (((8 * q.val + p.1.val) * 1568 + p.2.val) % 25088) = q.val * 12544 + (p.2.val + 1568 * p.1.val)
  rw [Nat.mod_eq_of_lt (by omega)]; omega

end Cert.KernelIdeal.Gen

end
-- ==== Proof.KernelIdeal.Region1Val.lean ====
/-
  Region 1 read as values: after the run, slot `q` of the two output arrays holds the class sums and the class counts of
  half `q` of the rows. A half's last point writes back the running sums recast; by then they are the sums over the half's
  eight tiles, which row by row are the half's rows.
-/
import proofs.«421000_j23381801959614_3_alg».proof.Proof.KernelIdeal.Region1Defs
import proofs.«421000_j23381801959614_3_alg».proof.Proof.KernelIdeal.Region1V.Acc
import proofs.«421000_j23381801959614_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

-- the TensorCore's buffer contents when the region is entered, at the extended reals
variable (V : (c : Dev nD) → (b : Ref sig .tc) → Buf (Elt Ideal) ((c : Thread nD τ).loc b))

/-! ## From the blocks written back to the two output arrays -/

/-- What the first output array ends holding: slot `q` at the class sums of the eight tiles of half `q`. -/
def G1_2 (c : Dev nD) : S2x27x512.Idx → EReal := fun i =>
  ∑ s ∈ Finset.range 8, tileSum V c (8 * (i 0).val + s) ⟨(i 1).val, (i 1).isLt⟩ ⟨(i 2).val, (i 2).isLt⟩
/-- What the second output array ends holding: slot `q` at the class counts of the eight tiles of half `q`. -/
def G1_3 (c : Dev nD) : S2x27x1.Idx → EReal := fun i =>
  ∑ s ∈ Finset.range 8, tileCnt V c (8 * (i 0).val + s) ⟨(i 1).val, (i 1).isLt⟩

/-- WHAT A HALF'S LAST POINT WRITES BACK to the first output array is its block of `G1_2`. -/
theorem flushed1_2_eq (c : Dev nD) (t : Fin cfg1.N) (hf : (cfg1.win 2).flush t = true) :
    (dat1 V c).flushed 2 t = ((cfg1.win 2).blk t).view.read (Elt Ideal) (G1_2 V c) := by
  have h7 : t.val % 8 = 7 := (flush1_2 t).mp hf
  obtain ⟨-, -, -, -, e0, e1, e2, -⟩ := idx_facts1 t
  have ht : t.val < 16 := lt_of_lt_of_eq t.isLt N_1
  funext y
  have h0 : (y 0).val < 1 := (y 0).isLt
  have h1 : (y 1).val < 27 := (y 1).isLt
  have h2 : (y 2).val < 512 := (y 2).isLt
  show (dat1 V c).after 2 t ((cfg1.win 2).xinj (cfg1.grid.coords t) y) = G1_2 V c (((cfg1.win 2).blk t).view.emb y)
  have ey : (cfg1.win 2).xinj (cfg1.grid.coords t) y = ix3 (⟨(y 0).val, h0⟩ : Fin 1) (⟨(y 1).val, h1⟩ : Fin 27) (⟨(y 2).val, h2⟩ : Fin 512) :=
    funext fun a => match a with
      | ⟨0, _⟩ => rfl
      | ⟨1, _⟩ => rfl
      | ⟨2, _⟩ => rfl
  refine (congrArg ((dat1 V c).after 2 t) ey).trans ?_
  rw [after1_2]
  refine (pay6_apply _ _ _ _).trans ?_
  have hb : 8 * (t.val / 8) + 7 < cfg1.N := lt_of_lt_of_eq (by omega : 8 * (t.val / 8) + 7 < 16) N_1.symm
  refine (congrArg (fun p => p.1 (ix2 (⟨(y 1).val, h1⟩ : Fin 27) (⟨(y 2).val, h2⟩ : Fin 512))) (acc1_congr V c t.isLt hb (by omega))).trans ?_
  refine (acc1_sum V c _ _ (t.val / 8) 7 (by omega) hb).trans ?_
  have E0 : ((((cfg1.win 2).blk t).view.emb y) 0).val = t.val / 8 := by
    show win1_2.index t (0 : Fin 3) * 1 + 1 * (y 0).val = _
    rw [e0]; omega
  have E1 : ((((cfg1.win 2).blk t).view.emb y) 1).val = (y 1).val := by
    show win1_2.index t (1 : Fin 3) * 27 + 1 * (y 1).val = _
    rw [e1]; omega
  have E2 : ((((cfg1.win 2).blk t).view.emb y) 2).val = (y 2).val := by
    show win1_2.index t (2 : Fin 3) * 512 + 1 * (y 2).val = _
    rw [e2]; omega
  have key : ∀ (a b d : ℕ) (hb : b < 27) (hd : d < 512), a = t.val / 8 → b = (y 1).val → d = (y 2).val →
      ∑ s ∈ Finset.range 8, tileSum V c (8 * a + s) ⟨b, hb⟩ ⟨d, hd⟩
        = ∑ s ∈ Finset.range (7 + 1), tileSum V c (8 * (t.val / 8) + s) ⟨(y 1).val, h1⟩ ⟨(y 2).val, h2⟩ := by
    intro a b d hb hd ea eb ed; subst ea eb ed; rfl
  exact (key _ _ _ _ _ E0 E1 E2).symm

/-- WHAT A HALF'S LAST POINT WRITES BACK to the second output array is its block of `G1_3`. -/
theorem flushed1_3_eq (c : Dev nD) (t : Fin cfg1.N) (hf : (cfg1.win 3).flush t = true) :
    (dat1 V c).flushed 3 t = ((cfg1.win 3).blk t).view.read (Elt Ideal) (G1_3 V c) := by
  have h7 : t.val % 8 = 7 := (flush1_3 t).mp hf
  obtain ⟨-, -, -, -, -, -, -, e0, e1, e2⟩ := idx_facts1 t
  have ht : t.val < 16 := lt_of_lt_of_eq t.isLt N_1
  funext y
  have h0 : (y 0).val < 1 := (y 0).isLt
  have h1 : (y 1).val < 27 := (y 1).isLt
  have h2 : (y 2).val < 1 := (y 2).isLt
  show (dat1 V c).after 3 t ((cfg1.win 3).xinj (cfg1.grid.coords t) y) = G1_3 V c (((cfg1.win 3).blk t).view.emb y)
  have ey : (cfg1.win 3).xinj (cfg1.grid.coords t) y = ix3 (⟨(y 0).val, h0⟩ : Fin 1) (⟨(y 1).val, h1⟩ : Fin 27) (⟨(y 2).val, h2⟩ : Fin 1) :=
    funext fun a => match a with
      | ⟨0, _⟩ => rfl
      | ⟨1, _⟩ => rfl
      | ⟨2, _⟩ => rfl
  refine (congrArg ((dat1 V c).after 3 t) ey).trans ?_
  rw [after1_3]
  refine (pay7_apply _ _ _ _).trans ?_
  have hb : 8 * (t.val / 8) + 7 < cfg1.N := lt_of_lt_of_eq (by omega : 8 * (t.val / 8) + 7 < 16) N_1.symm
  have ez : (⟨(y 2).val, h2⟩ : Fin 1) = (0 : Fin 1) := Fin.ext (by show (y 2).val = 0; omega)
  rw [ez]
  refine (congrArg (fun p => p.2 (ix2 (⟨(y 1).val, h1⟩ : Fin 27) (0 : Fin 1))) (acc1_congr V c t.isLt hb (by omega))).trans ?_
  refine (acc1_cnt V c _ (t.val / 8) 7 (by omega) hb).trans ?_
  have E0 : ((((cfg1.win 3).blk t).view.emb y) 0).val = t.val / 8 := by
    show win1_3.index t (0 : Fin 3) * 1 + 1 * (y 0).val = _
    rw [e0]; omega
  have E1 : ((((cfg1.win 3).blk t).view.emb y) 1).val = (y 1).val := by
    show win1_3.index t (1 : Fin 3) * 27 + 1 * (y 1).val = _
    rw [e1]; omega
  have key : ∀ (a b : ℕ) (hb : b < 27), a = t.val / 8 → b = (y 1).val →
      ∑ s ∈ Finset.range 8, tileCnt V c (8 * a + s) ⟨b, hb⟩
        = ∑ s ∈ Finset.range (7 + 1), tileCnt V c (8 * (t.val / 8) + s) ⟨(y 1).val, h1⟩ := by
    intro a b hb ea eb; subst ea eb; rfl
  exact (key _ _ _ E0 E1).symm

/-- An index of the first output array is in point `t`'s block iff each coordinate is in the block's range on its axis. -/
theorem mem_blk1_2 (t : Fin cfg1.N) (i : S2x27x512.Idx) :
    i ∈ ((cfg1.win 2).blk t).view.set ↔ ∀ a : Fin 3, win1_2.index t a * S1x27x512.size a ≤ (i a).val ∧ (i a).val < win1_2.index t a * S1x27x512.size a + S1x27x512.size a := by
  show i ∈ ((View.whole main_v3_0).slice (win1_2.rect t)).set ↔ _
  rw [View.set_slice_whole, Rect.mem_set_unit]
  exact Iff.rfl
theorem mem_blk1_3 (t : Fin cfg1.N) (i : S2x27x1.Idx) :
    i ∈ ((cfg1.win 3).blk t).view.set ↔ ∀ a : Fin 3, win1_3.index t a * S1x27x1.size a ≤ (i a).val ∧ (i a).val < win1_3.index t a * S1x27x1.size a + S1x27x1.size a := by
  show i ∈ ((View.whole main_v3_1).slice (win1_3.rect t)).set ↔ _
  rw [View.set_slice_whole, Rect.mem_set_unit]
  exact Iff.rfl

/-- The last point of half `q`. -/
def tlast (q : Fin 2) : Fin cfg1.N := ⟨8 * q.val + 7, by rw [show cfg1.N = 16 from N_1]; have := q.isLt; omega⟩

/-- THE CLASS SUMS of half `q`: entry (q, k, d) of the first output array. -/
theorem sums1 (c : Dev nD) (q : Fin 2) (k : Fin 27) (d : Fin 512) :
    (dat1 V c).arrAt 2 cfg1.N (ix3 q k d)
      = ∑ n : Fin 12544, Cert.Spec.hot (V c main_v0 (ix2 (Cert.Spec.half q n) (0 : Fin 1))) k * V c main_arg0 (ix2 (Cert.Spec.half q n) d) := by
  have hq := q.isLt
  have hf : (cfg1.win 2).flush (tlast q) = true := (flush1_2 (tlast q)).mpr (by show (8 * q.val + 7) % 8 = 7; omega)
  obtain ⟨-, -, -, -, e0, e1, e2, -⟩ := idx_facts1 (tlast q)
  have ev : (tlast q).val / 8 = q.val := by show (8 * q.val + 7) / 8 = q.val; omega
  have hmem : ix3 q k d ∈ ((cfg1.win 2).blk (tlast q)).view.set := by
    rw [mem_blk1_2]
    intro a
    match a with
    | ⟨0, _⟩ =>
      show win1_2.index (tlast q) (0 : Fin 3) * 1 ≤ q.val ∧ q.val < win1_2.index (tlast q) (0 : Fin 3) * 1 + 1
      rw [e0, ev]; omega
    | ⟨1, _⟩ =>
      show win1_2.index (tlast q) (1 : Fin 3) * 27 ≤ k.val ∧ k.val < win1_2.index (tlast q) (1 : Fin 3) * 27 + 27
      rw [e1]; have := k.isLt; omega
    | ⟨2, _⟩ =>
      show win1_2.index (tlast q) (2 : Fin 3) * 512 ≤ d.val ∧ d.val < win1_2.index (tlast q) (2 : Fin 3) * 512 + 512
      rw [e2]; have := d.isLt; omega
  refine ((dat1 V c).arrAt_apply_of_mem 2 (G1_2 V c) (fun t hf => flushed1_2_eq V c t hf) cfg1.N (tlast q) (ix3 q k d) (tlast q).isLt hf hmem).trans ?_
  show ∑ s ∈ Finset.range 8, tileSum V c (8 * q.val + s) k d = _
  exact sum_tiles q (fun n => Cert.Spec.hot (V c main_v0 (ix2 n (0 : Fin 1))) k * V c main_arg0 (ix2 n d))

/-- THE CLASS COUNTS of half `q`: entry (q, k, 0) of the second output array. -/
theorem counts1 (c : Dev nD) (q : Fin 2) (k : Fin 27) :
    (dat1 V c).arrAt 3 cfg1.N (ix3 q k (0 : Fin 1))
      = ∑ n : Fin 12544, Cert.Spec.hot (V c main_v0 (ix2 (Cert.Spec.half q n) (0 : Fin 1))) k := by
  have hq := q.isLt
  have hf : (cfg1.win 3).flush (tlast q) = true := (flush1_3 (tlast q)).mpr (by show (8 * q.val + 7) % 8 = 7; omega)
  obtain ⟨-, -, -, -, -, -, -, e0, e1, e2⟩ := idx_facts1 (tlast q)
  have ev : (tlast q).val / 8 = q.val := by show (8 * q.val + 7) / 8 = q.val; omega
  have hmem : ix3 q k (0 : Fin 1) ∈ ((cfg1.win 3).blk (tlast q)).view.set := by
    rw [mem_blk1_3]
    intro a
    match a with
    | ⟨0, _⟩ =>
      show win1_3.index (tlast q) (0 : Fin 3) * 1 ≤ q.val ∧ q.val < win1_3.index (tlast q) (0 : Fin 3) * 1 + 1
      rw [e0, ev]; omega
    | ⟨1, _⟩ =>
      show win1_3.index (tlast q) (1 : Fin 3) * 27 ≤ k.val ∧ k.val < win1_3.index (tlast q) (1 : Fin 3) * 27 + 27
      rw [e1]; have := k.isLt; omega
    | ⟨2, _⟩ =>
      show win1_3.index (tlast q) (2 : Fin 3) * 1 ≤ 0 ∧ 0 < win1_3.index (tlast q) (2 : Fin 3) * 1 + 1
      rw [e2]; omega
  refine ((dat1 V c).arrAt_apply_of_mem 3 (G1_3 V c) (fun t hf => flushed1_3_eq V c t hf) cfg1.N (tlast q) (ix3 q k (0 : Fin 1)) (tlast q).isLt hf hmem).trans ?_
  show ∑ s ∈ Finset.range 8, tileCnt V c (8 * q.val + s) k = _
  exact sum_tiles q (fun n => Cert.Spec.hot (V c main_v0 (ix2 n (0 : Fin 1))) k)

end Cert.KernelIdeal.Gen

end
-- ==== Proof.KernelIdeal.Region2V.Layout.lean ====
/-
  Region 2, the tile's arithmetic read at an index: the layout operations of the body (a column cast, a column
  broadcast, the row reductions, the block product) at the literal shapes of one tile of 1792 rows.
-/
import proofs.«421000_j23381801959614_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.SL Idealize.SL.Sem

/-! ## Layout operations of one tile at an index -/

section Layout
variable {α : Type}

/-- A vector of 1792 entries cast to a column reads, at row `r`, its entry `r`. -/
theorem cast_col_apply (v : S1792.Idx → α) (r : Fin 1792) (u : Fin 1) :
    shapeCast S1792x1 v shapeCasts_S1792_S1792x1 (ix2 r u) = v (ix1 r) :=
  shapeCast_apply v _ _ _ (by
    have hu : u.val = 0 := by omega
    rw [Shape.rowMajor_val_two, Shape.rowMajor_val_one]
    show r.val = r.val * 1 + u.val
    omega)

/-- A column broadcast along the 27 classes reads, at `(r, k)`, the column's entry `r`. -/
theorem bcast_col_apply (v : S1792x1.Idx → α) (r : Fin 1792) (k : Fin 27) :
    broadcastTo S1792x27 v broadcasts_S1792x1_S1792x27 (ix2 r k) = v (ix2 r (0 : Fin 1)) :=
  broadcastTo_apply v _ _ _ (fun a => match a with
    | ⟨0, _⟩ => by show r.val = if (1792 : Nat) = 1 then 0 else r.val; rw [if_neg (by decide)]
    | ⟨1, _⟩ => by show 0 = if (1 : Nat) = 1 then 0 else k.val; rw [if_pos rfl])

/-- The row reductions' inserted index: row `r` with class `k` put back. -/
theorem lift_row (r : Fin 1792) (k : Fin 27) : reduces_S1792x27_S1792.lift (ix1 r) k = ix2 r k := by
  funext a
  match a with
  | ⟨0, _⟩ => rfl
  | ⟨1, _⟩ => rfl

end Layout

/-- A row sum over the 27 classes. -/
theorem rowsum_apply (v : FVec Ideal S1792x27 .f32) (hφ : FKind.Formats .f32)
    (hacc : (0x00000000#32 : BitVec 32) = FKind.add.neutral .f32 hφ) (r : Fin 1792) :
    multiReduction .add [1] S1792 v 0x00000000#32 reduces_S1792x27_S1792 hφ hacc (ix1 r) = ∑ k : Fin 27, v (ix2 r k) := by
  refine (Ideal.multiReduction_add_single v 0x00000000#32 reduces_S1792x27_S1792 hφ hacc (ix1 r)).trans ?_
  exact Finset.sum_congr rfl fun k _ => congrArg v (lift_row r k)

/-- A row maximum over the 27 classes: the fold of `max` from the accumulator's value. -/
theorem rowmax_apply (v : FVec Ideal S1792x27 .f32) (hφ : FKind.Formats .f32)
    (hacc : (0xFF800000#32 : BitVec 32) = FKind.maximumf.neutral .f32 hφ) (r : Fin 1792) :
    multiReduction .maximumf [1] S1792 v 0xFF800000#32 reduces_S1792x27_S1792 hφ hacc (ix1 r)
      = (Finset.univ : Finset (Fin 27)).fold max (Ideal.ofBits .f32 0xFF800000#32) (fun k => v (ix2 r k)) := by
  refine (Ideal.multiReduction_maximumf_single v 0xFF800000#32 reduces_S1792x27_S1792 hφ hacc (ix1 r)).trans ?_
  exact congrArg (fun f => (Finset.univ : Finset (Fin 27)).fold max (Ideal.ofBits .f32 0xFF800000#32) f)
    (funext fun k => congrArg v (lift_row r k))

/-! ## The block product -/

theorem lhs_dot_0 (i : S1792x27.Idx) (q : dot_S1792x512_S27x512_S1792x27_1_1_0_0_n_n.contr.Idx) :
    (dot_S1792x512_S27x512_S1792x27_1_1_0_0_n_n.lhsIdx i q 0).val = (i 0).val := by
  unfold DotDims.lhsIdx
  rw [dif_neg (show ¬(0 : Fin S1792x512.rank) ∈ dot_S1792x512_S27x512_S1792x27_1_1_0_0_n_n.lhsBatch by decide), dif_pos (show (0 : Fin S1792x512.rank) ∈ dot_S1792x512_S27x512_S1792x27_1_1_0_0_n_n.lhsNonContracting by decide)]
  rfl
theorem lhs_dot_1 (i : S1792x27.Idx) (q : dot_S1792x512_S27x512_S1792x27_1_1_0_0_n_n.contr.Idx) :
    (dot_S1792x512_S27x512_S1792x27_1_1_0_0_n_n.lhsIdx i q 1).val = (q ⟨0, by decide⟩).val :=
  dot_S1792x512_S27x512_S1792x27_1_1_0_0_n_n.lhsIdx_val_of_single rfl i q
theorem rhs_dot_0 (i : S1792x27.Idx) (q : dot_S1792x512_S27x512_S1792x27_1_1_0_0_n_n.contr.Idx) :
    (dot_S1792x512_S27x512_S1792x27_1_1_0_0_n_n.rhsIdx i q 0).val = (i 1).val := by
  unfold DotDims.rhsIdx
  rw [dif_neg (show ¬(0 : Fin S27x512.rank) ∈ dot_S1792x512_S27x512_S1792x27_1_1_0_0_n_n.rhsBatch by decide), dif_pos (show (0 : Fin S27x512.rank) ∈ dot_S1792x512_S27x512_S1792x27_1_1_0_0_n_n.rhsNonContracting by decide)]
  rfl
theorem rhs_dot_1 (i : S1792x27.Idx) (q : dot_S1792x512_S27x512_S1792x27_1_1_0_0_n_n.contr.Idx) :
    (dot_S1792x512_S27x512_S1792x27_1_1_0_0_n_n.rhsIdx i q 1).val = (q ⟨0, by decide⟩).val :=
  dot_S1792x512_S27x512_S1792x27_1_1_0_0_n_n.rhsIdx_val_of_single rfl i q

/-- The tile's product with the centroids into a zero accumulator, at row `r` and class `k`: the sum over the features. -/
theorem dot_apply {φ₁ φ₂ : FTy} (x : FVec Ideal S1792x512 φ₁) (y : FVec Ideal S27x512 φ₂) (r : Fin 1792) (k : Fin 27) :
    matmul dot_S1792x512_S27x512_S1792x27_1_1_0_0_n_n none x y (constant S1792x27 .f32 0x00000000#32) (ix2 r k)
      = ∑ d : Fin 512, x (ix2 r d) * y (ix2 k d) := by
  simp only [matmul]
  rw [Ideal.matmul_constant_zero_apply, ← Equiv.sum_comp (contrEquiv1 dot_S1792x512_S27x512_S1792x27_1_1_0_0_n_n 512 rfl rfl).symm]
  refine Finset.sum_congr rfl fun d _ => ?_
  have hk := contrEquiv1_symm_val dot_S1792x512_S27x512_S1792x27_1_1_0_0_n_n 512 rfl rfl d
  have el : dot_S1792x512_S27x512_S1792x27_1_1_0_0_n_n.lhsIdx (ix2 r k) ((contrEquiv1 dot_S1792x512_S27x512_S1792x27_1_1_0_0_n_n 512 rfl rfl).symm d) = ix2 r d := funext fun a => Fin.ext (by
    match a with
    | ⟨0, _⟩ => exact lhs_dot_0 _ _
    | ⟨1, _⟩ => exact (lhs_dot_1 _ _).trans hk)
  have er : dot_S1792x512_S27x512_S1792x27_1_1_0_0_n_n.rhsIdx (ix2 r k) ((contrEquiv1 dot_S1792x512_S27x512_S1792x27_1_1_0_0_n_n 512 rfl rfl).symm d) = ix2 k d := funext fun a => Fin.ext (by
    match a with
    | ⟨0, _⟩ => exact rhs_dot_0 _ _
    | ⟨1, _⟩ => exact (rhs_dot_1 _ _).trans hk)
  rw [el, er]

end Cert.KernelIdeal.Gen

end
-- ==== Proof.KernelIdeal.Region2V.RowLoss.lean ====
/-
  Region 2, one tile's rows: from the tile's logits and label column, each row's one-hot product with its log-softmax
  (the row maximum folded from −∞, the logarithm of the sum of shifted exponentials, the shift `x − (max + log Σ exp)`),
  and the tile's weighted sum of the negated row values.
-/
import proofs.«421000_j23381801959614_3_alg».proof.Proof.KernelIdeal.Region2V.Layout
import proofs.«421000_j23381801959614_3_alg».proof.Proof.Spec

set_option maxRecDepth 16384

noncomputable section

namespace Cert.KernelIdeal.Gen

open Idealize.ShloMosaic Idealize.ShloMosaic.TcCoe Idealize.ShloMosaic.ValueIdx
open Idealize.SL Idealize.SL.Sem

/-- The one-bit result of a comparison, widened to 32 bits, reads as the natural number of the bit. -/
theorem toInt_setWidth_one : ∀ b : BitVec 1, (b.setWidth 32).toInt = (b.toNat : ℤ) := by decide

/-- A converted comparison of two words is the indicator of their equality. -/
theorem sitofp_cmpi_eq (a s : BitVec 32) :
    (FloatOps.sitofp (F := Ideal) .f32 ((IntOp.cmpi .eq a s).setWidth 32) : EReal) = if a = s then 1 else 0 := by
  show ((((IntOp.cmpi .eq a s).setWidth 32).toInt : ℝ) : EReal) = _
  rw [toInt_setWidth_one]
  by_cases h : a = s
  · simp [IntOp.cmpi, h]
  · simp [IntOp.cmpi, h]

/-! ## The row quantities as vectors, named -/

/-- The column of row maxima of the logits `g`. -/
def rowMaxCol (g : FVec Ideal S1792x27 .f32) : FVec Ideal S1792x1 .f32 :=
  shapeCast S1792x1 (multiReduction .maximumf [1] S1792 g 0xFF800000#32 reduces_S1792x27_S1792 (.inl rfl) rfl) shapeCasts_S1792_S1792x1

/-- The column `max + log Σ exp (g − max)`. -/
def lseCol (g : FVec Ideal S1792x27 .f32) : FVec Ideal S1792x1 .f32 :=
  addf (rowMaxCol g) (log (shapeCast S1792x1 (multiReduction .add [1] S1792 (exp (subf g (broadcastTo S1792x27 (rowMaxCol g) broadcasts_S1792x1_S1792x27))) 0x00000000#32 reduces_S1792x27_S1792 (.inl rfl) rfl) shapeCasts_S1792_S1792x1))

/-- The one-hot matrix of the label column. -/
def onehot (lab : IVec S1792x1 32) : FVec Ideal S1792x27 .f32 :=
  sitofp .f32 (extui 32 (cmpi .eq (iota .tc S1792x27 32 [1] iota_S1792x27_d1_w32) (broadcastTo S1792x27 lab broadcasts_S1792x1_S1792x27)) natLt_1_32)

/-- Each row's one-hot product with its log-softmax. -/
def rowLoss (g : FVec Ideal S1792x27 .f32) (lab : IVec S1792x1 32) : FVec Ideal S1792 .f32 :=
  multiReduction .add [1] S1792 (mulf (subf g (broadcastTo S1792x27 (lseCol g) broadcasts_S1792x1_S1792x27)) (onehot lab)) 0x00000000#32 reduces_S1792x27_S1792 (.inl rfl) rfl

/-- The tile's sum of the negated row values times the weights, as the scalar the body extracts. -/
def tileWeighted (w : FVec Ideal S1792x1 .f32) (v : FVec Ideal S1792 .f32) : Ideal .f32 :=
  extractAt ![0, 0, 0] (shapeCast S1x1x1 (multiReduction .add [1, 2] S1 (shapeCast S1x1792x1 (mulf (subf (broadcast S1792x1 (Scalar.ofBits .f32 0x00000000#32)) (shapeCast S1792x1 v shapeCasts_S1792_S1792x1)) w) shapeCasts_S1792x1_S1x1792x1) 0x00000000#32 reduces_S1x1792x1_S1 (.inl rfl) rfl) shapeCasts_S1_S1x1x1) inpos_S1x1x1_p0_0_0

section Rows
variable (g : FVec Ideal S1792x27 .f32) (G : Fin 1792 → Fin 27 → EReal) (hG : ∀ r k, g (ix2 r k) = G r k)
include hG

theorem rowMaxCol_apply (r : Fin 1792) (u : Fin 1) :
    rowMaxCol g (ix2 r u) = (Finset.univ : Finset (Fin 27)).fold max (Ideal.ofBits .f32 0xFF800000#32) (fun k => G r k) := by
  unfold rowMaxCol
  refine (cast_col_apply _ r u).trans ((rowmax_apply g _ _ r).trans ?_)
  exact congrArg (fun f => (Finset.univ : Finset (Fin 27)).fold max (Ideal.ofBits .f32 0xFF800000#32) f) (funext fun k => hG r k)

theorem lseCol_apply (r : Fin 1792) (u : Fin 1) :
    lseCol g (ix2 r u)
      = (Finset.univ : Finset (Fin 27)).fold max (Ideal.ofBits .f32 0xFF800000#32) (fun k => G r k)
        + Ideal.log (∑ k : Fin 27, Ideal.exp (G r k - (Finset.univ : Finset (Fin 27)).fold max (Ideal.ofBits .f32 0xFF800000#32) (fun k => G r k))) := by
  unfold lseCol
  show rowMaxCol g (ix2 r u) + Ideal.log (shapeCast S1792x1 _ shapeCasts_S1792_S1792x1 (ix2 r u)) = _
  refine congrArg₂ (fun a b => a + Ideal.log b) (rowMaxCol_apply g G hG r u)
    ((cast_col_apply _ r u).trans ((rowsum_apply _ _ _ r).trans (Finset.sum_congr rfl fun k _ => ?_)))
  show Ideal.exp (g (ix2 r k) - broadcastTo S1792x27 (rowMaxCol g) broadcasts_S1792x1_S1792x27 (ix2 r k)) = _
  rw [bcast_col_apply _ r k, rowMaxCol_apply g G hG r 0, hG r k]

end Rows

theorem onehot_apply (lab : IVec S1792x1 32) (r : Fin 1792) (k : Fin 27) :
    onehot lab (ix2 r k) = Cert.Spec.hot (lab (ix2 r (0 : Fin 1))) k := by
  unfold onehot Cert.Spec.hot
  show FloatOps.sitofp (F := Ideal) .f32 ((IntOp.cmpi .eq (iota .tc S1792x27 32 [1] iota_S1792x27_d1_w32 (ix2 r k)) (broadcastTo S1792x27 lab broadcasts_S1792x1_S1792x27 (ix2 r k))).setWidth 32) = _
  rw [sitofp_cmpi_eq, iota_single_apply, bcast_col_apply _ r k]

theorem rowLoss_apply (g : FVec Ideal S1792x27 .f32) (G : Fin 1792 → Fin 27 → EReal) (hG : ∀ r k, g (ix2 r k) = G r k)
    (lab : IVec S1792x1 32) (r : Fin 1792) :
    rowLoss g lab (ix1 r)
      = ∑ k : Fin 27, (G r k - ((Finset.univ : Finset (Fin 27)).fold max (Ideal.ofBits .f32 0xFF800000#32) (fun k => G r k)
          + Ideal.log (∑ k : Fin 27, Ideal.exp (G r k - (Finset.univ : Finset (Fin 27)).fold max (Ideal.ofBits .f32 0xFF800000#32) (fun k => G r k)))))
          * Cert.Spec.hot (lab (ix2 r (0 : Fin 1))) k := by
  unfold rowLoss
  refine (rowsum_apply _ _ _ r).trans (Finset.sum_congr rfl fun k _ => ?_)
  show (g (ix2 r k) - broadcastTo S1792x27 (lseCol g) broadcasts_S1792x1_S1792x27 (ix2 r k)) * onehot lab (ix2 r k) = _
  rw [bcast_col_apply _ r k, lseCol_apply g G hG r 0, onehot_apply, hG r k]

/-! ## The tile's sum -/

/-- The index set of a [1, 1792, 1] vector is its middle coordinate's range. -/
def idxEquivMid : S1x1792x1.Idx ≃ Fin 1792 where
  toFun i := i 1
  invFun r := ix3 (0 : Fin 1) r (0 : Fin 1)
  left_inv i := by
    funext a
    match a with
    | ⟨0, _⟩ => exact Fin.ext (by have : (i 0).val < 1 := (i 0).isLt; show 0 = (i 0).val; omega)
    | ⟨1, _⟩ => rfl
    | ⟨2, _⟩ => exact Fin.ext (by have : (i 2).val < 1 := (i 2).isLt; show 0 = (i 2).val; omega)
  right_inv _ := rfl

theorem tileSum_eq (w : FVec Ideal S1792x1 .f32) (v : FVec Ideal S1792 .f32) :
    tileWeighted w v = ∑ r : Fin 1792, (0 - v (ix1 r)) * w (ix2 r (0 : Fin 1)) := by
  unfold tileWeighted extractAt
  refine (shapeCast_apply _ shapeCasts_S1_S1x1x1 _ (ix1 (0 : Fin 1)) (by
    rw [Shape.rowMajor_val_one, Shape.rowMajor_val_three]; rfl)).trans ?_
  refine (Ideal.multiReduction_add_total _ 0x00000000#32 reduces_S1x1792x1_S1 (fun b => by
    match b with | ⟨0, _⟩ => rfl) (.inl rfl) rfl (ix1 (0 : Fin 1))).trans ?_
  rw [← Equiv.sum_comp idxEquivMid.symm]
  refine Finset.sum_congr rfl fun r _ => ?_
  show shapeCast S1x1792x1 _ shapeCasts_S1792x1_S1x1792x1 (ix3 (0 : Fin 1) r (0 : Fin 1)) = _
  rw [shapeCast_ab_1ab_apply]
  show (Ideal.ofBits .f32 0x00000000#32 - shapeCast S1792x1 v shapeCasts_S1792_S1792x1 (ix2 r (0 : Fin 1))) * w (ix2 r (0 : Fin 1)) = _
  rw [cast_col_apply, Ideal.ofBits_zero_f32]

end Cert.KernelIdeal.Gen

end
-- ==== Proof.KernelIdeal.Region2V.Tile.lean ====
/-
  Region 2, one tile's step of a running loss: the body's payloads at the one entry of the accumulator are the entry
  plus the tile's sum over its rows of the row's loss (zero minus the one-hot product with the log-softmax of the
  row's logits against the centroids) times the row's weight.
-/
import proofs.«421000_j23381801959614_3_alg».proof.Proof.KernelIdeal.Region2V.RowLoss

set_option maxRecDepth 16384

noncomputable section

namespace Cert.KernelIdeal.Gen

open Idealize.ShloMosaic Idealize.ShloMosaic.TcCoe Idealize.ShloMosaic.ValueIdx
open Idealize.SL Idealize.SL.Sem

section Tile
variable (x : Vec Ideal S1792x512 .f32) (c : Vec Ideal S27x512 .f32) (lab : Vec Ideal S1792x1 .i32)
  (w : Vec Ideal S1792x1 .f32) (s : Vec Ideal S1x1 .f32)

/-- The tile's logits: the row's product with the class's centroid, over the temperature. -/
theorem pay9_apply (r : Fin 1792) (k : Fin 27) :
    k2_pay9 x c (ix2 r k) = Cert.Spec.logit (fun r d => x (ix2 r d)) (fun k d => c (ix2 k d)) r k := by
  unfold k2_pay9 k2_pay6 Cert.Spec.logit
  show Ideal.div (matmul (F := Ideal) dot_S1792x512_S27x512_S1792x27_1_1_0_0_n_n none (truncf (F := Ideal) .bf16 x bitsLt_bf16_f32)
      (truncf (F := Ideal) .bf16 (shapeCast S27x512 c shapeCasts_S27x512_S27x512) bitsLt_bf16_f32) (constant (F := Ideal) S1792x27 .f32 0x00000000#32) (ix2 r k))
    (Ideal.ofBits .f32 0x3D8F5C29#32) = _
  rw [dot_apply, shapeCast_self]
  rfl

theorem pay8_eq : k2_pay8 w = w := by
  unfold k2_pay8
  exact shapeCast_self w _

theorem pay7_eq : k2_pay7 lab = lab := by
  unfold k2_pay7
  exact shapeCast_self lab _

/-- The body's texts in the named vectors. -/
theorem pay10_eq : k2_pay10 x c lab = rowLoss (k2_pay9 x c) (k2_pay7 lab) := rfl
theorem pay11_eq (w' : FVec Ideal S1792x1 .f32) (v : FVec Ideal S1792 .f32) :
    k2_pay11 w' v s = shapeCast S1x1 (addf s (broadcast S1x1 (tileWeighted w' v))) shapeCasts_S1x1_S1x1 := rfl
theorem pay12_eq (lab' : IVec S1792x1 32) (w' : FVec Ideal S1792x1 .f32) (g : FVec Ideal S1792x27 .f32) :
    k2_pay12 lab' w' g s = addf s (broadcast S1x1 (tileWeighted w' (rowLoss g lab'))) := rfl

/-- The tile's weighted sum of the rows' losses, from the tile's blocks. -/
theorem tileSum_rowLoss :
    tileWeighted w (rowLoss (k2_pay9 x c) lab)
      = ∑ r : Fin 1792, Cert.Spec.ceK (fun r d => x (ix2 r d)) (fun k d => c (ix2 k d)) (fun r => lab (ix2 r (0 : Fin 1))) r
          * w (ix2 r (0 : Fin 1)) := by
  rw [tileSum_eq]
  refine Finset.sum_congr rfl fun r _ => ?_
  rw [rowLoss_apply (k2_pay9 x c) _ (pay9_apply x c) lab r]
  rfl

/-- THE FIRST RUNNING LOSS'S STEP at its one entry. -/
theorem tile_first :
    k2_pay11 (k2_pay8 w) (k2_pay10 x c lab) s (ix2 (0 : Fin 1) (0 : Fin 1))
      = s (ix2 (0 : Fin 1) (0 : Fin 1))
        + ∑ r : Fin 1792, Cert.Spec.ceK (fun r d => x (ix2 r d)) (fun k d => c (ix2 k d)) (fun r => lab (ix2 r (0 : Fin 1))) r
            * w (ix2 r (0 : Fin 1)) := by
  rw [pay11_eq, shapeCast_self, pay10_eq, pay8_eq, pay7_eq]
  show s (ix2 (0 : Fin 1) (0 : Fin 1)) + tileWeighted w (rowLoss (k2_pay9 x c) lab) = _
  rw [tileSum_rowLoss]

/-- THE SECOND RUNNING LOSS'S STEP at its one entry: the same sum, of the blocks it is given. -/
theorem tile_second :
    k2_pay1 (k2_pay12 (k2_pay7 lab) (k2_pay8 w) (k2_pay9 x c) s) (ix2 (0 : Fin 1) (0 : Fin 1))
      = s (ix2 (0 : Fin 1) (0 : Fin 1))
        + ∑ r : Fin 1792, Cert.Spec.ceK (fun r d => x (ix2 r d)) (fun k d => c (ix2 k d)) (fun r => lab (ix2 r (0 : Fin 1))) r
            * w (ix2 r (0 : Fin 1)) := by
  unfold k2_pay1
  rw [shapeCast_self, pay12_eq, pay8_eq, pay7_eq]
  show s (ix2 (0 : Fin 1) (0 : Fin 1)) + tileWeighted w (rowLoss (k2_pay9 x c) lab) = _
  rw [tileSum_rowLoss]

end Tile

/-- The zero the running losses are reset to. -/
theorem loss_pay4_apply (i : S1x1.Idx) : (k2_pay4 (F := Ideal)) i = 0 := by
  unfold k2_pay4
  rw [shapeCast_self]
  exact Ideal.ofBits_zero_f32
theorem loss_pay5_apply (i : S1x1.Idx) : (k2_pay5 (F := Ideal)) i = 0 := by
  unfold k2_pay5
  rw [shapeCast_self]
  exact Ideal.ofBits_zero_f32

/-- The output blocks are the running losses recast: every entry is the one entry. -/
theorem loss_pay2_apply (v : Vec Ideal S1x1 .f32) (i : S1x1x1.Idx) : k2_pay2 v i = v (ix2 (0 : Fin 1) (0 : Fin 1)) := by
  unfold k2_pay2
  refine shapeCast_apply v _ i _ ?_
  rw [Shape.rowMajor_val_two, Shape.rowMajor_val_three]
  have h0 : (i 0).val < 1 := (i 0).isLt
  have h1 : (i 1).val < 1 := (i 1).isLt
  have h2 : (i 2).val < 1 := (i 2).isLt
  show 0 * 1 + 0 = ((i 0).val * 1 + (i 1).val) * 1 + (i 2).val
  omega
theorem loss_pay3_apply (v : Vec Ideal S1x1 .f32) (i : S1x1x1.Idx) : k2_pay3 v i = v (ix2 (0 : Fin 1) (0 : Fin 1)) := by
  unfold k2_pay3
  refine shapeCast_apply v _ i _ ?_
  rw [Shape.rowMajor_val_two, Shape.rowMajor_val_three]
  have h0 : (i 0).val < 1 := (i 0).isLt
  have h1 : (i 1).val < 1 := (i 1).isLt
  have h2 : (i 2).val < 1 := (i 2).isLt
  show 0 * 1 + 0 = ((i 0).val * 1 + (i 1).val) * 1 + (i 2).val
  omega

end Cert.KernelIdeal.Gen

end
-- ==== Proof.KernelIdeal.Region2V.Acc.lean ====
/-
  Region 2, the running losses over the grid: each tile's step adds the tile's weighted loss of its 1792 rows of the
  arrays; after tile `i` of half `q` the two accumulators hold the sums over tiles 0..i; the seven tiles of a half
  are its 12544 rows.
-/
import proofs.«421000_j23381801959614_3_alg».proof.Proof.KernelIdeal.Region2Defs
import proofs.«421000_j23381801959614_3_alg».proof.Proof.KernelIdeal.Region2V.Tile

set_option maxRecDepth 16384

noncomputable section

namespace Cert.KernelIdeal.Gen

open Idealize.ShloMosaic Idealize.ShloMosaic.TcCoe Idealize.ShloMosaic.ValueIdx
open Idealize.SL Idealize.SL.Sem

/-! ## The rows of a tile, and a row's loss as a function of its own row only -/

/-- Row `r` of tile `t` among the 25088 rows. -/
def rowN (t : ℕ) (r : Fin 1792) : Fin 25088 := ⟨(t * 1792 + r.val) % 25088, Nat.mod_lt _ (by decide)⟩

/-- A row's loss reads the features and the labels at that row only. -/
theorem ceK_congr {N N' : ℕ} (x : Fin N → Fin 512 → EReal) (x' : Fin N' → Fin 512 → EReal) (cent cent' : Fin 27 → Fin 512 → EReal)
    (s : Fin N → BitVec 32) (s' : Fin N' → BitVec 32) (n : Fin N) (n' : Fin N')
    (hx : ∀ d, x n d = x' n' d) (hc : cent = cent') (hs : s n = s' n') :
    Cert.Spec.ceK x cent s n = Cert.Spec.ceK x' cent' s' n' := by
  subst hc
  have hl : ∀ k, Cert.Spec.logit x cent n k = Cert.Spec.logit x' cent n' k := fun k => by
    unfold Cert.Spec.logit
    exact congrArg (fun z => Ideal.div z _) (Finset.sum_congr rfl fun d _ => by rw [hx d])
  have hm : Cert.Spec.rmax x cent n = Cert.Spec.rmax x' cent n' := by
    unfold Cert.Spec.rmax
    exact congrArg (fun f => (Finset.univ : Finset (Fin 27)).fold max Cert.Spec.cNegInf f) (funext hl)
  have hsum : Cert.Spec.lsum x cent n = Cert.Spec.lsum x' cent n' := by
    unfold Cert.Spec.lsum
    exact Finset.sum_congr rfl fun k _ => by rw [hl k, hm]
  unfold Cert.Spec.ceK Cert.Spec.lpK
  exact congrArg (fun z => (0 : EReal) - z) (Finset.sum_congr rfl fun k _ => by rw [hl k, hm, hsum, hs])

/-- The weighted loss of tile `t`'s rows. -/
def tileLoss (x : Fin 25088 → Fin 512 → EReal) (cent : Fin 27 → Fin 512 → EReal) (s : Fin 25088 → BitVec 32)
    (wt : Fin 25088 → EReal) (t : ℕ) : EReal :=
  ∑ r : Fin 1792, Cert.Spec.ceK x cent s (rowN t r) * wt (rowN t r)

/-- The seven tiles of half `q` are its 12544 rows. -/
theorem sum_tiles7 (f : Fin 25088 → EReal) (q : Fin 2) :
    ∑ j ∈ Finset.range 7, ∑ r : Fin 1792, f (rowN (7 * q.val + j) r) = ∑ n : Fin 12544, f (Cert.Spec.half q n) := by
  rw [Finset.sum_range (fun j => ∑ r : Fin 1792, f (rowN (7 * q.val + j) r))]
  refine ((Fintype.sum_prod_type' (fun (j : Fin 7) (r : Fin 1792) => f (rowN (7 * q.val + j.val) r))).symm).trans ?_
  refine Eq.trans ?_ (Equiv.sum_comp (finProdFinEquiv (m := 7) (n := 1792)) (fun n : Fin 12544 => f (Cert.Spec.half q n)))
  refine Finset.sum_congr rfl fun p _ => congrArg f (Fin.ext ?_)
  have hq := q.isLt
  have h1 := p.1.isLt
  have h2 := p.2.isLt
  show ((7 * q.val + p.1.val) * 1792 + p.2.val) % 25088 = q.val * 12544 + (p.2.val + 1792 * p.1.val)
  omega

/-! ## The blocks of the inputs at a point -/

variable (V : (c : Dev nD) → (b : Ref sig .tc) → Buf (Elt Ideal) ((c : Thread nD τ).loc b))

/-- The arrays the region reads, by rows. -/
abbrev feat0 (c : Dev nD) : Fin 25088 → Fin 512 → EReal := fun n d => V c main_arg0 (ix2 n d)
abbrev feat1 (c : Dev nD) : Fin 25088 → Fin 512 → EReal := fun n d => V c main_arg1 (ix2 n d)
abbrev cents (c : Dev nD) : Fin 27 → Fin 512 → EReal := fun k d => V c main_v9 (ix2 k d)
abbrev labs (c : Dev nD) : Fin 25088 → BitVec 32 := fun n => V c main_v0 (ix2 n (0 : Fin 1))
abbrev wts (c : Dev nD) : Fin 25088 → EReal := fun n => V c main_v2 (ix2 n (0 : Fin 1))

/-- The printed index maps, decided over the grid: the row windows are at block `t`, the centroids at block 0, the outputs
    at the half's slot. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 3) = t.val / 7 ∧ win2_5.index t (1 : Fin 3) = 0 ∧ win2_5.index t (2 : Fin 3) = 0
    ∧ win2_6.index t (0 : Fin 3) = t.val / 7 ∧ win2_6.index t (1 : Fin 3) = 0 ∧ win2_6.index t (2 : Fin 3) = 0 :=
  (by decide +kernel : ∀ t : Fin grid2.N, _)

section Blocks
variable (c : Dev nD) (t : Fin cfg2.N)

theorem blk0_apply (r : Fin 1792) (d : Fin 512) :
    (iblk2 V c 0 t : Vec Ideal S1792x512 .f32) (ix2 r d) = V c main_arg0 (ix2 (rowN t.val r) d) := by
  obtain ⟨e0, e1, -⟩ := idx_facts2 t
  have ht : t.val < 14 := lt_of_lt_of_eq t.isLt N_2
  show V c main_arg0 (((cfg2.win 0).blk t).view.emb (ix2 r d)) = V c main_arg0 (ix2 (rowN t.val r) d)
  refine congrArg (V c main_arg0) (funext fun a => Fin.ext ?_)
  match a with
  | ⟨0, _⟩ => show win2_0.index t (0 : Fin 2) * 1792 + 1 * r.val = (t.val * 1792 + r.val) % 25088; omega
  | ⟨1, _⟩ => show win2_0.index t (1 : Fin 2) * 512 + 1 * d.val = d.val; omega

theorem blk1_apply (r : Fin 1792) (d : Fin 512) :
    (iblk2 V c 1 t : Vec Ideal S1792x512 .f32) (ix2 r d) = V c main_arg1 (ix2 (rowN t.val r) d) := by
  obtain ⟨-, -, e0, e1, -⟩ := idx_facts2 t
  have ht : t.val < 14 := lt_of_lt_of_eq t.isLt N_2
  show V c main_arg1 (((cfg2.win 1).blk t).view.emb (ix2 r d)) = V c main_arg1 (ix2 (rowN t.val r) d)
  refine congrArg (V c main_arg1) (funext fun a => Fin.ext ?_)
  match a with
  | ⟨0, _⟩ => show win2_1.index t (0 : Fin 2) * 1792 + 1 * r.val = (t.val * 1792 + r.val) % 25088; omega
  | ⟨1, _⟩ => show win2_1.index t (1 : Fin 2) * 512 + 1 * d.val = d.val; omega

theorem blk2_apply (k : Fin 27) (d : Fin 512) :
    (iblk2 V c 2 t : Vec Ideal S27x512 .f32) (ix2 k d) = V c main_v9 (ix2 k d) := by
  obtain ⟨-, -, -, -, e0, e1, -⟩ := idx_facts2 t
  show V c main_v9 (((cfg2.win 2).blk t).view.emb (ix2 k d)) = V c main_v9 (ix2 k d)
  refine congrArg (V c main_v9) (funext fun a => Fin.ext ?_)
  match a with
  | ⟨0, _⟩ => show win2_2.index t (0 : Fin 2) * 27 + 1 * k.val = k.val; omega
  | ⟨1, _⟩ => show win2_2.index t (1 : Fin 2) * 512 + 1 * d.val = d.val; omega

theorem blk3_apply (r : Fin 1792) :
    (iblk2 V c 3 t : Vec Ideal S1792x1 .i32) (ix2 r (0 : Fin 1)) = V c main_v0 (ix2 (rowN t.val r) (0 : Fin 1)) := by
  obtain ⟨-, -, -, -, -, -, e0, e1, -⟩ := idx_facts2 t
  have ht : t.val < 14 := lt_of_lt_of_eq t.isLt N_2
  show V c main_v0 (((cfg2.win 3).blk t).view.emb (ix2 r (0 : Fin 1))) = V c main_v0 (ix2 (rowN t.val r) (0 : Fin 1))
  refine congrArg (V c main_v0) (funext fun a => Fin.ext ?_)
  match a with
  | ⟨0, _⟩ => show win2_3.index t (0 : Fin 2) * 1792 + 1 * r.val = (t.val * 1792 + r.val) % 25088; omega
  | ⟨1, _⟩ => show win2_3.index t (1 : Fin 2) * 1 + 1 * 0 = 0; omega

theorem blk4_apply (r : Fin 1792) :
    (iblk2 V c 4 t : Vec Ideal S1792x1 .f32) (ix2 r (0 : Fin 1)) = V c main_v2 (ix2 (rowN t.val r) (0 : Fin 1)) := by
  obtain ⟨-, -, -, -, -, -, -, -, e0, e1, -⟩ := idx_facts2 t
  have ht : t.val < 14 := lt_of_lt_of_eq t.isLt N_2
  show V c main_v2 (((cfg2.win 4).blk t).view.emb (ix2 r (0 : Fin 1))) = V c main_v2 (ix2 (rowN t.val r) (0 : Fin 1))
  refine congrArg (V c main_v2) (funext fun a => Fin.ext ?_)
  match a with
  | ⟨0, _⟩ => show win2_4.index t (0 : Fin 2) * 1792 + 1 * r.val = (t.val * 1792 + r.val) % 25088; omega
  | ⟨1, _⟩ => show win2_4.index t (1 : Fin 2) * 1 + 1 * 0 = 0; omega

/-- ONE TILE'S STEP of the first running loss: the tile's weighted loss added. -/
theorem step2_0_apply (s : Vec Ideal S1x1 .f32) :
    step2_0 V c t s (ix2 (0 : Fin 1) (0 : Fin 1))
      = s (ix2 (0 : Fin 1) (0 : Fin 1)) + tileLoss (feat0 V c) (cents V c) (labs V c) (wts V c) t.val := by
  unfold step2_0 tileLoss
  refine (tile_first (iblk2 V c 0 t) (iblk2 V c 2 t) (iblk2 V c 3 t) (iblk2 V c 4 t) s).trans ?_
  refine congrArg (fun z => s (ix2 (0 : Fin 1) (0 : Fin 1)) + z) (Finset.sum_congr rfl fun r _ => ?_)
  refine congrArg₂ (fun a b => a * b) ?_ (blk4_apply V c t r)
  exact ceK_congr _ _ _ _ _ _ r (rowN t.val r) (fun d => blk0_apply V c t r d)
    (funext fun k => funext fun d => blk2_apply V c t k d) (blk3_apply V c t r)

/-- ONE TILE'S STEP of the second running loss. -/
theorem step2_1_apply (s : Vec Ideal S1x1 .f32) :
    step2_1 V c t s (ix2 (0 : Fin 1) (0 : Fin 1))
      = s (ix2 (0 : Fin 1) (0 : Fin 1)) + tileLoss (feat1 V c) (cents V c) (labs V c) (wts V c) t.val := by
  unfold step2_1 tileLoss
  refine (tile_second (iblk2 V c 1 t) (iblk2 V c 2 t) (iblk2 V c 3 t) (iblk2 V c 4 t) s).trans ?_
  refine congrArg (fun z => s (ix2 (0 : Fin 1) (0 : Fin 1)) + z) (Finset.sum_congr rfl fun r _ => ?_)
  refine congrArg₂ (fun a b => a * b) ?_ (blk4_apply V c t r)
  exact ceK_congr _ _ _ _ _ _ r (rowN t.val r) (fun d => blk1_apply V c t r d)
    (funext fun k => funext fun d => blk2_apply V c t k d) (blk3_apply V c t r)

end Blocks

/-! ## The running losses after tile `i` of half `q` -/

/-- A later tile of a half steps from what the tile before left. -/
theorem acc2_succ (c : Dev nD) (n : ℕ) (hn : n + 1 < cfg2.N) (h : ¬ (n + 1) % 7 = 0) :
    acc2 V c (n + 1) hn = (step2_0 V c ⟨n + 1, hn⟩ (acc2 V c n (Nat.lt_of_succ_lt hn)).1,
      step2_1 V c ⟨n + 1, hn⟩ (acc2 V c n (Nat.lt_of_succ_lt hn)).2) := if_neg h

/-- THE RUNNING LOSSES after tile `i` of half `q`: the sums of the tiles' weighted losses over tiles 0..i. -/
theorem acc2_sum (c : Dev nD) (q : Fin 2) : ∀ (i : ℕ) (hi : i < 7) (hn : 7 * q.val + i < cfg2.N),
    (acc2 V c (7 * q.val + i) hn).1 (ix2 (0 : Fin 1) (0 : Fin 1))
        = ∑ j ∈ Finset.range (i + 1), tileLoss (feat0 V c) (cents V c) (labs V c) (wts V c) (7 * q.val + j)
    ∧ (acc2 V c (7 * q.val + i) hn).2 (ix2 (0 : Fin 1) (0 : Fin 1))
        = ∑ j ∈ Finset.range (i + 1), tileLoss (feat1 V c) (cents V c) (labs V c) (wts V c) (7 * q.val + j)
  | 0, _, hn => by
    have h : acc2 V c (7 * q.val + 0) hn = (step2_0 V c ⟨7 * q.val + 0, hn⟩ (k2_pay4 (F := Ideal)), step2_1 V c ⟨7 * q.val + 0, hn⟩ (k2_pay5 (F := Ideal))) :=
      acc2_first V c ⟨7 * q.val + 0, hn⟩ (by show (7 * q.val + 0) % 7 = 0; omega)
    rw [h, Finset.sum_range_succ, Finset.sum_range_zero, Finset.sum_range_succ, Finset.sum_range_zero]
    constructor
    · show step2_0 V c ⟨7 * q.val + 0, hn⟩ (k2_pay4 (F := Ideal)) (ix2 (0 : Fin 1) (0 : Fin 1)) = _
      rw [step2_0_apply, loss_pay4_apply]
    · show step2_1 V c ⟨7 * q.val + 0, hn⟩ (k2_pay5 (F := Ideal)) (ix2 (0 : Fin 1) (0 : Fin 1)) = _
      rw [step2_1_apply, loss_pay5_apply]
  | i + 1, hi, hn => by
    have ih := acc2_sum c q i (by omega) (Nat.lt_of_succ_lt hn)
    have h : acc2 V c (7 * q.val + i + 1) hn = (step2_0 V c ⟨7 * q.val + i + 1, hn⟩ (acc2 V c (7 * q.val + i) (Nat.lt_of_succ_lt hn)).1,
        step2_1 V c ⟨7 * q.val + i + 1, hn⟩ (acc2 V c (7 * q.val + i) (Nat.lt_of_succ_lt hn)).2) :=
      acc2_succ V c (7 * q.val + i) hn (by omega)
    show (acc2 V c (7 * q.val + i + 1) hn).1 (ix2 (0 : Fin 1) (0 : Fin 1)) = _ ∧ (acc2 V c (7 * q.val + i + 1) hn).2 (ix2 (0 : Fin 1) (0 : Fin 1)) = _
    rw [h, Finset.sum_range_succ _ (i + 1), Finset.sum_range_succ _ (i + 1)]
    constructor
    · show step2_0 V c ⟨7 * q.val + i + 1, hn⟩ _ (ix2 (0 : Fin 1) (0 : Fin 1)) = _
      rw [step2_0_apply, ih.1]
      rfl
    · show step2_1 V c ⟨7 * q.val + i + 1, hn⟩ _ (ix2 (0 : Fin 1) (0 : Fin 1)) = _
      rw [step2_1_apply, ih.2]
      rfl

end Cert.KernelIdeal.Gen

end
-- ==== Proof.KernelIdeal.Region2Val.lean ====
/-
  Region 2 read as values: after the run, slot `q` of the two output arrays holds the weighted loss of half `q` of the rows
  against the first and against the second feature array.
-/
import proofs.«421000_j23381801959614_3_alg».proof.Proof.KernelIdeal.Region2Defs
import proofs.«421000_j23381801959614_3_alg».proof.Proof.Spec
import proofs.«421000_j23381801959614_3_alg».proof.Proof.KernelIdeal.Region2V.Acc
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

-- the TensorCore's buffer contents when the region is entered, at the extended reals
variable (V : (c : Dev nD) → (b : Ref sig .tc) → Buf (Elt Ideal) ((c : Thread nD τ).loc b))

/-! ## The closed forms -/

/-- The weighted loss of half `q` of the rows against the feature array `x`. -/
def halfLoss (x : Fin 25088 → Fin 512 → EReal) (c : Dev nD) (q : Fin 2) : EReal :=
  ∑ n : Fin 12544, Cert.Spec.ceK x (cents V c) (labs V c) (Cert.Spec.half q n) * wts V c (Cert.Spec.half q n)

/-- An output array's closed form: slot `q` holds half `q`'s weighted loss. -/
def lossArr (x : Fin 25088 → Fin 512 → EReal) (c : Dev nD) : S2x1x1.Idx → Elt Ideal .f32 :=
  fun i => halfLoss V x c ⟨(i 0).val, (i 0).isLt⟩

/-- The running losses do not depend on how the position is written. -/
theorem acc2_congr (c : Dev nD) (n m : ℕ) (hn : n < cfg2.N) (hm : m < cfg2.N) (e : m = n) : acc2 V c m hm = acc2 V c n hn := by
  subst e; rfl

/-- At a half's last tile the running losses are the half's weighted losses. -/
theorem acc2_at_last (c : Dev nD) (t : Fin cfg2.N) (h6 : t.val % 7 = 6) (hq : t.val / 7 < 2) :
    (acc2 V c t.val t.isLt).1 (ix2 (0 : Fin 1) (0 : Fin 1)) = halfLoss V (feat0 V c) c ⟨t.val / 7, hq⟩
    ∧ (acc2 V c t.val t.isLt).2 (ix2 (0 : Fin 1) (0 : Fin 1)) = halfLoss V (feat1 V c) c ⟨t.val / 7, hq⟩ := by
  have e : 7 * (t.val / 7) + 6 = t.val := by omega
  have hm : 7 * (t.val / 7) + 6 < cfg2.N := lt_of_eq_of_lt e t.isLt
  have key := acc2_sum V c ⟨t.val / 7, hq⟩ 6 (by decide) hm
  rw [acc2_congr V c t.val (7 * (t.val / 7) + 6) t.isLt hm e] at key
  unfold tileLoss at key
  rw [sum_tiles7 (fun n => Cert.Spec.ceK (feat0 V c) (cents V c) (labs V c) n * wts V c n) ⟨t.val / 7, hq⟩,
    sum_tiles7 (fun n => Cert.Spec.ceK (feat1 V c) (cents V c) (labs V c) n * wts V c n) ⟨t.val / 7, hq⟩] at key
  exact key

/-! ## The first output array -/

theorem mem_blk5 (t : Fin cfg2.N) (i : S2x1x1.Idx) :
    i ∈ ((cfg2.win 5).blk t).view.set ↔ ∀ a : Fin 3, win2_5.index t a * S1x1x1.size a ≤ (i a).val ∧ (i a).val < win2_5.index t a * S1x1x1.size a + S1x1x1.size a := by
  show i ∈ ((View.whole main_v10_0).slice (win2_5.rect t)).set ↔ _
  rw [View.set_slice_whole, Rect.mem_set_unit]
  exact Iff.rfl

/-- WHAT A HALF'S LAST TILE WRITES BACK is its block of the closed form. -/
theorem flushed5_eq (c : Dev nD) (t : Fin cfg2.N) (hf : (cfg2.win 5).flush t = true) :
    (dat2 V c).flushed 5 t = ((cfg2.win 5).blk t).view.read (Elt Ideal) (lossArr V (feat0 V c) c) := by
  have h6 : t.val % 7 = 6 := (flush2_5 t).mp hf
  have ht : t.val < 14 := lt_of_lt_of_eq t.isLt N_2
  have hq : t.val / 7 < 2 := by omega
  obtain ⟨-, -, -, -, -, -, -, -, -, -, e0, -⟩ := idx_facts2 t
  funext y
  show (cfg2.win 5).cut (cfg2.grid.coords t) ((dat2 V c).after 5 t) y = lossArr V (feat0 V c) c (((cfg2.win 5).blk t).view.emb y)
  rw [after2_5]
  refine (loss_pay2_apply _ _).trans ((acc2_at_last V c t h6 hq).1.trans ?_)
  have hy : (y 0).val < 1 := (y 0).isLt
  unfold lossArr
  refine congrArg (halfLoss V (feat0 V c) c) (Fin.ext ?_)
  show t.val / 7 = win2_5.index t (0 : Fin 3) * 1 + 1 * (y 0).val
  omega

/-! ## The second output array -/

theorem mem_blk6 (t : Fin cfg2.N) (i : S2x1x1.Idx) :
    i ∈ ((cfg2.win 6).blk t).view.set ↔ ∀ a : Fin 3, win2_6.index t a * S1x1x1.size a ≤ (i a).val ∧ (i a).val < win2_6.index t a * S1x1x1.size a + S1x1x1.size a := by
  show i ∈ ((View.whole main_v10_1).slice (win2_6.rect t)).set ↔ _
  rw [View.set_slice_whole, Rect.mem_set_unit]
  exact Iff.rfl

theorem flushed6_eq (c : Dev nD) (t : Fin cfg2.N) (hf : (cfg2.win 6).flush t = true) :
    (dat2 V c).flushed 6 t = ((cfg2.win 6).blk t).view.read (Elt Ideal) (lossArr V (feat1 V c) c) := by
  have h6 : t.val % 7 = 6 := (flush2_6 t).mp hf
  have ht : t.val < 14 := lt_of_lt_of_eq t.isLt N_2
  have hq : t.val / 7 < 2 := by omega
  obtain ⟨-, -, -, -, -, -, -, -, -, -, -, -, -, e0, -⟩ := idx_facts2 t
  funext y
  show (cfg2.win 6).cut (cfg2.grid.coords t) ((dat2 V c).after 6 t) y = lossArr V (feat1 V c) c (((cfg2.win 6).blk t).view.emb y)
  rw [after2_6]
  refine (loss_pay3_apply _ _).trans ((acc2_at_last V c t h6 hq).2.trans ?_)
  have hy : (y 0).val < 1 := (y 0).isLt
  unfold lossArr
  refine congrArg (halfLoss V (feat1 V c) c) (Fin.ext ?_)
  show t.val / 7 = win2_6.index t (0 : Fin 3) * 1 + 1 * (y 0).val
  omega

/-- THE WEIGHTED LOSS of half `q` against the first feature array: entry (q, 0, 0) of the first output array. -/
theorem loss2_first (c : Dev nD) (q : Fin 2) :
    (dat2 V c).arrAt 5 cfg2.N (ix3 q (0 : Fin 1) (0 : Fin 1))
      = ∑ n : Fin 12544, Cert.Spec.ceK (fun n d => V c main_arg0 (ix2 n d)) (fun k d => V c main_v9 (ix2 k d)) (fun n => V c main_v0 (ix2 n (0 : Fin 1))) (Cert.Spec.half q n)
          * V c main_v2 (ix2 (Cert.Spec.half q n) (0 : Fin 1)) := by
  have hq := q.isLt
  have hn : 7 * q.val + 6 < cfg2.N := by rw [show cfg2.N = 14 from N_2]; omega
  have hf : (cfg2.win 5).flush ⟨7 * q.val + 6, hn⟩ = true := (flush2_5 ⟨7 * q.val + 6, hn⟩).mpr (by show (7 * q.val + 6) % 7 = 6; omega)
  have hmem : ix3 q (0 : Fin 1) (0 : Fin 1) ∈ ((cfg2.win 5).blk ⟨7 * q.val + 6, hn⟩).view.set := by
    rw [mem_blk5]
    obtain ⟨-, -, -, -, -, -, -, -, -, -, e0, e1, e2, -⟩ := idx_facts2 ⟨7 * q.val + 6, hn⟩
    have e0' : win2_5.index ⟨7 * q.val + 6, hn⟩ (0 : Fin 3) = (7 * q.val + 6) / 7 := e0
    intro a
    match a with
    | ⟨0, _⟩ => show win2_5.index ⟨7 * q.val + 6, hn⟩ (0 : Fin 3) * 1 ≤ q.val ∧ q.val < win2_5.index ⟨7 * q.val + 6, hn⟩ (0 : Fin 3) * 1 + 1; omega
    | ⟨1, _⟩ => show win2_5.index ⟨7 * q.val + 6, hn⟩ (1 : Fin 3) * 1 ≤ 0 ∧ 0 < win2_5.index ⟨7 * q.val + 6, hn⟩ (1 : Fin 3) * 1 + 1; omega
    | ⟨2, _⟩ => show win2_5.index ⟨7 * q.val + 6, hn⟩ (2 : Fin 3) * 1 ≤ 0 ∧ 0 < win2_5.index ⟨7 * q.val + 6, hn⟩ (2 : Fin 3) * 1 + 1; omega
  exact (dat2 V c).arrAt_apply_of_mem 5 (lossArr V (feat0 V c) c) (fun t hf => flushed5_eq V c t hf) cfg2.N ⟨7 * q.val + 6, hn⟩
    (ix3 q (0 : Fin 1) (0 : Fin 1)) hn hf hmem

/-- THE WEIGHTED LOSS of half `q` against the second feature array: entry (q, 0, 0) of the second output array. -/
theorem loss2_second (c : Dev nD) (q : Fin 2) :
    (dat2 V c).arrAt 6 cfg2.N (ix3 q (0 : Fin 1) (0 : Fin 1))
      = ∑ n : Fin 12544, Cert.Spec.ceK (fun n d => V c main_arg1 (ix2 n d)) (fun k d => V c main_v9 (ix2 k d)) (fun n => V c main_v0 (ix2 n (0 : Fin 1))) (Cert.Spec.half q n)
          * V c main_v2 (ix2 (Cert.Spec.half q n) (0 : Fin 1)) := by
  have hq := q.isLt
  have hn : 7 * q.val + 6 < cfg2.N := by rw [show cfg2.N = 14 from N_2]; omega
  have hf : (cfg2.win 6).flush ⟨7 * q.val + 6, hn⟩ = true := (flush2_6 ⟨7 * q.val + 6, hn⟩).mpr (by show (7 * q.val + 6) % 7 = 6; omega)
  have hmem : ix3 q (0 : Fin 1) (0 : Fin 1) ∈ ((cfg2.win 6).blk ⟨7 * q.val + 6, hn⟩).view.set := by
    rw [mem_blk6]
    obtain ⟨-, -, -, -, -, -, -, -, -, -, -, -, -, e0, e1, e2⟩ := idx_facts2 ⟨7 * q.val + 6, hn⟩
    have e0' : win2_6.index ⟨7 * q.val + 6, hn⟩ (0 : Fin 3) = (7 * q.val + 6) / 7 := e0
    intro a
    match a with
    | ⟨0, _⟩ => show win2_6.index ⟨7 * q.val + 6, hn⟩ (0 : Fin 3) * 1 ≤ q.val ∧ q.val < win2_6.index ⟨7 * q.val + 6, hn⟩ (0 : Fin 3) * 1 + 1; omega
    | ⟨1, _⟩ => show win2_6.index ⟨7 * q.val + 6, hn⟩ (1 : Fin 3) * 1 ≤ 0 ∧ 0 < win2_6.index ⟨7 * q.val + 6, hn⟩ (1 : Fin 3) * 1 + 1; omega
    | ⟨2, _⟩ => show win2_6.index ⟨7 * q.val + 6, hn⟩ (2 : Fin 3) * 1 ≤ 0 ∧ 0 < win2_6.index ⟨7 * q.val + 6, hn⟩ (2 : Fin 3) * 1 + 1; omega
  exact (dat2 V c).arrAt_apply_of_mem 6 (lossArr V (feat1 V c) c) (fun t hf => flushed6_eq V c t hf) cfg2.N ⟨7 * q.val + 6, hn⟩
    (ix3 q (0 : Fin 1) (0 : Fin 1)) hn hf hmem

end Cert.KernelIdeal.Gen

end
-- ==== Proof.KernelIdeal.KernelVal.lean ====
/-
  THE KERNEL PROGRAM'S RESULT as a function of its arguments, at the extended reals. The buffers each region reads are
  traced back through the fold of the run to the argument arrays (a host reshape re-indexes row-major; a region leaves
  every buffer that is no output of its own as it found it); the regions' output arrays are the region modules' closed
  forms; the host stretches between them add the two halves' slots, form the centroids and the final average. Together:
  the returned scalar is `Cert.Spec.totalK` of the argument arrays.
-/
import proofs.«421000_j23381801959614_3_alg».proof.Proof.KernelIdeal.Run
import proofs.«421000_j23381801959614_3_alg».proof.Proof.KernelIdeal.Region0Val
import proofs.«421000_j23381801959614_3_alg».proof.Proof.KernelIdeal.Region1Val
import proofs.«421000_j23381801959614_3_alg».proof.Proof.KernelIdeal.Region2Val
import proofs.«421000_j23381801959614_3_alg».proof.Proof.Spec
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## The argument arrays as rows -/

/-- The two feature arrays, the label words and the similarity matrix's rows on core `c`. -/
abbrev X1 (c : Dev nD) : Fin 25088 → Fin 512 → EReal := fun n d => m ((c : Thread nD τ).loc main_arg0) (ix2 n d)
abbrev X2 (c : Dev nD) : Fin 25088 → Fin 512 → EReal := fun n d => m ((c : Thread nD τ).loc main_arg1) (ix2 n d)
abbrev Lb (c : Dev nD) : Fin 25088 → BitVec 32 := fun n => m ((c : Thread nD τ).loc main_arg2) (ix1 n)
abbrev Sm (c : Dev nD) : Fin 25088 → Fin 3136 → EReal := Cert.Spec.simRow (m ((c : Thread nD τ).loc main_arg3))

/-! ## What the first host stretch writes: two reshapes -/

/-- The similarity matrix reshaped to 25088 rows: row `n` is its row (n / 3136, n % 3136). -/
theorem wv1_main_v1 (c : Dev nD) (n : Fin 25088) (j : Fin 3136) :
    Wv1 m ρ c (Proc.devRef .tc main_v1) (ix2 n j) = Sm m c n j := by
  have e : (Wv1 m ρ c (Proc.devRef .tc main_v1) : S25088x3136.Idx → EReal)
      = shapeCast S25088x3136 (m ((c : Thread nD τ).loc main_arg3)) shapeCasts_S8x3136x3136_S25088x3136 := by
    show StableHlo.after hostOps0 (Wv0 m ρ c) (Proc.devRef .tc main_v1) = _
    after_results <;> rfl
  refine (congrFun e (ix2 n j)).trans ?_
  unfold Sm Cert.Spec.simRow
  refine shapeCast_apply _ _ _ _ ?_
  show ((⟨3, ![8, 3136, 3136]⟩ : Shape).rowMajor (ix3 (⟨n.val / 3136, _⟩ : Fin 8) (⟨n.val % 3136, _⟩ : Fin 3136) j)).val
      = ((⟨2, ![25088, 3136]⟩ : Shape).rowMajor (ix2 n j)).val
  rw [Shape.rowMajor_val_three, Shape.rowMajor_val_two]
  show (n.val / 3136 * 3136 + n.val % 3136) * 3136 + j.val = n.val * 3136 + j.val
  rw [Nat.div_add_mod']

/-- The labels reshaped to a column: entry (n, 0) is label `n`. -/
theorem wv1_main_v0 (c : Dev nD) (n : Fin 25088) :
    Wv1 m ρ c (Proc.devRef .tc main_v0) (ix2 n (0 : Fin 1)) = Lb m c n := by
  have e : (Wv1 m ρ c (Proc.devRef .tc main_v0) : S25088x1.Idx → BitVec 32)
      = shapeCast S25088x1 (m ((c : Thread nD τ).loc main_arg2)) shapeCasts_S25088_S25088x1 := by
    show StableHlo.after hostOps0 (Wv0 m ρ c) (Proc.devRef .tc main_v0) = _
    after_results <;> rfl
  refine (congrFun e (ix2 n (0 : Fin 1))).trans ?_
  refine shapeCast_apply _ _ _ _ ?_
  show ((⟨1, ![25088]⟩ : Shape).rowMajor (ix1 n)).val = ((⟨2, ![25088, 1]⟩ : Shape).rowMajor (ix2 n (0 : Fin 1))).val
  rw [Shape.rowMajor_val_one, Shape.rowMajor_val_two]
  show n.val = n.val * 1 + 0
  omega

/-! ## What each region finds in the buffers it reads -/

theorem en1_main_arg0 (c : Dev nD) : En1 m ρ c main_arg0 = m ((c : Thread nD τ).loc main_arg0) :=
  calc Wv2 m ρ c (Proc.devRef .tc main_arg0)
    _ = Wv1 m ρ c (Proc.devRef .tc main_arg0) := Wv2_of_ne m ρ c main_arg0 (by decide)
    _ = Wv0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem en1_main_v0 (c : Dev nD) : En1 m ρ c main_v0 = Wv1 m ρ c (Proc.devRef .tc main_v0) :=
  Wv2_of_ne m ρ c main_v0 (by decide)

theorem wv4_main_arg0 (c : Dev nD) : Wv4 m ρ c (Proc.devRef .tc main_arg0) = m ((c : Thread nD τ).loc main_arg0) :=
  calc Wv4 m ρ c (Proc.devRef .tc main_arg0)
    _ = Wv3 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wv2 m ρ c (Proc.devRef .tc main_arg0) := (Wv3_arr m ρ c 0).trans (((dat1 (En1 m ρ) c).arrAt_in 0 rfl _).trans (A_eq1 (En1 m ρ) c 0))
    _ = m ((c : Thread nD τ).loc main_arg0) := en1_main_arg0 m ρ c

theorem wv4_main_arg1 (c : Dev nD) : Wv4 m ρ c (Proc.devRef .tc main_arg1) = m ((c : Thread nD τ).loc main_arg1) :=
  calc Wv4 m ρ c (Proc.devRef .tc main_arg1)
    _ = Wv3 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wv2 m ρ c (Proc.devRef .tc main_arg1) := Wv3_of_ne m ρ c main_arg1 (by decide)
    _ = Wv1 m ρ c (Proc.devRef .tc main_arg1) := Wv2_of_ne m ρ c main_arg1 (by decide)
    _ = Wv0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem wv4_main_v0 (c : Dev nD) : Wv4 m ρ c (Proc.devRef .tc main_v0) = Wv1 m ρ c (Proc.devRef .tc main_v0) :=
  calc Wv4 m ρ c (Proc.devRef .tc main_v0)
    _ = Wv3 m ρ c (Proc.devRef .tc main_v0) := StableHlo.after_of_forall_not_mem (b := Proc.devRef .tc main_v0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wv2 m ρ c (Proc.devRef .tc main_v0) := (Wv3_arr m ρ c 1).trans (((dat1 (En1 m ρ) c).arrAt_in 1 rfl _).trans (A_eq1 (En1 m ρ) c 1))
    _ = Wv1 m ρ c (Proc.devRef .tc main_v0) := en1_main_v0 m ρ c

theorem wv4_main_v2 (c : Dev nD) : Wv4 m ρ c (Proc.devRef .tc main_v2) = (dat0 (En0 m ρ) c).arrAt 1 cfg0.N :=
  calc Wv4 m ρ c (Proc.devRef .tc main_v2)
    _ = Wv3 m ρ c (Proc.devRef .tc main_v2) := StableHlo.after_of_forall_not_mem (b := Proc.devRef .tc main_v2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wv2 m ρ c (Proc.devRef .tc main_v2) := Wv3_of_ne m ρ c main_v2 (by decide)
    _ = (dat0 (En0 m ρ) c).arrAt 1 cfg0.N := Wv2_arr m ρ c 1

/-! ## Region 1's outputs, and the second host stretch: the centroids -/

/-- The class sums of half `q`, in the argument arrays. -/
theorem wv3_main_v3_0 (c : Dev nD) (q : Fin 2) (k : Fin 27) (d : Fin 512) :
    Wv3 m ρ c (Proc.devRef .tc main_v3_0) (ix3 q k d)
      = ∑ n : Fin 12544, Cert.Spec.hot (Lb m c (Cert.Spec.half q n)) k * X1 m c (Cert.Spec.half q n) d := by
  have h0 : ∀ n : Fin 12544, En1 m ρ c main_v0 (ix2 (Cert.Spec.half q n) (0 : Fin 1)) = Lb m c (Cert.Spec.half q n) := fun n =>
    (congrFun (en1_main_v0 m ρ c) _).trans (wv1_main_v0 m ρ c _)
  have h1 : ∀ n : Fin 12544, En1 m ρ c main_arg0 (ix2 (Cert.Spec.half q n) d) = X1 m c (Cert.Spec.half q n) d := fun n =>
    congrFun (en1_main_arg0 m ρ c) _
  have hsum : (∑ n : Fin 12544, Cert.Spec.hot (En1 m ρ c main_v0 (ix2 (Cert.Spec.half q n) (0 : Fin 1))) k * En1 m ρ c main_arg0 (ix2 (Cert.Spec.half q n) d) : EReal)
      = ∑ n : Fin 12544, Cert.Spec.hot (Lb m c (Cert.Spec.half q n)) k * X1 m c (Cert.Spec.half q n) d :=
    Finset.sum_congr rfl fun n _ => by rw [h0 n, h1 n]
  exact (congrFun (Wv3_arr m ρ c 2) (ix3 q k d)).trans ((sums1 (En1 m ρ) c q k d).trans hsum)

/-- The class counts of half `q`, in the label words. -/
theorem wv3_main_v3_1 (c : Dev nD) (q : Fin 2) (k : Fin 27) :
    Wv3 m ρ c (Proc.devRef .tc main_v3_1) (ix3 q k (0 : Fin 1))
      = ∑ n : Fin 12544, Cert.Spec.hot (Lb m c (Cert.Spec.half q n)) k := by
  have h0 : ∀ n : Fin 12544, En1 m ρ c main_v0 (ix2 (Cert.Spec.half q n) (0 : Fin 1)) = Lb m c (Cert.Spec.half q n) := fun n =>
    (congrFun (en1_main_v0 m ρ c) _).trans (wv1_main_v0 m ρ c _)
  have hsum : (∑ n : Fin 12544, Cert.Spec.hot (En1 m ρ c main_v0 (ix2 (Cert.Spec.half q n) (0 : Fin 1))) k : EReal)
      = ∑ n : Fin 12544, Cert.Spec.hot (Lb m c (Cert.Spec.half q n)) k :=
    Finset.sum_congr rfl fun n _ => by rw [h0 n]
  exact (congrFun (Wv3_arr m ρ c 3) (ix3 q k (0 : Fin 1))).trans ((counts1 (En1 m ρ) c q k).trans hsum)

/-- The host's sum over the two slots of a [2, 27, 512] array from zero, read at (k, d). -/
theorem reduceAdd_slots_512 (A : S2x27x512.Idx → EReal) (k : Fin 27) (d : Fin 512) :
    Host.reduceAdd (F := Ideal) A (constant S_ .f32 0x00000000#32) reducesTo_S2x27x512_S27x512_d0 h_S_ (ix2 k d)
      = ∑ q : Fin 2, A (ix3 q k d) := by
  simp only [Host.reduceAdd, Ideal.hostReduceAdd_def]
  rw [Ideal.hostReduceAdd_single reducesTo_S2x27x512_S27x512_d0 (by decide)]
  rw [show (constant (F := Ideal) S_ .f32 0x00000000#32) (Shape.Idx.first h_S_) = 0 from Ideal.ofBits_zero_f32, zero_add]
  exact Finset.sum_congr rfl fun q _ => congrArg A (funext fun a => Fin.ext (by match a with | ⟨0, _⟩ => rfl | ⟨1, _⟩ => rfl | ⟨2, _⟩ => rfl))

/-- The same for a [2, 27, 1] array, read at (k, 0). -/
theorem reduceAdd_slots_1 (A : S2x27x1.Idx → EReal) (k : Fin 27) :
    Host.reduceAdd (F := Ideal) A (constant S_ .f32 0x00000000#32) reducesTo_S2x27x1_S27x1_d0 h_S_ (ix2 k (0 : Fin 1))
      = ∑ q : Fin 2, A (ix3 q k (0 : Fin 1)) := by
  simp only [Host.reduceAdd, Ideal.hostReduceAdd_def]
  rw [Ideal.hostReduceAdd_single reducesTo_S2x27x1_S27x1_d0 (by decide)]
  rw [show (constant (F := Ideal) S_ .f32 0x00000000#32) (Shape.Idx.first h_S_) = 0 from Ideal.ofBits_zero_f32, zero_add]
  exact Finset.sum_congr rfl fun q _ => congrArg A (funext fun a => Fin.ext (by match a with | ⟨0, _⟩ => rfl | ⟨1, _⟩ => rfl | ⟨2, _⟩ => rfl))

/-- THE CENTROIDS region 2 reads: the two halves' class sums added, over the larger of the added counts and one. -/
theorem wv4_main_v9 (c : Dev nD) (k : Fin 27) (d : Fin 512) :
    Wv4 m ρ c (Proc.devRef .tc main_v9) (ix2 k d) = Cert.Spec.centK (X1 m c) (Lb m c) k d := by
  have e : (Wv4 m ρ c (Proc.devRef .tc main_v9) : S27x512.Idx → EReal)
      = Host.divf (Host.reduceAdd (F := Ideal) (Wv3 m ρ c (Proc.devRef .tc main_v3_0)) (constant S_ .f32 0x00000000#32) reducesTo_S2x27x512_S27x512_d0 h_S_)
          (broadcastInDim S27x512 ![0, 1] bcast_S27x1_S27x512_0_1
            (maximumf (Host.reduceAdd (F := Ideal) (Wv3 m ρ c (Proc.devRef .tc main_v3_1)) (constant S_ .f32 0x00000000#32) reducesTo_S2x27x1_S27x1_d0 h_S_)
              (broadcastInDim S27x1 ![] bcast_S_S27x1 (constant (F := Ideal) S_ .f32 0x3F800000#32)))) := by
    show StableHlo.after hostOps2 (Wv3 m ρ c) (Proc.devRef .tc main_v9) = _
    after_results <;> rfl
  refine (congrFun e (ix2 k d)).trans ?_
  have hb := fun Y : S27x1.Idx → EReal =>
    broadcastInDim_apply _ bcast_S27x1_S27x512_0_1 Y (ix2 k d) (ix2 k (0 : Fin 1)) (fun a => match a with
      | ⟨0, _⟩ => by show k.val = if (27 : Nat) = 1 then 0 else k.val; rw [if_neg (by decide)]
      | ⟨1, _⟩ => by show 0 = if (1 : Nat) = 1 then 0 else d.val; rw [if_pos rfl])
  have hb1 := fun Z : S_.Idx → EReal =>
    broadcastInDim_apply _ bcast_S_S27x1 Z (ix2 k (0 : Fin 1)) ix0 (fun a => a.elim0)
  show Ideal.div (Host.reduceAdd (F := Ideal) (Wv3 m ρ c (Proc.devRef .tc main_v3_0)) (constant S_ .f32 0x00000000#32) reducesTo_S2x27x512_S27x512_d0 h_S_ (ix2 k d))
      (broadcastInDim _ _ bcast_S27x1_S27x512_0_1 _ (ix2 k d)) = _
  rw [hb, reduceAdd_slots_512]
  show Ideal.div _ (max (Host.reduceAdd (F := Ideal) (Wv3 m ρ c (Proc.devRef .tc main_v3_1)) (constant S_ .f32 0x00000000#32) reducesTo_S2x27x1_S27x1_d0 h_S_ (ix2 k (0 : Fin 1)))
      (broadcastInDim _ _ bcast_S_S27x1 (constant (F := Ideal) S_ .f32 0x3F800000#32) (ix2 k (0 : Fin 1)))) = _
  rw [hb1, reduceAdd_slots_1]
  unfold Cert.Spec.centK
  exact congrArg₂ Ideal.div (Finset.sum_congr rfl fun q _ => wv3_main_v3_0 m ρ c q k d)
    (congrArg₂ max (Finset.sum_congr rfl fun q _ => wv3_main_v3_1 m ρ c q k) rfl)

/-! ## Region 2's outputs, and the last host stretch -/

/-- What region 2 reads, as functions of rows: the arguments, the centroids, the labels, the weights. -/
theorem en2_x1 (c : Dev nD) : (fun (n : Fin 25088) (d : Fin 512) => En2 m ρ c main_arg0 (ix2 n d)) = X1 m c :=
  funext fun n => funext fun d => congrFun (wv4_main_arg0 m ρ c) _
theorem en2_x2 (c : Dev nD) : (fun (n : Fin 25088) (d : Fin 512) => En2 m ρ c main_arg1 (ix2 n d)) = X2 m c :=
  funext fun n => funext fun d => congrFun (wv4_main_arg1 m ρ c) _
theorem en2_cent (c : Dev nD) : (fun (k : Fin 27) (d : Fin 512) => En2 m ρ c main_v9 (ix2 k d)) = Cert.Spec.centK (X1 m c) (Lb m c) :=
  funext fun k => funext fun d => wv4_main_v9 m ρ c k d
theorem en2_lab (c : Dev nD) : (fun (n : Fin 25088) => En2 m ρ c main_v0 (ix2 n (0 : Fin 1))) = Lb m c :=
  funext fun n => (congrFun (wv4_main_v0 m ρ c) _).trans (wv1_main_v0 m ρ c n)
theorem en2_wgt (c : Dev nD) (n : Fin 25088) : En2 m ρ c main_v2 (ix2 n (0 : Fin 1)) = Cert.Spec.wgt (Sm m c) n := by
  refine (congrFun (wv4_main_v2 m ρ c) _).trans ((weights0 (En0 m ρ) c n).trans ?_)
  refine congrArg (fun s => Cert.Spec.wgt s n) ?_
  exact funext fun n' => funext fun j => wv1_main_v1 m ρ c n' j

/-- The weighted loss of half `q` against the first feature array, in the argument arrays. -/
theorem wv5_main_v10_0 (c : Dev nD) (q : Fin 2) :
    Wv5 m ρ c (Proc.devRef .tc main_v10_0) (ix3 q (0 : Fin 1) (0 : Fin 1))
      = ∑ n : Fin 12544, Cert.Spec.ceK (X1 m c) (Cert.Spec.centK (X1 m c) (Lb m c)) (Lb m c) (Cert.Spec.half q n) * Cert.Spec.wgt (Sm m c) (Cert.Spec.half q n) := by
  have hsum : (∑ n : Fin 12544, Cert.Spec.ceK (fun n d => En2 m ρ c main_arg0 (ix2 n d)) (fun k d => En2 m ρ c main_v9 (ix2 k d)) (fun n => En2 m ρ c main_v0 (ix2 n (0 : Fin 1))) (Cert.Spec.half q n)
        * En2 m ρ c main_v2 (ix2 (Cert.Spec.half q n) (0 : Fin 1)) : EReal)
      = ∑ n : Fin 12544, Cert.Spec.ceK (X1 m c) (Cert.Spec.centK (X1 m c) (Lb m c)) (Lb m c) (Cert.Spec.half q n) * Cert.Spec.wgt (Sm m c) (Cert.Spec.half q n) := by
    rw [en2_x1, en2_cent, en2_lab]
    exact Finset.sum_congr rfl fun n _ => by rw [en2_wgt]
  exact (congrFun (Wv5_arr m ρ c 5) (ix3 q (0 : Fin 1) (0 : Fin 1))).trans ((loss2_first (En2 m ρ) c q).trans hsum)

/-- The same against the second feature array. -/
theorem wv5_main_v10_1 (c : Dev nD) (q : Fin 2) :
    Wv5 m ρ c (Proc.devRef .tc main_v10_1) (ix3 q (0 : Fin 1) (0 : Fin 1))
      = ∑ n : Fin 12544, Cert.Spec.ceK (X2 m c) (Cert.Spec.centK (X1 m c) (Lb m c)) (Lb m c) (Cert.Spec.half q n) * Cert.Spec.wgt (Sm m c) (Cert.Spec.half q n) := by
  have hsum : (∑ n : Fin 12544, Cert.Spec.ceK (fun n d => En2 m ρ c main_arg1 (ix2 n d)) (fun k d => En2 m ρ c main_v9 (ix2 k d)) (fun n => En2 m ρ c main_v0 (ix2 n (0 : Fin 1))) (Cert.Spec.half q n)
        * En2 m ρ c main_v2 (ix2 (Cert.Spec.half q n) (0 : Fin 1)) : EReal)
      = ∑ n : Fin 12544, Cert.Spec.ceK (X2 m c) (Cert.Spec.centK (X1 m c) (Lb m c)) (Lb m c) (Cert.Spec.half q n) * Cert.Spec.wgt (Sm m c) (Cert.Spec.half q n) := by
    rw [en2_x2, en2_cent, en2_lab]
    exact Finset.sum_congr rfl fun n _ => by rw [en2_wgt]
  exact (congrFun (Wv5_arr m ρ c 6) (ix3 q (0 : Fin 1) (0 : Fin 1))).trans ((loss2_second (En2 m ρ) c q).trans hsum)

/-- The indices of a [2, 1, 1] array are its two slots. -/
def slotEquiv : S2x1x1.Idx ≃ Fin 2 where
  toFun j := j 0
  invFun q := ix3 q (0 : Fin 1) (0 : Fin 1)
  left_inv j := by
    funext a
    match a with
    | ⟨0, _⟩ => rfl
    | ⟨1, _⟩ => exact Fin.ext (by have h : (j (1 : Fin 3)).val < 1 := (j (1 : Fin 3)).isLt; show (0 : ℕ) = (j (1 : Fin 3)).val; omega)
    | ⟨2, _⟩ => exact Fin.ext (by have h : (j (2 : Fin 3)).val < 1 := (j (2 : Fin 3)).isLt; show (0 : ℕ) = (j (2 : Fin 3)).val; omega)
  right_inv q := rfl

/-- The host's sum over every entry of a [2, 1, 1] array from zero is the sum over its two slots. -/
theorem reduceAdd_slots_total (A : S2x1x1.Idx → EReal) (i : S_.Idx) :
    Host.reduceAdd (F := Ideal) A (constant S_ .f32 0x00000000#32) reducesTo_S2x1x1_S_d0_1_2 h_S_ i
      = ∑ q : Fin 2, A (ix3 q (0 : Fin 1) (0 : Fin 1)) := by
  simp only [Host.reduceAdd, Ideal.hostReduceAdd_def]
  rw [Ideal.hostReduceAdd_total reducesTo_S2x1x1_S_d0_1_2 (fun b => b.elim0) A _ i]
  rw [show (constant (F := Ideal) S_ .f32 0x00000000#32) (Shape.Idx.first h_S_) = 0 from Ideal.ofBits_zero_f32, zero_add]
  exact (Fintype.sum_equiv slotEquiv.symm (fun q => A (ix3 q (0 : Fin 1) (0 : Fin 1))) A (fun q => rfl)).symm

/-- THE RESULT: the returned scalar is the kernel's arrangement of the loss of the argument arrays. -/
theorem result_eq (c : Dev nD) :
    Wv6 m ρ c (Proc.devRef .tc main_v18) = fun _ => Cert.Spec.totalK (X1 m c) (X2 m c) (Lb m c) (Sm m c) := by
  have e : (Wv6 m ρ c (Proc.devRef .tc main_v18) : S_.Idx → EReal)
      = Host.divf (addf (mulf (constant (F := Ideal) S_ .f32 0x3F000000#32)
            (Host.divf (Host.reduceAdd (F := Ideal) (Wv5 m ρ c (Proc.devRef .tc main_v10_0)) (constant S_ .f32 0x00000000#32) reducesTo_S2x1x1_S_d0_1_2 h_S_) (constant (F := Ideal) S_ .f32 0x46C40000#32)))
          (mulf (constant (F := Ideal) S_ .f32 0x3F000000#32)
            (Host.divf (Host.reduceAdd (F := Ideal) (Wv5 m ρ c (Proc.devRef .tc main_v10_1)) (constant S_ .f32 0x00000000#32) reducesTo_S2x1x1_S_d0_1_2 h_S_) (constant (F := Ideal) S_ .f32 0x46C40000#32))))
        (constant (F := Ideal) S_ .f32 0x40000000#32) := by
    show StableHlo.after hostOps3 (Wv5 m ρ c) (Proc.devRef .tc main_v18) = _
    after_results <;> rfl
  refine e.trans (funext fun i => ?_)
  show Ideal.div (Cert.Spec.cHalf * Ideal.div (Host.reduceAdd (F := Ideal) (Wv5 m ρ c (Proc.devRef .tc main_v10_0)) (constant S_ .f32 0x00000000#32) reducesTo_S2x1x1_S_d0_1_2 h_S_ i) Cert.Spec.cRows
      + Cert.Spec.cHalf * Ideal.div (Host.reduceAdd (F := Ideal) (Wv5 m ρ c (Proc.devRef .tc main_v10_1)) (constant S_ .f32 0x00000000#32) reducesTo_S2x1x1_S_d0_1_2 h_S_ i) Cert.Spec.cRows) Cert.Spec.cTwo = _
  have s0 : Host.reduceAdd (F := Ideal) (Wv5 m ρ c (Proc.devRef .tc main_v10_0)) (constant S_ .f32 0x00000000#32) reducesTo_S2x1x1_S_d0_1_2 h_S_ i
      = ∑ q : Fin 2, ∑ n : Fin 12544, Cert.Spec.ceK (X1 m c) (Cert.Spec.centK (X1 m c) (Lb m c)) (Lb m c) (Cert.Spec.half q n) * Cert.Spec.wgt (Sm m c) (Cert.Spec.half q n) :=
    (reduceAdd_slots_total _ i).trans (Finset.sum_congr rfl fun q _ => wv5_main_v10_0 m ρ c q)
  have s1 : Host.reduceAdd (F := Ideal) (Wv5 m ρ c (Proc.devRef .tc main_v10_1)) (constant S_ .f32 0x00000000#32) reducesTo_S2x1x1_S_d0_1_2 h_S_ i
      = ∑ q : Fin 2, ∑ n : Fin 12544, Cert.Spec.ceK (X2 m c) (Cert.Spec.centK (X1 m c) (Lb m c)) (Lb m c) (Cert.Spec.half q n) * Cert.Spec.wgt (Sm m c) (Cert.Spec.half q n) :=
    (reduceAdd_slots_total _ i).trans (Finset.sum_congr rfl fun q _ => wv5_main_v10_1 m ρ c q)
  rw [s0, s1]
  rfl

end Cert.KernelIdeal.Gen

end
-- ==== Proof.Ref.ReadEq.lean ====
/-
  The reference's run meets its stages. The run module states the result buffer of @main at the composed term of all 127
  host operations over the four arguments' launch contents; the Read module names the same value as a chain of stages,
  one definition per operation, each stage the operation applied to its operands' stages. Unfolded, the stages are that
  term, operation by operation.
-/
import proofs.«421000_j23381801959614_3_alg».proof.Proof.Ref.Run
import proofs.«421000_j23381801959614_3_alg».proof.Proof.Ref.Read

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce

/-- The composed term the run states for main_v41 is the last stage, at the four arguments' launch contents. -/
theorem val_main_v41_eq (m : (ℓ : Loc nD τ sig) → Buf (Elt F) ℓ) (c : Dev nD) :
    Cert.ReferenceIdeal.ValueP.res_main_v41 m c = Cert.ReferenceIdeal.ReadP.val_main_v41 (F := F) (m ((c.tc : Thread nD τ).loc main_arg0)) (m ((c.tc : Thread nD τ).loc main_arg1)) (m ((c.tc : Thread nD τ).loc main_arg2)) (m ((c.tc : Thread nD τ).loc main_arg3)) := by
  unfold Cert.ReferenceIdeal.ValueP.res_main_v41; rfl

end Cert.ReferenceIdeal.ReadP

end
-- ==== Proof.Ref.Scatter.lean ====
/-
  The two accumulating scatters of the reference, read at an index at the extended reals: an update lands on the
  class its row's label word names (read signed), so a class's element is its old value plus the sum, over the rows,
  of the update where the word is the class and zero elsewhere.
-/
import proofs.«421000_j23381801959614_3_alg».proof.Proof.Ref.Read

noncomputable section

namespace Cert.ReferenceIdeal.RefHand

open Cert.ReferenceIdeal Cert.ReferenceIdeal.Gen Idealize.ShloMosaic Idealize.ShloMosaic.ValueIdx

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Row `n`'s update of the count scatter lands on class `i` exactly when the row's label word, read signed, is `i`. -/
theorem resultIdx_counts (idx : IVec S25088x1 32) (n : Fin 25088) (i : S27.Idx) :
    scatter_S27_S25088x1_S25088_n_0_0_1.resultIdx? (ix1 n) idx = some i
      ↔ (idx (ix2 n 0)).toInt = ((i 0).val : Int) := by
  have hs : scatter_S27_S25088x1_S25088_n_0_0_1.start (ix1 n) idx 0 = (idx (ix2 n 0)).toInt := by
    unfold ScatterDims.start
    rw [dif_pos (show (0 : Fin S27.rank) ∈ scatter_S27_S25088x1_S25088_n_0_0_1.scatterDimsToOperandDims from
      List.mem_singleton.mpr rfl)]
    refine congrArg (fun q => (idx q).toInt) (funext fun b => Fin.ext ?_)
    match b with
    | ⟨0, _⟩ => rfl
    | ⟨1, _⟩ => rfl
  have hw : scatter_S27_S25088x1_S25088_n_0_0_1.window (ix1 n) 0 = 0 := by
    unfold ScatterDims.window
    rw [dif_neg (by decide)]
  have hi : (i 0).val < 27 := (i 0).isLt
  constructor
  · intro h
    unfold ScatterDims.resultIdx? at h
    split at h
    · rename_i hc
      have h0 := congrArg (fun f : S27.Idx => ((f 0).val : Int)) (Option.some.inj h)
      have hc0 := (hc 0).1
      simp only [hs, hw] at h0 hc0
      omega
    · exact absurd h (by simp)
  · intro h
    unfold ScatterDims.resultIdx?
    have hc : ∀ a, 0 ≤ scatter_S27_S25088x1_S25088_n_0_0_1.start (ix1 n) idx a + scatter_S27_S25088x1_S25088_n_0_0_1.window (ix1 n) a
        ∧ scatter_S27_S25088x1_S25088_n_0_0_1.start (ix1 n) idx a + scatter_S27_S25088x1_S25088_n_0_0_1.window (ix1 n) a < S27.size a := by
      intro a
      obtain rfl : a = 0 := Subsingleton.elim _ _
      rw [hs, hw, h]
      show (0 : Int) ≤ ((i 0).val : Int) + ((0 : Nat) : Int) ∧ ((i 0).val : Int) + ((0 : Nat) : Int) < ((27 : Nat) : Int)
      omega
    rw [dif_pos hc]
    refine congrArg some (funext fun a => Fin.ext ?_)
    obtain rfl : a = 0 := Subsingleton.elim _ _
    show (scatter_S27_S25088x1_S25088_n_0_0_1.start (ix1 n) idx 0 + scatter_S27_S25088x1_S25088_n_0_0_1.window (ix1 n) 0).toNat = (i 0).val
    rw [hs, hw, h]
    omega

/-- Element `(n, d')` of the class-sum scatter's updates lands on `(k, d)` exactly when row `n`'s label word, read
    signed, is `k` and the feature is the same. -/
theorem resultIdx_sums (idx : IVec S25088x1 32) (n : Fin 25088) (d' : Fin 512) (k : Fin 27) (d : Fin 512) :
    scatter_S27x512_S25088x1_S25088x512_1_0_0_1.resultIdx? (ix2 n d') idx = some (ix2 k d)
      ↔ ((idx (ix2 n 0)).toInt = (k.val : Int) ∧ d' = d) := by
  have hs0 : scatter_S27x512_S25088x1_S25088x512_1_0_0_1.start (ix2 n d') idx 0 = (idx (ix2 n 0)).toInt := by
    unfold ScatterDims.start
    rw [dif_pos (show (0 : Fin S27x512.rank) ∈ scatter_S27x512_S25088x1_S25088x512_1_0_0_1.scatterDimsToOperandDims from
      List.mem_singleton.mpr rfl)]
    refine congrArg (fun q => (idx q).toInt) (funext fun b => Fin.ext ?_)
    match b with
    | ⟨0, _⟩ => rfl
    | ⟨1, _⟩ => rfl
  have hs1 : scatter_S27x512_S25088x1_S25088x512_1_0_0_1.start (ix2 n d') idx 1 = 0 := by
    unfold ScatterDims.start
    rw [dif_neg (by decide)]
  have hw0 : scatter_S27x512_S25088x1_S25088x512_1_0_0_1.window (ix2 n d') 0 = 0 := by
    unfold ScatterDims.window
    rw [dif_neg (by decide)]
  have hw1 : scatter_S27x512_S25088x1_S25088x512_1_0_0_1.window (ix2 n d') 1 = d'.val := by
    unfold ScatterDims.window
    rw [dif_pos (by decide)]
    rfl
  have hk : k.val < 27 := k.isLt
  have hd : d.val < 512 := d.isLt
  have hd' : d'.val < 512 := d'.isLt
  constructor
  · intro h
    unfold ScatterDims.resultIdx? at h
    split at h
    · rename_i hc
      have h0 := congrArg (fun f : S27x512.Idx => ((f 0).val : Int)) (Option.some.inj h)
      have h1 := congrArg (fun f : S27x512.Idx => ((f 1).val : Int)) (Option.some.inj h)
      have hc0 := (hc 0).1
      simp only [hs0, hw0] at h0 hc0
      simp only [hs1, hw1] at h1
      have e0 : ((ix2 k d : S27x512.Idx) 0).val = k.val := rfl
      have e1 : ((ix2 k d : S27x512.Idx) 1).val = d.val := rfl
      rw [e0] at h0
      rw [e1] at h1
      exact ⟨by omega, Fin.ext (by omega)⟩
    · exact absurd h (by simp)
  · rintro ⟨h, rfl⟩
    unfold ScatterDims.resultIdx?
    have key0 : 0 ≤ scatter_S27x512_S25088x1_S25088x512_1_0_0_1.start (ix2 n d') idx 0 + scatter_S27x512_S25088x1_S25088x512_1_0_0_1.window (ix2 n d') 0
        ∧ scatter_S27x512_S25088x1_S25088x512_1_0_0_1.start (ix2 n d') idx 0 + scatter_S27x512_S25088x1_S25088x512_1_0_0_1.window (ix2 n d') 0 < S27x512.size 0 := by
      rw [hs0, hw0, h]
      show (0 : Int) ≤ (k.val : Int) + ((0 : Nat) : Int) ∧ (k.val : Int) + ((0 : Nat) : Int) < ((27 : Nat) : Int)
      omega
    have key1 : 0 ≤ scatter_S27x512_S25088x1_S25088x512_1_0_0_1.start (ix2 n d') idx 1 + scatter_S27x512_S25088x1_S25088x512_1_0_0_1.window (ix2 n d') 1
        ∧ scatter_S27x512_S25088x1_S25088x512_1_0_0_1.start (ix2 n d') idx 1 + scatter_S27x512_S25088x1_S25088x512_1_0_0_1.window (ix2 n d') 1 < S27x512.size 1 := by
      rw [hs1, hw1]
      show (0 : Int) ≤ 0 + (d'.val : Int) ∧ 0 + (d'.val : Int) < ((512 : Nat) : Int)
      omega
    have hc : ∀ a, 0 ≤ scatter_S27x512_S25088x1_S25088x512_1_0_0_1.start (ix2 n d') idx a + scatter_S27x512_S25088x1_S25088x512_1_0_0_1.window (ix2 n d') a
        ∧ scatter_S27x512_S25088x1_S25088x512_1_0_0_1.start (ix2 n d') idx a + scatter_S27x512_S25088x1_S25088x512_1_0_0_1.window (ix2 n d') a < S27x512.size a := by
      intro a
      match a with
      | ⟨0, _⟩ => exact key0
      | ⟨1, _⟩ => exact key1
    rw [dif_pos hc]
    refine congrArg some (funext fun a => Fin.ext ?_)
    match a with
    | ⟨0, _⟩ =>
      show (scatter_S27x512_S25088x1_S25088x512_1_0_0_1.start (ix2 n d') idx 0 + scatter_S27x512_S25088x1_S25088x512_1_0_0_1.window (ix2 n d') 0).toNat = k.val
      rw [hs0, hw0, h]
      omega
    | ⟨1, _⟩ =>
      show (scatter_S27x512_S25088x1_S25088x512_1_0_0_1.start (ix2 n d') idx 1 + scatter_S27x512_S25088x1_S25088x512_1_0_0_1.window (ix2 n d') 1).toNat = d'.val
      rw [hs1, hw1]
      omega

/-- The count scatter at class `k`: the old value plus, over the rows, the update where the row's label word is `k`. -/
theorem scatterAdd_counts (x : FVec Ideal S27 .f32) (idx : IVec S25088x1 32) (upd : FVec Ideal S25088 .f32) (k : Fin 27) :
    Host.scatterAdd (F := Ideal) (φ := .f32) scatter_S27_S25088x1_S25088_n_0_0_1 x idx upd (ix1 k)
      = x (ix1 k) + ∑ n : Fin 25088, if (idx (ix2 n 0)).toInt = (k.val : Int) then upd (ix1 n) else 0 := by
  simp only [Host.scatterAdd, Ideal.hostScatterAdd_def]
  unfold Ideal.hostScatterAdd
  rw [Finset.sum_filter, sum_idx1]
  refine congrArg (x (ix1 k) + ·) (Finset.sum_congr rfl fun n _ => ?_)
  exact if_congr (resultIdx_counts idx n (ix1 k)) rfl rfl

/-- The class-sum scatter at `(k, d)`: the old value plus, over the rows, the row's feature `d` where its label word is `k`. -/
theorem scatterAdd_sums (x : FVec Ideal S27x512 .f32) (idx : IVec S25088x1 32) (upd : FVec Ideal S25088x512 .f32)
    (k : Fin 27) (d : Fin 512) :
    Host.scatterAdd (F := Ideal) (φ := .f32) scatter_S27x512_S25088x1_S25088x512_1_0_0_1 x idx upd (ix2 k d)
      = x (ix2 k d) + ∑ n : Fin 25088, if (idx (ix2 n 0)).toInt = (k.val : Int) then upd (ix2 n d) else 0 := by
  simp only [Host.scatterAdd, Ideal.hostScatterAdd_def]
  unfold Ideal.hostScatterAdd
  rw [Finset.sum_filter, sum_idx2]
  refine congrArg (x (ix2 k d) + ·) (Finset.sum_congr rfl fun n _ => ?_)
  have hterm : ∀ d' : Fin 512,
      (if scatter_S27x512_S25088x1_S25088x512_1_0_0_1.resultIdx? (ix2 n d') idx = some (ix2 k d) then upd (ix2 n d') else 0)
        = if d' = d then (if (idx (ix2 n 0)).toInt = (k.val : Int) then upd (ix2 n d) else 0) else 0 := by
    intro d'
    rw [if_congr (resultIdx_sums idx n d' k d) rfl rfl]
    by_cases hd : d' = d
    · subst hd
      simp only [and_true, if_true]
    · simp only [hd, and_false, if_false]
  rw [Finset.sum_congr rfl (fun d' _ => hterm d'), Finset.sum_ite_eq' Finset.univ d]
  simp only [Finset.mem_univ, if_true]

end Cert.ReferenceIdeal.RefHand

end
-- ==== Proof.Ref.Words.lean ====
/-
  The label words of the classes: for a class below 27, its 32-bit word is not negative, lies in the range the
  reference tests, reads back signed as the class, and clamps to itself.
-/
import proofs.«421000_j23381801959614_3_alg».proof.Proof.Ref.Read

noncomputable section

namespace Cert.ReferenceIdeal.RefHand

open Cert.ReferenceIdeal Idealize.ShloMosaic

/-- A class's word read signed is the class. -/
theorem toInt_class : ∀ l : Fin 27, (BitVec.ofNat 32 l.val).toInt = (l.val : Int) := by decide

/-- On a class's word the select on "negative" keeps the word. -/
theorem select_neg_class : ∀ l : Fin 27,
    Scalar.select (IntOp.cmpi .slt (BitVec.ofNat 32 l.val) 0#32) (IntOp.addi (BitVec.ofNat 32 l.val) 27#32)
      (BitVec.ofNat 32 l.val) = BitVec.ofNat 32 l.val := by decide

/-- On a class's word the range test `0 ≤ · ≤ 26`, conjoined with the true bit, is the true bit. -/
theorem range_class : ∀ l : Fin 27,
    IntOp.andi (IntOp.andi (IntOp.cmpi .sge (BitVec.ofNat 32 l.val) 0#32) (IntOp.cmpi .sle (BitVec.ofNat 32 l.val) 26#32)) 1#1
      = 1#1 := by decide

/-- A class's word, read signed and clamped into `[0, 26]`, is the class. -/
theorem clamp_class : ∀ l : Fin 27, min (BitVec.ofNat 32 l.val).toInt.toNat 26 = l.val := by decide

end Cert.ReferenceIdeal.RefHand

end
-- ==== Proof.Math.Basics.lean ====
/-
  Facts about the extended reals that the comparison of the two arrangements of the loss rests on: the constant words
  read as reals, the operations on reals (quotient, maximum, exponential, logarithm, finite sums), the sum over the two
  halves of the rows as one sum over all rows, and the one-hot entry of a label word.
-/
import proofs.«421000_j23381801959614_3_alg».proof.Proof.Spec
import Mathlib.Data.EReal.Inv
import Mathlib.Algebra.BigOperators.Fin

noncomputable section

namespace Cert.Spec

open Idealize.ShloMosaic

/-- The word of `1.0` denotes the real one. -/
theorem cOne_eq : cOne = 1 := by
  simp [cOne, Ideal.ofBits, Ideal.ieee, -EReal.coe_mul]; norm_num

/-- The word of `−∞` denotes the bottom of the extended reals. -/
theorem cNegInf_eq : cNegInf = ⊥ := by
  simp [cNegInf, Ideal.ofBits, Ideal.ieee]

/-- The temperature's word denotes a nonzero real (`9395241 · 2⁻²⁷`). -/
theorem cTemp_real : ∃ r : ℝ, r ≠ 0 ∧ cTemp = (r : EReal) := by
  simp [cTemp, Ideal.ofBits, Ideal.ieee, -EReal.coe_mul]

/-- The exponential of a real is the real exponential. -/
theorem exp_coe (r : ℝ) : Ideal.exp (r : EReal) = (Real.exp r : EReal) := rfl
/-- The logarithm of a positive real is the real logarithm. -/
theorem log_coe (r : ℝ) (h : 0 < r) : Ideal.log (r : EReal) = (Real.log r : EReal) := by
  change (if r ≤ 0 then ⊥ else (Real.log r : EReal)) = _
  rw [if_neg (not_le.mpr h)]

/-- A real over a nonzero real is the real quotient. -/
theorem div_coe (a b : ℝ) (hb : b ≠ 0) : Ideal.div (a : EReal) (b : EReal) = ((a / b : ℝ) : EReal) := by
  unfold Ideal.div
  rw [if_neg (EReal.coe_ne_zero.2 hb), ← EReal.coe_inv, ← EReal.coe_mul, div_eq_mul_inv]

/-- The larger of two reals is a real. -/
theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- A sum over the two halves of the rows is the sum over all rows (in any additive commutative monoid:
    no finiteness is asked of the summands). -/
theorem sum_halves {M : Type*} [AddCommMonoid M] (f : Fin 25088 → M) :
    ∑ q : Fin 2, ∑ n : Fin 12544, f (half q n) = ∑ n : Fin 25088, f n := by
  rw [Fin.sum_univ_two]
  have h : ∑ n : Fin 25088, f n
      = ∑ i : Fin 12544, f (Fin.castAdd 12544 i) + ∑ i : Fin 12544, f (Fin.natAdd 12544 i) :=
    Fin.sum_univ_add (a := 12544) (b := 12544) f
  refine Eq.trans ?_ h.symm
  have e0 : ∀ n : Fin 12544, half 0 n = Fin.castAdd 12544 n := fun n => Fin.ext (by simp [half])
  have e1 : ∀ n : Fin 12544, half 1 n = Fin.natAdd 12544 n := fun n => Fin.ext (by simp [half, Nat.add_comm])
  exact congrArg₂ (· + ·) (Finset.sum_congr rfl fun n _ => congrArg f (e0 n))
    (Finset.sum_congr rfl fun n _ => congrArg f (e1 n))

/-- At the word of class `l`, the one-hot entry at `k` is 1 exactly when `k = l`: a class below 27 is read back
    from its 32-bit word. -/
theorem hot_ofNat (l k : Fin 27) : hot (BitVec.ofNat 32 l.val) k = if k = l then 1 else 0 := by
  unfold hot
  have : BitVec.ofNat 32 k.val = BitVec.ofNat 32 l.val ↔ k = l := by
    constructor
    · intro h
      have h2 := congrArg BitVec.toNat h
      rw [BitVec.toNat_ofNat, BitVec.toNat_ofNat] at h2
      have := k.isLt; have := l.isLt
      ext; omega
    · rintro rfl; rfl
  simp only [this]

/-- The one-hot product picks the entry at the word's class. -/
theorem sum_mul_hot (a : Fin 27 → EReal) (l : Fin 27) :
    ∑ k : Fin 27, a k * hot (BitVec.ofNat 32 l.val) k = a l := by
  simp only [hot_ofNat, mul_ite, mul_one, mul_zero, Finset.sum_ite_eq', Finset.mem_univ, if_true]

/-- The one-hot entry is the real 0 or 1. -/
theorem hot_real (w : BitVec 32) (k : Fin 27) : ∃ r : ℝ, 0 ≤ r ∧ hot w k = (r : EReal) := by
  unfold hot
  split
  · exact ⟨1, zero_le_one, EReal.coe_one.symm⟩
  · exact ⟨0, le_rfl, EReal.coe_zero.symm⟩

/-- A finite sum of reals is a real. -/
theorem real_sum {ι : Type*} (t : Finset ι) (f : ι → EReal) (h : ∀ i ∈ t, ∃ r : ℝ, f i = (r : EReal)) :
    ∃ r : ℝ, ∑ i ∈ t, f i = (r : EReal) := by
  classical
  induction t using Finset.induction_on with
  | empty => exact ⟨0, by simp⟩
  | insert a t ha ih =>
    obtain ⟨r, hr⟩ := h a (Finset.mem_insert_self a t)
    obtain ⟨u, hu⟩ := ih fun i hi => h i (Finset.mem_insert_of_mem hi)
    exact ⟨r + u, by rw [Finset.sum_insert ha, hr, hu, EReal.coe_add]⟩

/-- The sum of the coercions is the coercion of the sum. -/
theorem coe_sum {ι : Type*} (t : Finset ι) (f : ι → ℝ) :
    ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

end Cert.Spec

end
-- ==== Proof.Ref.Centroids.lean ====
/-
  The reference's class counts, class sums and centroids. Under the label hypothesis a row's word is its class's, so
  the scatter of ones counts the rows of each class, the scatter of the feature rows sums them, and the centroid is
  the sum over the larger of the count and one.
-/
import proofs.«421000_j23381801959614_3_alg».proof.Proof.Ref.Scatter
import proofs.«421000_j23381801959614_3_alg».proof.Proof.Ref.Words
import proofs.«421000_j23381801959614_3_alg».proof.Proof.Math.Basics

noncomputable section

namespace Cert.ReferenceIdeal.RefValue

open Cert.ReferenceIdeal Cert.ReferenceIdeal.ReadP Cert.ReferenceIdeal.RefHand Idealize.ShloMosaic Idealize.ShloMosaic.ValueIdx

/-- The labels as a column, read at `(n, 0)`, are the labels at `n`. -/
theorem idx_v2 (n : Fin 25088) : idx_main_v2 (ix2 n (0 : Fin 1)) = ix1 n := by
  funext a; match a with | ⟨0, _⟩ => rfl
theorem idx_v5 (n : Fin 25088) : idx_main_v5 (ix2 n (0 : Fin 1)) = ix1 n := by
  funext a; match a with | ⟨0, _⟩ => rfl
/-- The counts broadcast over the features, read at `(k, d)`, are the counts at `k`. -/
theorem idx_v9_v10 (k : Fin 27) (d : Fin 512) : idx_main_v9 (idx_main_v10 (ix2 k d)) = ix1 k := by
  funext a; match a with | ⟨0, _⟩ => rfl

section
variable (x0 : (⟨S25088x512, .f32⟩ : BufTy).Contents (Elt Ideal)) (x2 : (⟨S25088, .i32⟩ : BufTy).Contents (Elt Ideal))
  (lab : Fin 25088 → Fin 27) (hlab : ∀ n : Fin 25088, x2 (ix1 n) = BitVec.ofNat 32 (lab n).val)
include hlab

/-- Row `n`'s word is class `k`'s exactly when `k` is the row's class. -/
theorem word_iff (n : Fin 25088) (k : Fin 27) : ((x2 (ix1 n)).toInt = (k.val : Int)) ↔ k = lab n := by
  rw [hlab n, toInt_class]
  exact ⟨fun h => Fin.ext (by omega), fun h => by rw [h]⟩

/-- The scatter of ones at the labels counts each class's rows. -/
theorem counts_eq (k : Fin 27) :
    val_main_v3 (F := Ideal) x2 (ix1 k) = Cert.Spec.cnt (fun n => x2 (ix1 n)) k := by
  unfold val_main_v3
  rw [scatterAdd_counts]
  simp only [val_main_v1_apply, val_main_cst_0_apply, val_main_v2_apply, val_main_v0_apply, val_main_cst_apply,
    Ideal.ofBits_def, Ideal.ofBits_zero_f32, zero_add, idx_v2]
  unfold Cert.Spec.cnt
  refine Finset.sum_congr rfl fun n _ => ?_
  rw [if_congr (word_iff x2 lab hlab n k) Cert.Spec.cOne_eq rfl]
  beta_reduce
  rw [hlab n, Cert.Spec.hot_ofNat]

/-- The scatter of the feature rows at the labels sums each class's rows. -/
theorem csum_eq (k : Fin 27) (d : Fin 512) :
    val_main_v6 (F := Ideal) x0 x2 (ix2 k d)
      = Cert.Spec.csum (fun n d => x0 (ix2 n d)) (fun n => x2 (ix1 n)) k d := by
  unfold val_main_v6
  rw [scatterAdd_sums]
  simp only [val_main_v4_apply, val_main_cst_1_apply, val_main_v5_apply, Ideal.ofBits_def, Ideal.ofBits_zero_f32,
    zero_add, idx_v5]
  unfold Cert.Spec.csum
  refine Finset.sum_congr rfl fun n _ => ?_
  rw [if_congr (word_iff x2 lab hlab n k) rfl rfl]
  beta_reduce
  rw [hlab n, Cert.Spec.hot_ofNat]
  simp only [ite_mul, one_mul, zero_mul]

/-- The reference's centroids. -/
theorem cent_eq (k : Fin 27) (d : Fin 512) :
    val_main_v11 (F := Ideal) x0 x2 (ix2 k d)
      = Cert.Spec.centR (fun n d => x0 (ix2 n d)) (fun n => x2 (ix1 n)) k d := by
  rw [val_main_v11_apply, val_main_v10_apply, val_main_v9_apply, val_main_v8_apply, val_main_v7_apply,
    val_main_cst_2_apply, idx_v9_v10, csum_eq x0 x2 lab hlab, counts_eq x2 lab hlab]
  simp only [Ideal.hostDivf_def, Ideal.maximumf_def, Ideal.ofBits_def]
  rfl

end

end Cert.ReferenceIdeal.RefValue

end
-- ==== Proof.Ref.Logits.lean ====
/-
  The reference's logits: each row's products with the centroids, contracted over the features, over the temperature —
  for the first and for the second feature array, against the same centroids.
-/
import proofs.«421000_j23381801959614_3_alg».proof.Proof.Ref.Read
import proofs.«421000_j23381801959614_3_alg».proof.Proof.Math.Basics

noncomputable section

namespace Cert.ReferenceIdeal.RefValue

open Cert.ReferenceIdeal Cert.ReferenceIdeal.ReadP Idealize.ShloMosaic Idealize.ShloMosaic.ValueIdx

/-- The contraction at `(n, k)` reads the row at `(n, d)` and the centroids at `(k, d)`. -/
theorem lidx_v12 (n : Fin 25088) (k : Fin 27) (d : Fin 512) : lidx_main_v12 (ix2 n k) d = ix2 n d := by
  funext a; match a with | ⟨0, _⟩ => rfl | ⟨1, _⟩ => rfl
theorem ridx_v12 (n : Fin 25088) (k : Fin 27) (d : Fin 512) : ridx_main_v12 (ix2 n k) d = ix2 k d := by
  funext a; match a with | ⟨0, _⟩ => rfl | ⟨1, _⟩ => rfl
theorem lidx_v15 (n : Fin 25088) (k : Fin 27) (d : Fin 512) : lidx_main_v15 (ix2 n k) d = ix2 n d := by
  funext a; match a with | ⟨0, _⟩ => rfl | ⟨1, _⟩ => rfl
theorem ridx_v15 (n : Fin 25088) (k : Fin 27) (d : Fin 512) : ridx_main_v15 (ix2 n k) d = ix2 k d := by
  funext a; match a with | ⟨0, _⟩ => rfl | ⟨1, _⟩ => rfl

section
variable (x0 x1 : (⟨S25088x512, .f32⟩ : BufTy).Contents (Elt Ideal)) (x2 : (⟨S25088, .i32⟩ : BufTy).Contents (Elt Ideal))
  (cent : Fin 27 → Fin 512 → EReal) (hcent : ∀ k d, val_main_v11 (F := Ideal) x0 x2 (ix2 k d) = cent k d)
include hcent

/-- The first feature array's logits. -/
theorem logit0_eq (n : Fin 25088) (k : Fin 27) :
    val_main_v14 (F := Ideal) x0 x2 (ix2 n k) = Cert.Spec.logit (fun n d => x0 (ix2 n d)) cent n k := by
  rw [val_main_v14_apply, val_main_v12_apply, val_main_v13_apply, val_main_cst_3_apply]
  simp only [Ideal.hostDivf_def, Ideal.ofBits_def, lidx_v12, ridx_v12, hcent]
  rfl

/-- The second feature array's logits. -/
theorem logit1_eq (n : Fin 25088) (k : Fin 27) :
    val_main_v17 (F := Ideal) x0 x1 x2 (ix2 n k) = Cert.Spec.logit (fun n d => x1 (ix2 n d)) cent n k := by
  rw [val_main_v17_apply, val_main_v15_apply, val_main_v16_apply, val_main_cst_4_apply]
  simp only [Ideal.hostDivf_def, Ideal.ofBits_def, lidx_v15, ridx_v15, hcent]
  rfl

end

end Cert.ReferenceIdeal.RefValue

end
-- ==== Proof.Ref.Reduce.lean ====
/-
  The reference's two folds over one axis, read at an index: a row's maximum over its 27 classes from the initial
  value, and a conjunction over an axis of one element, which is that element and the initial value.
-/
import proofs.«421000_j23381801959614_3_alg».proof.Proof.Ref.Read

noncomputable section

namespace Cert.ReferenceIdeal.RefHand

open Cert.ReferenceIdeal Cert.ReferenceIdeal.Gen Idealize.ShloMosaic Idealize.ShloMosaic.ValueIdx

/-- Row `n` with class `k` put back on the dropped axis is `(n, k)`. -/
theorem lift_rows (h : S25088x27.Reduces [1] S25088) (n : Fin 25088) (k : Fin (S25088x27.size 1)) :
    h.lift (ix1 n) k = ix2 n (⟨k.val, k.isLt⟩ : Fin 27) := by
  funext c; apply Fin.ext
  fin_cases c <;> rfl

/-- The maximum-reduce over the classes at row `n`: the fold of `max` from the initial value over the row. -/
theorem reduceMax_rows (x : FVec Ideal S25088x27 .f32) (init : FVec Ideal S_ .f32) (n : Fin 25088) :
    Host.reduce FloatOps.maximumf x init reducesTo_S25088x27_S25088_d1 h_S_ (ix1 n)
      = (Finset.univ : Finset (Fin 27)).fold max (init ix0) (fun k => x (ix2 n k)) := by
  have h : S25088x27.Reduces [1] S25088 := by decide
  rw [Host.reduce_eq_fold_single FloatOps.maximumf x init reducesTo_S25088x27_S25088_d1 h h_S_,
    eq_ix0 (Shape.Idx.first h_S_)]
  have hf : (x ∘ h.lift (ix1 n)) = fun k : Fin 27 => x (ix2 n k) := funext fun k => congrArg x (lift_rows h n k)
  exact congrArg (fun f => Finset.fold max (init ix0) f (Finset.univ : Finset (Fin 27))) hf

/-- Index `(n, 0)` with the one coordinate of the dropped unit axis put back is `(n, 0, 0)`. -/
theorem lift_unit (h : S25088x1x1.Reduces [2] S25088x1) (n : Fin 25088) (k : Fin (S25088x1x1.size 2)) :
    h.lift (ix2 n 0) k = ix3 n 0 0 := by
  have hk : k.val < 1 := k.isLt
  funext c; apply Fin.ext
  fin_cases c
  · rfl
  · rfl
  · show k.val = 0
    omega

/-- The conjunction-reduce over the unit axis at `(n, 0)`: the one element and the initial value. -/
theorem reduceAnd_unit (x : IVec S25088x1x1 1) (init : IVec S_ 1) (n : Fin 25088) :
    Host.reduce IntOp.andi x init reducesTo_S25088x1x1_S25088x1_d2 h_S_ (ix2 n 0)
      = IntOp.andi (x (ix3 n 0 0)) (init ix0) := by
  have h : S25088x1x1.Reduces [2] S25088x1 := by decide
  rw [Host.reduce_eq_fold_single IntOp.andi x init reducesTo_S25088x1x1_S25088x1_d2 h h_S_,
    eq_ix0 (Shape.Idx.first h_S_)]
  have hf : (x ∘ h.lift (ix2 n 0)) = fun _ : Fin 1 => x (ix3 n 0 0) := funext fun k => congrArg x (lift_unit h n k)
  refine Eq.trans (congrArg (fun f => Finset.fold IntOp.andi (init ix0) f (Finset.univ : Finset (Fin 1))) hf) ?_
  rw [Finset.univ_unique, Finset.fold_singleton]

end Cert.ReferenceIdeal.RefHand

end
-- ==== Proof.Ref.LogSoftmax.lean ====
/-
  The reference's log-softmax over the 27 classes, `(x − max) − log Σ exp (x − max)`, for the logits of the first and
  of the second feature array: the row's maximum folded from −∞, the shifted logits, the sum of their exponentials,
  and the difference with its logarithm.
-/
import proofs.«421000_j23381801959614_3_alg».proof.Proof.Ref.Reduce
import proofs.«421000_j23381801959614_3_alg».proof.Proof.Math.Basics

noncomputable section

namespace Cert.ReferenceIdeal.RefValue

open Cert.ReferenceIdeal Cert.ReferenceIdeal.ReadP Cert.ReferenceIdeal.RefHand Idealize.ShloMosaic Idealize.ShloMosaic.ValueIdx

/-- The maximum with −∞ is the other operand. -/
theorem max_negInf (a : EReal) : max Cert.Spec.cNegInf a = a := by
  rw [Cert.Spec.cNegInf_eq]; exact max_bot_left a

/-- The row's maximum broadcast over the classes, and the row's sum broadcast over them, read at `(n, k)`, are the row's. -/
theorem idx_call0_v3_v4 (n : Fin 25088) (k : Fin 27) : idx_main_call0_v3 (idx_main_call0_v4 (ix2 n k)) = ix1 n := by
  funext a; match a with | ⟨0, _⟩ => rfl
theorem idx_call0_v8_v10 (n : Fin 25088) (k : Fin 27) : idx_main_call0_v8 (idx_main_call0_v10 (ix2 n k)) = ix1 n := by
  funext a; match a with | ⟨0, _⟩ => rfl
theorem idx_call0_v7 (n : Fin 25088) (k : Fin 27) : idx_main_call0_v7 (ix1 n) k = ix2 n k := by
  funext a; match a with | ⟨0, _⟩ => rfl | ⟨1, _⟩ => rfl

section
variable (x0 : (⟨S25088x512, .f32⟩ : BufTy).Contents (Elt Ideal)) (x2 : (⟨S25088, .i32⟩ : BufTy).Contents (Elt Ideal))
  (x : Fin 25088 → Fin 512 → EReal) (cent : Fin 27 → Fin 512 → EReal)
  (hl : ∀ n k, val_main_v14 (F := Ideal) x0 x2 (ix2 n k) = Cert.Spec.logit x cent n k)
include hl

/-- The row's largest logit: the fold of the maximum from −∞, the maximum with −∞ in front of it changing nothing. -/
theorem rmax_call0 (n : Fin 25088) : val_main_call0_v2 (F := Ideal) x0 x2 (ix1 n) = Cert.Spec.rmax x cent n := by
  rw [val_main_call0_v2_apply, val_main_call0_v1_apply, val_main_call0_cst_0_apply]
  unfold val_main_call0_v0
  rw [reduceMax_rows, val_main_call0_cst_apply]
  simp only [Ideal.maximumf_def, Ideal.ofBits_def, hl]
  exact max_negInf _

/-- The shifted logits. -/
theorem sub_call0 (n : Fin 25088) (k : Fin 27) :
    val_main_call0_v5 (F := Ideal) x0 x2 (ix2 n k) = Cert.Spec.logit x cent n k - Cert.Spec.rmax x cent n := by
  rw [val_main_call0_v5_apply, val_main_call0_v4_apply, val_main_call0_v3_apply, idx_call0_v3_v4,
    rmax_call0 x0 x2 x cent hl, hl]
  rfl

/-- The row's sum of exponentials of the shifted logits. -/
theorem lsum_call0 (n : Fin 25088) : val_main_call0_v7 (F := Ideal) x0 x2 (ix1 n) = Cert.Spec.lsum x cent n := by
  rw [val_main_call0_v7_apply, val_main_call0_cst_1_apply]
  simp only [val_main_call0_v6_apply, idx_call0_v7, sub_call0 x0 x2 x cent hl, Ideal.hostUnary_exp_def, Ideal.ofBits_def,
    Ideal.ofBits_zero_f32, zero_add]
  rfl

/-- The log-softmax in the reference's arrangement. -/
theorem lp_call0 (n : Fin 25088) (k : Fin 27) :
    val_main_v22 (F := Ideal) x0 x2 (ix2 n k) = Cert.Spec.lpR x cent n k := by
  rw [val_main_v22_apply, val_main_call0_v10_apply, val_main_call0_v9_apply, val_main_call0_v8_apply, idx_call0_v8_v10,
    lsum_call0 x0 x2 x cent hl, sub_call0 x0 x2 x cent hl]
  simp only [Ideal.hostUnary_log_def, Ideal.subf_def]
  rfl

end

/-- The row's maximum broadcast over the classes, and the row's sum broadcast over them, read at `(n, k)`, are the row's. -/
theorem idx_call2_v3_v4 (n : Fin 25088) (k : Fin 27) : idx_main_call2_v3 (idx_main_call2_v4 (ix2 n k)) = ix1 n := by
  funext a; match a with | ⟨0, _⟩ => rfl
theorem idx_call2_v8_v10 (n : Fin 25088) (k : Fin 27) : idx_main_call2_v8 (idx_main_call2_v10 (ix2 n k)) = ix1 n := by
  funext a; match a with | ⟨0, _⟩ => rfl
theorem idx_call2_v7 (n : Fin 25088) (k : Fin 27) : idx_main_call2_v7 (ix1 n) k = ix2 n k := by
  funext a; match a with | ⟨0, _⟩ => rfl | ⟨1, _⟩ => rfl

section
variable (x0 x1 : (⟨S25088x512, .f32⟩ : BufTy).Contents (Elt Ideal)) (x2 : (⟨S25088, .i32⟩ : BufTy).Contents (Elt Ideal))
  (x : Fin 25088 → Fin 512 → EReal) (cent : Fin 27 → Fin 512 → EReal)
  (hl : ∀ n k, val_main_v17 (F := Ideal) x0 x1 x2 (ix2 n k) = Cert.Spec.logit x cent n k)
include hl

/-- The row's largest logit: the fold of the maximum from −∞, the maximum with −∞ in front of it changing nothing. -/
theorem rmax_call2 (n : Fin 25088) : val_main_call2_v2 (F := Ideal) x0 x1 x2 (ix1 n) = Cert.Spec.rmax x cent n := by
  rw [val_main_call2_v2_apply, val_main_call2_v1_apply, val_main_call2_cst_0_apply]
  unfold val_main_call2_v0
  rw [reduceMax_rows, val_main_call2_cst_apply]
  simp only [Ideal.maximumf_def, Ideal.ofBits_def, hl]
  exact max_negInf _

/-- The shifted logits. -/
theorem sub_call2 (n : Fin 25088) (k : Fin 27) :
    val_main_call2_v5 (F := Ideal) x0 x1 x2 (ix2 n k) = Cert.Spec.logit x cent n k - Cert.Spec.rmax x cent n := by
  rw [val_main_call2_v5_apply, val_main_call2_v4_apply, val_main_call2_v3_apply, idx_call2_v3_v4,
    rmax_call2 x0 x1 x2 x cent hl, hl]
  rfl

/-- The row's sum of exponentials of the shifted logits. -/
theorem lsum_call2 (n : Fin 25088) : val_main_call2_v7 (F := Ideal) x0 x1 x2 (ix1 n) = Cert.Spec.lsum x cent n := by
  rw [val_main_call2_v7_apply, val_main_call2_cst_1_apply]
  simp only [val_main_call2_v6_apply, idx_call2_v7, sub_call2 x0 x1 x2 x cent hl, Ideal.hostUnary_exp_def, Ideal.ofBits_def,
    Ideal.ofBits_zero_f32, zero_add]
  rfl

/-- The log-softmax in the reference's arrangement. -/
theorem lp_call2 (n : Fin 25088) (k : Fin 27) :
    val_main_v30 (F := Ideal) x0 x1 x2 (ix2 n k) = Cert.Spec.lpR x cent n k := by
  rw [val_main_v30_apply, val_main_call2_v10_apply, val_main_call2_v9_apply, val_main_call2_v8_apply, idx_call2_v8_v10,
    lsum_call2 x0 x1 x2 x cent hl, sub_call2 x0 x1 x2 x cent hl]
  simp only [Ideal.hostUnary_log_def, Ideal.subf_def]
  rfl

end

end Cert.ReferenceIdeal.RefValue

end
-- ==== Proof.Ref.Gather.lean ====
/-
  The reference's gather along the class axis, read at an index: row `n`'s entry at the class its index word names,
  the word read signed and clamped into the class range.
-/
import proofs.«421000_j23381801959614_3_alg».proof.Proof.Ref.Read

noncomputable section

namespace Cert.ReferenceIdeal.RefHand

open Cert.ReferenceIdeal Cert.ReferenceIdeal.Gen Idealize.ShloMosaic Idealize.ShloMosaic.ValueIdx

/-- The gather at `(n, 0)`: the operand at row `n` and the class `idx[n, 0, 0]`, read signed and clamped into `[0, 26]`. -/
theorem gather_pick {α : Type} (x : S25088x27.Idx → α) (idx : IVec S25088x1x1 32) (n : Fin 25088) :
    Host.gather gather_S25088x27_S25088x1x1_S25088x1_n_1_0_0_1_2_11 x idx (ix2 n 0)
      = x (ix2 n (⟨min (idx (ix3 n 0 0)).toInt.toNat 26, by omega⟩ : Fin 27)) := by
  unfold Host.gather
  refine congrArg x (funext fun a => Fin.ext ?_)
  match a with
  | ⟨0, _⟩ =>
    show gather_S25088x27_S25088x1x1_S25088x1_n_1_0_0_1_2_11.start (ix2 n 0) idx 0
        + gather_S25088x27_S25088x1x1_S25088x1_n_1_0_0_1_2_11.batchCoord (ix2 n 0) 0
        + gather_S25088x27_S25088x1x1_S25088x1_n_1_0_0_1_2_11.offCoord (ix2 n 0) 0 = n.val
    rw [GatherDims.start_batching _ _ _ _ (List.mem_singleton.mpr rfl),
      GatherDims.offCoord_eq_zero _ _ _ (by decide)]
    unfold GatherDims.batchCoord
    rw [dif_pos (show (0 : Fin S25088x27.rank) ∈ gather_S25088x27_S25088x1x1_S25088x1_n_1_0_0_1_2_11.operandBatchingDims from
      List.mem_singleton.mpr rfl)]
    simp only [Nat.zero_add, Nat.add_zero]
    rfl
  | ⟨1, _⟩ =>
    show gather_S25088x27_S25088x1x1_S25088x1_n_1_0_0_1_2_11.start (ix2 n 0) idx 1
        + gather_S25088x27_S25088x1x1_S25088x1_n_1_0_0_1_2_11.batchCoord (ix2 n 0) 1
        + gather_S25088x27_S25088x1x1_S25088x1_n_1_0_0_1_2_11.offCoord (ix2 n 0) 1 = min (idx (ix3 n 0 0)).toInt.toNat 26
    rw [GatherDims.batchCoord_eq_zero _ _ _ (by decide), GatherDims.offCoord_eq_zero _ _ _ (by decide)]
    simp only [Nat.add_zero]
    unfold GatherDims.start
    rw [dif_pos (show (1 : Fin S25088x27.rank) ∈ gather_S25088x27_S25088x1x1_S25088x1_n_1_0_0_1_2_11.startIndexMap from
      List.mem_singleton.mpr rfl)]
    have hsi : gather_S25088x27_S25088x1x1_S25088x1_n_1_0_0_1_2_11.siIdx (ix2 n 0)
        ⟨List.idxOf (1 : Fin S25088x27.rank) gather_S25088x27_S25088x1x1_S25088x1_n_1_0_0_1_2_11.startIndexMap,
          List.idxOf_lt_length_iff.2 (List.mem_singleton.mpr rfl)⟩ = ix3 n 0 0 := by
      funext b; refine Fin.ext ?_
      match b with
      | ⟨0, _⟩ => rfl
      | ⟨1, _⟩ => rfl
      | ⟨2, _⟩ => rfl
    rw [hsi]
    rfl

end Cert.ReferenceIdeal.RefHand

end
-- ==== Proof.Ref.Pick.lean ====
/-
  The reference's pick of each row's log-softmax at the row's own class. Under the label hypothesis the row's word is
  its class's: the select on "negative" keeps the word, the range test holds, and the gather reads the class's column,
  so the selected value is the log-softmax at `(n, lab n)` — for the first and for the second feature array.
-/
import proofs.«421000_j23381801959614_3_alg».proof.Proof.Ref.Reduce
import proofs.«421000_j23381801959614_3_alg».proof.Proof.Ref.Gather
import proofs.«421000_j23381801959614_3_alg».proof.Proof.Ref.Words

noncomputable section

namespace Cert.ReferenceIdeal.RefValue

open Cert.ReferenceIdeal Cert.ReferenceIdeal.ReadP Cert.ReferenceIdeal.RefHand Idealize.ShloMosaic Idealize.ShloMosaic.ValueIdx

/-- The labels as a column at `(n, 0)` are the labels at `n`. -/
theorem idx_v23 (n : Fin 25088) : idx_main_v23 (ix2 n (0 : Fin 1)) = ix1 n := by
  funext a; match a with | ⟨0, _⟩ => rfl
theorem idx_v31 (n : Fin 25088) : idx_main_v31 (ix2 n (0 : Fin 1)) = ix1 n := by
  funext a; match a with | ⟨0, _⟩ => rfl

/-- The column reshaped to [25088, 1, 1], read at `(n, 0, 0)`, is the column at `(n, 0)`. -/
theorem idx_call1_v5 (n : Fin 25088) : idx_main_call1_v5 (ix3 n (0 : Fin 1) (0 : Fin 1)) = ix2 n (0 : Fin 1) := by
  funext a
  match a with
  | ⟨0, _⟩ => exact Fin.ext (by show ((n.val * 1 + 0) * 1 + 0) / 1 = n.val; omega)
  | ⟨1, _⟩ => rfl
theorem idx_call3_v5 (n : Fin 25088) : idx_main_call3_v5 (ix3 n (0 : Fin 1) (0 : Fin 1)) = ix2 n (0 : Fin 1) := by
  funext a
  match a with
  | ⟨0, _⟩ => exact Fin.ext (by show ((n.val * 1 + 0) * 1 + 0) / 1 = n.val; omega)
  | ⟨1, _⟩ => rfl

/-- The picked column reshaped to [25088], read at `n`, is the column at `(n, 0)`. -/
theorem idx_v25 (n : Fin 25088) : idx_main_v25 (ix1 n) = ix2 n (0 : Fin 1) := by
  funext a
  match a with
  | ⟨0, _⟩ => exact Fin.ext (by show n.val / 1 = n.val; omega)
  | ⟨1, _⟩ => rfl
theorem idx_v33 (n : Fin 25088) : idx_main_v33 (ix1 n) = ix2 n (0 : Fin 1) := by
  funext a
  match a with
  | ⟨0, _⟩ => exact Fin.ext (by show n.val / 1 = n.val; omega)
  | ⟨1, _⟩ => rfl

section
variable (x0 x1 : (⟨S25088x512, .f32⟩ : BufTy).Contents (Elt Ideal)) (x2 : (⟨S25088, .i32⟩ : BufTy).Contents (Elt Ideal))
  (lab : Fin 25088 → Fin 27) (hlab : ∀ n : Fin 25088, x2 (ix1 n) = BitVec.ofNat 32 (lab n).val)
include hlab

/-- First feature array: the index word the gather reads at row `n` is the row's class's word. -/
theorem word_call1 (n : Fin 25088) :
    val_main_call1_v5 (F := Ideal) x2 (ix3 n (0 : Fin 1) (0 : Fin 1)) = BitVec.ofNat 32 (lab n).val := by
  rw [val_main_call1_v5_apply, idx_call1_v5, val_main_call1_v4_apply, val_main_call1_v1_apply, val_main_call1_v3_apply,
    val_main_v23_apply, val_main_call1_v0_apply, val_main_call1_c_apply, val_main_call1_v2_apply,
    val_main_call1_c_0_apply, idx_v23, hlab n]
  exact select_neg_class (lab n)

/-- First feature array: the range test, reduced over its unit axis, is true at every row. -/
theorem ok_call1 (n : Fin 25088) : val_main_call1_v12 (F := Ideal) x2 (ix2 n (0 : Fin 1)) = 1#1 := by
  unfold val_main_call1_v12
  rw [reduceAnd_unit, val_main_call1_v11_apply, val_main_call1_v7_apply, val_main_call1_v10_apply,
    word_call1 x2 lab hlab n, val_main_call1_v6_apply, val_main_call1_c_2_apply, val_main_call1_v9_apply,
    val_main_call1_v8_apply, val_main_call1_c_1_apply, val_main_call1_c_3_apply]
  exact range_class (lab n)

/-- First feature array: the picked value at row `n` is the log-softmax at `(n, lab n)`. -/
theorem pick_call1 (n : Fin 25088) :
    val_main_v25 (F := Ideal) x0 x2 (ix1 n) = val_main_v22 (F := Ideal) x0 x2 (ix2 n (lab n)) := by
  rw [val_main_v25_apply, idx_v25, val_main_v24_apply, ok_call1 x2 lab hlab n, select_one]
  unfold val_main_call1_v13
  rw [gather_pick]
  refine congrArg (fun c => val_main_v22 (F := Ideal) x0 x2 (ix2 n c)) (Fin.ext ?_)
  show min (val_main_call1_v5 (F := Ideal) x2 (ix3 n (0 : Fin 1) (0 : Fin 1))).toInt.toNat 26 = (lab n).val
  rw [word_call1 x2 lab hlab n]
  exact clamp_class (lab n)

/-- Second feature array: the index word the gather reads at row `n` is the row's class's word. -/
theorem word_call3 (n : Fin 25088) :
    val_main_call3_v5 (F := Ideal) x2 (ix3 n (0 : Fin 1) (0 : Fin 1)) = BitVec.ofNat 32 (lab n).val := by
  rw [val_main_call3_v5_apply, idx_call3_v5, val_main_call3_v4_apply, val_main_call3_v1_apply, val_main_call3_v3_apply,
    val_main_v31_apply, val_main_call3_v0_apply, val_main_call3_c_apply, val_main_call3_v2_apply,
    val_main_call3_c_0_apply, idx_v31, hlab n]
  exact select_neg_class (lab n)

/-- Second feature array: the range test, reduced over its unit axis, is true at every row. -/
theorem ok_call3 (n : Fin 25088) : val_main_call3_v12 (F := Ideal) x2 (ix2 n (0 : Fin 1)) = 1#1 := by
  unfold val_main_call3_v12
  rw [reduceAnd_unit, val_main_call3_v11_apply, val_main_call3_v7_apply, val_main_call3_v10_apply,
    word_call3 x2 lab hlab n, val_main_call3_v6_apply, val_main_call3_c_2_apply, val_main_call3_v9_apply,
    val_main_call3_v8_apply, val_main_call3_c_1_apply, val_main_call3_c_3_apply]
  exact range_class (lab n)

/-- Second feature array: the picked value at row `n` is the log-softmax at `(n, lab n)`. -/
theorem pick_call3 (n : Fin 25088) :
    val_main_v33 (F := Ideal) x0 x1 x2 (ix1 n) = val_main_v30 (F := Ideal) x0 x1 x2 (ix2 n (lab n)) := by
  rw [val_main_v33_apply, idx_v33, val_main_v32_apply, ok_call3 x2 lab hlab n, select_one]
  unfold val_main_call3_v13
  rw [gather_pick]
  refine congrArg (fun c => val_main_v30 (F := Ideal) x0 x1 x2 (ix2 n c)) (Fin.ext ?_)
  show min (val_main_call3_v5 (F := Ideal) x2 (ix3 n (0 : Fin 1) (0 : Fin 1))).toInt.toNat 26 = (lab n).val
  rw [word_call3 x2 lab hlab n]
  exact clamp_class (lab n)

end

end Cert.ReferenceIdeal.RefValue

end
-- ==== Proof.Ref.Weights.lean ====
/-
  The reference's row weights: the mean of each row of the similarity matrix, the matrix [8, 3136, 3136] summed over
  its last axis, divided by the row length and read as 25088 rows.
-/
import proofs.«421000_j23381801959614_3_alg».proof.Proof.Ref.Read
import proofs.«421000_j23381801959614_3_alg».proof.Proof.Math.Basics

noncomputable section

namespace Cert.ReferenceIdeal.RefValue

open Cert.ReferenceIdeal Cert.ReferenceIdeal.ReadP Idealize.ShloMosaic Idealize.ShloMosaic.ValueIdx

/-- Row `n` of the 25088 rows is row `(n / 3136, n % 3136)` of the matrix, and its entry `j` is the matrix's there. -/
theorem idx_v18_v21 (n : Fin 25088) (j : Fin 3136) :
    idx_main_v18 (idx_main_v21 (ix1 n)) j
      = ix3 (⟨n.val / 3136, by have := n.isLt; omega⟩ : Fin 8) (⟨n.val % 3136, Nat.mod_lt _ (by decide)⟩ : Fin 3136) j := by
  funext a
  match a with
  | ⟨0, _⟩ => rfl
  | ⟨1, _⟩ => rfl
  | ⟨2, _⟩ => rfl

/-- The weights the reference multiplies the row losses by are the rows' means. -/
theorem wgt_eq (x3 : (⟨S8x3136x3136, .f32⟩ : BufTy).Contents (Elt Ideal)) (n : Fin 25088) :
    val_main_v21 (F := Ideal) x3 (ix1 n) = Cert.Spec.wgt (Cert.Spec.simRow x3) n := by
  rw [val_main_v21_apply, val_main_v20_apply, val_main_v18_apply, val_main_v19_apply, val_main_cst_5_apply,
    val_main_cst_6_apply]
  simp only [Ideal.hostDivf_def, Ideal.ofBits_def, Ideal.ofBits_zero_f32, zero_add, idx_v18_v21]
  rfl

end Cert.ReferenceIdeal.RefValue

end
-- ==== Proof.Ref.Value.lean ====
/-
  The reference's value. Each feature array's mean weighted loss is the sum over the rows of minus the log-softmax at
  the row's class times the row's weight, over the number of rows; the result is half of each, added, over two.
-/
import proofs.«421000_j23381801959614_3_alg».proof.Proof.Ref.Centroids
import proofs.«421000_j23381801959614_3_alg».proof.Proof.Ref.Logits
import proofs.«421000_j23381801959614_3_alg».proof.Proof.Ref.LogSoftmax
import proofs.«421000_j23381801959614_3_alg».proof.Proof.Ref.Pick
import proofs.«421000_j23381801959614_3_alg».proof.Proof.Ref.Weights

noncomputable section

namespace Cert.ReferenceIdeal.RefValue

open Cert.ReferenceIdeal Cert.ReferenceIdeal.ReadP Cert.ReferenceIdeal.RefHand Idealize.ShloMosaic Idealize.ShloMosaic.ValueIdx

section
variable (x0 x1 : (⟨S25088x512, .f32⟩ : BufTy).Contents (Elt Ideal)) (x2 : (⟨S25088, .i32⟩ : BufTy).Contents (Elt Ideal))
  (x3 : (⟨S8x3136x3136, .f32⟩ : BufTy).Contents (Elt Ideal))
  (lab : Fin 25088 → Fin 27) (hlab : ∀ n : Fin 25088, x2 (ix1 n) = BitVec.ofNat 32 (lab n).val)
include hlab

/-- The first feature array's mean weighted loss. -/
theorem loss0_eq (i : S_.Idx) :
    val_main_v29 (F := Ideal) x0 x2 x3 i
      = Cert.Spec.lossR (Cert.Spec.simRow x3) lab
          (Cert.Spec.centR (fun n d => x0 (ix2 n d)) (fun n => x2 (ix1 n))) (fun n d => x0 (ix2 n d)) := by
  have hc := cent_eq x0 x2 lab hlab
  have hl := logit0_eq x0 x2 _ hc
  have hp := lp_call0 x0 x2 _ _ hl
  rw [val_main_v29_apply, val_main_v28_apply, val_main_cst_7_apply, val_main_cst_8_apply, sum_idx1]
  simp only [val_main_v27_apply, val_main_v26_apply, pick_call1 x0 x2 lab hlab, hp, wgt_eq, Ideal.hostDivf_def,
    Ideal.mulf_def, Ideal.hostNegf_def, Ideal.negf_def, Ideal.ofBits_def, Ideal.ofBits_zero_f32, zero_add]
  rfl

/-- The second feature array's mean weighted loss, against the first array's centroids. -/
theorem loss1_eq (i : S_.Idx) :
    val_main_v37 (F := Ideal) x0 x1 x2 x3 i
      = Cert.Spec.lossR (Cert.Spec.simRow x3) lab
          (Cert.Spec.centR (fun n d => x0 (ix2 n d)) (fun n => x2 (ix1 n))) (fun n d => x1 (ix2 n d)) := by
  have hc := cent_eq x0 x2 lab hlab
  have hl := logit1_eq x0 x1 x2 _ hc
  have hp := lp_call2 x0 x1 x2 _ _ hl
  rw [val_main_v37_apply, val_main_v36_apply, val_main_cst_9_apply, val_main_cst_10_apply, sum_idx1]
  simp only [val_main_v35_apply, val_main_v34_apply, pick_call3 x0 x1 x2 lab hlab, hp, wgt_eq, Ideal.hostDivf_def,
    Ideal.mulf_def, Ideal.hostNegf_def, Ideal.negf_def, Ideal.ofBits_def, Ideal.ofBits_zero_f32, zero_add]
  rfl

end

/-- THE REFERENCE'S VALUE: under the label hypothesis the reference program's result is the mathematical total. -/
theorem value_eq (x0 x1 : (⟨S25088x512, .f32⟩ : BufTy).Contents (Elt Ideal)) (x2 : (⟨S25088, .i32⟩ : BufTy).Contents (Elt Ideal))
    (x3 : (⟨S8x3136x3136, .f32⟩ : BufTy).Contents (Elt Ideal))
    (lab : Fin 25088 → Fin 27) (hlab : ∀ n : Fin 25088, x2 (ix1 n) = BitVec.ofNat 32 (lab n).val) :
    val_main_v41 (F := Ideal) x0 x1 x2 x3
      = fun _ => Cert.Spec.totalR (fun n d => x0 (ix2 n d)) (fun n d => x1 (ix2 n d)) (fun n => x2 (ix1 n))
          (Cert.Spec.simRow x3) lab := by
  funext i
  rw [val_main_v41_apply, val_main_v40_apply, val_main_v38_apply, val_main_v39_apply,
    loss0_eq x0 x2 x3 lab hlab, loss1_eq x0 x1 x2 x3 lab hlab, val_main_cst_11_apply, val_main_cst_12_apply,
    val_main_cst_13_apply]
  simp only [Ideal.hostDivf_def, Ideal.addf_def, Ideal.mulf_def, Ideal.ofBits_def]
  rfl

end Cert.ReferenceIdeal.RefValue

end
-- ==== Proof.Math.Total.lean ====
/-
  The two arrangements of the loss agree: on finite features, with every label word a class in range, the kernel's
  result (class sums and losses accumulated over the two halves of the rows, the log-softmax shifted as
  `x − (max + log Σ exp)` and picked by a one-hot product) is the reference's (one sum over all rows,
  `(x − max) − log Σ exp`, the label's entry picked).

  The road: real features give real class sums and real counts, so real centroids (the divisor is at least one), so real
  logits (the temperature is a nonzero real); the largest of 27 real logits is real, the sum of the exponentials a
  positive real and its logarithm real; on reals the two shifts are one identity of the field. The one-hot product
  picks the label's entry, and the sums over the two halves are sums over all rows. The weights are not touched: both
  sides multiply the same row loss by the same weight.
-/
import proofs.«421000_j23381801959614_3_alg».proof.Proof.Math.Basics
import Mathlib.Data.Finset.Fold
import Mathlib.Algebra.Order.BigOperators.Group.Finset
import Mathlib.Analysis.SpecialFunctions.Log.Basic

noncomputable section

namespace Cert.Spec

open Idealize.ShloMosaic

section Row

variable {N : ℕ} (x : Fin N → Fin 512 → EReal) (cent : Fin 27 → Fin 512 → EReal)

/-- Real features against real centroids give real logits. -/
theorem logit_real (hx : ∀ n d, ∃ r : ℝ, x n d = (r : EReal)) (hc : ∀ k d, ∃ r : ℝ, cent k d = (r : EReal))
    (n : Fin N) (k : Fin 27) : ∃ r : ℝ, logit x cent n k = (r : EReal) := by
  obtain ⟨a, ha⟩ : ∃ a : ℝ, ∑ d : Fin 512, x n d * cent k d = (a : EReal) := real_sum _ _ fun d _ => by
    obtain ⟨r, hr⟩ := hx n d
    obtain ⟨c, hc'⟩ := hc k d
    exact ⟨r * c, by rw [hr, hc', EReal.coe_mul]⟩
  obtain ⟨t, ht0, ht⟩ := cTemp_real
  exact ⟨a / t, by unfold logit; rw [ha, ht, div_coe _ _ ht0]⟩

variable (n : Fin N) (hl : ∀ k, ∃ r : ℝ, logit x cent n k = (r : EReal))
include hl

/-- The largest of 27 real logits, folded from −∞, is a real: it is above the first and below +∞. -/
theorem rmax_real : ∃ r : ℝ, rmax x cent n = (r : EReal) := by
  have hbot : rmax x cent n ≠ ⊥ := by
    apply ne_of_gt
    unfold rmax
    rw [Finset.lt_fold_max]
    obtain ⟨r, hr⟩ := hl 0
    exact Or.inr ⟨0, Finset.mem_univ _, by rw [hr]; exact EReal.bot_lt_coe r⟩
  have htop : rmax x cent n ≠ ⊤ := by
    apply ne_of_lt
    unfold rmax
    rw [Finset.fold_max_lt]
    refine ⟨by rw [cNegInf_eq]; exact bot_lt_top, fun k _ => ?_⟩
    obtain ⟨r, hr⟩ := hl k
    rw [hr]; exact EReal.coe_lt_top r
  exact ⟨(rmax x cent n).toReal, (EReal.coe_toReal htop hbot).symm⟩

/-- The sum of the exponentials of the shifted logits is a positive real. -/
theorem lsum_real : ∃ r : ℝ, 0 < r ∧ lsum x cent n = (r : EReal) := by
  obtain ⟨m, hm⟩ := rmax_real x cent n hl
  choose g hg using hl
  refine ⟨∑ k : Fin 27, Real.exp (g k - m), Finset.sum_pos (fun k _ => Real.exp_pos _) Finset.univ_nonempty, ?_⟩
  unfold lsum
  refine (Finset.sum_congr rfl fun k _ => ?_).trans (coe_sum _ _)
  rw [hg k, hm, ← EReal.coe_sub, exp_coe]

/-- Its logarithm is a real. -/
theorem loglsum_real : ∃ r : ℝ, Ideal.log (lsum x cent n) = (r : EReal) := by
  obtain ⟨r, hr0, hr⟩ := lsum_real x cent n hl
  exact ⟨Real.log r, by rw [hr, log_coe r hr0]⟩

/-- On real logits the two shifts of the log-softmax agree: `x − (m + L) = (x − m) − L`. -/
theorem lpK_eq_lpR (k : Fin 27) : lpK x cent n k = lpR x cent n k := by
  obtain ⟨m, hm⟩ := rmax_real x cent n hl
  obtain ⟨L, hL⟩ := loglsum_real x cent n hl
  obtain ⟨g, hg⟩ := hl k
  unfold lpK lpR
  rw [hm, hL, hg, ← EReal.coe_add, ← EReal.coe_sub, ← EReal.coe_sub, ← EReal.coe_sub]
  congr 1
  ring

/-- The one-hot product picks the label's entry, and zero minus it is its negation: the two row losses agree. -/
theorem ceK_eq_ceR (s : Fin N → BitVec 32) (lab : Fin N → Fin 27) (hlab : ∀ n, s n = BitVec.ofNat 32 (lab n).val) :
    ceK x cent s n = ceR x cent lab n := by
  unfold ceK ceR
  rw [hlab n, sum_mul_hot (lpK x cent n) (lab n), zero_sub, lpK_eq_lpR x cent n hl]

end Row

/-- A class count is a nonnegative real. -/
theorem cnt_real {N : ℕ} (s : Fin N → BitVec 32) (k : Fin 27) : ∃ r : ℝ, 0 ≤ r ∧ cnt s k = (r : EReal) := by
  choose g hg0 hg using fun n => hot_real (s n) k
  refine ⟨∑ n, g n, Finset.sum_nonneg fun n _ => hg0 n, ?_⟩
  unfold cnt
  exact (Finset.sum_congr rfl fun n _ => hg n).trans (coe_sum _ _)

section Total

variable (x1 : Fin 25088 → Fin 512 → EReal) (s : Fin 25088 → BitVec 32)

/-- The reference's centroids are real: a real class sum over a real that is at least one. -/
theorem centR_real (hx1 : ∀ n d, ∃ r : ℝ, x1 n d = (r : EReal)) (k : Fin 27) (d : Fin 512) :
    ∃ r : ℝ, centR x1 s k d = (r : EReal) := by
  obtain ⟨c, hc0, hc⟩ := cnt_real s k
  obtain ⟨a, ha⟩ : ∃ a : ℝ, csum x1 s k d = (a : EReal) := real_sum _ _ fun n _ => by
    obtain ⟨h, _, hh⟩ := hot_real (s n) k
    obtain ⟨r, hr⟩ := hx1 n d
    exact ⟨h * r, by rw [hh, hr, EReal.coe_mul]⟩
  have hpos : max c 1 ≠ 0 := (lt_of_lt_of_le zero_lt_one (le_max_right c 1)).ne'
  exact ⟨a / max c 1, by unfold centR; rw [hc, ha, cOne_eq, ← EReal.coe_one, max_coe, div_coe _ _ hpos]⟩

/-- The kernel's centroids, summed over the two halves, are the reference's. -/
theorem centK_eq_centR : centK x1 s = centR x1 s := by
  funext k d
  exact congrArg₂ Ideal.div (sum_halves (fun n => hot (s n) k * x1 n d))
    (congrArg (fun c => max c cOne) (sum_halves (fun n => hot (s n) k)))

end Total

/-- The kernel's arrangement of the loss is the reference's. -/
theorem totalK_eq_totalR (x1 x2 : Fin 25088 → Fin 512 → EReal) (s : Fin 25088 → BitVec 32) (sim : Fin 25088 → Fin 3136 → EReal)
    (lab : Fin 25088 → Fin 27)
    (hx1 : ∀ n d, ∃ r : ℝ, x1 n d = (r : EReal)) (hx2 : ∀ n d, ∃ r : ℝ, x2 n d = (r : EReal))
    (hlab : ∀ n, s n = BitVec.ofNat 32 (lab n).val) :
    totalK x1 x2 s sim = totalR x1 x2 s sim lab := by
  have hc : ∀ k d, ∃ r : ℝ, centR x1 s k d = (r : EReal) := centR_real x1 s hx1
  have hloss : ∀ x : Fin 25088 → Fin 512 → EReal, (∀ n d, ∃ r : ℝ, x n d = (r : EReal)) →
      lossK s sim (centR x1 s) x = lossR sim lab (centR x1 s) x := by
    intro x hx
    exact congrArg (fun t => Ideal.div t cRows)
      ((sum_halves (fun n => ceK x (centR x1 s) s n * wgt sim n)).trans
        (Finset.sum_congr rfl fun n _ => by
          rw [ceK_eq_ceR x (centR x1 s) n (fun k => logit_real x (centR x1 s) hx hc n k) s lab hlab]))
  unfold totalK totalR
  rw [centK_eq_centR, hloss x1 hx1, hloss x2 hx2]

end Cert.Spec

end
-- ==== Proof.PreFacts.lean ====
/-
  What the precondition says of the argument arrays, entry by entry: every entry of the three float arrays is a real
  number, and every label word is a class in [0, 27).
-/
import proofs.«421000_j23381801959614_3_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.PreFacts

open Idealize.ShloMosaic Idealize.ShloMosaic.ValueIdx Cert.Pre_finite_inputs

/-- The rank-0 shape has one index. -/
instance : Subsingleton S_.Idx := ⟨fun a b => funext fun d => d.elim0⟩

/-- The f32 pattern 0x7F800000 (exponent all ones, fraction zero, sign clear) denotes +∞. -/
theorem inf_bits : Ideal.ofBits .f32 0x7F800000#32 = (⊤ : EReal) := by
  simp [Ideal.ofBits, Ideal.ieee]

/-- An extended real whose absolute value max x (-x) compares below +∞ is neither infinity: it is a real. -/
theorem real_of_abs_lt (x : EReal) (h : Ideal.cmp .olt (max x (-x)) (⊤ : EReal) = 1#1) : ∃ r : ℝ, x = (r : EReal) := by
  have hlt : max x (-x) < (⊤ : EReal) := by
    by_contra hn
    simp [Ideal.cmp, hn] at h
  obtain ⟨h1, h2⟩ := max_lt_iff.1 hlt
  induction x using EReal.rec with
  | bot => exact absurd h2 (by simp)
  | coe r => exact ⟨r, rfl⟩
  | top => exact absurd h1 (lt_irrefl _)

/-- A 32-bit word that is at least 0 and below 27 as a signed number is the word of a class k < 27. -/
theorem class_of_range (w : BitVec 32) (h0 : IntOp.cmpi .sge w 0#32 = 1#1) (h1 : IntOp.cmpi .slt w 27#32 = 1#1) :
    ∃ k : Fin 27, w = BitVec.ofNat 32 k.val := by
  rw [IntOp.cmpi_sge, show (0#32 : BitVec 32).toInt = 0 from by decide] at h0
  rw [IntOp.cmpi_slt, show (27#32 : BitVec 32).toInt = 27 from by decide] at h1
  have hw := w.isLt
  have hlt : w.toNat < 27 := by
    rw [BitVec.toInt_eq_toNat_cond] at h0 h1
    split_ifs at h0 h1 <;> omega
  exact ⟨⟨w.toNat, hlt⟩, by simp⟩

theorem of_pre [Cert.Pre_finite_inputs.Facts] (a0 a1 : FVec Ideal S25088x512 .f32) (a2 : IVec S25088 32) (a3 : FVec Ideal S8x3136x3136 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a3 i = (r : EReal))
      ∧ (∀ i, ∃ k : Fin 27, a2 i = BitVec.ofNat 32 k.val) := by
  have e := congrFun h ValueIdx.ix0
  dsimp only [Cert.Pre_finite_inputs.fn, Cert.Pre_finite_inputs.fn_part1] at e
  -- the bit is the conjunction of five reductions by `and`, each 1
  simp only [andi, IntOp.andi_eq_one] at e
  obtain ⟨⟨⟨⟨e0, e1⟩, e3⟩, e2lo⟩, e2hi⟩ := e
  -- each reduction over all axes is 1, so its operand is 1 at every index
  have f0 := fun i => Host.reduce_andi_all _ _ _ _ _ e0 i
  have f1 := fun i => Host.reduce_andi_all _ _ _ _ _ e1 i
  have f3 := fun i => Host.reduce_andi_all _ _ _ _ _ e3 i
  have flo := fun i => Host.reduce_andi_all _ _ _ _ _ e2lo i
  have fhi := fun i => Host.reduce_andi_all _ _ _ _ _ e2hi i
  refine ⟨fun i => ?_, fun i => ?_, fun i => ?_, fun i => ?_⟩
  · have g := f0 i
    simp only [cmpf, Host.absf, broadcastInDim, constant, Ideal.hostAbsf_def, Ideal.absf_def, Ideal.cmpf_def, Ideal.ofBits_def, inf_bits] at g
    exact real_of_abs_lt _ g
  · have g := f1 i
    simp only [cmpf, Host.absf, broadcastInDim, constant, Ideal.hostAbsf_def, Ideal.absf_def, Ideal.cmpf_def, Ideal.ofBits_def, inf_bits] at g
    exact real_of_abs_lt _ g
  · have g := f3 i
    simp only [cmpf, Host.absf, broadcastInDim, constant, Ideal.hostAbsf_def, Ideal.absf_def, Ideal.cmpf_def, Ideal.ofBits_def, inf_bits] at g
    exact real_of_abs_lt _ g
  · have g0 := flo i
    have g1 := fhi i
    simp only [cmpi, broadcastInDim, constantI] at g0 g1
    exact class_of_range _ g0 g1

end Cert.PreFacts

end
-- ==== Proof.lean ====
/-
  The certificate of the weighted class-centroid cross-entropy loss: the kernel (three pallas_calls — the row means of
  the similarity matrix; the class sums and counts of the first feature array by a one-hot product, accumulated over
  tiles of the two halves of the rows; the logits of both feature arrays against the centroids, their log-softmax and the
  weighted loss, accumulated the same way — with a little host arithmetic between them) against the reference
  (segment sums, two matrix products, `log_softmax`, `take_along_axis`, a weighted mean).

  Frames: each kernel program runs as three host stretches around three regions; a region's body runs at every grid point
  from the invariant "the scratch accumulators hold the half's running sums" to the same at the next point, and the
  argument arrays are only ever read. The reference is a straight line of host operations.

  Equivalence over the extended reals, under the precondition (finite inputs, every label a class in [0, 27)): the
  kernel's result is `Cert.Spec.totalK` of the argument arrays and the reference's is `Cert.Spec.totalR`; the two
  arrangements agree because sums over the two halves' tiles regroup into sums over all rows, a one-hot product with a
  label in range picks that label's entry, and on finite logits `x − (m + log Σ exp (x − m)) = (x − m) − log Σ exp (x − m)`.
  The idealized kernel is the kernel's own text read at the extended reals: the ideal pass rewrote nothing.
-/
import proofs.«421000_j23381801959614_3_alg».proof.Defs
import proofs.«421000_j23381801959614_3_alg».proof.Proof.Gen.Kernel
import proofs.«421000_j23381801959614_3_alg».proof.Proof.Gen.KernelIdeal
import proofs.«421000_j23381801959614_3_alg».proof.Proof.Gen.ReferenceIdeal
import proofs.«421000_j23381801959614_3_alg».proof.Proof.Gen.Pre_finite_inputs
import proofs.«421000_j23381801959614_3_alg».proof.Proof.Kernel.Run
import proofs.«421000_j23381801959614_3_alg».proof.Proof.KernelIdeal.KernelVal
import proofs.«421000_j23381801959614_3_alg».proof.Proof.Ref.Run
import proofs.«421000_j23381801959614_3_alg».proof.Proof.Ref.ReadEq
import proofs.«421000_j23381801959614_3_alg».proof.Proof.Ref.Value
import proofs.«421000_j23381801959614_3_alg».proof.Proof.Math.Total
import proofs.«421000_j23381801959614_3_alg».proof.Proof.PreFacts
import Idealize.ShloMosaic.Adequacy
import Idealize.ShloMosaic.Init

noncomputable section

namespace Cert.Proof

open Idealize.ShloMosaic Idealize.SL.Sem Idealize.ShloMosaic.ValueIdx

/-- The word-level kernel runs and leaves its arguments as launched. -/
theorem frame_kernel : Cert.frame_Kernel := fun m ρ _ => Cert.Kernel.Gen.frame_all m ρ

/-- The idealized kernel runs and leaves its arguments as launched. -/
theorem frame_kernelIdeal : Cert.frame_KernelIdeal := fun m ρ _ => Cert.KernelIdeal.Gen.frame_all m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

open Cert.KernelIdeal.Gen in
/-- From memories agreeing on the arguments, under the precondition, both programs end with the same scalar: the kernel's
    arrangement of the loss of the argument arrays, which the reference's arrangement equals. -/
theorem algebraic : Cert.algebraic_KernelIdeal_ReferenceIdeal := by
  intro m ρ m' ρ' hpre hagree
  -- the precondition entry by entry, on each core: finite features, labels in the class range
  have hp := fun c : Dev Cert.KernelIdeal.nD => Cert.PreFacts.of_pre _ _ _ _ (hpre c)
  choose lab hlab using fun (c : Dev Cert.KernelIdeal.nD) (n : Fin 25088) => (hp c).2.2.2 (ix1 n)
  refine ⟨fun c => fun _ => Cert.Spec.totalK (X1 m c) (X2 m c) (Lb m c) (Sm m c), ?_, ?_⟩
  · exact (θ_run Cert.KernelIdeal.defs _ _).mono (fun r h c =>
      ⟨(h c _ (mem_ucK Cert.KernelIdeal.main_v18 (by decide))).trans (result_eq m ρ c),
       (h c _ (mem_ucK Cert.KernelIdeal.main_arg0 (by decide))).trans (Wv6_main_arg0 m ρ c),
       (h c _ (mem_ucK Cert.KernelIdeal.main_arg1 (by decide))).trans (Wv6_main_arg1 m ρ c),
       (h c _ (mem_ucK Cert.KernelIdeal.main_arg2 (by decide))).trans (Wv6_main_arg2 m ρ c),
       (h c _ (mem_ucK Cert.KernelIdeal.main_arg3 (by decide))).trans (Wv6_main_arg3 m ρ c)⟩) (run_all m ρ)
  · refine (θ_run Cert.ReferenceIdeal.defs _ _).mono (fun r h c =>
      ⟨(h c).1.trans ((Cert.ReferenceIdeal.ReadP.val_main_v41_eq m' c).trans ?_), (h c).2⟩)
      (Cert.ReferenceIdeal.ValueP.run (F := Ideal) m' ρ')
    rw [(hagree c).1, (hagree c).2.1, (hagree c).2.2.1, (hagree c).2.2.2]
    refine (Cert.ReferenceIdeal.RefValue.value_eq _ _ _ _ (lab c) (hlab c)).trans ?_
    funext _
    exact (Cert.Spec.totalK_eq_totalR (X1 m c) (X2 m c) (Lb m c) (Sm m c) (lab c)
      (fun n d => (hp c).1 (ix2 n d)) (fun n d => (hp c).2.1 (ix2 n d)) (hlab c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
